-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S2x8192 : Shape := ⟨2, ![2, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x8192 : S_.BroadcastsInDim S2x8192 (![] : Fin 0 → Fin S2x8192.rank)
  reducesTo_S2x8192_S_d0_1 : S2x8192.ReducesTo [0, 1] S_

variable [Facts]

def fn_part5 {F : FTy → Type} [FloatOps F] (main_v82 : IVec S_ 1) (main_v84 : IVec S2x8192 1) : IVec S_ 1 :=
  let main_c_33 : IVec S_ 1 := constantI S_ 1 1#1
  let main_v85 : IVec S_ 1 := (fun x v => Host.reduce IntOp.andi x v reducesTo_S2x8192_S_d0_1 h_S_) main_v84 main_c_33
  let main_v86 : IVec S_ 1 := andi main_v82 main_v85
  main_v86

def fn_part4 {F : FTy → Type} [FloatOps F] (main_arg2 : IVec S2x8192 32) (main_arg15 : FVec F S256x1 .f32) (main_arg16 : FVec F S1 .f32) (main_v63 : IVec S_ 1) (main_v67 : IVec S_ 1) : IVec S_ 1 :=
  let main_v68 : IVec S_ 1 := andi main_v63 main_v67
  let main_v69 : FVec F S256x1 .f32 := Host.absf main_arg15
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S2x8192 32 := broadcastInDim S2x8192 ![] bcast_S_S2x8192 main_c_30
  let main_v80 : IVec S2x8192 1 := cmpi .sge main_arg2 main_v79
  let main_c_31 : IVec S_ 1 := constantI S_ 1 1#1
  let main_v81 : IVec S_ 1 := (fun x v => Host.reduce IntOp.andi x v reducesTo_S2x8192_S_d0_1 h_S_) main_v80 main_c_31
  let main_v82 : IVec S_ 1 := andi main_v78 main_v81
  let main_c_32 : IVec S_ 32 := constantI S_ 32 8192#32
  let main_v83 : IVec S2x8192 32 := broadcastInDim S2x8192 ![] bcast_S_S2x8192 main_c_32
  let main_v84 : IVec S2x8192 1 := cmpi .slt main_arg2 main_v83
  fn_part5 (F := F) main_v82 main_v84

def fn_part3 {F : FTy → Type} [FloatOps F] (main_arg2 : IVec S2x8192 32) (main_arg12 : FVec F S256 .f32) (main_arg13 : FVec F S256x256 .f32) (main_arg14 : FVec F S256 .f32) (main_arg15 : FVec F S256x1 .f32) (main_arg16 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg15 main_arg16 main_v63 main_v67

def fn_part2 {F : FTy → Type} [FloatOps F] (main_arg2 : IVec S2x8192 32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x1 .f32) (main_arg16 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg2 main_arg12 main_arg13 main_arg14 main_arg15 main_arg16 main_v48 main_v49 main_v50

def fn_part1 {F : FTy → Type} [FloatOps F] (main_arg2 : IVec S2x8192 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x1 .f32) (main_arg16 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S8192x256 .f32) (main_arg1 : FVec F S8192x8192 .f32) (main_arg2 : IVec S2x8192 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x1 .f32) (main_arg16 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S8192x256 : Shape := ⟨2, ![8192, 256]⟩
abbrev S8192x8192 : Shape := ⟨2, ![8192, 8192]⟩
abbrev S2x8192 : Shape := ⟨2, ![2, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x8192 : Shape := ⟨2, ![1, 8192]⟩
abbrev S8192 : Shape := ⟨1, ![8192]⟩
abbrev S_ : Shape := ⟨0, ![]⟩
abbrev S8192x1 : Shape := ⟨2, ![8192, 1]⟩
abbrev S128x256 : Shape := ⟨2, ![128, 256]⟩
abbrev S128x8192 : Shape := ⟨2, ![128, 8192]⟩
abbrev S128 : Shape := ⟨1, ![128]⟩
abbrev S1x256 : Shape := ⟨2, ![1, 256]⟩
abbrev S1x1 : Shape := ⟨2, ![1, 1]⟩

abbrev nBuf : Space → Nat
  | .hbm => 85
  | .vmem => 5
  | .smem => 2
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x8192, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x1, .f32⟩
  | .hbm, ⟨16, _⟩ => ⟨S1, .f32⟩
  | .hbm, ⟨17, _⟩ => ⟨S1x8192, .i32⟩
  | .hbm, ⟨18, _⟩ => ⟨S1x8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x256, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x256, .f32⟩
  | .hbm, ⟨37, _⟩ => ⟨S8192x256, .bf16⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S1x256, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S1x256, .f32⟩
  | .hbm, ⟨60, _⟩ => ⟨S8192x256, .f32⟩
  | .hbm, ⟨61, _⟩ => ⟨S8192x256, .f32⟩
  | .hbm, ⟨62, _⟩ => ⟨S_, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S1x256, .f32⟩
  | .hbm, ⟨68, _⟩ => ⟨S8192x256, .f32⟩
  | .hbm, ⟨69, _⟩ => ⟨S8192x256, .f32⟩
  | .hbm, ⟨70, _⟩ => ⟨S_, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S1x256, .f32⟩
  | .hbm, ⟨75, _⟩ => ⟨S8192x256, .f32⟩
  | .hbm, ⟨76, _⟩ => ⟨S8192x256, .f32⟩
  | .hbm, ⟨77, _⟩ => ⟨S_, .f32⟩
  | .hbm, ⟨78, _⟩ => ⟨S8192x256, .f32⟩
  | .hbm, ⟨79, _⟩ => ⟨S8192x256, .f32⟩
  | .hbm, ⟨80, _⟩ => ⟨S8192x1, .f32⟩
  | .hbm, ⟨81, _⟩ => ⟨S1x1, .f32⟩
  | .hbm, ⟨82, _⟩ => ⟨S8192x1, .f32⟩
  | .hbm, ⟨83, _⟩ => ⟨S8192x1, .f32⟩
  | .hbm, ⟨84, _⟩ => ⟨S8192, .f32⟩
  | .local _ .vmem, ⟨0, _⟩ => ⟨S8192x256, .bf16⟩
  | .local _ .vmem, ⟨1, _⟩ => ⟨S128x256, .f32⟩
  | .local _ .vmem, ⟨2, _⟩ => ⟨S128x256, .f32⟩
  | .local _ .vmem, ⟨3, _⟩ => ⟨S128x8192, .f32⟩
  | .local _ .vmem, ⟨4, _⟩ => ⟨S128x8192, .f32⟩
  | .local _ .smem, ⟨0, _⟩ => ⟨S8192, .i32⟩
  | .local _ .smem, ⟨1, _⟩ => ⟨S8192, .i32⟩
  | _, _ => ⟨S8192x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 259 → Bool
  | ⟨i, _⟩ => dmaSemScopedAt i

abbrev sig : RefSig :=
  ofTc nBuf bufTy 0 259 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v2 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call2_cst : Ref sig .tc := ⟨.hbm, 70, rfl⟩
abbrev main_call2_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call3_cst : Ref sig .tc := ⟨.hbm, 77, rfl⟩
abbrev main_call3_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v1 : Ref sig .tc := ⟨.smem, 0, rfl⟩
abbrev main_v3 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v1.idx, main_v3.idx], fun | 0 => main_v1.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_4 : BitVec 32 := 0#32
  ![v3.toNat, 0]

def k0_chk1 (v3 : BitVec 32) : Prop :=
  (∀ a, (k0_off2 v3) a + S1x8192.size a ≤ S8192x8192.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x8192.size a ≤ S8192x8192.size a := fun v3 k0_hw1 => k0_hw1

def k0_off3 (v6 : BitVec 32) : Fin 2 → Nat :=
  let c0_i32_8 : BitVec 32 := 0#32
  ![v6.toNat, 0]

def k0_chk2 (v6 : BitVec 32) : Prop :=
  (∀ a, (k0_off3 v6) a + S1x8192.size a ≤ S8192x8192.size a)
instance k0_chk2.dec : ∀ (v6 : BitVec 32), Decidable (k0_chk2 v6) := fun v6 => decidable_of_iff' _ (Iff.of_eq (k0_chk2.eq_1 v6))
theorem k0_off3_inb : ∀ (v6 : BitVec 32) (k0_hw2 : k0_chk2 v6), ∀ a, (k0_off3 v6) a + S1x8192.size a ≤ S8192x8192.size a := fun v6 k0_hw2 => k0_hw2

def k0_off4 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v19 : BitVec 32 := Scalar.addi v0 c1_i32
  let v20 : Index := Scalar.indexCast v19
  ![v20.toNat]
def k0_off5 (v21 : BitVec 32) : Fin 2 → Nat :=
  let c0_i32_13 : BitVec 32 := 0#32
  ![v21.toNat, 0]

def k0_chk3 (v21 : BitVec 32) : Prop :=
  (∀ a, (k0_off5 v21) a + S1x8192.size a ≤ S8192x8192.size a)
instance k0_chk3.dec : ∀ (v21 : BitVec 32), Decidable (k0_chk3 v21) := fun v21 => decidable_of_iff' _ (Iff.of_eq (k0_chk3.eq_1 v21))
theorem k0_off5_inb : ∀ (v21 : BitVec 32) (k0_hw3 : k0_chk3 v21), ∀ a, (k0_off5 v21) a + S1x8192.size a ≤ S8192x8192.size a := fun v21 k0_hw3 => k0_hw3

def k0_off6 (v24 : BitVec 32) : Fin 2 → Nat :=
  let c0_i32_17 : BitVec 32 := 0#32
  ![v24.toNat, 0]

def k0_chk4 (v24 : BitVec 32) : Prop :=
  (∀ a, (k0_off6 v24) a + S1x8192.size a ≤ S8192x8192.size a)
instance k0_chk4.dec : ∀ (v24 : BitVec 32), Decidable (k0_chk4 v24) := fun v24 => decidable_of_iff' _ (Iff.of_eq (k0_chk4.eq_1 v24))
theorem k0_off6_inb : ∀ (v24 : BitVec 32) (k0_hw4 : k0_chk4 v24), ∀ a, (k0_off6 v24) a + S1x8192.size a ≤ S8192x8192.size a := fun v24 k0_hw4 => k0_hw4

def k0_off7 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v37 : BitVec 32 := Scalar.addi v0 c2_i32
  let v38 : Index := Scalar.indexCast v37
  ![v38.toNat]
def k0_off8 (v39 : BitVec 32) : Fin 2 → Nat :=
  let c0_i32_22 : BitVec 32 := 0#32
  ![v39.toNat, 0]

def k0_chk5 (v39 : BitVec 32) : Prop :=
  (∀ a, (k0_off8 v39) a + S1x8192.size a ≤ S8192x8192.size a)
instance k0_chk5.dec : ∀ (v39 : BitVec 32), Decidable (k0_chk5 v39) := fun v39 => decidable_of_iff' _ (Iff.of_eq (k0_chk5.eq_1 v39))
theorem k0_off8_inb : ∀ (v39 : BitVec 32) (k0_hw5 : k0_chk5 v39), ∀ a, (k0_off8 v39) a + S1x8192.size a ≤ S8192x8192.size a := fun v39 k0_hw5 => k0_hw5

def k0_off9 (v42 : BitVec 32) : Fin 2 → Nat :=
  let c0_i32_26 : BitVec 32 := 0#32
  ![v42.toNat, 0]

def k0_chk6 (v42 : BitVec 32) : Prop :=
  (∀ a, (k0_off9 v42) a + S1x8192.size a ≤ S8192x8192.size a)
instance k0_chk6.dec : ∀ (v42 : BitVec 32), Decidable (k0_chk6 v42) := fun v42 => decidable_of_iff' _ (Iff.of_eq (k0_chk6.eq_1 v42))
theorem k0_off9_inb : ∀ (v42 : BitVec 32) (k0_hw6 : k0_chk6 v42), ∀ a, (k0_off9 v42) a + S1x8192.size a ≤ S8192x8192.size a := fun v42 k0_hw6 => k0_hw6

def k0_off10 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v55 : BitVec 32 := Scalar.addi v0 c3_i32
  let v56 : Index := Scalar.indexCast v55
  ![v56.toNat]
def k0_off11 (v57 : BitVec 32) : Fin 2 → Nat :=
  let c0_i32_31 : BitVec 32 := 0#32
  ![v57.toNat, 0]

def k0_chk7 (v57 : BitVec 32) : Prop :=
  (∀ a, (k0_off11 v57) a + S1x8192.size a ≤ S8192x8192.size a)
instance k0_chk7.dec : ∀ (v57 : BitVec 32), Decidable (k0_chk7 v57) := fun v57 => decidable_of_iff' _ (Iff.of_eq (k0_chk7.eq_1 v57))
theorem k0_off11_inb : ∀ (v57 : BitVec 32) (k0_hw7 : k0_chk7 v57), ∀ a, (k0_off11 v57) a + S1x8192.size a ≤ S8192x8192.size a := fun v57 k0_hw7 => k0_hw7

def k0_off12 (v60 : BitVec 32) : Fin 2 → Nat :=
  let c0_i32_35 : BitVec 32 := 0#32
  ![v60.toNat, 0]

def k0_chk8 (v60 : BitVec 32) : Prop :=
  (∀ a, (k0_off12 v60) a + S1x8192.size a ≤ S8192x8192.size a)
instance k0_chk8.dec : ∀ (v60 : BitVec 32), Decidable (k0_chk8 v60) := fun v60 => decidable_of_iff' _ (Iff.of_eq (k0_chk8.eq_1 v60))
theorem k0_off12_inb : ∀ (v60 : BitVec 32) (k0_hw8 : k0_chk8 v60), ∀ a, (k0_off12 v60) a + S1x8192.size a ≤ S8192x8192.size a := fun v60 k0_hw8 => k0_hw8

def k0_off13 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v73 : BitVec 32 := Scalar.addi v0 c4_i32
  let v74 : Index := Scalar.indexCast v73
  ![v74.toNat]
def k0_off14 (v75 : BitVec 32) : Fin 2 → Nat :=
  let c0_i32_40 : BitVec 32 := 0#32
  ![v75.toNat, 0]

def k0_chk9 (v75 : BitVec 32) : Prop :=
  (∀ a, (k0_off14 v75) a + S1x8192.size a ≤ S8192x8192.size a)
instance k0_chk9.dec : ∀ (v75 : BitVec 32), Decidable (k0_chk9 v75) := fun v75 => decidable_of_iff' _ (Iff.of_eq (k0_chk9.eq_1 v75))
theorem k0_off14_inb : ∀ (v75 : BitVec 32) (k0_hw9 : k0_chk9 v75), ∀ a, (k0_off14 v75) a + S1x8192.size a ≤ S8192x8192.size a := fun v75 k0_hw9 => k0_hw9

def k0_off15 (v78 : BitVec 32) : Fin 2 → Nat :=
  let c0_i32_44 : BitVec 32 := 0#32
  ![v78.toNat, 0]

def k0_chk10 (v78 : BitVec 32) : Prop :=
  (∀ a, (k0_off15 v78) a + S1x8192.size a ≤ S8192x8192.size a)
instance k0_chk10.dec : ∀ (v78 : BitVec 32), Decidable (k0_chk10 v78) := fun v78 => decidable_of_iff' _ (Iff.of_eq (k0_chk10.eq_1 v78))
theorem k0_off15_inb : ∀ (v78 : BitVec 32) (k0_hw10 : k0_chk10 v78), ∀ a, (k0_off15 v78) a + S1x8192.size a ≤ S8192x8192.size a := fun v78 k0_hw10 => k0_hw10

def k0_off16 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v91 : BitVec 32 := Scalar.addi v0 c5_i32
  let v92 : Index := Scalar.indexCast v91
  ![v92.toNat]
def k0_off17 (v93 : BitVec 32) : Fin 2 → Nat :=
  let c0_i32_49 : BitVec 32 := 0#32
  ![v93.toNat, 0]

def k0_chk11 (v93 : BitVec 32) : Prop :=
  (∀ a, (k0_off17 v93) a + S1x8192.size a ≤ S8192x8192.size a)
instance k0_chk11.dec : ∀ (v93 : BitVec 32), Decidable (k0_chk11 v93) := fun v93 => decidable_of_iff' _ (Iff.of_eq (k0_chk11.eq_1 v93))
theorem k0_off17_inb : ∀ (v93 : BitVec 32) (k0_hw11 : k0_chk11 v93), ∀ a, (k0_off17 v93) a + S1x8192.size a ≤ S8192x8192.size a := fun v93 k0_hw11 => k0_hw11

def k0_off18 (v96 : BitVec 32) : Fin 2 → Nat :=
  let c0_i32_53 : BitVec 32 := 0#32
  ![v96.toNat, 0]

def k0_chk12 (v96 : BitVec 32) : Prop :=
  (∀ a, (k0_off18 v96) a + S1x8192.size a ≤ S8192x8192.size a)
instance k0_chk12.dec : ∀ (v96 : BitVec 32), Decidable (k0_chk12 v96) := fun v96 => decidable_of_iff' _ (Iff.of_eq (k0_chk12.eq_1 v96))
theorem k0_off18_inb : ∀ (v96 : BitVec 32) (k0_hw12 : k0_chk12 v96), ∀ a, (k0_off18 v96) a + S1x8192.size a ≤ S8192x8192.size a := fun v96 k0_hw12 => k0_hw12

def k0_off19 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v109 : BitVec 32 := Scalar.addi v0 c6_i32
  let v110 : Index := Scalar.indexCast v109
  ![v110.toNat]
def k0_off20 (v111 : BitVec 32) : Fin 2 → Nat :=
  let c0_i32_58 : BitVec 32 := 0#32
  ![v111.toNat, 0]

def k0_chk13 (v111 : BitVec 32) : Prop :=
  (∀ a, (k0_off20 v111) a + S1x8192.size a ≤ S8192x8192.size a)
instance k0_chk13.dec : ∀ (v111 : BitVec 32), Decidable (k0_chk13 v111) := fun v111 => decidable_of_iff' _ (Iff.of_eq (k0_chk13.eq_1 v111))
theorem k0_off20_inb : ∀ (v111 : BitVec 32) (k0_hw13 : k0_chk13 v111), ∀ a, (k0_off20 v111) a + S1x8192.size a ≤ S8192x8192.size a := fun v111 k0_hw13 => k0_hw13

def k0_off21 (v114 : BitVec 32) : Fin 2 → Nat :=
  let c0_i32_62 : BitVec 32 := 0#32
  ![v114.toNat, 0]

def k0_chk14 (v114 : BitVec 32) : Prop :=
  (∀ a, (k0_off21 v114) a + S1x8192.size a ≤ S8192x8192.size a)
instance k0_chk14.dec : ∀ (v114 : BitVec 32), Decidable (k0_chk14 v114) := fun v114 => decidable_of_iff' _ (Iff.of_eq (k0_chk14.eq_1 v114))
theorem k0_off21_inb : ∀ (v114 : BitVec 32) (k0_hw14 : k0_chk14 v114), ∀ a, (k0_off21 v114) a + S1x8192.size a ≤ S8192x8192.size a := fun v114 k0_hw14 => k0_hw14

def k0_off22 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v127 : BitVec 32 := Scalar.addi v0 c7_i32
  let v128 : Index := Scalar.indexCast v127
  ![v128.toNat]
def k0_off23 (v129 : BitVec 32) : Fin 2 → Nat :=
  let c0_i32_67 : BitVec 32 := 0#32
  ![v129.toNat, 0]

def k0_chk15 (v129 : BitVec 32) : Prop :=
  (∀ a, (k0_off23 v129) a + S1x8192.size a ≤ S8192x8192.size a)
instance k0_chk15.dec : ∀ (v129 : BitVec 32), Decidable (k0_chk15 v129) := fun v129 => decidable_of_iff' _ (Iff.of_eq (k0_chk15.eq_1 v129))
theorem k0_off23_inb : ∀ (v129 : BitVec 32) (k0_hw15 : k0_chk15 v129), ∀ a, (k0_off23 v129) a + S1x8192.size a ≤ S8192x8192.size a := fun v129 k0_hw15 => k0_hw15

def k0_off24 (v132 : BitVec 32) : Fin 2 → Nat :=
  let c0_i32_71 : BitVec 32 := 0#32
  ![v132.toNat, 0]

def k0_chk16 (v132 : BitVec 32) : Prop :=
  (∀ a, (k0_off24 v132) a + S1x8192.size a ≤ S8192x8192.size a)
instance k0_chk16.dec : ∀ (v132 : BitVec 32), Decidable (k0_chk16 v132) := fun v132 => decidable_of_iff' _ (Iff.of_eq (k0_chk16.eq_1 v132))
theorem k0_off24_inb : ∀ (v132 : BitVec 32) (k0_hw16 : k0_chk16 v132), ∀ a, (k0_off24 v132) a + S1x8192.size a ≤ S8192x8192.size a := fun v132 k0_hw16 => k0_hw16

def k0_off25 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v145 : BitVec 32 := Scalar.addi v0 c8_i32
  let v146 : Index := Scalar.indexCast v145
  ![v146.toNat]
def k0_off26 (v147 : BitVec 32) : Fin 2 → Nat :=
  let c0_i32_76 : BitVec 32 := 0#32
  ![v147.toNat, 0]

def k0_chk17 (v147 : BitVec 32) : Prop :=
  (∀ a, (k0_off26 v147) a + S1x8192.size a ≤ S8192x8192.size a)
instance k0_chk17.dec : ∀ (v147 : BitVec 32), Decidable (k0_chk17 v147) := fun v147 => decidable_of_iff' _ (Iff.of_eq (k0_chk17.eq_1 v147))
theorem k0_off26_inb : ∀ (v147 : BitVec 32) (k0_hw17 : k0_chk17 v147), ∀ a, (k0_off26 v147) a + S1x8192.size a ≤ S8192x8192.size a := fun v147 k0_hw17 => k0_hw17

def k0_off27 (v150 : BitVec 32) : Fin 2 → Nat :=
  let c0_i32_80 : BitVec 32 := 0#32
  ![v150.toNat, 0]

def k0_chk18 (v150 : BitVec 32) : Prop :=
  (∀ a, (k0_off27 v150) a + S1x8192.size a ≤ S8192x8192.size a)
instance k0_chk18.dec : ∀ (v150 : BitVec 32), Decidable (k0_chk18 v150) := fun v150 => decidable_of_iff' _ (Iff.of_eq (k0_chk18.eq_1 v150))
theorem k0_off27_inb : ∀ (v150 : BitVec 32) (k0_hw18 : k0_chk18 v150), ∀ a, (k0_off27 v150) a + S1x8192.size a ≤ S8192x8192.size a := fun v150 k0_hw18 => k0_hw18

def k0_off28 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v163 : BitVec 32 := Scalar.addi v0 c9_i32
  let v164 : Index := Scalar.indexCast v163
  ![v164.toNat]
def k0_off29 (v165 : BitVec 32) : Fin 2 → Nat :=
  let c0_i32_85 : BitVec 32 := 0#32
  ![v165.toNat, 0]

def k0_chk19 (v165 : BitVec 32) : Prop :=
  (∀ a, (k0_off29 v165) a + S1x8192.size a ≤ S8192x8192.size a)
instance k0_chk19.dec : ∀ (v165 : BitVec 32), Decidable (k0_chk19 v165) := fun v165 => decidable_of_iff' _ (Iff.of_eq (k0_chk19.eq_1 v165))
theorem k0_off29_inb : ∀ (v165 : BitVec 32) (k0_hw19 : k0_chk19 v165), ∀ a, (k0_off29 v165) a + S1x8192.size a ≤ S8192x8192.size a := fun v165 k0_hw19 => k0_hw19

def k0_off30 (v168 : BitVec 32) : Fin 2 → Nat :=
  let c0_i32_89 : BitVec 32 := 0#32
  ![v168.toNat, 0]

def k0_chk20 (v168 : BitVec 32) : Prop :=
  (∀ a, (k0_off30 v168) a + S1x8192.size a ≤ S8192x8192.size a)
instance k0_chk20.dec : ∀ (v168 : BitVec 32), Decidable (k0_chk20 v168) := fun v168 => decidable_of_iff' _ (Iff.of_eq (k0_chk20.eq_1 v168))
theorem k0_off30_inb : ∀ (v168 : BitVec 32) (k0_hw20 : k0_chk20 v168), ∀ a, (k0_off30 v168) a + S1x8192.size a ≤ S8192x8192.size a := fun v168 k0_hw20 => k0_hw20

def k0_off31 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v181 : BitVec 32 := Scalar.addi v0 c10_i32
  let v182 : Index := Scalar.indexCast v181
  ![v182.toNat]
def k0_off32 (v183 : BitVec 32) : Fin 2 → Nat :=
  let c0_i32_94 : BitVec 32 := 0#32
  ![v183.toNat, 0]

def k0_chk21 (v183 : BitVec 32) : Prop :=
  (∀ a, (k0_off32 v183) a + S1x8192.size a ≤ S8192x8192.size a)
instance k0_chk21.dec : ∀ (v183 : BitVec 32), Decidable (k0_chk21 v183) := fun v183 => decidable_of_iff' _ (Iff.of_eq (k0_chk21.eq_1 v183))
theorem k0_off32_inb : ∀ (v183 : BitVec 32) (k0_hw21 : k0_chk21 v183), ∀ a, (k0_off32 v183) a + S1x8192.size a ≤ S8192x8192.size a := fun v183 k0_hw21 => k0_hw21

def k0_off33 (v186 : BitVec 32) : Fin 2 → Nat :=
  let c0_i32_98 : BitVec 32 := 0#32
  ![v186.toNat, 0]

def k0_chk22 (v186 : BitVec 32) : Prop :=
  (∀ a, (k0_off33 v186) a + S1x8192.size a ≤ S8192x8192.size a)
instance k0_chk22.dec : ∀ (v186 : BitVec 32), Decidable (k0_chk22 v186) := fun v186 => decidable_of_iff' _ (Iff.of_eq (k0_chk22.eq_1 v186))
theorem k0_off33_inb : ∀ (v186 : BitVec 32) (k0_hw22 : k0_chk22 v186), ∀ a, (k0_off33 v186) a + S1x8192.size a ≤ S8192x8192.size a := fun v186 k0_hw22 => k0_hw22

def k0_off34 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v199 : BitVec 32 := Scalar.addi v0 c11_i32
  let v200 : Index := Scalar.indexCast v199
  ![v200.toNat]
def k0_off35 (v201 : BitVec 32) : Fin 2 → Nat :=
  let c0_i32_103 : BitVec 32 := 0#32
  ![v201.toNat, 0]

def k0_chk23 (v201 : BitVec 32) : Prop :=
  (∀ a, (k0_off35 v201) a + S1x8192.size a ≤ S8192x8192.size a)
instance k0_chk23.dec : ∀ (v201 : BitVec 32), Decidable (k0_chk23 v201) := fun v201 => decidable_of_iff' _ (Iff.of_eq (k0_chk23.eq_1 v201))
theorem k0_off35_inb : ∀ (v201 : BitVec 32) (k0_hw23 : k0_chk23 v201), ∀ a, (k0_off35 v201) a + S1x8192.size a ≤ S8192x8192.size a := fun v201 k0_hw23 => k0_hw23

def k0_off36 (v204 : BitVec 32) : Fin 2 → Nat :=
  let c0_i32_107 : BitVec 32 := 0#32
  ![v204.toNat, 0]

def k0_chk24 (v204 : BitVec 32) : Prop :=
  (∀ a, (k0_off36 v204) a + S1x8192.size a ≤ S8192x8192.size a)
instance k0_chk24.dec : ∀ (v204 : BitVec 32), Decidable (k0_chk24 v204) := fun v204 => decidable_of_iff' _ (Iff.of_eq (k0_chk24.eq_1 v204))
theorem k0_off36_inb : ∀ (v204 : BitVec 32) (k0_hw24 : k0_chk24 v204), ∀ a, (k0_off36 v204) a + S1x8192.size a ≤ S8192x8192.size a := fun v204 k0_hw24 => k0_hw24

def k0_off37 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v217 : BitVec 32 := Scalar.addi v0 c12_i32
  let v218 : Index := Scalar.indexCast v217
  ![v218.toNat]
def k0_off38 (v219 : BitVec 32) : Fin 2 → Nat :=
  let c0_i32_112 : BitVec 32 := 0#32
  ![v219.toNat, 0]

def k0_chk25 (v219 : BitVec 32) : Prop :=
  (∀ a, (k0_off38 v219) a + S1x8192.size a ≤ S8192x8192.size a)
instance k0_chk25.dec : ∀ (v219 : BitVec 32), Decidable (k0_chk25 v219) := fun v219 => decidable_of_iff' _ (Iff.of_eq (k0_chk25.eq_1 v219))
theorem k0_off38_inb : ∀ (v219 : BitVec 32) (k0_hw25 : k0_chk25 v219), ∀ a, (k0_off38 v219) a + S1x8192.size a ≤ S8192x8192.size a := fun v219 k0_hw25 => k0_hw25

def k0_off39 (v222 : BitVec 32) : Fin 2 → Nat :=
  let c0_i32_116 : BitVec 32 := 0#32
  ![v222.toNat, 0]

def k0_chk26 (v222 : BitVec 32) : Prop :=
  (∀ a, (k0_off39 v222) a + S1x8192.size a ≤ S8192x8192.size a)
instance k0_chk26.dec : ∀ (v222 : BitVec 32), Decidable (k0_chk26 v222) := fun v222 => decidable_of_iff' _ (Iff.of_eq (k0_chk26.eq_1 v222))
theorem k0_off39_inb : ∀ (v222 : BitVec 32) (k0_hw26 : k0_chk26 v222), ∀ a, (k0_off39 v222) a + S1x8192.size a ≤ S8192x8192.size a := fun v222 k0_hw26 => k0_hw26

def k0_off40 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v235 : BitVec 32 := Scalar.addi v0 c13_i32
  let v236 : Index := Scalar.indexCast v235
  ![v236.toNat]
def k0_off41 (v237 : BitVec 32) : Fin 2 → Nat :=
  let c0_i32_121 : BitVec 32 := 0#32
  ![v237.toNat, 0]

def k0_chk27 (v237 : BitVec 32) : Prop :=
  (∀ a, (k0_off41 v237) a + S1x8192.size a ≤ S8192x8192.size a)
instance k0_chk27.dec : ∀ (v237 : BitVec 32), Decidable (k0_chk27 v237) := fun v237 => decidable_of_iff' _ (Iff.of_eq (k0_chk27.eq_1 v237))
theorem k0_off41_inb : ∀ (v237 : BitVec 32) (k0_hw27 : k0_chk27 v237), ∀ a, (k0_off41 v237) a + S1x8192.size a ≤ S8192x8192.size a := fun v237 k0_hw27 => k0_hw27

def k0_off42 (v240 : BitVec 32) : Fin 2 → Nat :=
  let c0_i32_125 : BitVec 32 := 0#32
  ![v240.toNat, 0]

def k0_chk28 (v240 : BitVec 32) : Prop :=
  (∀ a, (k0_off42 v240) a + S1x8192.size a ≤ S8192x8192.size a)
instance k0_chk28.dec : ∀ (v240 : BitVec 32), Decidable (k0_chk28 v240) := fun v240 => decidable_of_iff' _ (Iff.of_eq (k0_chk28.eq_1 v240))
theorem k0_off42_inb : ∀ (v240 : BitVec 32) (k0_hw28 : k0_chk28 v240), ∀ a, (k0_off42 v240) a + S1x8192.size a ≤ S8192x8192.size a := fun v240 k0_hw28 => k0_hw28

def k0_off43 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v253 : BitVec 32 := Scalar.addi v0 c14_i32
  let v254 : Index := Scalar.indexCast v253
  ![v254.toNat]
def k0_off44 (v255 : BitVec 32) : Fin 2 → Nat :=
  let c0_i32_130 : BitVec 32 := 0#32
  ![v255.toNat, 0]

def k0_chk29 (v255 : BitVec 32) : Prop :=
  (∀ a, (k0_off44 v255) a + S1x8192.size a ≤ S8192x8192.size a)
instance k0_chk29.dec : ∀ (v255 : BitVec 32), Decidable (k0_chk29 v255) := fun v255 => decidable_of_iff' _ (Iff.of_eq (k0_chk29.eq_1 v255))
theorem k0_off44_inb : ∀ (v255 : BitVec 32) (k0_hw29 : k0_chk29 v255), ∀ a, (k0_off44 v255) a + S1x8192.size a ≤ S8192x8192.size a := fun v255 k0_hw29 => k0_hw29

def k0_off45 (v258 : BitVec 32) : Fin 2 → Nat :=
  let c0_i32_134 : BitVec 32 := 0#32
  ![v258.toNat, 0]

def k0_chk30 (v258 : BitVec 32) : Prop :=
  (∀ a, (k0_off45 v258) a + S1x8192.size a ≤ S8192x8192.size a)
instance k0_chk30.dec : ∀ (v258 : BitVec 32), Decidable (k0_chk30 v258) := fun v258 => decidable_of_iff' _ (Iff.of_eq (k0_chk30.eq_1 v258))
theorem k0_off45_inb : ∀ (v258 : BitVec 32) (k0_hw30 : k0_chk30 v258), ∀ a, (k0_off45 v258) a + S1x8192.size a ≤ S8192x8192.size a := fun v258 k0_hw30 => k0_hw30

def k0_off46 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v271 : BitVec 32 := Scalar.addi v0 c15_i32
  let v272 : Index := Scalar.indexCast v271
  ![v272.toNat]
def k0_off47 (v273 : BitVec 32) : Fin 2 → Nat :=
  let c0_i32_139 : BitVec 32 := 0#32
  ![v273.toNat, 0]

def k0_chk31 (v273 : BitVec 32) : Prop :=
  (∀ a, (k0_off47 v273) a + S1x8192.size a ≤ S8192x8192.size a)
instance k0_chk31.dec : ∀ (v273 : BitVec 32), Decidable (k0_chk31 v273) := fun v273 => decidable_of_iff' _ (Iff.of_eq (k0_chk31.eq_1 v273))
theorem k0_off47_inb : ∀ (v273 : BitVec 32) (k0_hw31 : k0_chk31 v273), ∀ a, (k0_off47 v273) a + S1x8192.size a ≤ S8192x8192.size a := fun v273 k0_hw31 => k0_hw31

def k0_off48 (v276 : BitVec 32) : Fin 2 → Nat :=
  let c0_i32_143 : BitVec 32 := 0#32
  ![v276.toNat, 0]

def k0_chk32 (v276 : BitVec 32) : Prop :=
  (∀ a, (k0_off48 v276) a + S1x8192.size a ≤ S8192x8192.size a)
instance k0_chk32.dec : ∀ (v276 : BitVec 32), Decidable (k0_chk32 v276) := fun v276 => decidable_of_iff' _ (Iff.of_eq (k0_chk32.eq_1 v276))
theorem k0_off48_inb : ∀ (v276 : BitVec 32) (k0_hw32 : k0_chk32 v276), ∀ a, (k0_off48 v276) a + S1x8192.size a ≤ S8192x8192.size a := fun v276 k0_hw32 => k0_hw32

def k0_off49 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v289 : BitVec 32 := Scalar.addi v0 c16_i32
  let v290 : Index := Scalar.indexCast v289
  ![v290.toNat]
def k0_off50 (v291 : BitVec 32) : Fin 2 → Nat :=
  let c0_i32_148 : BitVec 32 := 0#32
  ![v291.toNat, 0]

def k0_chk33 (v291 : BitVec 32) : Prop :=
  (∀ a, (k0_off50 v291) a + S1x8192.size a ≤ S8192x8192.size a)
instance k0_chk33.dec : ∀ (v291 : BitVec 32), Decidable (k0_chk33 v291) := fun v291 => decidable_of_iff' _ (Iff.of_eq (k0_chk33.eq_1 v291))
theorem k0_off50_inb : ∀ (v291 : BitVec 32) (k0_hw33 : k0_chk33 v291), ∀ a, (k0_off50 v291) a + S1x8192.size a ≤ S8192x8192.size a := fun v291 k0_hw33 => k0_hw33

def k0_off51 (v294 : BitVec 32) : Fin 2 → Nat :=
  let c0_i32_152 : BitVec 32 := 0#32
  ![v294.toNat, 0]

def k0_chk34 (v294 : BitVec 32) : Prop :=
  (∀ a, (k0_off51 v294) a + S1x8192.size a ≤ S8192x8192.size a)
instance k0_chk34.dec : ∀ (v294 : BitVec 32), Decidable (k0_chk34 v294) := fun v294 => decidable_of_iff' _ (Iff.of_eq (k0_chk34.eq_1 v294))
theorem k0_off51_inb : ∀ (v294 : BitVec 32) (k0_hw34 : k0_chk34 v294), ∀ a, (k0_off51 v294) a + S1x8192.size a ≤ S8192x8192.size a := fun v294 k0_hw34 => k0_hw34

def k0_off52 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v307 : BitVec 32 := Scalar.addi v0 c17_i32
  let v308 : Index := Scalar.indexCast v307
  ![v308.toNat]
def k0_off53 (v309 : BitVec 32) : Fin 2 → Nat :=
  let c0_i32_157 : BitVec 32 := 0#32
  ![v309.toNat, 0]

def k0_chk35 (v309 : BitVec 32) : Prop :=
  (∀ a, (k0_off53 v309) a + S1x8192.size a ≤ S8192x8192.size a)
instance k0_chk35.dec : ∀ (v309 : BitVec 32), Decidable (k0_chk35 v309) := fun v309 => decidable_of_iff' _ (Iff.of_eq (k0_chk35.eq_1 v309))
theorem k0_off53_inb : ∀ (v309 : BitVec 32) (k0_hw35 : k0_chk35 v309), ∀ a, (k0_off53 v309) a + S1x8192.size a ≤ S8192x8192.size a := fun v309 k0_hw35 => k0_hw35

def k0_off54 (v312 : BitVec 32) : Fin 2 → Nat :=
  let c0_i32_161 : BitVec 32 := 0#32
  ![v312.toNat, 0]

def k0_chk36 (v312 : BitVec 32) : Prop :=
  (∀ a, (k0_off54 v312) a + S1x8192.size a ≤ S8192x8192.size a)
instance k0_chk36.dec : ∀ (v312 : BitVec 32), Decidable (k0_chk36 v312) := fun v312 => decidable_of_iff' _ (Iff.of_eq (k0_chk36.eq_1 v312))
theorem k0_off54_inb : ∀ (v312 : BitVec 32) (k0_hw36 : k0_chk36 v312), ∀ a, (k0_off54 v312) a + S1x8192.size a ≤ S8192x8192.size a := fun v312 k0_hw36 => k0_hw36

def k0_off55 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v325 : BitVec 32 := Scalar.addi v0 c18_i32
  let v326 : Index := Scalar.indexCast v325
  ![v326.toNat]
def k0_off56 (v327 : BitVec 32) : Fin 2 → Nat :=
  let c0_i32_166 : BitVec 32 := 0#32
  ![v327.toNat, 0]

def k0_chk37 (v327 : BitVec 32) : Prop :=
  (∀ a, (k0_off56 v327) a + S1x8192.size a ≤ S8192x8192.size a)
instance k0_chk37.dec : ∀ (v327 : BitVec 32), Decidable (k0_chk37 v327) := fun v327 => decidable_of_iff' _ (Iff.of_eq (k0_chk37.eq_1 v327))
theorem k0_off56_inb : ∀ (v327 : BitVec 32) (k0_hw37 : k0_chk37 v327), ∀ a, (k0_off56 v327) a + S1x8192.size a ≤ S8192x8192.size a := fun v327 k0_hw37 => k0_hw37

def k0_off57 (v330 : BitVec 32) : Fin 2 → Nat :=
  let c0_i32_170 : BitVec 32 := 0#32
  ![v330.toNat, 0]

def k0_chk38 (v330 : BitVec 32) : Prop :=
  (∀ a, (k0_off57 v330) a + S1x8192.size a ≤ S8192x8192.size a)
instance k0_chk38.dec : ∀ (v330 : BitVec 32), Decidable (k0_chk38 v330) := fun v330 => decidable_of_iff' _ (Iff.of_eq (k0_chk38.eq_1 v330))
theorem k0_off57_inb : ∀ (v330 : BitVec 32) (k0_hw38 : k0_chk38 v330), ∀ a, (k0_off57 v330) a + S1x8192.size a ≤ S8192x8192.size a := fun v330 k0_hw38 => k0_hw38

def k0_off58 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v343 : BitVec 32 := Scalar.addi v0 c19_i32
  let v344 : Index := Scalar.indexCast v343
  ![v344.toNat]
def k0_off59 (v345 : BitVec 32) : Fin 2 → Nat :=
  let c0_i32_175 : BitVec 32 := 0#32
  ![v345.toNat, 0]

def k0_chk39 (v345 : BitVec 32) : Prop :=
  (∀ a, (k0_off59 v345) a + S1x8192.size a ≤ S8192x8192.size a)
instance k0_chk39.dec : ∀ (v345 : BitVec 32), Decidable (k0_chk39 v345) := fun v345 => decidable_of_iff' _ (Iff.of_eq (k0_chk39.eq_1 v345))
theorem k0_off59_inb : ∀ (v345 : BitVec 32) (k0_hw39 : k0_chk39 v345), ∀ a, (k0_off59 v345) a + S1x8192.size a ≤ S8192x8192.size a := fun v345 k0_hw39 => k0_hw39

def k0_off60 (v348 : BitVec 32) : Fin 2 → Nat :=
  let c0_i32_179 : BitVec 32 := 0#32
  ![v348.toNat, 0]

def k0_chk40 (v348 : BitVec 32) : Prop :=
  (∀ a, (k0_off60 v348) a + S1x8192.size a ≤ S8192x8192.size a)
instance k0_chk40.dec : ∀ (v348 : BitVec 32), Decidable (k0_chk40 v348) := fun v348 => decidable_of_iff' _ (Iff.of_eq (k0_chk40.eq_1 v348))
theorem k0_off60_inb : ∀ (v348 : BitVec 32) (k0_hw40 : k0_chk40 v348), ∀ a, (k0_off60 v348) a + S1x8192.size a ≤ S8192x8192.size a := fun v348 k0_hw40 => k0_hw40

def k0_off61 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v361 : BitVec 32 := Scalar.addi v0 c20_i32
  let v362 : Index := Scalar.indexCast v361
  ![v362.toNat]
def k0_off62 (v363 : BitVec 32) : Fin 2 → Nat :=
  let c0_i32_184 : BitVec 32 := 0#32
  ![v363.toNat, 0]

def k0_chk41 (v363 : BitVec 32) : Prop :=
  (∀ a, (k0_off62 v363) a + S1x8192.size a ≤ S8192x8192.size a)
instance k0_chk41.dec : ∀ (v363 : BitVec 32), Decidable (k0_chk41 v363) := fun v363 => decidable_of_iff' _ (Iff.of_eq (k0_chk41.eq_1 v363))
theorem k0_off62_inb : ∀ (v363 : BitVec 32) (k0_hw41 : k0_chk41 v363), ∀ a, (k0_off62 v363) a + S1x8192.size a ≤ S8192x8192.size a := fun v363 k0_hw41 => k0_hw41

def k0_off63 (v366 : BitVec 32) : Fin 2 → Nat :=
  let c0_i32_188 : BitVec 32 := 0#32
  ![v366.toNat, 0]

def k0_chk42 (v366 : BitVec 32) : Prop :=
  (∀ a, (k0_off63 v366) a + S1x8192.size a ≤ S8192x8192.size a)
instance k0_chk42.dec : ∀ (v366 : BitVec 32), Decidable (k0_chk42 v366) := fun v366 => decidable_of_iff' _ (Iff.of_eq (k0_chk42.eq_1 v366))
theorem k0_off63_inb : ∀ (v366 : BitVec 32) (k0_hw42 : k0_chk42 v366), ∀ a, (k0_off63 v366) a + S1x8192.size a ≤ S8192x8192.size a := fun v366 k0_hw42 => k0_hw42

def k0_off64 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v379 : BitVec 32 := Scalar.addi v0 c21_i32
  let v380 : Index := Scalar.indexCast v379
  ![v380.toNat]
def k0_off65 (v381 : BitVec 32) : Fin 2 → Nat :=
  let c0_i32_193 : BitVec 32 := 0#32
  ![v381.toNat, 0]

def k0_chk43 (v381 : BitVec 32) : Prop :=
  (∀ a, (k0_off65 v381) a + S1x8192.size a ≤ S8192x8192.size a)
instance k0_chk43.dec : ∀ (v381 : BitVec 32), Decidable (k0_chk43 v381) := fun v381 => decidable_of_iff' _ (Iff.of_eq (k0_chk43.eq_1 v381))
theorem k0_off65_inb : ∀ (v381 : BitVec 32) (k0_hw43 : k0_chk43 v381), ∀ a, (k0_off65 v381) a + S1x8192.size a ≤ S8192x8192.size a := fun v381 k0_hw43 => k0_hw43

def k0_off66 (v384 : BitVec 32) : Fin 2 → Nat :=
  let c0_i32_197 : BitVec 32 := 0#32
  ![v384.toNat, 0]

def k0_chk44 (v384 : BitVec 32) : Prop :=
  (∀ a, (k0_off66 v384) a + S1x8192.size a ≤ S8192x8192.size a)
instance k0_chk44.dec : ∀ (v384 : BitVec 32), Decidable (k0_chk44 v384) := fun v384 => decidable_of_iff' _ (Iff.of_eq (k0_chk44.eq_1 v384))
theorem k0_off66_inb : ∀ (v384 : BitVec 32) (k0_hw44 : k0_chk44 v384), ∀ a, (k0_off66 v384) a + S1x8192.size a ≤ S8192x8192.size a := fun v384 k0_hw44 => k0_hw44

def k0_off67 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v397 : BitVec 32 := Scalar.addi v0 c22_i32
  let v398 : Index := Scalar.indexCast v397
  ![v398.toNat]
def k0_off68 (v399 : BitVec 32) : Fin 2 → Nat :=
  let c0_i32_202 : BitVec 32 := 0#32
  ![v399.toNat, 0]

def k0_chk45 (v399 : BitVec 32) : Prop :=
  (∀ a, (k0_off68 v399) a + S1x8192.size a ≤ S8192x8192.size a)
instance k0_chk45.dec : ∀ (v399 : BitVec 32), Decidable (k0_chk45 v399) := fun v399 => decidable_of_iff' _ (Iff.of_eq (k0_chk45.eq_1 v399))
theorem k0_off68_inb : ∀ (v399 : BitVec 32) (k0_hw45 : k0_chk45 v399), ∀ a, (k0_off68 v399) a + S1x8192.size a ≤ S8192x8192.size a := fun v399 k0_hw45 => k0_hw45

def k0_off69 (v402 : BitVec 32) : Fin 2 → Nat :=
  let c0_i32_206 : BitVec 32 := 0#32
  ![v402.toNat, 0]

def k0_chk46 (v402 : BitVec 32) : Prop :=
  (∀ a, (k0_off69 v402) a + S1x8192.size a ≤ S8192x8192.size a)
instance k0_chk46.dec : ∀ (v402 : BitVec 32), Decidable (k0_chk46 v402) := fun v402 => decidable_of_iff' _ (Iff.of_eq (k0_chk46.eq_1 v402))
theorem k0_off69_inb : ∀ (v402 : BitVec 32) (k0_hw46 : k0_chk46 v402), ∀ a, (k0_off69 v402) a + S1x8192.size a ≤ S8192x8192.size a := fun v402 k0_hw46 => k0_hw46

def k0_off70 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v415 : BitVec 32 := Scalar.addi v0 c23_i32
  let v416 : Index := Scalar.indexCast v415
  ![v416.toNat]
def k0_off71 (v417 : BitVec 32) : Fin 2 → Nat :=
  let c0_i32_211 : BitVec 32 := 0#32
  ![v417.toNat, 0]

def k0_chk47 (v417 : BitVec 32) : Prop :=
  (∀ a, (k0_off71 v417) a + S1x8192.size a ≤ S8192x8192.size a)
instance k0_chk47.dec : ∀ (v417 : BitVec 32), Decidable (k0_chk47 v417) := fun v417 => decidable_of_iff' _ (Iff.of_eq (k0_chk47.eq_1 v417))
theorem k0_off71_inb : ∀ (v417 : BitVec 32) (k0_hw47 : k0_chk47 v417), ∀ a, (k0_off71 v417) a + S1x8192.size a ≤ S8192x8192.size a := fun v417 k0_hw47 => k0_hw47

def k0_off72 (v420 : BitVec 32) : Fin 2 → Nat :=
  let c0_i32_215 : BitVec 32 := 0#32
  ![v420.toNat, 0]

def k0_chk48 (v420 : BitVec 32) : Prop :=
  (∀ a, (k0_off72 v420) a + S1x8192.size a ≤ S8192x8192.size a)
instance k0_chk48.dec : ∀ (v420 : BitVec 32), Decidable (k0_chk48 v420) := fun v420 => decidable_of_iff' _ (Iff.of_eq (k0_chk48.eq_1 v420))
theorem k0_off72_inb : ∀ (v420 : BitVec 32) (k0_hw48 : k0_chk48 v420), ∀ a, (k0_off72 v420) a + S1x8192.size a ≤ S8192x8192.size a := fun v420 k0_hw48 => k0_hw48

def k0_off73 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v433 : BitVec 32 := Scalar.addi v0 c24_i32
  let v434 : Index := Scalar.indexCast v433
  ![v434.toNat]
def k0_off74 (v435 : BitVec 32) : Fin 2 → Nat :=
  let c0_i32_220 : BitVec 32 := 0#32
  ![v435.toNat, 0]

def k0_chk49 (v435 : BitVec 32) : Prop :=
  (∀ a, (k0_off74 v435) a + S1x8192.size a ≤ S8192x8192.size a)
instance k0_chk49.dec : ∀ (v435 : BitVec 32), Decidable (k0_chk49 v435) := fun v435 => decidable_of_iff' _ (Iff.of_eq (k0_chk49.eq_1 v435))
theorem k0_off74_inb : ∀ (v435 : BitVec 32) (k0_hw49 : k0_chk49 v435), ∀ a, (k0_off74 v435) a + S1x8192.size a ≤ S8192x8192.size a := fun v435 k0_hw49 => k0_hw49

def k0_off75 (v438 : BitVec 32) : Fin 2 → Nat :=
  let c0_i32_224 : BitVec 32 := 0#32
  ![v438.toNat, 0]

def k0_chk50 (v438 : BitVec 32) : Prop :=
  (∀ a, (k0_off75 v438) a + S1x8192.size a ≤ S8192x8192.size a)
instance k0_chk50.dec : ∀ (v438 : BitVec 32), Decidable (k0_chk50 v438) := fun v438 => decidable_of_iff' _ (Iff.of_eq (k0_chk50.eq_1 v438))
theorem k0_off75_inb : ∀ (v438 : BitVec 32) (k0_hw50 : k0_chk50 v438), ∀ a, (k0_off75 v438) a + S1x8192.size a ≤ S8192x8192.size a := fun v438 k0_hw50 => k0_hw50

def k0_off76 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v451 : BitVec 32 := Scalar.addi v0 c25_i32
  let v452 : Index := Scalar.indexCast v451
  ![v452.toNat]
def k0_off77 (v453 : BitVec 32) : Fin 2 → Nat :=
  let c0_i32_229 : BitVec 32 := 0#32
  ![v453.toNat, 0]

def k0_chk51 (v453 : BitVec 32) : Prop :=
  (∀ a, (k0_off77 v453) a + S1x8192.size a ≤ S8192x8192.size a)
instance k0_chk51.dec : ∀ (v453 : BitVec 32), Decidable (k0_chk51 v453) := fun v453 => decidable_of_iff' _ (Iff.of_eq (k0_chk51.eq_1 v453))
theorem k0_off77_inb : ∀ (v453 : BitVec 32) (k0_hw51 : k0_chk51 v453), ∀ a, (k0_off77 v453) a + S1x8192.size a ≤ S8192x8192.size a := fun v453 k0_hw51 => k0_hw51

def k0_off78 (v456 : BitVec 32) : Fin 2 → Nat :=
  let c0_i32_233 : BitVec 32 := 0#32
  ![v456.toNat, 0]

def k0_chk52 (v456 : BitVec 32) : Prop :=
  (∀ a, (k0_off78 v456) a + S1x8192.size a ≤ S8192x8192.size a)
instance k0_chk52.dec : ∀ (v456 : BitVec 32), Decidable (k0_chk52 v456) := fun v456 => decidable_of_iff' _ (Iff.of_eq (k0_chk52.eq_1 v456))
theorem k0_off78_inb : ∀ (v456 : BitVec 32) (k0_hw52 : k0_chk52 v456), ∀ a, (k0_off78 v456) a + S1x8192.size a ≤ S8192x8192.size a := fun v456 k0_hw52 => k0_hw52

def k0_off79 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v469 : BitVec 32 := Scalar.addi v0 c26_i32
  let v470 : Index := Scalar.indexCast v469
  ![v470.toNat]
def k0_off80 (v471 : BitVec 32) : Fin 2 → Nat :=
  let c0_i32_238 : BitVec 32 := 0#32
  ![v471.toNat, 0]

def k0_chk53 (v471 : BitVec 32) : Prop :=
  (∀ a, (k0_off80 v471) a + S1x8192.size a ≤ S8192x8192.size a)
instance k0_chk53.dec : ∀ (v471 : BitVec 32), Decidable (k0_chk53 v471) := fun v471 => decidable_of_iff' _ (Iff.of_eq (k0_chk53.eq_1 v471))
theorem k0_off80_inb : ∀ (v471 : BitVec 32) (k0_hw53 : k0_chk53 v471), ∀ a, (k0_off80 v471) a + S1x8192.size a ≤ S8192x8192.size a := fun v471 k0_hw53 => k0_hw53

def k0_off81 (v474 : BitVec 32) : Fin 2 → Nat :=
  let c0_i32_242 : BitVec 32 := 0#32
  ![v474.toNat, 0]

def k0_chk54 (v474 : BitVec 32) : Prop :=
  (∀ a, (k0_off81 v474) a + S1x8192.size a ≤ S8192x8192.size a)
instance k0_chk54.dec : ∀ (v474 : BitVec 32), Decidable (k0_chk54 v474) := fun v474 => decidable_of_iff' _ (Iff.of_eq (k0_chk54.eq_1 v474))
theorem k0_off81_inb : ∀ (v474 : BitVec 32) (k0_hw54 : k0_chk54 v474), ∀ a, (k0_off81 v474) a + S1x8192.size a ≤ S8192x8192.size a := fun v474 k0_hw54 => k0_hw54

def k0_off82 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v487 : BitVec 32 := Scalar.addi v0 c27_i32
  let v488 : Index := Scalar.indexCast v487
  ![v488.toNat]
def k0_off83 (v489 : BitVec 32) : Fin 2 → Nat :=
  let c0_i32_247 : BitVec 32 := 0#32
  ![v489.toNat, 0]

def k0_chk55 (v489 : BitVec 32) : Prop :=
  (∀ a, (k0_off83 v489) a + S1x8192.size a ≤ S8192x8192.size a)
instance k0_chk55.dec : ∀ (v489 : BitVec 32), Decidable (k0_chk55 v489) := fun v489 => decidable_of_iff' _ (Iff.of_eq (k0_chk55.eq_1 v489))
theorem k0_off83_inb : ∀ (v489 : BitVec 32) (k0_hw55 : k0_chk55 v489), ∀ a, (k0_off83 v489) a + S1x8192.size a ≤ S8192x8192.size a := fun v489 k0_hw55 => k0_hw55

def k0_off84 (v492 : BitVec 32) : Fin 2 → Nat :=
  let c0_i32_251 : BitVec 32 := 0#32
  ![v492.toNat, 0]

def k0_chk56 (v492 : BitVec 32) : Prop :=
  (∀ a, (k0_off84 v492) a + S1x8192.size a ≤ S8192x8192.size a)
instance k0_chk56.dec : ∀ (v492 : BitVec 32), Decidable (k0_chk56 v492) := fun v492 => decidable_of_iff' _ (Iff.of_eq (k0_chk56.eq_1 v492))
theorem k0_off84_inb : ∀ (v492 : BitVec 32) (k0_hw56 : k0_chk56 v492), ∀ a, (k0_off84 v492) a + S1x8192.size a ≤ S8192x8192.size a := fun v492 k0_hw56 => k0_hw56

def k0_off85 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v505 : BitVec 32 := Scalar.addi v0 c28_i32
  let v506 : Index := Scalar.indexCast v505
  ![v506.toNat]
def k0_off86 (v507 : BitVec 32) : Fin 2 → Nat :=
  let c0_i32_256 : BitVec 32 := 0#32
  ![v507.toNat, 0]

def k0_chk57 (v507 : BitVec 32) : Prop :=
  (∀ a, (k0_off86 v507) a + S1x8192.size a ≤ S8192x8192.size a)
instance k0_chk57.dec : ∀ (v507 : BitVec 32), Decidable (k0_chk57 v507) := fun v507 => decidable_of_iff' _ (Iff.of_eq (k0_chk57.eq_1 v507))
theorem k0_off86_inb : ∀ (v507 : BitVec 32) (k0_hw57 : k0_chk57 v507), ∀ a, (k0_off86 v507) a + S1x8192.size a ≤ S8192x8192.size a := fun v507 k0_hw57 => k0_hw57

def k0_off87 (v510 : BitVec 32) : Fin 2 → Nat :=
  let c0_i32_260 : BitVec 32 := 0#32
  ![v510.toNat, 0]

def k0_chk58 (v510 : BitVec 32) : Prop :=
  (∀ a, (k0_off87 v510) a + S1x8192.size a ≤ S8192x8192.size a)
instance k0_chk58.dec : ∀ (v510 : BitVec 32), Decidable (k0_chk58 v510) := fun v510 => decidable_of_iff' _ (Iff.of_eq (k0_chk58.eq_1 v510))
theorem k0_off87_inb : ∀ (v510 : BitVec 32) (k0_hw58 : k0_chk58 v510), ∀ a, (k0_off87 v510) a + S1x8192.size a ≤ S8192x8192.size a := fun v510 k0_hw58 => k0_hw58

def k0_off88 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v523 : BitVec 32 := Scalar.addi v0 c29_i32
  let v524 : Index := Scalar.indexCast v523
  ![v524.toNat]
def k0_off89 (v525 : BitVec 32) : Fin 2 → Nat :=
  let c0_i32_265 : BitVec 32 := 0#32
  ![v525.toNat, 0]

def k0_chk59 (v525 : BitVec 32) : Prop :=
  (∀ a, (k0_off89 v525) a + S1x8192.size a ≤ S8192x8192.size a)
instance k0_chk59.dec : ∀ (v525 : BitVec 32), Decidable (k0_chk59 v525) := fun v525 => decidable_of_iff' _ (Iff.of_eq (k0_chk59.eq_1 v525))
theorem k0_off89_inb : ∀ (v525 : BitVec 32) (k0_hw59 : k0_chk59 v525), ∀ a, (k0_off89 v525) a + S1x8192.size a ≤ S8192x8192.size a := fun v525 k0_hw59 => k0_hw59

def k0_off90 (v528 : BitVec 32) : Fin 2 → Nat :=
  let c0_i32_269 : BitVec 32 := 0#32
  ![v528.toNat, 0]

def k0_chk60 (v528 : BitVec 32) : Prop :=
  (∀ a, (k0_off90 v528) a + S1x8192.size a ≤ S8192x8192.size a)
instance k0_chk60.dec : ∀ (v528 : BitVec 32), Decidable (k0_chk60 v528) := fun v528 => decidable_of_iff' _ (Iff.of_eq (k0_chk60.eq_1 v528))
theorem k0_off90_inb : ∀ (v528 : BitVec 32) (k0_hw60 : k0_chk60 v528), ∀ a, (k0_off90 v528) a + S1x8192.size a ≤ S8192x8192.size a := fun v528 k0_hw60 => k0_hw60

def k0_off91 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v541 : BitVec 32 := Scalar.addi v0 c30_i32
  let v542 : Index := Scalar.indexCast v541
  ![v542.toNat]
def k0_off92 (v543 : BitVec 32) : Fin 2 → Nat :=
  let c0_i32_274 : BitVec 32 := 0#32
  ![v543.toNat, 0]

def k0_chk61 (v543 : BitVec 32) : Prop :=
  (∀ a, (k0_off92 v543) a + S1x8192.size a ≤ S8192x8192.size a)
instance k0_chk61.dec : ∀ (v543 : BitVec 32), Decidable (k0_chk61 v543) := fun v543 => decidable_of_iff' _ (Iff.of_eq (k0_chk61.eq_1 v543))
theorem k0_off92_inb : ∀ (v543 : BitVec 32) (k0_hw61 : k0_chk61 v543), ∀ a, (k0_off92 v543) a + S1x8192.size a ≤ S8192x8192.size a := fun v543 k0_hw61 => k0_hw61

def k0_off93 (v546 : BitVec 32) : Fin 2 → Nat :=
  let c0_i32_278 : BitVec 32 := 0#32
  ![v546.toNat, 0]

def k0_chk62 (v546 : BitVec 32) : Prop :=
  (∀ a, (k0_off93 v546) a + S1x8192.size a ≤ S8192x8192.size a)
instance k0_chk62.dec : ∀ (v546 : BitVec 32), Decidable (k0_chk62 v546) := fun v546 => decidable_of_iff' _ (Iff.of_eq (k0_chk62.eq_1 v546))
theorem k0_off93_inb : ∀ (v546 : BitVec 32) (k0_hw62 : k0_chk62 v546), ∀ a, (k0_off93 v546) a + S1x8192.size a ≤ S8192x8192.size a := fun v546 k0_hw62 => k0_hw62

def k0_off94 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v559 : BitVec 32 := Scalar.addi v0 c31_i32
  let v560 : Index := Scalar.indexCast v559
  ![v560.toNat]
def k0_off95 (v561 : BitVec 32) : Fin 2 → Nat :=
  let c0_i32_283 : BitVec 32 := 0#32
  ![v561.toNat, 0]

def k0_chk63 (v561 : BitVec 32) : Prop :=
  (∀ a, (k0_off95 v561) a + S1x8192.size a ≤ S8192x8192.size a)
instance k0_chk63.dec : ∀ (v561 : BitVec 32), Decidable (k0_chk63 v561) := fun v561 => decidable_of_iff' _ (Iff.of_eq (k0_chk63.eq_1 v561))
theorem k0_off95_inb : ∀ (v561 : BitVec 32) (k0_hw63 : k0_chk63 v561), ∀ a, (k0_off95 v561) a + S1x8192.size a ≤ S8192x8192.size a := fun v561 k0_hw63 => k0_hw63

def k0_off96 (v564 : BitVec 32) : Fin 2 → Nat :=
  let c0_i32_287 : BitVec 32 := 0#32
  ![v564.toNat, 0]

def k0_chk64 (v564 : BitVec 32) : Prop :=
  (∀ a, (k0_off96 v564) a + S1x8192.size a ≤ S8192x8192.size a)
instance k0_chk64.dec : ∀ (v564 : BitVec 32), Decidable (k0_chk64 v564) := fun v564 => decidable_of_iff' _ (Iff.of_eq (k0_chk64.eq_1 v564))
theorem k0_off96_inb : ∀ (v564 : BitVec 32) (k0_hw64 : k0_chk64 v564), ∀ a, (k0_off96 v564) a + S1x8192.size a ≤ S8192x8192.size a := fun v564 k0_hw64 => k0_hw64

def k0_off97 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v577 : BitVec 32 := Scalar.addi v0 c32_i32
  let v578 : Index := Scalar.indexCast v577
  ![v578.toNat]
def k0_off98 (v579 : BitVec 32) : Fin 2 → Nat :=
  let c0_i32_292 : BitVec 32 := 0#32
  ![v579.toNat, 0]

def k0_chk65 (v579 : BitVec 32) : Prop :=
  (∀ a, (k0_off98 v579) a + S1x8192.size a ≤ S8192x8192.size a)
instance k0_chk65.dec : ∀ (v579 : BitVec 32), Decidable (k0_chk65 v579) := fun v579 => decidable_of_iff' _ (Iff.of_eq (k0_chk65.eq_1 v579))
theorem k0_off98_inb : ∀ (v579 : BitVec 32) (k0_hw65 : k0_chk65 v579), ∀ a, (k0_off98 v579) a + S1x8192.size a ≤ S8192x8192.size a := fun v579 k0_hw65 => k0_hw65

def k0_off99 (v582 : BitVec 32) : Fin 2 → Nat :=
  let c0_i32_296 : BitVec 32 := 0#32
  ![v582.toNat, 0]

def k0_chk66 (v582 : BitVec 32) : Prop :=
  (∀ a, (k0_off99 v582) a + S1x8192.size a ≤ S8192x8192.size a)
instance k0_chk66.dec : ∀ (v582 : BitVec 32), Decidable (k0_chk66 v582) := fun v582 => decidable_of_iff' _ (Iff.of_eq (k0_chk66.eq_1 v582))
theorem k0_off99_inb : ∀ (v582 : BitVec 32) (k0_hw66 : k0_chk66 v582), ∀ a, (k0_off99 v582) a + S1x8192.size a ≤ S8192x8192.size a := fun v582 k0_hw66 => k0_hw66

def k0_off100 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v595 : BitVec 32 := Scalar.addi v0 c33_i32
  let v596 : Index := Scalar.indexCast v595
  ![v596.toNat]
def k0_off101 (v597 : BitVec 32) : Fin 2 → Nat :=
  let c0_i32_301 : BitVec 32 := 0#32
  ![v597.toNat, 0]

def k0_chk67 (v597 : BitVec 32) : Prop :=
  (∀ a, (k0_off101 v597) a + S1x8192.size a ≤ S8192x8192.size a)
instance k0_chk67.dec : ∀ (v597 : BitVec 32), Decidable (k0_chk67 v597) := fun v597 => decidable_of_iff' _ (Iff.of_eq (k0_chk67.eq_1 v597))
theorem k0_off101_inb : ∀ (v597 : BitVec 32) (k0_hw67 : k0_chk67 v597), ∀ a, (k0_off101 v597) a + S1x8192.size a ≤ S8192x8192.size a := fun v597 k0_hw67 => k0_hw67

def k0_off102 (v600 : BitVec 32) : Fin 2 → Nat :=
  let c0_i32_305 : BitVec 32 := 0#32
  ![v600.toNat, 0]

def k0_chk68 (v600 : BitVec 32) : Prop :=
  (∀ a, (k0_off102 v600) a + S1x8192.size a ≤ S8192x8192.size a)
instance k0_chk68.dec : ∀ (v600 : BitVec 32), Decidable (k0_chk68 v600) := fun v600 => decidable_of_iff' _ (Iff.of_eq (k0_chk68.eq_1 v600))
theorem k0_off102_inb : ∀ (v600 : BitVec 32) (k0_hw68 : k0_chk68 v600), ∀ a, (k0_off102 v600) a + S1x8192.size a ≤ S8192x8192.size a := fun v600 k0_hw68 => k0_hw68

def k0_off103 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v613 : BitVec 32 := Scalar.addi v0 c34_i32
  let v614 : Index := Scalar.indexCast v613
  ![v614.toNat]
def k0_off104 (v615 : BitVec 32) : Fin 2 → Nat :=
  let c0_i32_310 : BitVec 32 := 0#32
  ![v615.toNat, 0]

def k0_chk69 (v615 : BitVec 32) : Prop :=
  (∀ a, (k0_off104 v615) a + S1x8192.size a ≤ S8192x8192.size a)
instance k0_chk69.dec : ∀ (v615 : BitVec 32), Decidable (k0_chk69 v615) := fun v615 => decidable_of_iff' _ (Iff.of_eq (k0_chk69.eq_1 v615))
theorem k0_off104_inb : ∀ (v615 : BitVec 32) (k0_hw69 : k0_chk69 v615), ∀ a, (k0_off104 v615) a + S1x8192.size a ≤ S8192x8192.size a := fun v615 k0_hw69 => k0_hw69

def k0_off105 (v618 : BitVec 32) : Fin 2 → Nat :=
  let c0_i32_314 : BitVec 32 := 0#32
  ![v618.toNat, 0]

def k0_chk70 (v618 : BitVec 32) : Prop :=
  (∀ a, (k0_off105 v618) a + S1x8192.size a ≤ S8192x8192.size a)
instance k0_chk70.dec : ∀ (v618 : BitVec 32), Decidable (k0_chk70 v618) := fun v618 => decidable_of_iff' _ (Iff.of_eq (k0_chk70.eq_1 v618))
theorem k0_off105_inb : ∀ (v618 : BitVec 32) (k0_hw70 : k0_chk70 v618), ∀ a, (k0_off105 v618) a + S1x8192.size a ≤ S8192x8192.size a := fun v618 k0_hw70 => k0_hw70

def k0_off106 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v631 : BitVec 32 := Scalar.addi v0 c35_i32
  let v632 : Index := Scalar.indexCast v631
  ![v632.toNat]
def k0_off107 (v633 : BitVec 32) : Fin 2 → Nat :=
  let c0_i32_319 : BitVec 32 := 0#32
  ![v633.toNat, 0]

def k0_chk71 (v633 : BitVec 32) : Prop :=
  (∀ a, (k0_off107 v633) a + S1x8192.size a ≤ S8192x8192.size a)
instance k0_chk71.dec : ∀ (v633 : BitVec 32), Decidable (k0_chk71 v633) := fun v633 => decidable_of_iff' _ (Iff.of_eq (k0_chk71.eq_1 v633))
theorem k0_off107_inb : ∀ (v633 : BitVec 32) (k0_hw71 : k0_chk71 v633), ∀ a, (k0_off107 v633) a + S1x8192.size a ≤ S8192x8192.size a := fun v633 k0_hw71 => k0_hw71

def k0_off108 (v636 : BitVec 32) : Fin 2 → Nat :=
  let c0_i32_323 : BitVec 32 := 0#32
  ![v636.toNat, 0]

def k0_chk72 (v636 : BitVec 32) : Prop :=
  (∀ a, (k0_off108 v636) a + S1x8192.size a ≤ S8192x8192.size a)
instance k0_chk72.dec : ∀ (v636 : BitVec 32), Decidable (k0_chk72 v636) := fun v636 => decidable_of_iff' _ (Iff.of_eq (k0_chk72.eq_1 v636))
theorem k0_off108_inb : ∀ (v636 : BitVec 32) (k0_hw72 : k0_chk72 v636), ∀ a, (k0_off108 v636) a + S1x8192.size a ≤ S8192x8192.size a := fun v636 k0_hw72 => k0_hw72

def k0_off109 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v649 : BitVec 32 := Scalar.addi v0 c36_i32
  let v650 : Index := Scalar.indexCast v649
  ![v650.toNat]
def k0_off110 (v651 : BitVec 32) : Fin 2 → Nat :=
  let c0_i32_328 : BitVec 32 := 0#32
  ![v651.toNat, 0]

def k0_chk73 (v651 : BitVec 32) : Prop :=
  (∀ a, (k0_off110 v651) a + S1x8192.size a ≤ S8192x8192.size a)
instance k0_chk73.dec : ∀ (v651 : BitVec 32), Decidable (k0_chk73 v651) := fun v651 => decidable_of_iff' _ (Iff.of_eq (k0_chk73.eq_1 v651))
theorem k0_off110_inb : ∀ (v651 : BitVec 32) (k0_hw73 : k0_chk73 v651), ∀ a, (k0_off110 v651) a + S1x8192.size a ≤ S8192x8192.size a := fun v651 k0_hw73 => k0_hw73

def k0_off111 (v654 : BitVec 32) : Fin 2 → Nat :=
  let c0_i32_332 : BitVec 32 := 0#32
  ![v654.toNat, 0]

def k0_chk74 (v654 : BitVec 32) : Prop :=
  (∀ a, (k0_off111 v654) a + S1x8192.size a ≤ S8192x8192.size a)
instance k0_chk74.dec : ∀ (v654 : BitVec 32), Decidable (k0_chk74 v654) := fun v654 => decidable_of_iff' _ (Iff.of_eq (k0_chk74.eq_1 v654))
theorem k0_off111_inb : ∀ (v654 : BitVec 32) (k0_hw74 : k0_chk74 v654), ∀ a, (k0_off111 v654) a + S1x8192.size a ≤ S8192x8192.size a := fun v654 k0_hw74 => k0_hw74

def k0_off112 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v667 : BitVec 32 := Scalar.addi v0 c37_i32
  let v668 : Index := Scalar.indexCast v667
  ![v668.toNat]
def k0_off113 (v669 : BitVec 32) : Fin 2 → Nat :=
  let c0_i32_337 : BitVec 32 := 0#32
  ![v669.toNat, 0]

def k0_chk75 (v669 : BitVec 32) : Prop :=
  (∀ a, (k0_off113 v669) a + S1x8192.size a ≤ S8192x8192.size a)
instance k0_chk75.dec : ∀ (v669 : BitVec 32), Decidable (k0_chk75 v669) := fun v669 => decidable_of_iff' _ (Iff.of_eq (k0_chk75.eq_1 v669))
theorem k0_off113_inb : ∀ (v669 : BitVec 32) (k0_hw75 : k0_chk75 v669), ∀ a, (k0_off113 v669) a + S1x8192.size a ≤ S8192x8192.size a := fun v669 k0_hw75 => k0_hw75

def k0_off114 (v672 : BitVec 32) : Fin 2 → Nat :=
  let c0_i32_341 : BitVec 32 := 0#32
  ![v672.toNat, 0]

def k0_chk76 (v672 : BitVec 32) : Prop :=
  (∀ a, (k0_off114 v672) a + S1x8192.size a ≤ S8192x8192.size a)
instance k0_chk76.dec : ∀ (v672 : BitVec 32), Decidable (k0_chk76 v672) := fun v672 => decidable_of_iff' _ (Iff.of_eq (k0_chk76.eq_1 v672))
theorem k0_off114_inb : ∀ (v672 : BitVec 32) (k0_hw76 : k0_chk76 v672), ∀ a, (k0_off114 v672) a + S1x8192.size a ≤ S8192x8192.size a := fun v672 k0_hw76 => k0_hw76

def k0_off115 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v685 : BitVec 32 := Scalar.addi v0 c38_i32
  let v686 : Index := Scalar.indexCast v685
  ![v686.toNat]
def k0_off116 (v687 : BitVec 32) : Fin 2 → Nat :=
  let c0_i32_346 : BitVec 32 := 0#32
  ![v687.toNat, 0]

def k0_chk77 (v687 : BitVec 32) : Prop :=
  (∀ a, (k0_off116 v687) a + S1x8192.size a ≤ S8192x8192.size a)
instance k0_chk77.dec : ∀ (v687 : BitVec 32), Decidable (k0_chk77 v687) := fun v687 => decidable_of_iff' _ (Iff.of_eq (k0_chk77.eq_1 v687))
theorem k0_off116_inb : ∀ (v687 : BitVec 32) (k0_hw77 : k0_chk77 v687), ∀ a, (k0_off116 v687) a + S1x8192.size a ≤ S8192x8192.size a := fun v687 k0_hw77 => k0_hw77

def k0_off117 (v690 : BitVec 32) : Fin 2 → Nat :=
  let c0_i32_350 : BitVec 32 := 0#32
  ![v690.toNat, 0]

def k0_chk78 (v690 : BitVec 32) : Prop :=
  (∀ a, (k0_off117 v690) a + S1x8192.size a ≤ S8192x8192.size a)
instance k0_chk78.dec : ∀ (v690 : BitVec 32), Decidable (k0_chk78 v690) := fun v690 => decidable_of_iff' _ (Iff.of_eq (k0_chk78.eq_1 v690))
theorem k0_off117_inb : ∀ (v690 : BitVec 32) (k0_hw78 : k0_chk78 v690), ∀ a, (k0_off117 v690) a + S1x8192.size a ≤ S8192x8192.size a := fun v690 k0_hw78 => k0_hw78

def k0_off118 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v703 : BitVec 32 := Scalar.addi v0 c39_i32
  let v704 : Index := Scalar.indexCast v703
  ![v704.toNat]
def k0_off119 (v705 : BitVec 32) : Fin 2 → Nat :=
  let c0_i32_355 : BitVec 32 := 0#32
  ![v705.toNat, 0]

def k0_chk79 (v705 : BitVec 32) : Prop :=
  (∀ a, (k0_off119 v705) a + S1x8192.size a ≤ S8192x8192.size a)
instance k0_chk79.dec : ∀ (v705 : BitVec 32), Decidable (k0_chk79 v705) := fun v705 => decidable_of_iff' _ (Iff.of_eq (k0_chk79.eq_1 v705))
theorem k0_off119_inb : ∀ (v705 : BitVec 32) (k0_hw79 : k0_chk79 v705), ∀ a, (k0_off119 v705) a + S1x8192.size a ≤ S8192x8192.size a := fun v705 k0_hw79 => k0_hw79

def k0_off120 (v708 : BitVec 32) : Fin 2 → Nat :=
  let c0_i32_359 : BitVec 32 := 0#32
  ![v708.toNat, 0]

def k0_chk80 (v708 : BitVec 32) : Prop :=
  (∀ a, (k0_off120 v708) a + S1x8192.size a ≤ S8192x8192.size a)
instance k0_chk80.dec : ∀ (v708 : BitVec 32), Decidable (k0_chk80 v708) := fun v708 => decidable_of_iff' _ (Iff.of_eq (k0_chk80.eq_1 v708))
theorem k0_off120_inb : ∀ (v708 : BitVec 32) (k0_hw80 : k0_chk80 v708), ∀ a, (k0_off120 v708) a + S1x8192.size a ≤ S8192x8192.size a := fun v708 k0_hw80 => k0_hw80

def k0_off121 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v721 : BitVec 32 := Scalar.addi v0 c40_i32
  let v722 : Index := Scalar.indexCast v721
  ![v722.toNat]
def k0_off122 (v723 : BitVec 32) : Fin 2 → Nat :=
  let c0_i32_364 : BitVec 32 := 0#32
  ![v723.toNat, 0]

def k0_chk81 (v723 : BitVec 32) : Prop :=
  (∀ a, (k0_off122 v723) a + S1x8192.size a ≤ S8192x8192.size a)
instance k0_chk81.dec : ∀ (v723 : BitVec 32), Decidable (k0_chk81 v723) := fun v723 => decidable_of_iff' _ (Iff.of_eq (k0_chk81.eq_1 v723))
theorem k0_off122_inb : ∀ (v723 : BitVec 32) (k0_hw81 : k0_chk81 v723), ∀ a, (k0_off122 v723) a + S1x8192.size a ≤ S8192x8192.size a := fun v723 k0_hw81 => k0_hw81

def k0_off123 (v726 : BitVec 32) : Fin 2 → Nat :=
  let c0_i32_368 : BitVec 32 := 0#32
  ![v726.toNat, 0]

def k0_chk82 (v726 : BitVec 32) : Prop :=
  (∀ a, (k0_off123 v726) a + S1x8192.size a ≤ S8192x8192.size a)
instance k0_chk82.dec : ∀ (v726 : BitVec 32), Decidable (k0_chk82 v726) := fun v726 => decidable_of_iff' _ (Iff.of_eq (k0_chk82.eq_1 v726))
theorem k0_off123_inb : ∀ (v726 : BitVec 32) (k0_hw82 : k0_chk82 v726), ∀ a, (k0_off123 v726) a + S1x8192.size a ≤ S8192x8192.size a := fun v726 k0_hw82 => k0_hw82

def k0_off124 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v739 : BitVec 32 := Scalar.addi v0 c41_i32
  let v740 : Index := Scalar.indexCast v739
  ![v740.toNat]
def k0_off125 (v741 : BitVec 32) : Fin 2 → Nat :=
  let c0_i32_373 : BitVec 32 := 0#32
  ![v741.toNat, 0]

def k0_chk83 (v741 : BitVec 32) : Prop :=
  (∀ a, (k0_off125 v741) a + S1x8192.size a ≤ S8192x8192.size a)
instance k0_chk83.dec : ∀ (v741 : BitVec 32), Decidable (k0_chk83 v741) := fun v741 => decidable_of_iff' _ (Iff.of_eq (k0_chk83.eq_1 v741))
theorem k0_off125_inb : ∀ (v741 : BitVec 32) (k0_hw83 : k0_chk83 v741), ∀ a, (k0_off125 v741) a + S1x8192.size a ≤ S8192x8192.size a := fun v741 k0_hw83 => k0_hw83

def k0_off126 (v744 : BitVec 32) : Fin 2 → Nat :=
  let c0_i32_377 : BitVec 32 := 0#32
  ![v744.toNat, 0]

def k0_chk84 (v744 : BitVec 32) : Prop :=
  (∀ a, (k0_off126 v744) a + S1x8192.size a ≤ S8192x8192.size a)
instance k0_chk84.dec : ∀ (v744 : BitVec 32), Decidable (k0_chk84 v744) := fun v744 => decidable_of_iff' _ (Iff.of_eq (k0_chk84.eq_1 v744))
theorem k0_off126_inb : ∀ (v744 : BitVec 32) (k0_hw84 : k0_chk84 v744), ∀ a, (k0_off126 v744) a + S1x8192.size a ≤ S8192x8192.size a := fun v744 k0_hw84 => k0_hw84

def k0_off127 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v757 : BitVec 32 := Scalar.addi v0 c42_i32
  let v758 : Index := Scalar.indexCast v757
  ![v758.toNat]
def k0_off128 (v759 : BitVec 32) : Fin 2 → Nat :=
  let c0_i32_382 : BitVec 32 := 0#32
  ![v759.toNat, 0]

def k0_chk85 (v759 : BitVec 32) : Prop :=
  (∀ a, (k0_off128 v759) a + S1x8192.size a ≤ S8192x8192.size a)
instance k0_chk85.dec : ∀ (v759 : BitVec 32), Decidable (k0_chk85 v759) := fun v759 => decidable_of_iff' _ (Iff.of_eq (k0_chk85.eq_1 v759))
theorem k0_off128_inb : ∀ (v759 : BitVec 32) (k0_hw85 : k0_chk85 v759), ∀ a, (k0_off128 v759) a + S1x8192.size a ≤ S8192x8192.size a := fun v759 k0_hw85 => k0_hw85

def k0_off129 (v762 : BitVec 32) : Fin 2 → Nat :=
  let c0_i32_386 : BitVec 32 := 0#32
  ![v762.toNat, 0]

def k0_chk86 (v762 : BitVec 32) : Prop :=
  (∀ a, (k0_off129 v762) a + S1x8192.size a ≤ S8192x8192.size a)
instance k0_chk86.dec : ∀ (v762 : BitVec 32), Decidable (k0_chk86 v762) := fun v762 => decidable_of_iff' _ (Iff.of_eq (k0_chk86.eq_1 v762))
theorem k0_off129_inb : ∀ (v762 : BitVec 32) (k0_hw86 : k0_chk86 v762), ∀ a, (k0_off129 v762) a + S1x8192.size a ≤ S8192x8192.size a := fun v762 k0_hw86 => k0_hw86

def k0_off130 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v775 : BitVec 32 := Scalar.addi v0 c43_i32
  let v776 : Index := Scalar.indexCast v775
  ![v776.toNat]
def k0_off131 (v777 : BitVec 32) : Fin 2 → Nat :=
  let c0_i32_391 : BitVec 32 := 0#32
  ![v777.toNat, 0]

def k0_chk87 (v777 : BitVec 32) : Prop :=
  (∀ a, (k0_off131 v777) a + S1x8192.size a ≤ S8192x8192.size a)
instance k0_chk87.dec : ∀ (v777 : BitVec 32), Decidable (k0_chk87 v777) := fun v777 => decidable_of_iff' _ (Iff.of_eq (k0_chk87.eq_1 v777))
theorem k0_off131_inb : ∀ (v777 : BitVec 32) (k0_hw87 : k0_chk87 v777), ∀ a, (k0_off131 v777) a + S1x8192.size a ≤ S8192x8192.size a := fun v777 k0_hw87 => k0_hw87

def k0_off132 (v780 : BitVec 32) : Fin 2 → Nat :=
  let c0_i32_395 : BitVec 32 := 0#32
  ![v780.toNat, 0]

def k0_chk88 (v780 : BitVec 32) : Prop :=
  (∀ a, (k0_off132 v780) a + S1x8192.size a ≤ S8192x8192.size a)
instance k0_chk88.dec : ∀ (v780 : BitVec 32), Decidable (k0_chk88 v780) := fun v780 => decidable_of_iff' _ (Iff.of_eq (k0_chk88.eq_1 v780))
theorem k0_off132_inb : ∀ (v780 : BitVec 32) (k0_hw88 : k0_chk88 v780), ∀ a, (k0_off132 v780) a + S1x8192.size a ≤ S8192x8192.size a := fun v780 k0_hw88 => k0_hw88

def k0_off133 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v793 : BitVec 32 := Scalar.addi v0 c44_i32
  let v794 : Index := Scalar.indexCast v793
  ![v794.toNat]
def k0_off134 (v795 : BitVec 32) : Fin 2 → Nat :=
  let c0_i32_400 : BitVec 32 := 0#32
  ![v795.toNat, 0]

def k0_chk89 (v795 : BitVec 32) : Prop :=
  (∀ a, (k0_off134 v795) a + S1x8192.size a ≤ S8192x8192.size a)
instance k0_chk89.dec : ∀ (v795 : BitVec 32), Decidable (k0_chk89 v795) := fun v795 => decidable_of_iff' _ (Iff.of_eq (k0_chk89.eq_1 v795))
theorem k0_off134_inb : ∀ (v795 : BitVec 32) (k0_hw89 : k0_chk89 v795), ∀ a, (k0_off134 v795) a + S1x8192.size a ≤ S8192x8192.size a := fun v795 k0_hw89 => k0_hw89

def k0_off135 (v798 : BitVec 32) : Fin 2 → Nat :=
  let c0_i32_404 : BitVec 32 := 0#32
  ![v798.toNat, 0]

def k0_chk90 (v798 : BitVec 32) : Prop :=
  (∀ a, (k0_off135 v798) a + S1x8192.size a ≤ S8192x8192.size a)
instance k0_chk90.dec : ∀ (v798 : BitVec 32), Decidable (k0_chk90 v798) := fun v798 => decidable_of_iff' _ (Iff.of_eq (k0_chk90.eq_1 v798))
theorem k0_off135_inb : ∀ (v798 : BitVec 32) (k0_hw90 : k0_chk90 v798), ∀ a, (k0_off135 v798) a + S1x8192.size a ≤ S8192x8192.size a := fun v798 k0_hw90 => k0_hw90

def k0_off136 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v811 : BitVec 32 := Scalar.addi v0 c45_i32
  let v812 : Index := Scalar.indexCast v811
  ![v812.toNat]
def k0_off137 (v813 : BitVec 32) : Fin 2 → Nat :=
  let c0_i32_409 : BitVec 32 := 0#32
  ![v813.toNat, 0]

def k0_chk91 (v813 : BitVec 32) : Prop :=
  (∀ a, (k0_off137 v813) a + S1x8192.size a ≤ S8192x8192.size a)
instance k0_chk91.dec : ∀ (v813 : BitVec 32), Decidable (k0_chk91 v813) := fun v813 => decidable_of_iff' _ (Iff.of_eq (k0_chk91.eq_1 v813))
theorem k0_off137_inb : ∀ (v813 : BitVec 32) (k0_hw91 : k0_chk91 v813), ∀ a, (k0_off137 v813) a + S1x8192.size a ≤ S8192x8192.size a := fun v813 k0_hw91 => k0_hw91

def k0_off138 (v816 : BitVec 32) : Fin 2 → Nat :=
  let c0_i32_413 : BitVec 32 := 0#32
  ![v816.toNat, 0]

def k0_chk92 (v816 : BitVec 32) : Prop :=
  (∀ a, (k0_off138 v816) a + S1x8192.size a ≤ S8192x8192.size a)
instance k0_chk92.dec : ∀ (v816 : BitVec 32), Decidable (k0_chk92 v816) := fun v816 => decidable_of_iff' _ (Iff.of_eq (k0_chk92.eq_1 v816))
theorem k0_off138_inb : ∀ (v816 : BitVec 32) (k0_hw92 : k0_chk92 v816), ∀ a, (k0_off138 v816) a + S1x8192.size a ≤ S8192x8192.size a := fun v816 k0_hw92 => k0_hw92

def k0_off139 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v829 : BitVec 32 := Scalar.addi v0 c46_i32
  let v830 : Index := Scalar.indexCast v829
  ![v830.toNat]
def k0_off140 (v831 : BitVec 32) : Fin 2 → Nat :=
  let c0_i32_418 : BitVec 32 := 0#32
  ![v831.toNat, 0]

def k0_chk93 (v831 : BitVec 32) : Prop :=
  (∀ a, (k0_off140 v831) a + S1x8192.size a ≤ S8192x8192.size a)
instance k0_chk93.dec : ∀ (v831 : BitVec 32), Decidable (k0_chk93 v831) := fun v831 => decidable_of_iff' _ (Iff.of_eq (k0_chk93.eq_1 v831))
theorem k0_off140_inb : ∀ (v831 : BitVec 32) (k0_hw93 : k0_chk93 v831), ∀ a, (k0_off140 v831) a + S1x8192.size a ≤ S8192x8192.size a := fun v831 k0_hw93 => k0_hw93

def k0_off141 (v834 : BitVec 32) : Fin 2 → Nat :=
  let c0_i32_422 : BitVec 32 := 0#32
  ![v834.toNat, 0]

def k0_chk94 (v834 : BitVec 32) : Prop :=
  (∀ a, (k0_off141 v834) a + S1x8192.size a ≤ S8192x8192.size a)
instance k0_chk94.dec : ∀ (v834 : BitVec 32), Decidable (k0_chk94 v834) := fun v834 => decidable_of_iff' _ (Iff.of_eq (k0_chk94.eq_1 v834))
theorem k0_off141_inb : ∀ (v834 : BitVec 32) (k0_hw94 : k0_chk94 v834), ∀ a, (k0_off141 v834) a + S1x8192.size a ≤ S8192x8192.size a := fun v834 k0_hw94 => k0_hw94

def k0_off142 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v847 : BitVec 32 := Scalar.addi v0 c47_i32
  let v848 : Index := Scalar.indexCast v847
  ![v848.toNat]
def k0_off143 (v849 : BitVec 32) : Fin 2 → Nat :=
  let c0_i32_427 : BitVec 32 := 0#32
  ![v849.toNat, 0]

def k0_chk95 (v849 : BitVec 32) : Prop :=
  (∀ a, (k0_off143 v849) a + S1x8192.size a ≤ S8192x8192.size a)
instance k0_chk95.dec : ∀ (v849 : BitVec 32), Decidable (k0_chk95 v849) := fun v849 => decidable_of_iff' _ (Iff.of_eq (k0_chk95.eq_1 v849))
theorem k0_off143_inb : ∀ (v849 : BitVec 32) (k0_hw95 : k0_chk95 v849), ∀ a, (k0_off143 v849) a + S1x8192.size a ≤ S8192x8192.size a := fun v849 k0_hw95 => k0_hw95

def k0_off144 (v852 : BitVec 32) : Fin 2 → Nat :=
  let c0_i32_431 : BitVec 32 := 0#32
  ![v852.toNat, 0]

def k0_chk96 (v852 : BitVec 32) : Prop :=
  (∀ a, (k0_off144 v852) a + S1x8192.size a ≤ S8192x8192.size a)
instance k0_chk96.dec : ∀ (v852 : BitVec 32), Decidable (k0_chk96 v852) := fun v852 => decidable_of_iff' _ (Iff.of_eq (k0_chk96.eq_1 v852))
theorem k0_off144_inb : ∀ (v852 : BitVec 32) (k0_hw96 : k0_chk96 v852), ∀ a, (k0_off144 v852) a + S1x8192.size a ≤ S8192x8192.size a := fun v852 k0_hw96 => k0_hw96

def k0_off145 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v865 : BitVec 32 := Scalar.addi v0 c48_i32
  let v866 : Index := Scalar.indexCast v865
  ![v866.toNat]
def k0_off146 (v867 : BitVec 32) : Fin 2 → Nat :=
  let c0_i32_436 : BitVec 32 := 0#32
  ![v867.toNat, 0]

def k0_chk97 (v867 : BitVec 32) : Prop :=
  (∀ a, (k0_off146 v867) a + S1x8192.size a ≤ S8192x8192.size a)
instance k0_chk97.dec : ∀ (v867 : BitVec 32), Decidable (k0_chk97 v867) := fun v867 => decidable_of_iff' _ (Iff.of_eq (k0_chk97.eq_1 v867))
theorem k0_off146_inb : ∀ (v867 : BitVec 32) (k0_hw97 : k0_chk97 v867), ∀ a, (k0_off146 v867) a + S1x8192.size a ≤ S8192x8192.size a := fun v867 k0_hw97 => k0_hw97

def k0_off147 (v870 : BitVec 32) : Fin 2 → Nat :=
  let c0_i32_440 : BitVec 32 := 0#32
  ![v870.toNat, 0]

def k0_chk98 (v870 : BitVec 32) : Prop :=
  (∀ a, (k0_off147 v870) a + S1x8192.size a ≤ S8192x8192.size a)
instance k0_chk98.dec : ∀ (v870 : BitVec 32), Decidable (k0_chk98 v870) := fun v870 => decidable_of_iff' _ (Iff.of_eq (k0_chk98.eq_1 v870))
theorem k0_off147_inb : ∀ (v870 : BitVec 32) (k0_hw98 : k0_chk98 v870), ∀ a, (k0_off147 v870) a + S1x8192.size a ≤ S8192x8192.size a := fun v870 k0_hw98 => k0_hw98

def k0_off148 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v883 : BitVec 32 := Scalar.addi v0 c49_i32
  let v884 : Index := Scalar.indexCast v883
  ![v884.toNat]
def k0_off149 (v885 : BitVec 32) : Fin 2 → Nat :=
  let c0_i32_445 : BitVec 32 := 0#32
  ![v885.toNat, 0]

def k0_chk99 (v885 : BitVec 32) : Prop :=
  (∀ a, (k0_off149 v885) a + S1x8192.size a ≤ S8192x8192.size a)
instance k0_chk99.dec : ∀ (v885 : BitVec 32), Decidable (k0_chk99 v885) := fun v885 => decidable_of_iff' _ (Iff.of_eq (k0_chk99.eq_1 v885))
theorem k0_off149_inb : ∀ (v885 : BitVec 32) (k0_hw99 : k0_chk99 v885), ∀ a, (k0_off149 v885) a + S1x8192.size a ≤ S8192x8192.size a := fun v885 k0_hw99 => k0_hw99

def k0_off150 (v888 : BitVec 32) : Fin 2 → Nat :=
  let c0_i32_449 : BitVec 32 := 0#32
  ![v888.toNat, 0]

def k0_chk100 (v888 : BitVec 32) : Prop :=
  (∀ a, (k0_off150 v888) a + S1x8192.size a ≤ S8192x8192.size a)
instance k0_chk100.dec : ∀ (v888 : BitVec 32), Decidable (k0_chk100 v888) := fun v888 => decidable_of_iff' _ (Iff.of_eq (k0_chk100.eq_1 v888))
theorem k0_off150_inb : ∀ (v888 : BitVec 32) (k0_hw100 : k0_chk100 v888), ∀ a, (k0_off150 v888) a + S1x8192.size a ≤ S8192x8192.size a := fun v888 k0_hw100 => k0_hw100

def k0_off151 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v901 : BitVec 32 := Scalar.addi v0 c50_i32
  let v902 : Index := Scalar.indexCast v901
  ![v902.toNat]
def k0_off152 (v903 : BitVec 32) : Fin 2 → Nat :=
  let c0_i32_454 : BitVec 32 := 0#32
  ![v903.toNat, 0]

def k0_chk101 (v903 : BitVec 32) : Prop :=
  (∀ a, (k0_off152 v903) a + S1x8192.size a ≤ S8192x8192.size a)
instance k0_chk101.dec : ∀ (v903 : BitVec 32), Decidable (k0_chk101 v903) := fun v903 => decidable_of_iff' _ (Iff.of_eq (k0_chk101.eq_1 v903))
theorem k0_off152_inb : ∀ (v903 : BitVec 32) (k0_hw101 : k0_chk101 v903), ∀ a, (k0_off152 v903) a + S1x8192.size a ≤ S8192x8192.size a := fun v903 k0_hw101 => k0_hw101

def k0_off153 (v906 : BitVec 32) : Fin 2 → Nat :=
  let c0_i32_458 : BitVec 32 := 0#32
  ![v906.toNat, 0]

def k0_chk102 (v906 : BitVec 32) : Prop :=
  (∀ a, (k0_off153 v906) a + S1x8192.size a ≤ S8192x8192.size a)
instance k0_chk102.dec : ∀ (v906 : BitVec 32), Decidable (k0_chk102 v906) := fun v906 => decidable_of_iff' _ (Iff.of_eq (k0_chk102.eq_1 v906))
theorem k0_off153_inb : ∀ (v906 : BitVec 32) (k0_hw102 : k0_chk102 v906), ∀ a, (k0_off153 v906) a + S1x8192.size a ≤ S8192x8192.size a := fun v906 k0_hw102 => k0_hw102

def k0_off154 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v919 : BitVec 32 := Scalar.addi v0 c51_i32
  let v920 : Index := Scalar.indexCast v919
  ![v920.toNat]
def k0_off155 (v921 : BitVec 32) : Fin 2 → Nat :=
  let c0_i32_463 : BitVec 32 := 0#32
  ![v921.toNat, 0]

def k0_chk103 (v921 : BitVec 32) : Prop :=
  (∀ a, (k0_off155 v921) a + S1x8192.size a ≤ S8192x8192.size a)
instance k0_chk103.dec : ∀ (v921 : BitVec 32), Decidable (k0_chk103 v921) := fun v921 => decidable_of_iff' _ (Iff.of_eq (k0_chk103.eq_1 v921))
theorem k0_off155_inb : ∀ (v921 : BitVec 32) (k0_hw103 : k0_chk103 v921), ∀ a, (k0_off155 v921) a + S1x8192.size a ≤ S8192x8192.size a := fun v921 k0_hw103 => k0_hw103

def k0_off156 (v924 : BitVec 32) : Fin 2 → Nat :=
  let c0_i32_467 : BitVec 32 := 0#32
  ![v924.toNat, 0]

def k0_chk104 (v924 : BitVec 32) : Prop :=
  (∀ a, (k0_off156 v924) a + S1x8192.size a ≤ S8192x8192.size a)
instance k0_chk104.dec : ∀ (v924 : BitVec 32), Decidable (k0_chk104 v924) := fun v924 => decidable_of_iff' _ (Iff.of_eq (k0_chk104.eq_1 v924))
theorem k0_off156_inb : ∀ (v924 : BitVec 32) (k0_hw104 : k0_chk104 v924), ∀ a, (k0_off156 v924) a + S1x8192.size a ≤ S8192x8192.size a := fun v924 k0_hw104 => k0_hw104

def k0_off157 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v937 : BitVec 32 := Scalar.addi v0 c52_i32
  let v938 : Index := Scalar.indexCast v937
  ![v938.toNat]
def k0_off158 (v939 : BitVec 32) : Fin 2 → Nat :=
  let c0_i32_472 : BitVec 32 := 0#32
  ![v939.toNat, 0]

def k0_chk105 (v939 : BitVec 32) : Prop :=
  (∀ a, (k0_off158 v939) a + S1x8192.size a ≤ S8192x8192.size a)
instance k0_chk105.dec : ∀ (v939 : BitVec 32), Decidable (k0_chk105 v939) := fun v939 => decidable_of_iff' _ (Iff.of_eq (k0_chk105.eq_1 v939))
theorem k0_off158_inb : ∀ (v939 : BitVec 32) (k0_hw105 : k0_chk105 v939), ∀ a, (k0_off158 v939) a + S1x8192.size a ≤ S8192x8192.size a := fun v939 k0_hw105 => k0_hw105

def k0_off159 (v942 : BitVec 32) : Fin 2 → Nat :=
  let c0_i32_476 : BitVec 32 := 0#32
  ![v942.toNat, 0]

def k0_chk106 (v942 : BitVec 32) : Prop :=
  (∀ a, (k0_off159 v942) a + S1x8192.size a ≤ S8192x8192.size a)
instance k0_chk106.dec : ∀ (v942 : BitVec 32), Decidable (k0_chk106 v942) := fun v942 => decidable_of_iff' _ (Iff.of_eq (k0_chk106.eq_1 v942))
theorem k0_off159_inb : ∀ (v942 : BitVec 32) (k0_hw106 : k0_chk106 v942), ∀ a, (k0_off159 v942) a + S1x8192.size a ≤ S8192x8192.size a := fun v942 k0_hw106 => k0_hw106

def k0_off160 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v955 : BitVec 32 := Scalar.addi v0 c53_i32
  let v956 : Index := Scalar.indexCast v955
  ![v956.toNat]
def k0_off161 (v957 : BitVec 32) : Fin 2 → Nat :=
  let c0_i32_481 : BitVec 32 := 0#32
  ![v957.toNat, 0]

def k0_chk107 (v957 : BitVec 32) : Prop :=
  (∀ a, (k0_off161 v957) a + S1x8192.size a ≤ S8192x8192.size a)
instance k0_chk107.dec : ∀ (v957 : BitVec 32), Decidable (k0_chk107 v957) := fun v957 => decidable_of_iff' _ (Iff.of_eq (k0_chk107.eq_1 v957))
theorem k0_off161_inb : ∀ (v957 : BitVec 32) (k0_hw107 : k0_chk107 v957), ∀ a, (k0_off161 v957) a + S1x8192.size a ≤ S8192x8192.size a := fun v957 k0_hw107 => k0_hw107

def k0_off162 (v960 : BitVec 32) : Fin 2 → Nat :=
  let c0_i32_485 : BitVec 32 := 0#32
  ![v960.toNat, 0]

def k0_chk108 (v960 : BitVec 32) : Prop :=
  (∀ a, (k0_off162 v960) a + S1x8192.size a ≤ S8192x8192.size a)
instance k0_chk108.dec : ∀ (v960 : BitVec 32), Decidable (k0_chk108 v960) := fun v960 => decidable_of_iff' _ (Iff.of_eq (k0_chk108.eq_1 v960))
theorem k0_off162_inb : ∀ (v960 : BitVec 32) (k0_hw108 : k0_chk108 v960), ∀ a, (k0_off162 v960) a + S1x8192.size a ≤ S8192x8192.size a := fun v960 k0_hw108 => k0_hw108

def k0_off163 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v973 : BitVec 32 := Scalar.addi v0 c54_i32
  let v974 : Index := Scalar.indexCast v973
  ![v974.toNat]
def k0_off164 (v975 : BitVec 32) : Fin 2 → Nat :=
  let c0_i32_490 : BitVec 32 := 0#32
  ![v975.toNat, 0]

def k0_chk109 (v975 : BitVec 32) : Prop :=
  (∀ a, (k0_off164 v975) a + S1x8192.size a ≤ S8192x8192.size a)
instance k0_chk109.dec : ∀ (v975 : BitVec 32), Decidable (k0_chk109 v975) := fun v975 => decidable_of_iff' _ (Iff.of_eq (k0_chk109.eq_1 v975))
theorem k0_off164_inb : ∀ (v975 : BitVec 32) (k0_hw109 : k0_chk109 v975), ∀ a, (k0_off164 v975) a + S1x8192.size a ≤ S8192x8192.size a := fun v975 k0_hw109 => k0_hw109

def k0_off165 (v978 : BitVec 32) : Fin 2 → Nat :=
  let c0_i32_494 : BitVec 32 := 0#32
  ![v978.toNat, 0]

def k0_chk110 (v978 : BitVec 32) : Prop :=
  (∀ a, (k0_off165 v978) a + S1x8192.size a ≤ S8192x8192.size a)
instance k0_chk110.dec : ∀ (v978 : BitVec 32), Decidable (k0_chk110 v978) := fun v978 => decidable_of_iff' _ (Iff.of_eq (k0_chk110.eq_1 v978))
theorem k0_off165_inb : ∀ (v978 : BitVec 32) (k0_hw110 : k0_chk110 v978), ∀ a, (k0_off165 v978) a + S1x8192.size a ≤ S8192x8192.size a := fun v978 k0_hw110 => k0_hw110

def k0_off166 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v991 : BitVec 32 := Scalar.addi v0 c55_i32
  let v992 : Index := Scalar.indexCast v991
  ![v992.toNat]
def k0_off167 (v993 : BitVec 32) : Fin 2 → Nat :=
  let c0_i32_499 : BitVec 32 := 0#32
  ![v993.toNat, 0]

def k0_chk111 (v993 : BitVec 32) : Prop :=
  (∀ a, (k0_off167 v993) a + S1x8192.size a ≤ S8192x8192.size a)
instance k0_chk111.dec : ∀ (v993 : BitVec 32), Decidable (k0_chk111 v993) := fun v993 => decidable_of_iff' _ (Iff.of_eq (k0_chk111.eq_1 v993))
theorem k0_off167_inb : ∀ (v993 : BitVec 32) (k0_hw111 : k0_chk111 v993), ∀ a, (k0_off167 v993) a + S1x8192.size a ≤ S8192x8192.size a := fun v993 k0_hw111 => k0_hw111

def k0_off168 (v996 : BitVec 32) : Fin 2 → Nat :=
  let c0_i32_503 : BitVec 32 := 0#32
  ![v996.toNat, 0]

def k0_chk112 (v996 : BitVec 32) : Prop :=
  (∀ a, (k0_off168 v996) a + S1x8192.size a ≤ S8192x8192.size a)
instance k0_chk112.dec : ∀ (v996 : BitVec 32), Decidable (k0_chk112 v996) := fun v996 => decidable_of_iff' _ (Iff.of_eq (k0_chk112.eq_1 v996))
theorem k0_off168_inb : ∀ (v996 : BitVec 32) (k0_hw112 : k0_chk112 v996), ∀ a, (k0_off168 v996) a + S1x8192.size a ≤ S8192x8192.size a := fun v996 k0_hw112 => k0_hw112

def k0_off169 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v1009 : BitVec 32 := Scalar.addi v0 c56_i32
  let v1010 : Index := Scalar.indexCast v1009
  ![v1010.toNat]
def k0_off170 (v1011 : BitVec 32) : Fin 2 → Nat :=
  let c0_i32_508 : BitVec 32 := 0#32
  ![v1011.toNat, 0]

def k0_chk113 (v1011 : BitVec 32) : Prop :=
  (∀ a, (k0_off170 v1011) a + S1x8192.size a ≤ S8192x8192.size a)
instance k0_chk113.dec : ∀ (v1011 : BitVec 32), Decidable (k0_chk113 v1011) := fun v1011 => decidable_of_iff' _ (Iff.of_eq (k0_chk113.eq_1 v1011))
theorem k0_off170_inb : ∀ (v1011 : BitVec 32) (k0_hw113 : k0_chk113 v1011), ∀ a, (k0_off170 v1011) a + S1x8192.size a ≤ S8192x8192.size a := fun v1011 k0_hw113 => k0_hw113

def k0_off171 (v1014 : BitVec 32) : Fin 2 → Nat :=
  let c0_i32_512 : BitVec 32 := 0#32
  ![v1014.toNat, 0]

def k0_chk114 (v1014 : BitVec 32) : Prop :=
  (∀ a, (k0_off171 v1014) a + S1x8192.size a ≤ S8192x8192.size a)
instance k0_chk114.dec : ∀ (v1014 : BitVec 32), Decidable (k0_chk114 v1014) := fun v1014 => decidable_of_iff' _ (Iff.of_eq (k0_chk114.eq_1 v1014))
theorem k0_off171_inb : ∀ (v1014 : BitVec 32) (k0_hw114 : k0_chk114 v1014), ∀ a, (k0_off171 v1014) a + S1x8192.size a ≤ S8192x8192.size a := fun v1014 k0_hw114 => k0_hw114

def k0_off172 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v1027 : BitVec 32 := Scalar.addi v0 c57_i32
  let v1028 : Index := Scalar.indexCast v1027
  ![v1028.toNat]
def k0_off173 (v1029 : BitVec 32) : Fin 2 → Nat :=
  let c0_i32_517 : BitVec 32 := 0#32
  ![v1029.toNat, 0]

def k0_chk115 (v1029 : BitVec 32) : Prop :=
  (∀ a, (k0_off173 v1029) a + S1x8192.size a ≤ S8192x8192.size a)
instance k0_chk115.dec : ∀ (v1029 : BitVec 32), Decidable (k0_chk115 v1029) := fun v1029 => decidable_of_iff' _ (Iff.of_eq (k0_chk115.eq_1 v1029))
theorem k0_off173_inb : ∀ (v1029 : BitVec 32) (k0_hw115 : k0_chk115 v1029), ∀ a, (k0_off173 v1029) a + S1x8192.size a ≤ S8192x8192.size a := fun v1029 k0_hw115 => k0_hw115

def k0_off174 (v1032 : BitVec 32) : Fin 2 → Nat :=
  let c0_i32_521 : BitVec 32 := 0#32
  ![v1032.toNat, 0]

def k0_chk116 (v1032 : BitVec 32) : Prop :=
  (∀ a, (k0_off174 v1032) a + S1x8192.size a ≤ S8192x8192.size a)
instance k0_chk116.dec : ∀ (v1032 : BitVec 32), Decidable (k0_chk116 v1032) := fun v1032 => decidable_of_iff' _ (Iff.of_eq (k0_chk116.eq_1 v1032))
theorem k0_off174_inb : ∀ (v1032 : BitVec 32) (k0_hw116 : k0_chk116 v1032), ∀ a, (k0_off174 v1032) a + S1x8192.size a ≤ S8192x8192.size a := fun v1032 k0_hw116 => k0_hw116

def k0_off175 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v1045 : BitVec 32 := Scalar.addi v0 c58_i32
  let v1046 : Index := Scalar.indexCast v1045
  ![v1046.toNat]
def k0_off176 (v1047 : BitVec 32) : Fin 2 → Nat :=
  let c0_i32_526 : BitVec 32 := 0#32
  ![v1047.toNat, 0]

def k0_chk117 (v1047 : BitVec 32) : Prop :=
  (∀ a, (k0_off176 v1047) a + S1x8192.size a ≤ S8192x8192.size a)
instance k0_chk117.dec : ∀ (v1047 : BitVec 32), Decidable (k0_chk117 v1047) := fun v1047 => decidable_of_iff' _ (Iff.of_eq (k0_chk117.eq_1 v1047))
theorem k0_off176_inb : ∀ (v1047 : BitVec 32) (k0_hw117 : k0_chk117 v1047), ∀ a, (k0_off176 v1047) a + S1x8192.size a ≤ S8192x8192.size a := fun v1047 k0_hw117 => k0_hw117

def k0_off177 (v1050 : BitVec 32) : Fin 2 → Nat :=
  let c0_i32_530 : BitVec 32 := 0#32
  ![v1050.toNat, 0]

def k0_chk118 (v1050 : BitVec 32) : Prop :=
  (∀ a, (k0_off177 v1050) a + S1x8192.size a ≤ S8192x8192.size a)
instance k0_chk118.dec : ∀ (v1050 : BitVec 32), Decidable (k0_chk118 v1050) := fun v1050 => decidable_of_iff' _ (Iff.of_eq (k0_chk118.eq_1 v1050))
theorem k0_off177_inb : ∀ (v1050 : BitVec 32) (k0_hw118 : k0_chk118 v1050), ∀ a, (k0_off177 v1050) a + S1x8192.size a ≤ S8192x8192.size a := fun v1050 k0_hw118 => k0_hw118

def k0_off178 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v1063 : BitVec 32 := Scalar.addi v0 c59_i32
  let v1064 : Index := Scalar.indexCast v1063
  ![v1064.toNat]
def k0_off179 (v1065 : BitVec 32) : Fin 2 → Nat :=
  let c0_i32_535 : BitVec 32 := 0#32
  ![v1065.toNat, 0]

def k0_chk119 (v1065 : BitVec 32) : Prop :=
  (∀ a, (k0_off179 v1065) a + S1x8192.size a ≤ S8192x8192.size a)
instance k0_chk119.dec : ∀ (v1065 : BitVec 32), Decidable (k0_chk119 v1065) := fun v1065 => decidable_of_iff' _ (Iff.of_eq (k0_chk119.eq_1 v1065))
theorem k0_off179_inb : ∀ (v1065 : BitVec 32) (k0_hw119 : k0_chk119 v1065), ∀ a, (k0_off179 v1065) a + S1x8192.size a ≤ S8192x8192.size a := fun v1065 k0_hw119 => k0_hw119

def k0_off180 (v1068 : BitVec 32) : Fin 2 → Nat :=
  let c0_i32_539 : BitVec 32 := 0#32
  ![v1068.toNat, 0]

def k0_chk120 (v1068 : BitVec 32) : Prop :=
  (∀ a, (k0_off180 v1068) a + S1x8192.size a ≤ S8192x8192.size a)
instance k0_chk120.dec : ∀ (v1068 : BitVec 32), Decidable (k0_chk120 v1068) := fun v1068 => decidable_of_iff' _ (Iff.of_eq (k0_chk120.eq_1 v1068))
theorem k0_off180_inb : ∀ (v1068 : BitVec 32) (k0_hw120 : k0_chk120 v1068), ∀ a, (k0_off180 v1068) a + S1x8192.size a ≤ S8192x8192.size a := fun v1068 k0_hw120 => k0_hw120

def k0_off181 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v1081 : BitVec 32 := Scalar.addi v0 c60_i32
  let v1082 : Index := Scalar.indexCast v1081
  ![v1082.toNat]
def k0_off182 (v1083 : BitVec 32) : Fin 2 → Nat :=
  let c0_i32_544 : BitVec 32 := 0#32
  ![v1083.toNat, 0]

def k0_chk121 (v1083 : BitVec 32) : Prop :=
  (∀ a, (k0_off182 v1083) a + S1x8192.size a ≤ S8192x8192.size a)
instance k0_chk121.dec : ∀ (v1083 : BitVec 32), Decidable (k0_chk121 v1083) := fun v1083 => decidable_of_iff' _ (Iff.of_eq (k0_chk121.eq_1 v1083))
theorem k0_off182_inb : ∀ (v1083 : BitVec 32) (k0_hw121 : k0_chk121 v1083), ∀ a, (k0_off182 v1083) a + S1x8192.size a ≤ S8192x8192.size a := fun v1083 k0_hw121 => k0_hw121

def k0_off183 (v1086 : BitVec 32) : Fin 2 → Nat :=
  let c0_i32_548 : BitVec 32 := 0#32
  ![v1086.toNat, 0]

def k0_chk122 (v1086 : BitVec 32) : Prop :=
  (∀ a, (k0_off183 v1086) a + S1x8192.size a ≤ S8192x8192.size a)
instance k0_chk122.dec : ∀ (v1086 : BitVec 32), Decidable (k0_chk122 v1086) := fun v1086 => decidable_of_iff' _ (Iff.of_eq (k0_chk122.eq_1 v1086))
theorem k0_off183_inb : ∀ (v1086 : BitVec 32) (k0_hw122 : k0_chk122 v1086), ∀ a, (k0_off183 v1086) a + S1x8192.size a ≤ S8192x8192.size a := fun v1086 k0_hw122 => k0_hw122

def k0_off184 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v1099 : BitVec 32 := Scalar.addi v0 c61_i32
  let v1100 : Index := Scalar.indexCast v1099
  ![v1100.toNat]
def k0_off185 (v1101 : BitVec 32) : Fin 2 → Nat :=
  let c0_i32_553 : BitVec 32 := 0#32
  ![v1101.toNat, 0]

def k0_chk123 (v1101 : BitVec 32) : Prop :=
  (∀ a, (k0_off185 v1101) a + S1x8192.size a ≤ S8192x8192.size a)
instance k0_chk123.dec : ∀ (v1101 : BitVec 32), Decidable (k0_chk123 v1101) := fun v1101 => decidable_of_iff' _ (Iff.of_eq (k0_chk123.eq_1 v1101))
theorem k0_off185_inb : ∀ (v1101 : BitVec 32) (k0_hw123 : k0_chk123 v1101), ∀ a, (k0_off185 v1101) a + S1x8192.size a ≤ S8192x8192.size a := fun v1101 k0_hw123 => k0_hw123

def k0_off186 (v1104 : BitVec 32) : Fin 2 → Nat :=
  let c0_i32_557 : BitVec 32 := 0#32
  ![v1104.toNat, 0]

def k0_chk124 (v1104 : BitVec 32) : Prop :=
  (∀ a, (k0_off186 v1104) a + S1x8192.size a ≤ S8192x8192.size a)
instance k0_chk124.dec : ∀ (v1104 : BitVec 32), Decidable (k0_chk124 v1104) := fun v1104 => decidable_of_iff' _ (Iff.of_eq (k0_chk124.eq_1 v1104))
theorem k0_off186_inb : ∀ (v1104 : BitVec 32) (k0_hw124 : k0_chk124 v1104), ∀ a, (k0_off186 v1104) a + S1x8192.size a ≤ S8192x8192.size a := fun v1104 k0_hw124 => k0_hw124

def k0_off187 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v1117 : BitVec 32 := Scalar.addi v0 c62_i32
  let v1118 : Index := Scalar.indexCast v1117
  ![v1118.toNat]
def k0_off188 (v1119 : BitVec 32) : Fin 2 → Nat :=
  let c0_i32_562 : BitVec 32 := 0#32
  ![v1119.toNat, 0]

def k0_chk125 (v1119 : BitVec 32) : Prop :=
  (∀ a, (k0_off188 v1119) a + S1x8192.size a ≤ S8192x8192.size a)
instance k0_chk125.dec : ∀ (v1119 : BitVec 32), Decidable (k0_chk125 v1119) := fun v1119 => decidable_of_iff' _ (Iff.of_eq (k0_chk125.eq_1 v1119))
theorem k0_off188_inb : ∀ (v1119 : BitVec 32) (k0_hw125 : k0_chk125 v1119), ∀ a, (k0_off188 v1119) a + S1x8192.size a ≤ S8192x8192.size a := fun v1119 k0_hw125 => k0_hw125

def k0_off189 (v1122 : BitVec 32) : Fin 2 → Nat :=
  let c0_i32_566 : BitVec 32 := 0#32
  ![v1122.toNat, 0]

def k0_chk126 (v1122 : BitVec 32) : Prop :=
  (∀ a, (k0_off189 v1122) a + S1x8192.size a ≤ S8192x8192.size a)
instance k0_chk126.dec : ∀ (v1122 : BitVec 32), Decidable (k0_chk126 v1122) := fun v1122 => decidable_of_iff' _ (Iff.of_eq (k0_chk126.eq_1 v1122))
theorem k0_off189_inb : ∀ (v1122 : BitVec 32) (k0_hw126 : k0_chk126 v1122), ∀ a, (k0_off189 v1122) a + S1x8192.size a ≤ S8192x8192.size a := fun v1122 k0_hw126 => k0_hw126

def k0_off190 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v1135 : BitVec 32 := Scalar.addi v0 c63_i32
  let v1136 : Index := Scalar.indexCast v1135
  ![v1136.toNat]
def k0_off191 (v1137 : BitVec 32) : Fin 2 → Nat :=
  let c0_i32_571 : BitVec 32 := 0#32
  ![v1137.toNat, 0]

def k0_chk127 (v1137 : BitVec 32) : Prop :=
  (∀ a, (k0_off191 v1137) a + S1x8192.size a ≤ S8192x8192.size a)
instance k0_chk127.dec : ∀ (v1137 : BitVec 32), Decidable (k0_chk127 v1137) := fun v1137 => decidable_of_iff' _ (Iff.of_eq (k0_chk127.eq_1 v1137))
theorem k0_off191_inb : ∀ (v1137 : BitVec 32) (k0_hw127 : k0_chk127 v1137), ∀ a, (k0_off191 v1137) a + S1x8192.size a ≤ S8192x8192.size a := fun v1137 k0_hw127 => k0_hw127

def k0_off192 (v1140 : BitVec 32) : Fin 2 → Nat :=
  let c0_i32_575 : BitVec 32 := 0#32
  ![v1140.toNat, 0]

def k0_chk128 (v1140 : BitVec 32) : Prop :=
  (∀ a, (k0_off192 v1140) a + S1x8192.size a ≤ S8192x8192.size a)
instance k0_chk128.dec : ∀ (v1140 : BitVec 32), Decidable (k0_chk128 v1140) := fun v1140 => decidable_of_iff' _ (Iff.of_eq (k0_chk128.eq_1 v1140))
theorem k0_off192_inb : ∀ (v1140 : BitVec 32) (k0_hw128 : k0_chk128 v1140), ∀ a, (k0_off192 v1140) a + S1x8192.size a ≤ S8192x8192.size a := fun v1140 k0_hw128 => k0_hw128

def k0_off193 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v1153 : BitVec 32 := Scalar.addi v0 c64_i32
  let v1154 : Index := Scalar.indexCast v1153
  ![v1154.toNat]
def k0_off194 (v1155 : BitVec 32) : Fin 2 → Nat :=
  let c0_i32_580 : BitVec 32 := 0#32
  ![v1155.toNat, 0]

def k0_chk129 (v1155 : BitVec 32) : Prop :=
  (∀ a, (k0_off194 v1155) a + S1x8192.size a ≤ S8192x8192.size a)
instance k0_chk129.dec : ∀ (v1155 : BitVec 32), Decidable (k0_chk129 v1155) := fun v1155 => decidable_of_iff' _ (Iff.of_eq (k0_chk129.eq_1 v1155))
theorem k0_off194_inb : ∀ (v1155 : BitVec 32) (k0_hw129 : k0_chk129 v1155), ∀ a, (k0_off194 v1155) a + S1x8192.size a ≤ S8192x8192.size a := fun v1155 k0_hw129 => k0_hw129

def k0_off195 (v1158 : BitVec 32) : Fin 2 → Nat :=
  let c0_i32_584 : BitVec 32 := 0#32
  ![v1158.toNat, 0]

def k0_chk130 (v1158 : BitVec 32) : Prop :=
  (∀ a, (k0_off195 v1158) a + S1x8192.size a ≤ S8192x8192.size a)
instance k0_chk130.dec : ∀ (v1158 : BitVec 32), Decidable (k0_chk130 v1158) := fun v1158 => decidable_of_iff' _ (Iff.of_eq (k0_chk130.eq_1 v1158))
theorem k0_off195_inb : ∀ (v1158 : BitVec 32) (k0_hw130 : k0_chk130 v1158), ∀ a, (k0_off195 v1158) a + S1x8192.size a ≤ S8192x8192.size a := fun v1158 k0_hw130 => k0_hw130

def k0_off196 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v1171 : BitVec 32 := Scalar.addi v0 c65_i32
  let v1172 : Index := Scalar.indexCast v1171
  ![v1172.toNat]
def k0_off197 (v1173 : BitVec 32) : Fin 2 → Nat :=
  let c0_i32_589 : BitVec 32 := 0#32
  ![v1173.toNat, 0]

def k0_chk131 (v1173 : BitVec 32) : Prop :=
  (∀ a, (k0_off197 v1173) a + S1x8192.size a ≤ S8192x8192.size a)
instance k0_chk131.dec : ∀ (v1173 : BitVec 32), Decidable (k0_chk131 v1173) := fun v1173 => decidable_of_iff' _ (Iff.of_eq (k0_chk131.eq_1 v1173))
theorem k0_off197_inb : ∀ (v1173 : BitVec 32) (k0_hw131 : k0_chk131 v1173), ∀ a, (k0_off197 v1173) a + S1x8192.size a ≤ S8192x8192.size a := fun v1173 k0_hw131 => k0_hw131

def k0_off198 (v1176 : BitVec 32) : Fin 2 → Nat :=
  let c0_i32_593 : BitVec 32 := 0#32
  ![v1176.toNat, 0]

def k0_chk132 (v1176 : BitVec 32) : Prop :=
  (∀ a, (k0_off198 v1176) a + S1x8192.size a ≤ S8192x8192.size a)
instance k0_chk132.dec : ∀ (v1176 : BitVec 32), Decidable (k0_chk132 v1176) := fun v1176 => decidable_of_iff' _ (Iff.of_eq (k0_chk132.eq_1 v1176))
theorem k0_off198_inb : ∀ (v1176 : BitVec 32) (k0_hw132 : k0_chk132 v1176), ∀ a, (k0_off198 v1176) a + S1x8192.size a ≤ S8192x8192.size a := fun v1176 k0_hw132 => k0_hw132

def k0_off199 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v1189 : BitVec 32 := Scalar.addi v0 c66_i32
  let v1190 : Index := Scalar.indexCast v1189
  ![v1190.toNat]
def k0_off200 (v1191 : BitVec 32) : Fin 2 → Nat :=
  let c0_i32_598 : BitVec 32 := 0#32
  ![v1191.toNat, 0]

def k0_chk133 (v1191 : BitVec 32) : Prop :=
  (∀ a, (k0_off200 v1191) a + S1x8192.size a ≤ S8192x8192.size a)
instance k0_chk133.dec : ∀ (v1191 : BitVec 32), Decidable (k0_chk133 v1191) := fun v1191 => decidable_of_iff' _ (Iff.of_eq (k0_chk133.eq_1 v1191))
theorem k0_off200_inb : ∀ (v1191 : BitVec 32) (k0_hw133 : k0_chk133 v1191), ∀ a, (k0_off200 v1191) a + S1x8192.size a ≤ S8192x8192.size a := fun v1191 k0_hw133 => k0_hw133

def k0_off201 (v1194 : BitVec 32) : Fin 2 → Nat :=
  let c0_i32_602 : BitVec 32 := 0#32
  ![v1194.toNat, 0]

def k0_chk134 (v1194 : BitVec 32) : Prop :=
  (∀ a, (k0_off201 v1194) a + S1x8192.size a ≤ S8192x8192.size a)
instance k0_chk134.dec : ∀ (v1194 : BitVec 32), Decidable (k0_chk134 v1194) := fun v1194 => decidable_of_iff' _ (Iff.of_eq (k0_chk134.eq_1 v1194))
theorem k0_off201_inb : ∀ (v1194 : BitVec 32) (k0_hw134 : k0_chk134 v1194), ∀ a, (k0_off201 v1194) a + S1x8192.size a ≤ S8192x8192.size a := fun v1194 k0_hw134 => k0_hw134

def k0_off202 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v1207 : BitVec 32 := Scalar.addi v0 c67_i32
  let v1208 : Index := Scalar.indexCast v1207
  ![v1208.toNat]
def k0_off203 (v1209 : BitVec 32) : Fin 2 → Nat :=
  let c0_i32_607 : BitVec 32 := 0#32
  ![v1209.toNat, 0]

def k0_chk135 (v1209 : BitVec 32) : Prop :=
  (∀ a, (k0_off203 v1209) a + S1x8192.size a ≤ S8192x8192.size a)
instance k0_chk135.dec : ∀ (v1209 : BitVec 32), Decidable (k0_chk135 v1209) := fun v1209 => decidable_of_iff' _ (Iff.of_eq (k0_chk135.eq_1 v1209))
theorem k0_off203_inb : ∀ (v1209 : BitVec 32) (k0_hw135 : k0_chk135 v1209), ∀ a, (k0_off203 v1209) a + S1x8192.size a ≤ S8192x8192.size a := fun v1209 k0_hw135 => k0_hw135

def k0_off204 (v1212 : BitVec 32) : Fin 2 → Nat :=
  let c0_i32_611 : BitVec 32 := 0#32
  ![v1212.toNat, 0]

def k0_chk136 (v1212 : BitVec 32) : Prop :=
  (∀ a, (k0_off204 v1212) a + S1x8192.size a ≤ S8192x8192.size a)
instance k0_chk136.dec : ∀ (v1212 : BitVec 32), Decidable (k0_chk136 v1212) := fun v1212 => decidable_of_iff' _ (Iff.of_eq (k0_chk136.eq_1 v1212))
theorem k0_off204_inb : ∀ (v1212 : BitVec 32) (k0_hw136 : k0_chk136 v1212), ∀ a, (k0_off204 v1212) a + S1x8192.size a ≤ S8192x8192.size a := fun v1212 k0_hw136 => k0_hw136

def k0_off205 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v1225 : BitVec 32 := Scalar.addi v0 c68_i32
  let v1226 : Index := Scalar.indexCast v1225
  ![v1226.toNat]
def k0_off206 (v1227 : BitVec 32) : Fin 2 → Nat :=
  let c0_i32_616 : BitVec 32 := 0#32
  ![v1227.toNat, 0]

def k0_chk137 (v1227 : BitVec 32) : Prop :=
  (∀ a, (k0_off206 v1227) a + S1x8192.size a ≤ S8192x8192.size a)
instance k0_chk137.dec : ∀ (v1227 : BitVec 32), Decidable (k0_chk137 v1227) := fun v1227 => decidable_of_iff' _ (Iff.of_eq (k0_chk137.eq_1 v1227))
theorem k0_off206_inb : ∀ (v1227 : BitVec 32) (k0_hw137 : k0_chk137 v1227), ∀ a, (k0_off206 v1227) a + S1x8192.size a ≤ S8192x8192.size a := fun v1227 k0_hw137 => k0_hw137

def k0_off207 (v1230 : BitVec 32) : Fin 2 → Nat :=
  let c0_i32_620 : BitVec 32 := 0#32
  ![v1230.toNat, 0]

def k0_chk138 (v1230 : BitVec 32) : Prop :=
  (∀ a, (k0_off207 v1230) a + S1x8192.size a ≤ S8192x8192.size a)
instance k0_chk138.dec : ∀ (v1230 : BitVec 32), Decidable (k0_chk138 v1230) := fun v1230 => decidable_of_iff' _ (Iff.of_eq (k0_chk138.eq_1 v1230))
theorem k0_off207_inb : ∀ (v1230 : BitVec 32) (k0_hw138 : k0_chk138 v1230), ∀ a, (k0_off207 v1230) a + S1x8192.size a ≤ S8192x8192.size a := fun v1230 k0_hw138 => k0_hw138

def k0_off208 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v1243 : BitVec 32 := Scalar.addi v0 c69_i32
  let v1244 : Index := Scalar.indexCast v1243
  ![v1244.toNat]
def k0_off209 (v1245 : BitVec 32) : Fin 2 → Nat :=
  let c0_i32_625 : BitVec 32 := 0#32
  ![v1245.toNat, 0]

def k0_chk139 (v1245 : BitVec 32) : Prop :=
  (∀ a, (k0_off209 v1245) a + S1x8192.size a ≤ S8192x8192.size a)
instance k0_chk139.dec : ∀ (v1245 : BitVec 32), Decidable (k0_chk139 v1245) := fun v1245 => decidable_of_iff' _ (Iff.of_eq (k0_chk139.eq_1 v1245))
theorem k0_off209_inb : ∀ (v1245 : BitVec 32) (k0_hw139 : k0_chk139 v1245), ∀ a, (k0_off209 v1245) a + S1x8192.size a ≤ S8192x8192.size a := fun v1245 k0_hw139 => k0_hw139

def k0_off210 (v1248 : BitVec 32) : Fin 2 → Nat :=
  let c0_i32_629 : BitVec 32 := 0#32
  ![v1248.toNat, 0]

def k0_chk140 (v1248 : BitVec 32) : Prop :=
  (∀ a, (k0_off210 v1248) a + S1x8192.size a ≤ S8192x8192.size a)
instance k0_chk140.dec : ∀ (v1248 : BitVec 32), Decidable (k0_chk140 v1248) := fun v1248 => decidable_of_iff' _ (Iff.of_eq (k0_chk140.eq_1 v1248))
theorem k0_off210_inb : ∀ (v1248 : BitVec 32) (k0_hw140 : k0_chk140 v1248), ∀ a, (k0_off210 v1248) a + S1x8192.size a ≤ S8192x8192.size a := fun v1248 k0_hw140 => k0_hw140

def k0_off211 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v1261 : BitVec 32 := Scalar.addi v0 c70_i32
  let v1262 : Index := Scalar.indexCast v1261
  ![v1262.toNat]
def k0_off212 (v1263 : BitVec 32) : Fin 2 → Nat :=
  let c0_i32_634 : BitVec 32 := 0#32
  ![v1263.toNat, 0]

def k0_chk141 (v1263 : BitVec 32) : Prop :=
  (∀ a, (k0_off212 v1263) a + S1x8192.size a ≤ S8192x8192.size a)
instance k0_chk141.dec : ∀ (v1263 : BitVec 32), Decidable (k0_chk141 v1263) := fun v1263 => decidable_of_iff' _ (Iff.of_eq (k0_chk141.eq_1 v1263))
theorem k0_off212_inb : ∀ (v1263 : BitVec 32) (k0_hw141 : k0_chk141 v1263), ∀ a, (k0_off212 v1263) a + S1x8192.size a ≤ S8192x8192.size a := fun v1263 k0_hw141 => k0_hw141

def k0_off213 (v1266 : BitVec 32) : Fin 2 → Nat :=
  let c0_i32_638 : BitVec 32 := 0#32
  ![v1266.toNat, 0]

def k0_chk142 (v1266 : BitVec 32) : Prop :=
  (∀ a, (k0_off213 v1266) a + S1x8192.size a ≤ S8192x8192.size a)
instance k0_chk142.dec : ∀ (v1266 : BitVec 32), Decidable (k0_chk142 v1266) := fun v1266 => decidable_of_iff' _ (Iff.of_eq (k0_chk142.eq_1 v1266))
theorem k0_off213_inb : ∀ (v1266 : BitVec 32) (k0_hw142 : k0_chk142 v1266), ∀ a, (k0_off213 v1266) a + S1x8192.size a ≤ S8192x8192.size a := fun v1266 k0_hw142 => k0_hw142

def k0_off214 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v1279 : BitVec 32 := Scalar.addi v0 c71_i32
  let v1280 : Index := Scalar.indexCast v1279
  ![v1280.toNat]
def k0_off215 (v1281 : BitVec 32) : Fin 2 → Nat :=
  let c0_i32_643 : BitVec 32 := 0#32
  ![v1281.toNat, 0]

def k0_chk143 (v1281 : BitVec 32) : Prop :=
  (∀ a, (k0_off215 v1281) a + S1x8192.size a ≤ S8192x8192.size a)
instance k0_chk143.dec : ∀ (v1281 : BitVec 32), Decidable (k0_chk143 v1281) := fun v1281 => decidable_of_iff' _ (Iff.of_eq (k0_chk143.eq_1 v1281))
theorem k0_off215_inb : ∀ (v1281 : BitVec 32) (k0_hw143 : k0_chk143 v1281), ∀ a, (k0_off215 v1281) a + S1x8192.size a ≤ S8192x8192.size a := fun v1281 k0_hw143 => k0_hw143

def k0_off216 (v1284 : BitVec 32) : Fin 2 → Nat :=
  let c0_i32_647 : BitVec 32 := 0#32
  ![v1284.toNat, 0]

def k0_chk144 (v1284 : BitVec 32) : Prop :=
  (∀ a, (k0_off216 v1284) a + S1x8192.size a ≤ S8192x8192.size a)
instance k0_chk144.dec : ∀ (v1284 : BitVec 32), Decidable (k0_chk144 v1284) := fun v1284 => decidable_of_iff' _ (Iff.of_eq (k0_chk144.eq_1 v1284))
theorem k0_off216_inb : ∀ (v1284 : BitVec 32) (k0_hw144 : k0_chk144 v1284), ∀ a, (k0_off216 v1284) a + S1x8192.size a ≤ S8192x8192.size a := fun v1284 k0_hw144 => k0_hw144

def k0_off217 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v1297 : BitVec 32 := Scalar.addi v0 c72_i32
  let v1298 : Index := Scalar.indexCast v1297
  ![v1298.toNat]
def k0_off218 (v1299 : BitVec 32) : Fin 2 → Nat :=
  let c0_i32_652 : BitVec 32 := 0#32
  ![v1299.toNat, 0]

def k0_chk145 (v1299 : BitVec 32) : Prop :=
  (∀ a, (k0_off218 v1299) a + S1x8192.size a ≤ S8192x8192.size a)
instance k0_chk145.dec : ∀ (v1299 : BitVec 32), Decidable (k0_chk145 v1299) := fun v1299 => decidable_of_iff' _ (Iff.of_eq (k0_chk145.eq_1 v1299))
theorem k0_off218_inb : ∀ (v1299 : BitVec 32) (k0_hw145 : k0_chk145 v1299), ∀ a, (k0_off218 v1299) a + S1x8192.size a ≤ S8192x8192.size a := fun v1299 k0_hw145 => k0_hw145

def k0_off219 (v1302 : BitVec 32) : Fin 2 → Nat :=
  let c0_i32_656 : BitVec 32 := 0#32
  ![v1302.toNat, 0]

def k0_chk146 (v1302 : BitVec 32) : Prop :=
  (∀ a, (k0_off219 v1302) a + S1x8192.size a ≤ S8192x8192.size a)
instance k0_chk146.dec : ∀ (v1302 : BitVec 32), Decidable (k0_chk146 v1302) := fun v1302 => decidable_of_iff' _ (Iff.of_eq (k0_chk146.eq_1 v1302))
theorem k0_off219_inb : ∀ (v1302 : BitVec 32) (k0_hw146 : k0_chk146 v1302), ∀ a, (k0_off219 v1302) a + S1x8192.size a ≤ S8192x8192.size a := fun v1302 k0_hw146 => k0_hw146

def k0_off220 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v1315 : BitVec 32 := Scalar.addi v0 c73_i32
  let v1316 : Index := Scalar.indexCast v1315
  ![v1316.toNat]
def k0_off221 (v1317 : BitVec 32) : Fin 2 → Nat :=
  let c0_i32_661 : BitVec 32 := 0#32
  ![v1317.toNat, 0]

def k0_chk147 (v1317 : BitVec 32) : Prop :=
  (∀ a, (k0_off221 v1317) a + S1x8192.size a ≤ S8192x8192.size a)
instance k0_chk147.dec : ∀ (v1317 : BitVec 32), Decidable (k0_chk147 v1317) := fun v1317 => decidable_of_iff' _ (Iff.of_eq (k0_chk147.eq_1 v1317))
theorem k0_off221_inb : ∀ (v1317 : BitVec 32) (k0_hw147 : k0_chk147 v1317), ∀ a, (k0_off221 v1317) a + S1x8192.size a ≤ S8192x8192.size a := fun v1317 k0_hw147 => k0_hw147

def k0_off222 (v1320 : BitVec 32) : Fin 2 → Nat :=
  let c0_i32_665 : BitVec 32 := 0#32
  ![v1320.toNat, 0]

def k0_chk148 (v1320 : BitVec 32) : Prop :=
  (∀ a, (k0_off222 v1320) a + S1x8192.size a ≤ S8192x8192.size a)
instance k0_chk148.dec : ∀ (v1320 : BitVec 32), Decidable (k0_chk148 v1320) := fun v1320 => decidable_of_iff' _ (Iff.of_eq (k0_chk148.eq_1 v1320))
theorem k0_off222_inb : ∀ (v1320 : BitVec 32) (k0_hw148 : k0_chk148 v1320), ∀ a, (k0_off222 v1320) a + S1x8192.size a ≤ S8192x8192.size a := fun v1320 k0_hw148 => k0_hw148

def k0_off223 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v1333 : BitVec 32 := Scalar.addi v0 c74_i32
  let v1334 : Index := Scalar.indexCast v1333
  ![v1334.toNat]
def k0_off224 (v1335 : BitVec 32) : Fin 2 → Nat :=
  let c0_i32_670 : BitVec 32 := 0#32
  ![v1335.toNat, 0]

def k0_chk149 (v1335 : BitVec 32) : Prop :=
  (∀ a, (k0_off224 v1335) a + S1x8192.size a ≤ S8192x8192.size a)
instance k0_chk149.dec : ∀ (v1335 : BitVec 32), Decidable (k0_chk149 v1335) := fun v1335 => decidable_of_iff' _ (Iff.of_eq (k0_chk149.eq_1 v1335))
theorem k0_off224_inb : ∀ (v1335 : BitVec 32) (k0_hw149 : k0_chk149 v1335), ∀ a, (k0_off224 v1335) a + S1x8192.size a ≤ S8192x8192.size a := fun v1335 k0_hw149 => k0_hw149

def k0_off225 (v1338 : BitVec 32) : Fin 2 → Nat :=
  let c0_i32_674 : BitVec 32 := 0#32
  ![v1338.toNat, 0]

def k0_chk150 (v1338 : BitVec 32) : Prop :=
  (∀ a, (k0_off225 v1338) a + S1x8192.size a ≤ S8192x8192.size a)
instance k0_chk150.dec : ∀ (v1338 : BitVec 32), Decidable (k0_chk150 v1338) := fun v1338 => decidable_of_iff' _ (Iff.of_eq (k0_chk150.eq_1 v1338))
theorem k0_off225_inb : ∀ (v1338 : BitVec 32) (k0_hw150 : k0_chk150 v1338), ∀ a, (k0_off225 v1338) a + S1x8192.size a ≤ S8192x8192.size a := fun v1338 k0_hw150 => k0_hw150

def k0_off226 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v1351 : BitVec 32 := Scalar.addi v0 c75_i32
  let v1352 : Index := Scalar.indexCast v1351
  ![v1352.toNat]
def k0_off227 (v1353 : BitVec 32) : Fin 2 → Nat :=
  let c0_i32_679 : BitVec 32 := 0#32
  ![v1353.toNat, 0]

def k0_chk151 (v1353 : BitVec 32) : Prop :=
  (∀ a, (k0_off227 v1353) a + S1x8192.size a ≤ S8192x8192.size a)
instance k0_chk151.dec : ∀ (v1353 : BitVec 32), Decidable (k0_chk151 v1353) := fun v1353 => decidable_of_iff' _ (Iff.of_eq (k0_chk151.eq_1 v1353))
theorem k0_off227_inb : ∀ (v1353 : BitVec 32) (k0_hw151 : k0_chk151 v1353), ∀ a, (k0_off227 v1353) a + S1x8192.size a ≤ S8192x8192.size a := fun v1353 k0_hw151 => k0_hw151

def k0_off228 (v1356 : BitVec 32) : Fin 2 → Nat :=
  let c0_i32_683 : BitVec 32 := 0#32
  ![v1356.toNat, 0]

def k0_chk152 (v1356 : BitVec 32) : Prop :=
  (∀ a, (k0_off228 v1356) a + S1x8192.size a ≤ S8192x8192.size a)
instance k0_chk152.dec : ∀ (v1356 : BitVec 32), Decidable (k0_chk152 v1356) := fun v1356 => decidable_of_iff' _ (Iff.of_eq (k0_chk152.eq_1 v1356))
theorem k0_off228_inb : ∀ (v1356 : BitVec 32) (k0_hw152 : k0_chk152 v1356), ∀ a, (k0_off228 v1356) a + S1x8192.size a ≤ S8192x8192.size a := fun v1356 k0_hw152 => k0_hw152

def k0_off229 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v1369 : BitVec 32 := Scalar.addi v0 c76_i32
  let v1370 : Index := Scalar.indexCast v1369
  ![v1370.toNat]
def k0_off230 (v1371 : BitVec 32) : Fin 2 → Nat :=
  let c0_i32_688 : BitVec 32 := 0#32
  ![v1371.toNat, 0]

def k0_chk153 (v1371 : BitVec 32) : Prop :=
  (∀ a, (k0_off230 v1371) a + S1x8192.size a ≤ S8192x8192.size a)
instance k0_chk153.dec : ∀ (v1371 : BitVec 32), Decidable (k0_chk153 v1371) := fun v1371 => decidable_of_iff' _ (Iff.of_eq (k0_chk153.eq_1 v1371))
theorem k0_off230_inb : ∀ (v1371 : BitVec 32) (k0_hw153 : k0_chk153 v1371), ∀ a, (k0_off230 v1371) a + S1x8192.size a ≤ S8192x8192.size a := fun v1371 k0_hw153 => k0_hw153

def k0_off231 (v1374 : BitVec 32) : Fin 2 → Nat :=
  let c0_i32_692 : BitVec 32 := 0#32
  ![v1374.toNat, 0]

def k0_chk154 (v1374 : BitVec 32) : Prop :=
  (∀ a, (k0_off231 v1374) a + S1x8192.size a ≤ S8192x8192.size a)
instance k0_chk154.dec : ∀ (v1374 : BitVec 32), Decidable (k0_chk154 v1374) := fun v1374 => decidable_of_iff' _ (Iff.of_eq (k0_chk154.eq_1 v1374))
theorem k0_off231_inb : ∀ (v1374 : BitVec 32) (k0_hw154 : k0_chk154 v1374), ∀ a, (k0_off231 v1374) a + S1x8192.size a ≤ S8192x8192.size a := fun v1374 k0_hw154 => k0_hw154

def k0_off232 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v1387 : BitVec 32 := Scalar.addi v0 c77_i32
  let v1388 : Index := Scalar.indexCast v1387
  ![v1388.toNat]
def k0_off233 (v1389 : BitVec 32) : Fin 2 → Nat :=
  let c0_i32_697 : BitVec 32 := 0#32
  ![v1389.toNat, 0]

def k0_chk155 (v1389 : BitVec 32) : Prop :=
  (∀ a, (k0_off233 v1389) a + S1x8192.size a ≤ S8192x8192.size a)
instance k0_chk155.dec : ∀ (v1389 : BitVec 32), Decidable (k0_chk155 v1389) := fun v1389 => decidable_of_iff' _ (Iff.of_eq (k0_chk155.eq_1 v1389))
theorem k0_off233_inb : ∀ (v1389 : BitVec 32) (k0_hw155 : k0_chk155 v1389), ∀ a, (k0_off233 v1389) a + S1x8192.size a ≤ S8192x8192.size a := fun v1389 k0_hw155 => k0_hw155

def k0_off234 (v1392 : BitVec 32) : Fin 2 → Nat :=
  let c0_i32_701 : BitVec 32 := 0#32
  ![v1392.toNat, 0]

def k0_chk156 (v1392 : BitVec 32) : Prop :=
  (∀ a, (k0_off234 v1392) a + S1x8192.size a ≤ S8192x8192.size a)
instance k0_chk156.dec : ∀ (v1392 : BitVec 32), Decidable (k0_chk156 v1392) := fun v1392 => decidable_of_iff' _ (Iff.of_eq (k0_chk156.eq_1 v1392))
theorem k0_off234_inb : ∀ (v1392 : BitVec 32) (k0_hw156 : k0_chk156 v1392), ∀ a, (k0_off234 v1392) a + S1x8192.size a ≤ S8192x8192.size a := fun v1392 k0_hw156 => k0_hw156

def k0_off235 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v1405 : BitVec 32 := Scalar.addi v0 c78_i32
  let v1406 : Index := Scalar.indexCast v1405
  ![v1406.toNat]
def k0_off236 (v1407 : BitVec 32) : Fin 2 → Nat :=
  let c0_i32_706 : BitVec 32 := 0#32
  ![v1407.toNat, 0]

def k0_chk157 (v1407 : BitVec 32) : Prop :=
  (∀ a, (k0_off236 v1407) a + S1x8192.size a ≤ S8192x8192.size a)
instance k0_chk157.dec : ∀ (v1407 : BitVec 32), Decidable (k0_chk157 v1407) := fun v1407 => decidable_of_iff' _ (Iff.of_eq (k0_chk157.eq_1 v1407))
theorem k0_off236_inb : ∀ (v1407 : BitVec 32) (k0_hw157 : k0_chk157 v1407), ∀ a, (k0_off236 v1407) a + S1x8192.size a ≤ S8192x8192.size a := fun v1407 k0_hw157 => k0_hw157

def k0_off237 (v1410 : BitVec 32) : Fin 2 → Nat :=
  let c0_i32_710 : BitVec 32 := 0#32
  ![v1410.toNat, 0]

def k0_chk158 (v1410 : BitVec 32) : Prop :=
  (∀ a, (k0_off237 v1410) a + S1x8192.size a ≤ S8192x8192.size a)
instance k0_chk158.dec : ∀ (v1410 : BitVec 32), Decidable (k0_chk158 v1410) := fun v1410 => decidable_of_iff' _ (Iff.of_eq (k0_chk158.eq_1 v1410))
theorem k0_off237_inb : ∀ (v1410 : BitVec 32) (k0_hw158 : k0_chk158 v1410), ∀ a, (k0_off237 v1410) a + S1x8192.size a ≤ S8192x8192.size a := fun v1410 k0_hw158 => k0_hw158

def k0_off238 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v1423 : BitVec 32 := Scalar.addi v0 c79_i32
  let v1424 : Index := Scalar.indexCast v1423
  ![v1424.toNat]
def k0_off239 (v1425 : BitVec 32) : Fin 2 → Nat :=
  let c0_i32_715 : BitVec 32 := 0#32
  ![v1425.toNat, 0]

def k0_chk159 (v1425 : BitVec 32) : Prop :=
  (∀ a, (k0_off239 v1425) a + S1x8192.size a ≤ S8192x8192.size a)
instance k0_chk159.dec : ∀ (v1425 : BitVec 32), Decidable (k0_chk159 v1425) := fun v1425 => decidable_of_iff' _ (Iff.of_eq (k0_chk159.eq_1 v1425))
theorem k0_off239_inb : ∀ (v1425 : BitVec 32) (k0_hw159 : k0_chk159 v1425), ∀ a, (k0_off239 v1425) a + S1x8192.size a ≤ S8192x8192.size a := fun v1425 k0_hw159 => k0_hw159

def k0_off240 (v1428 : BitVec 32) : Fin 2 → Nat :=
  let c0_i32_719 : BitVec 32 := 0#32
  ![v1428.toNat, 0]

def k0_chk160 (v1428 : BitVec 32) : Prop :=
  (∀ a, (k0_off240 v1428) a + S1x8192.size a ≤ S8192x8192.size a)
instance k0_chk160.dec : ∀ (v1428 : BitVec 32), Decidable (k0_chk160 v1428) := fun v1428 => decidable_of_iff' _ (Iff.of_eq (k0_chk160.eq_1 v1428))
theorem k0_off240_inb : ∀ (v1428 : BitVec 32) (k0_hw160 : k0_chk160 v1428), ∀ a, (k0_off240 v1428) a + S1x8192.size a ≤ S8192x8192.size a := fun v1428 k0_hw160 => k0_hw160

def k0_off241 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v1441 : BitVec 32 := Scalar.addi v0 c80_i32
  let v1442 : Index := Scalar.indexCast v1441
  ![v1442.toNat]
def k0_off242 (v1443 : BitVec 32) : Fin 2 → Nat :=
  let c0_i32_724 : BitVec 32 := 0#32
  ![v1443.toNat, 0]

def k0_chk161 (v1443 : BitVec 32) : Prop :=
  (∀ a, (k0_off242 v1443) a + S1x8192.size a ≤ S8192x8192.size a)
instance k0_chk161.dec : ∀ (v1443 : BitVec 32), Decidable (k0_chk161 v1443) := fun v1443 => decidable_of_iff' _ (Iff.of_eq (k0_chk161.eq_1 v1443))
theorem k0_off242_inb : ∀ (v1443 : BitVec 32) (k0_hw161 : k0_chk161 v1443), ∀ a, (k0_off242 v1443) a + S1x8192.size a ≤ S8192x8192.size a := fun v1443 k0_hw161 => k0_hw161

def k0_off243 (v1446 : BitVec 32) : Fin 2 → Nat :=
  let c0_i32_728 : BitVec 32 := 0#32
  ![v1446.toNat, 0]

def k0_chk162 (v1446 : BitVec 32) : Prop :=
  (∀ a, (k0_off243 v1446) a + S1x8192.size a ≤ S8192x8192.size a)
instance k0_chk162.dec : ∀ (v1446 : BitVec 32), Decidable (k0_chk162 v1446) := fun v1446 => decidable_of_iff' _ (Iff.of_eq (k0_chk162.eq_1 v1446))
theorem k0_off243_inb : ∀ (v1446 : BitVec 32) (k0_hw162 : k0_chk162 v1446), ∀ a, (k0_off243 v1446) a + S1x8192.size a ≤ S8192x8192.size a := fun v1446 k0_hw162 => k0_hw162

def k0_off244 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v1459 : BitVec 32 := Scalar.addi v0 c81_i32
  let v1460 : Index := Scalar.indexCast v1459
  ![v1460.toNat]
def k0_off245 (v1461 : BitVec 32) : Fin 2 → Nat :=
  let c0_i32_733 : BitVec 32 := 0#32
  ![v1461.toNat, 0]

def k0_chk163 (v1461 : BitVec 32) : Prop :=
  (∀ a, (k0_off245 v1461) a + S1x8192.size a ≤ S8192x8192.size a)
instance k0_chk163.dec : ∀ (v1461 : BitVec 32), Decidable (k0_chk163 v1461) := fun v1461 => decidable_of_iff' _ (Iff.of_eq (k0_chk163.eq_1 v1461))
theorem k0_off245_inb : ∀ (v1461 : BitVec 32) (k0_hw163 : k0_chk163 v1461), ∀ a, (k0_off245 v1461) a + S1x8192.size a ≤ S8192x8192.size a := fun v1461 k0_hw163 => k0_hw163

def k0_off246 (v1464 : BitVec 32) : Fin 2 → Nat :=
  let c0_i32_737 : BitVec 32 := 0#32
  ![v1464.toNat, 0]

def k0_chk164 (v1464 : BitVec 32) : Prop :=
  (∀ a, (k0_off246 v1464) a + S1x8192.size a ≤ S8192x8192.size a)
instance k0_chk164.dec : ∀ (v1464 : BitVec 32), Decidable (k0_chk164 v1464) := fun v1464 => decidable_of_iff' _ (Iff.of_eq (k0_chk164.eq_1 v1464))
theorem k0_off246_inb : ∀ (v1464 : BitVec 32) (k0_hw164 : k0_chk164 v1464), ∀ a, (k0_off246 v1464) a + S1x8192.size a ≤ S8192x8192.size a := fun v1464 k0_hw164 => k0_hw164

def k0_off247 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v1477 : BitVec 32 := Scalar.addi v0 c82_i32
  let v1478 : Index := Scalar.indexCast v1477
  ![v1478.toNat]
def k0_off248 (v1479 : BitVec 32) : Fin 2 → Nat :=
  let c0_i32_742 : BitVec 32 := 0#32
  ![v1479.toNat, 0]

def k0_chk165 (v1479 : BitVec 32) : Prop :=
  (∀ a, (k0_off248 v1479) a + S1x8192.size a ≤ S8192x8192.size a)
instance k0_chk165.dec : ∀ (v1479 : BitVec 32), Decidable (k0_chk165 v1479) := fun v1479 => decidable_of_iff' _ (Iff.of_eq (k0_chk165.eq_1 v1479))
theorem k0_off248_inb : ∀ (v1479 : BitVec 32) (k0_hw165 : k0_chk165 v1479), ∀ a, (k0_off248 v1479) a + S1x8192.size a ≤ S8192x8192.size a := fun v1479 k0_hw165 => k0_hw165

def k0_off249 (v1482 : BitVec 32) : Fin 2 → Nat :=
  let c0_i32_746 : BitVec 32 := 0#32
  ![v1482.toNat, 0]

def k0_chk166 (v1482 : BitVec 32) : Prop :=
  (∀ a, (k0_off249 v1482) a + S1x8192.size a ≤ S8192x8192.size a)
instance k0_chk166.dec : ∀ (v1482 : BitVec 32), Decidable (k0_chk166 v1482) := fun v1482 => decidable_of_iff' _ (Iff.of_eq (k0_chk166.eq_1 v1482))
theorem k0_off249_inb : ∀ (v1482 : BitVec 32) (k0_hw166 : k0_chk166 v1482), ∀ a, (k0_off249 v1482) a + S1x8192.size a ≤ S8192x8192.size a := fun v1482 k0_hw166 => k0_hw166

def k0_off250 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v1495 : BitVec 32 := Scalar.addi v0 c83_i32
  let v1496 : Index := Scalar.indexCast v1495
  ![v1496.toNat]
def k0_off251 (v1497 : BitVec 32) : Fin 2 → Nat :=
  let c0_i32_751 : BitVec 32 := 0#32
  ![v1497.toNat, 0]

def k0_chk167 (v1497 : BitVec 32) : Prop :=
  (∀ a, (k0_off251 v1497) a + S1x8192.size a ≤ S8192x8192.size a)
instance k0_chk167.dec : ∀ (v1497 : BitVec 32), Decidable (k0_chk167 v1497) := fun v1497 => decidable_of_iff' _ (Iff.of_eq (k0_chk167.eq_1 v1497))
theorem k0_off251_inb : ∀ (v1497 : BitVec 32) (k0_hw167 : k0_chk167 v1497), ∀ a, (k0_off251 v1497) a + S1x8192.size a ≤ S8192x8192.size a := fun v1497 k0_hw167 => k0_hw167

def k0_off252 (v1500 : BitVec 32) : Fin 2 → Nat :=
  let c0_i32_755 : BitVec 32 := 0#32
  ![v1500.toNat, 0]

def k0_chk168 (v1500 : BitVec 32) : Prop :=
  (∀ a, (k0_off252 v1500) a + S1x8192.size a ≤ S8192x8192.size a)
instance k0_chk168.dec : ∀ (v1500 : BitVec 32), Decidable (k0_chk168 v1500) := fun v1500 => decidable_of_iff' _ (Iff.of_eq (k0_chk168.eq_1 v1500))
theorem k0_off252_inb : ∀ (v1500 : BitVec 32) (k0_hw168 : k0_chk168 v1500), ∀ a, (k0_off252 v1500) a + S1x8192.size a ≤ S8192x8192.size a := fun v1500 k0_hw168 => k0_hw168

def k0_off253 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v1513 : BitVec 32 := Scalar.addi v0 c84_i32
  let v1514 : Index := Scalar.indexCast v1513
  ![v1514.toNat]
def k0_off254 (v1515 : BitVec 32) : Fin 2 → Nat :=
  let c0_i32_760 : BitVec 32 := 0#32
  ![v1515.toNat, 0]

def k0_chk169 (v1515 : BitVec 32) : Prop :=
  (∀ a, (k0_off254 v1515) a + S1x8192.size a ≤ S8192x8192.size a)
instance k0_chk169.dec : ∀ (v1515 : BitVec 32), Decidable (k0_chk169 v1515) := fun v1515 => decidable_of_iff' _ (Iff.of_eq (k0_chk169.eq_1 v1515))
theorem k0_off254_inb : ∀ (v1515 : BitVec 32) (k0_hw169 : k0_chk169 v1515), ∀ a, (k0_off254 v1515) a + S1x8192.size a ≤ S8192x8192.size a := fun v1515 k0_hw169 => k0_hw169

def k0_off255 (v1518 : BitVec 32) : Fin 2 → Nat :=
  let c0_i32_764 : BitVec 32 := 0#32
  ![v1518.toNat, 0]

def k0_chk170 (v1518 : BitVec 32) : Prop :=
  (∀ a, (k0_off255 v1518) a + S1x8192.size a ≤ S8192x8192.size a)
instance k0_chk170.dec : ∀ (v1518 : BitVec 32), Decidable (k0_chk170 v1518) := fun v1518 => decidable_of_iff' _ (Iff.of_eq (k0_chk170.eq_1 v1518))
theorem k0_off255_inb : ∀ (v1518 : BitVec 32) (k0_hw170 : k0_chk170 v1518), ∀ a, (k0_off255 v1518) a + S1x8192.size a ≤ S8192x8192.size a := fun v1518 k0_hw170 => k0_hw170

def k0_off256 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v1531 : BitVec 32 := Scalar.addi v0 c85_i32
  let v1532 : Index := Scalar.indexCast v1531
  ![v1532.toNat]
def k0_off257 (v1533 : BitVec 32) : Fin 2 → Nat :=
  let c0_i32_769 : BitVec 32 := 0#32
  ![v1533.toNat, 0]

def k0_chk171 (v1533 : BitVec 32) : Prop :=
  (∀ a, (k0_off257 v1533) a + S1x8192.size a ≤ S8192x8192.size a)
instance k0_chk171.dec : ∀ (v1533 : BitVec 32), Decidable (k0_chk171 v1533) := fun v1533 => decidable_of_iff' _ (Iff.of_eq (k0_chk171.eq_1 v1533))
theorem k0_off257_inb : ∀ (v1533 : BitVec 32) (k0_hw171 : k0_chk171 v1533), ∀ a, (k0_off257 v1533) a + S1x8192.size a ≤ S8192x8192.size a := fun v1533 k0_hw171 => k0_hw171

def k0_off258 (v1536 : BitVec 32) : Fin 2 → Nat :=
  let c0_i32_773 : BitVec 32 := 0#32
  ![v1536.toNat, 0]

def k0_chk172 (v1536 : BitVec 32) : Prop :=
  (∀ a, (k0_off258 v1536) a + S1x8192.size a ≤ S8192x8192.size a)
instance k0_chk172.dec : ∀ (v1536 : BitVec 32), Decidable (k0_chk172 v1536) := fun v1536 => decidable_of_iff' _ (Iff.of_eq (k0_chk172.eq_1 v1536))
theorem k0_off258_inb : ∀ (v1536 : BitVec 32) (k0_hw172 : k0_chk172 v1536), ∀ a, (k0_off258 v1536) a + S1x8192.size a ≤ S8192x8192.size a := fun v1536 k0_hw172 => k0_hw172

def k0_off259 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v1549 : BitVec 32 := Scalar.addi v0 c86_i32
  let v1550 : Index := Scalar.indexCast v1549
  ![v1550.toNat]
def k0_off260 (v1551 : BitVec 32) : Fin 2 → Nat :=
  let c0_i32_778 : BitVec 32 := 0#32
  ![v1551.toNat, 0]

def k0_chk173 (v1551 : BitVec 32) : Prop :=
  (∀ a, (k0_off260 v1551) a + S1x8192.size a ≤ S8192x8192.size a)
instance k0_chk173.dec : ∀ (v1551 : BitVec 32), Decidable (k0_chk173 v1551) := fun v1551 => decidable_of_iff' _ (Iff.of_eq (k0_chk173.eq_1 v1551))
theorem k0_off260_inb : ∀ (v1551 : BitVec 32) (k0_hw173 : k0_chk173 v1551), ∀ a, (k0_off260 v1551) a + S1x8192.size a ≤ S8192x8192.size a := fun v1551 k0_hw173 => k0_hw173

def k0_off261 (v1554 : BitVec 32) : Fin 2 → Nat :=
  let c0_i32_782 : BitVec 32 := 0#32
  ![v1554.toNat, 0]

def k0_chk174 (v1554 : BitVec 32) : Prop :=
  (∀ a, (k0_off261 v1554) a + S1x8192.size a ≤ S8192x8192.size a)
instance k0_chk174.dec : ∀ (v1554 : BitVec 32), Decidable (k0_chk174 v1554) := fun v1554 => decidable_of_iff' _ (Iff.of_eq (k0_chk174.eq_1 v1554))
theorem k0_off261_inb : ∀ (v1554 : BitVec 32) (k0_hw174 : k0_chk174 v1554), ∀ a, (k0_off261 v1554) a + S1x8192.size a ≤ S8192x8192.size a := fun v1554 k0_hw174 => k0_hw174

def k0_off262 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v1567 : BitVec 32 := Scalar.addi v0 c87_i32
  let v1568 : Index := Scalar.indexCast v1567
  ![v1568.toNat]
def k0_off263 (v1569 : BitVec 32) : Fin 2 → Nat :=
  let c0_i32_787 : BitVec 32 := 0#32
  ![v1569.toNat, 0]

def k0_chk175 (v1569 : BitVec 32) : Prop :=
  (∀ a, (k0_off263 v1569) a + S1x8192.size a ≤ S8192x8192.size a)
instance k0_chk175.dec : ∀ (v1569 : BitVec 32), Decidable (k0_chk175 v1569) := fun v1569 => decidable_of_iff' _ (Iff.of_eq (k0_chk175.eq_1 v1569))
theorem k0_off263_inb : ∀ (v1569 : BitVec 32) (k0_hw175 : k0_chk175 v1569), ∀ a, (k0_off263 v1569) a + S1x8192.size a ≤ S8192x8192.size a := fun v1569 k0_hw175 => k0_hw175

def k0_off264 (v1572 : BitVec 32) : Fin 2 → Nat :=
  let c0_i32_791 : BitVec 32 := 0#32
  ![v1572.toNat, 0]

def k0_chk176 (v1572 : BitVec 32) : Prop :=
  (∀ a, (k0_off264 v1572) a + S1x8192.size a ≤ S8192x8192.size a)
instance k0_chk176.dec : ∀ (v1572 : BitVec 32), Decidable (k0_chk176 v1572) := fun v1572 => decidable_of_iff' _ (Iff.of_eq (k0_chk176.eq_1 v1572))
theorem k0_off264_inb : ∀ (v1572 : BitVec 32) (k0_hw176 : k0_chk176 v1572), ∀ a, (k0_off264 v1572) a + S1x8192.size a ≤ S8192x8192.size a := fun v1572 k0_hw176 => k0_hw176

def k0_off265 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v1585 : BitVec 32 := Scalar.addi v0 c88_i32
  let v1586 : Index := Scalar.indexCast v1585
  ![v1586.toNat]
def k0_off266 (v1587 : BitVec 32) : Fin 2 → Nat :=
  let c0_i32_796 : BitVec 32 := 0#32
  ![v1587.toNat, 0]

def k0_chk177 (v1587 : BitVec 32) : Prop :=
  (∀ a, (k0_off266 v1587) a + S1x8192.size a ≤ S8192x8192.size a)
instance k0_chk177.dec : ∀ (v1587 : BitVec 32), Decidable (k0_chk177 v1587) := fun v1587 => decidable_of_iff' _ (Iff.of_eq (k0_chk177.eq_1 v1587))
theorem k0_off266_inb : ∀ (v1587 : BitVec 32) (k0_hw177 : k0_chk177 v1587), ∀ a, (k0_off266 v1587) a + S1x8192.size a ≤ S8192x8192.size a := fun v1587 k0_hw177 => k0_hw177

def k0_off267 (v1590 : BitVec 32) : Fin 2 → Nat :=
  let c0_i32_800 : BitVec 32 := 0#32
  ![v1590.toNat, 0]

def k0_chk178 (v1590 : BitVec 32) : Prop :=
  (∀ a, (k0_off267 v1590) a + S1x8192.size a ≤ S8192x8192.size a)
instance k0_chk178.dec : ∀ (v1590 : BitVec 32), Decidable (k0_chk178 v1590) := fun v1590 => decidable_of_iff' _ (Iff.of_eq (k0_chk178.eq_1 v1590))
theorem k0_off267_inb : ∀ (v1590 : BitVec 32) (k0_hw178 : k0_chk178 v1590), ∀ a, (k0_off267 v1590) a + S1x8192.size a ≤ S8192x8192.size a := fun v1590 k0_hw178 => k0_hw178

def k0_off268 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v1603 : BitVec 32 := Scalar.addi v0 c89_i32
  let v1604 : Index := Scalar.indexCast v1603
  ![v1604.toNat]
def k0_off269 (v1605 : BitVec 32) : Fin 2 → Nat :=
  let c0_i32_805 : BitVec 32 := 0#32
  ![v1605.toNat, 0]

def k0_chk179 (v1605 : BitVec 32) : Prop :=
  (∀ a, (k0_off269 v1605) a + S1x8192.size a ≤ S8192x8192.size a)
instance k0_chk179.dec : ∀ (v1605 : BitVec 32), Decidable (k0_chk179 v1605) := fun v1605 => decidable_of_iff' _ (Iff.of_eq (k0_chk179.eq_1 v1605))
theorem k0_off269_inb : ∀ (v1605 : BitVec 32) (k0_hw179 : k0_chk179 v1605), ∀ a, (k0_off269 v1605) a + S1x8192.size a ≤ S8192x8192.size a := fun v1605 k0_hw179 => k0_hw179

def k0_off270 (v1608 : BitVec 32) : Fin 2 → Nat :=
  let c0_i32_809 : BitVec 32 := 0#32
  ![v1608.toNat, 0]

def k0_chk180 (v1608 : BitVec 32) : Prop :=
  (∀ a, (k0_off270 v1608) a + S1x8192.size a ≤ S8192x8192.size a)
instance k0_chk180.dec : ∀ (v1608 : BitVec 32), Decidable (k0_chk180 v1608) := fun v1608 => decidable_of_iff' _ (Iff.of_eq (k0_chk180.eq_1 v1608))
theorem k0_off270_inb : ∀ (v1608 : BitVec 32) (k0_hw180 : k0_chk180 v1608), ∀ a, (k0_off270 v1608) a + S1x8192.size a ≤ S8192x8192.size a := fun v1608 k0_hw180 => k0_hw180

def k0_off271 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v1621 : BitVec 32 := Scalar.addi v0 c90_i32
  let v1622 : Index := Scalar.indexCast v1621
  ![v1622.toNat]
def k0_off272 (v1623 : BitVec 32) : Fin 2 → Nat :=
  let c0_i32_814 : BitVec 32 := 0#32
  ![v1623.toNat, 0]

def k0_chk181 (v1623 : BitVec 32) : Prop :=
  (∀ a, (k0_off272 v1623) a + S1x8192.size a ≤ S8192x8192.size a)
instance k0_chk181.dec : ∀ (v1623 : BitVec 32), Decidable (k0_chk181 v1623) := fun v1623 => decidable_of_iff' _ (Iff.of_eq (k0_chk181.eq_1 v1623))
theorem k0_off272_inb : ∀ (v1623 : BitVec 32) (k0_hw181 : k0_chk181 v1623), ∀ a, (k0_off272 v1623) a + S1x8192.size a ≤ S8192x8192.size a := fun v1623 k0_hw181 => k0_hw181

def k0_off273 (v1626 : BitVec 32) : Fin 2 → Nat :=
  let c0_i32_818 : BitVec 32 := 0#32
  ![v1626.toNat, 0]

def k0_chk182 (v1626 : BitVec 32) : Prop :=
  (∀ a, (k0_off273 v1626) a + S1x8192.size a ≤ S8192x8192.size a)
instance k0_chk182.dec : ∀ (v1626 : BitVec 32), Decidable (k0_chk182 v1626) := fun v1626 => decidable_of_iff' _ (Iff.of_eq (k0_chk182.eq_1 v1626))
theorem k0_off273_inb : ∀ (v1626 : BitVec 32) (k0_hw182 : k0_chk182 v1626), ∀ a, (k0_off273 v1626) a + S1x8192.size a ≤ S8192x8192.size a := fun v1626 k0_hw182 => k0_hw182

def k0_off274 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1639 : BitVec 32 := Scalar.addi v0 c91_i32
  let v1640 : Index := Scalar.indexCast v1639
  ![v1640.toNat]
def k0_off275 (v1641 : BitVec 32) : Fin 2 → Nat :=
  let c0_i32_823 : BitVec 32 := 0#32
  ![v1641.toNat, 0]

def k0_chk183 (v1641 : BitVec 32) : Prop :=
  (∀ a, (k0_off275 v1641) a + S1x8192.size a ≤ S8192x8192.size a)
instance k0_chk183.dec : ∀ (v1641 : BitVec 32), Decidable (k0_chk183 v1641) := fun v1641 => decidable_of_iff' _ (Iff.of_eq (k0_chk183.eq_1 v1641))
theorem k0_off275_inb : ∀ (v1641 : BitVec 32) (k0_hw183 : k0_chk183 v1641), ∀ a, (k0_off275 v1641) a + S1x8192.size a ≤ S8192x8192.size a := fun v1641 k0_hw183 => k0_hw183

def k0_off276 (v1644 : BitVec 32) : Fin 2 → Nat :=
  let c0_i32_827 : BitVec 32 := 0#32
  ![v1644.toNat, 0]

def k0_chk184 (v1644 : BitVec 32) : Prop :=
  (∀ a, (k0_off276 v1644) a + S1x8192.size a ≤ S8192x8192.size a)
instance k0_chk184.dec : ∀ (v1644 : BitVec 32), Decidable (k0_chk184 v1644) := fun v1644 => decidable_of_iff' _ (Iff.of_eq (k0_chk184.eq_1 v1644))
theorem k0_off276_inb : ∀ (v1644 : BitVec 32) (k0_hw184 : k0_chk184 v1644), ∀ a, (k0_off276 v1644) a + S1x8192.size a ≤ S8192x8192.size a := fun v1644 k0_hw184 => k0_hw184

def k0_off277 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1657 : BitVec 32 := Scalar.addi v0 c92_i32
  let v1658 : Index := Scalar.indexCast v1657
  ![v1658.toNat]
def k0_off278 (v1659 : BitVec 32) : Fin 2 → Nat :=
  let c0_i32_832 : BitVec 32 := 0#32
  ![v1659.toNat, 0]

def k0_chk185 (v1659 : BitVec 32) : Prop :=
  (∀ a, (k0_off278 v1659) a + S1x8192.size a ≤ S8192x8192.size a)
instance k0_chk185.dec : ∀ (v1659 : BitVec 32), Decidable (k0_chk185 v1659) := fun v1659 => decidable_of_iff' _ (Iff.of_eq (k0_chk185.eq_1 v1659))
theorem k0_off278_inb : ∀ (v1659 : BitVec 32) (k0_hw185 : k0_chk185 v1659), ∀ a, (k0_off278 v1659) a + S1x8192.size a ≤ S8192x8192.size a := fun v1659 k0_hw185 => k0_hw185

def k0_off279 (v1662 : BitVec 32) : Fin 2 → Nat :=
  let c0_i32_836 : BitVec 32 := 0#32
  ![v1662.toNat, 0]

def k0_chk186 (v1662 : BitVec 32) : Prop :=
  (∀ a, (k0_off279 v1662) a + S1x8192.size a ≤ S8192x8192.size a)
instance k0_chk186.dec : ∀ (v1662 : BitVec 32), Decidable (k0_chk186 v1662) := fun v1662 => decidable_of_iff' _ (Iff.of_eq (k0_chk186.eq_1 v1662))
theorem k0_off279_inb : ∀ (v1662 : BitVec 32) (k0_hw186 : k0_chk186 v1662), ∀ a, (k0_off279 v1662) a + S1x8192.size a ≤ S8192x8192.size a := fun v1662 k0_hw186 => k0_hw186

def k0_off280 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1675 : BitVec 32 := Scalar.addi v0 c93_i32
  let v1676 : Index := Scalar.indexCast v1675
  ![v1676.toNat]
def k0_off281 (v1677 : BitVec 32) : Fin 2 → Nat :=
  let c0_i32_841 : BitVec 32 := 0#32
  ![v1677.toNat, 0]

def k0_chk187 (v1677 : BitVec 32) : Prop :=
  (∀ a, (k0_off281 v1677) a + S1x8192.size a ≤ S8192x8192.size a)
instance k0_chk187.dec : ∀ (v1677 : BitVec 32), Decidable (k0_chk187 v1677) := fun v1677 => decidable_of_iff' _ (Iff.of_eq (k0_chk187.eq_1 v1677))
theorem k0_off281_inb : ∀ (v1677 : BitVec 32) (k0_hw187 : k0_chk187 v1677), ∀ a, (k0_off281 v1677) a + S1x8192.size a ≤ S8192x8192.size a := fun v1677 k0_hw187 => k0_hw187

def k0_off282 (v1680 : BitVec 32) : Fin 2 → Nat :=
  let c0_i32_845 : BitVec 32 := 0#32
  ![v1680.toNat, 0]

def k0_chk188 (v1680 : BitVec 32) : Prop :=
  (∀ a, (k0_off282 v1680) a + S1x8192.size a ≤ S8192x8192.size a)
instance k0_chk188.dec : ∀ (v1680 : BitVec 32), Decidable (k0_chk188 v1680) := fun v1680 => decidable_of_iff' _ (Iff.of_eq (k0_chk188.eq_1 v1680))
theorem k0_off282_inb : ∀ (v1680 : BitVec 32) (k0_hw188 : k0_chk188 v1680), ∀ a, (k0_off282 v1680) a + S1x8192.size a ≤ S8192x8192.size a := fun v1680 k0_hw188 => k0_hw188

def k0_off283 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1693 : BitVec 32 := Scalar.addi v0 c94_i32
  let v1694 : Index := Scalar.indexCast v1693
  ![v1694.toNat]
def k0_off284 (v1695 : BitVec 32) : Fin 2 → Nat :=
  let c0_i32_850 : BitVec 32 := 0#32
  ![v1695.toNat, 0]

def k0_chk189 (v1695 : BitVec 32) : Prop :=
  (∀ a, (k0_off284 v1695) a + S1x8192.size a ≤ S8192x8192.size a)
instance k0_chk189.dec : ∀ (v1695 : BitVec 32), Decidable (k0_chk189 v1695) := fun v1695 => decidable_of_iff' _ (Iff.of_eq (k0_chk189.eq_1 v1695))
theorem k0_off284_inb : ∀ (v1695 : BitVec 32) (k0_hw189 : k0_chk189 v1695), ∀ a, (k0_off284 v1695) a + S1x8192.size a ≤ S8192x8192.size a := fun v1695 k0_hw189 => k0_hw189

def k0_off285 (v1698 : BitVec 32) : Fin 2 → Nat :=
  let c0_i32_854 : BitVec 32 := 0#32
  ![v1698.toNat, 0]

def k0_chk190 (v1698 : BitVec 32) : Prop :=
  (∀ a, (k0_off285 v1698) a + S1x8192.size a ≤ S8192x8192.size a)
instance k0_chk190.dec : ∀ (v1698 : BitVec 32), Decidable (k0_chk190 v1698) := fun v1698 => decidable_of_iff' _ (Iff.of_eq (k0_chk190.eq_1 v1698))
theorem k0_off285_inb : ∀ (v1698 : BitVec 32) (k0_hw190 : k0_chk190 v1698), ∀ a, (k0_off285 v1698) a + S1x8192.size a ≤ S8192x8192.size a := fun v1698 k0_hw190 => k0_hw190

def k0_off286 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1711 : BitVec 32 := Scalar.addi v0 c95_i32
  let v1712 : Index := Scalar.indexCast v1711
  ![v1712.toNat]
def k0_off287 (v1713 : BitVec 32) : Fin 2 → Nat :=
  let c0_i32_859 : BitVec 32 := 0#32
  ![v1713.toNat, 0]

def k0_chk191 (v1713 : BitVec 32) : Prop :=
  (∀ a, (k0_off287 v1713) a + S1x8192.size a ≤ S8192x8192.size a)
instance k0_chk191.dec : ∀ (v1713 : BitVec 32), Decidable (k0_chk191 v1713) := fun v1713 => decidable_of_iff' _ (Iff.of_eq (k0_chk191.eq_1 v1713))
theorem k0_off287_inb : ∀ (v1713 : BitVec 32) (k0_hw191 : k0_chk191 v1713), ∀ a, (k0_off287 v1713) a + S1x8192.size a ≤ S8192x8192.size a := fun v1713 k0_hw191 => k0_hw191

def k0_off288 (v1716 : BitVec 32) : Fin 2 → Nat :=
  let c0_i32_863 : BitVec 32 := 0#32
  ![v1716.toNat, 0]

def k0_chk192 (v1716 : BitVec 32) : Prop :=
  (∀ a, (k0_off288 v1716) a + S1x8192.size a ≤ S8192x8192.size a)
instance k0_chk192.dec : ∀ (v1716 : BitVec 32), Decidable (k0_chk192 v1716) := fun v1716 => decidable_of_iff' _ (Iff.of_eq (k0_chk192.eq_1 v1716))
theorem k0_off288_inb : ∀ (v1716 : BitVec 32) (k0_hw192 : k0_chk192 v1716), ∀ a, (k0_off288 v1716) a + S1x8192.size a ≤ S8192x8192.size a := fun v1716 k0_hw192 => k0_hw192

def k0_off289 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1729 : BitVec 32 := Scalar.addi v0 c96_i32
  let v1730 : Index := Scalar.indexCast v1729
  ![v1730.toNat]
def k0_off290 (v1731 : BitVec 32) : Fin 2 → Nat :=
  let c0_i32_868 : BitVec 32 := 0#32
  ![v1731.toNat, 0]

def k0_chk193 (v1731 : BitVec 32) : Prop :=
  (∀ a, (k0_off290 v1731) a + S1x8192.size a ≤ S8192x8192.size a)
instance k0_chk193.dec : ∀ (v1731 : BitVec 32), Decidable (k0_chk193 v1731) := fun v1731 => decidable_of_iff' _ (Iff.of_eq (k0_chk193.eq_1 v1731))
theorem k0_off290_inb : ∀ (v1731 : BitVec 32) (k0_hw193 : k0_chk193 v1731), ∀ a, (k0_off290 v1731) a + S1x8192.size a ≤ S8192x8192.size a := fun v1731 k0_hw193 => k0_hw193

def k0_off291 (v1734 : BitVec 32) : Fin 2 → Nat :=
  let c0_i32_872 : BitVec 32 := 0#32
  ![v1734.toNat, 0]

def k0_chk194 (v1734 : BitVec 32) : Prop :=
  (∀ a, (k0_off291 v1734) a + S1x8192.size a ≤ S8192x8192.size a)
instance k0_chk194.dec : ∀ (v1734 : BitVec 32), Decidable (k0_chk194 v1734) := fun v1734 => decidable_of_iff' _ (Iff.of_eq (k0_chk194.eq_1 v1734))
theorem k0_off291_inb : ∀ (v1734 : BitVec 32) (k0_hw194 : k0_chk194 v1734), ∀ a, (k0_off291 v1734) a + S1x8192.size a ≤ S8192x8192.size a := fun v1734 k0_hw194 => k0_hw194

def k0_off292 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1747 : BitVec 32 := Scalar.addi v0 c97_i32
  let v1748 : Index := Scalar.indexCast v1747
  ![v1748.toNat]
def k0_off293 (v1749 : BitVec 32) : Fin 2 → Nat :=
  let c0_i32_877 : BitVec 32 := 0#32
  ![v1749.toNat, 0]

def k0_chk195 (v1749 : BitVec 32) : Prop :=
  (∀ a, (k0_off293 v1749) a + S1x8192.size a ≤ S8192x8192.size a)
instance k0_chk195.dec : ∀ (v1749 : BitVec 32), Decidable (k0_chk195 v1749) := fun v1749 => decidable_of_iff' _ (Iff.of_eq (k0_chk195.eq_1 v1749))
theorem k0_off293_inb : ∀ (v1749 : BitVec 32) (k0_hw195 : k0_chk195 v1749), ∀ a, (k0_off293 v1749) a + S1x8192.size a ≤ S8192x8192.size a := fun v1749 k0_hw195 => k0_hw195

def k0_off294 (v1752 : BitVec 32) : Fin 2 → Nat :=
  let c0_i32_881 : BitVec 32 := 0#32
  ![v1752.toNat, 0]

def k0_chk196 (v1752 : BitVec 32) : Prop :=
  (∀ a, (k0_off294 v1752) a + S1x8192.size a ≤ S8192x8192.size a)
instance k0_chk196.dec : ∀ (v1752 : BitVec 32), Decidable (k0_chk196 v1752) := fun v1752 => decidable_of_iff' _ (Iff.of_eq (k0_chk196.eq_1 v1752))
theorem k0_off294_inb : ∀ (v1752 : BitVec 32) (k0_hw196 : k0_chk196 v1752), ∀ a, (k0_off294 v1752) a + S1x8192.size a ≤ S8192x8192.size a := fun v1752 k0_hw196 => k0_hw196

def k0_off295 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1765 : BitVec 32 := Scalar.addi v0 c98_i32
  let v1766 : Index := Scalar.indexCast v1765
  ![v1766.toNat]
def k0_off296 (v1767 : BitVec 32) : Fin 2 → Nat :=
  let c0_i32_886 : BitVec 32 := 0#32
  ![v1767.toNat, 0]

def k0_chk197 (v1767 : BitVec 32) : Prop :=
  (∀ a, (k0_off296 v1767) a + S1x8192.size a ≤ S8192x8192.size a)
instance k0_chk197.dec : ∀ (v1767 : BitVec 32), Decidable (k0_chk197 v1767) := fun v1767 => decidable_of_iff' _ (Iff.of_eq (k0_chk197.eq_1 v1767))
theorem k0_off296_inb : ∀ (v1767 : BitVec 32) (k0_hw197 : k0_chk197 v1767), ∀ a, (k0_off296 v1767) a + S1x8192.size a ≤ S8192x8192.size a := fun v1767 k0_hw197 => k0_hw197

def k0_off297 (v1770 : BitVec 32) : Fin 2 → Nat :=
  let c0_i32_890 : BitVec 32 := 0#32
  ![v1770.toNat, 0]

def k0_chk198 (v1770 : BitVec 32) : Prop :=
  (∀ a, (k0_off297 v1770) a + S1x8192.size a ≤ S8192x8192.size a)
instance k0_chk198.dec : ∀ (v1770 : BitVec 32), Decidable (k0_chk198 v1770) := fun v1770 => decidable_of_iff' _ (Iff.of_eq (k0_chk198.eq_1 v1770))
theorem k0_off297_inb : ∀ (v1770 : BitVec 32) (k0_hw198 : k0_chk198 v1770), ∀ a, (k0_off297 v1770) a + S1x8192.size a ≤ S8192x8192.size a := fun v1770 k0_hw198 => k0_hw198

def k0_off298 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1783 : BitVec 32 := Scalar.addi v0 c99_i32
  let v1784 : Index := Scalar.indexCast v1783
  ![v1784.toNat]
def k0_off299 (v1785 : BitVec 32) : Fin 2 → Nat :=
  let c0_i32_895 : BitVec 32 := 0#32
  ![v1785.toNat, 0]

def k0_chk199 (v1785 : BitVec 32) : Prop :=
  (∀ a, (k0_off299 v1785) a + S1x8192.size a ≤ S8192x8192.size a)
instance k0_chk199.dec : ∀ (v1785 : BitVec 32), Decidable (k0_chk199 v1785) := fun v1785 => decidable_of_iff' _ (Iff.of_eq (k0_chk199.eq_1 v1785))
theorem k0_off299_inb : ∀ (v1785 : BitVec 32) (k0_hw199 : k0_chk199 v1785), ∀ a, (k0_off299 v1785) a + S1x8192.size a ≤ S8192x8192.size a := fun v1785 k0_hw199 => k0_hw199

def k0_off300 (v1788 : BitVec 32) : Fin 2 → Nat :=
  let c0_i32_899 : BitVec 32 := 0#32
  ![v1788.toNat, 0]

def k0_chk200 (v1788 : BitVec 32) : Prop :=
  (∀ a, (k0_off300 v1788) a + S1x8192.size a ≤ S8192x8192.size a)
instance k0_chk200.dec : ∀ (v1788 : BitVec 32), Decidable (k0_chk200 v1788) := fun v1788 => decidable_of_iff' _ (Iff.of_eq (k0_chk200.eq_1 v1788))
theorem k0_off300_inb : ∀ (v1788 : BitVec 32) (k0_hw200 : k0_chk200 v1788), ∀ a, (k0_off300 v1788) a + S1x8192.size a ≤ S8192x8192.size a := fun v1788 k0_hw200 => k0_hw200

def k0_off301 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1801 : BitVec 32 := Scalar.addi v0 c100_i32
  let v1802 : Index := Scalar.indexCast v1801
  ![v1802.toNat]
def k0_off302 (v1803 : BitVec 32) : Fin 2 → Nat :=
  let c0_i32_904 : BitVec 32 := 0#32
  ![v1803.toNat, 0]

def k0_chk201 (v1803 : BitVec 32) : Prop :=
  (∀ a, (k0_off302 v1803) a + S1x8192.size a ≤ S8192x8192.size a)
instance k0_chk201.dec : ∀ (v1803 : BitVec 32), Decidable (k0_chk201 v1803) := fun v1803 => decidable_of_iff' _ (Iff.of_eq (k0_chk201.eq_1 v1803))
theorem k0_off302_inb : ∀ (v1803 : BitVec 32) (k0_hw201 : k0_chk201 v1803), ∀ a, (k0_off302 v1803) a + S1x8192.size a ≤ S8192x8192.size a := fun v1803 k0_hw201 => k0_hw201

def k0_off303 (v1806 : BitVec 32) : Fin 2 → Nat :=
  let c0_i32_908 : BitVec 32 := 0#32
  ![v1806.toNat, 0]

def k0_chk202 (v1806 : BitVec 32) : Prop :=
  (∀ a, (k0_off303 v1806) a + S1x8192.size a ≤ S8192x8192.size a)
instance k0_chk202.dec : ∀ (v1806 : BitVec 32), Decidable (k0_chk202 v1806) := fun v1806 => decidable_of_iff' _ (Iff.of_eq (k0_chk202.eq_1 v1806))
theorem k0_off303_inb : ∀ (v1806 : BitVec 32) (k0_hw202 : k0_chk202 v1806), ∀ a, (k0_off303 v1806) a + S1x8192.size a ≤ S8192x8192.size a := fun v1806 k0_hw202 => k0_hw202

def k0_off304 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1819 : BitVec 32 := Scalar.addi v0 c101_i32
  let v1820 : Index := Scalar.indexCast v1819
  ![v1820.toNat]
def k0_off305 (v1821 : BitVec 32) : Fin 2 → Nat :=
  let c0_i32_913 : BitVec 32 := 0#32
  ![v1821.toNat, 0]

def k0_chk203 (v1821 : BitVec 32) : Prop :=
  (∀ a, (k0_off305 v1821) a + S1x8192.size a ≤ S8192x8192.size a)
instance k0_chk203.dec : ∀ (v1821 : BitVec 32), Decidable (k0_chk203 v1821) := fun v1821 => decidable_of_iff' _ (Iff.of_eq (k0_chk203.eq_1 v1821))
theorem k0_off305_inb : ∀ (v1821 : BitVec 32) (k0_hw203 : k0_chk203 v1821), ∀ a, (k0_off305 v1821) a + S1x8192.size a ≤ S8192x8192.size a := fun v1821 k0_hw203 => k0_hw203

def k0_off306 (v1824 : BitVec 32) : Fin 2 → Nat :=
  let c0_i32_917 : BitVec 32 := 0#32
  ![v1824.toNat, 0]

def k0_chk204 (v1824 : BitVec 32) : Prop :=
  (∀ a, (k0_off306 v1824) a + S1x8192.size a ≤ S8192x8192.size a)
instance k0_chk204.dec : ∀ (v1824 : BitVec 32), Decidable (k0_chk204 v1824) := fun v1824 => decidable_of_iff' _ (Iff.of_eq (k0_chk204.eq_1 v1824))
theorem k0_off306_inb : ∀ (v1824 : BitVec 32) (k0_hw204 : k0_chk204 v1824), ∀ a, (k0_off306 v1824) a + S1x8192.size a ≤ S8192x8192.size a := fun v1824 k0_hw204 => k0_hw204

def k0_off307 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1837 : BitVec 32 := Scalar.addi v0 c102_i32
  let v1838 : Index := Scalar.indexCast v1837
  ![v1838.toNat]
def k0_off308 (v1839 : BitVec 32) : Fin 2 → Nat :=
  let c0_i32_922 : BitVec 32 := 0#32
  ![v1839.toNat, 0]

def k0_chk205 (v1839 : BitVec 32) : Prop :=
  (∀ a, (k0_off308 v1839) a + S1x8192.size a ≤ S8192x8192.size a)
instance k0_chk205.dec : ∀ (v1839 : BitVec 32), Decidable (k0_chk205 v1839) := fun v1839 => decidable_of_iff' _ (Iff.of_eq (k0_chk205.eq_1 v1839))
theorem k0_off308_inb : ∀ (v1839 : BitVec 32) (k0_hw205 : k0_chk205 v1839), ∀ a, (k0_off308 v1839) a + S1x8192.size a ≤ S8192x8192.size a := fun v1839 k0_hw205 => k0_hw205

def k0_off309 (v1842 : BitVec 32) : Fin 2 → Nat :=
  let c0_i32_926 : BitVec 32 := 0#32
  ![v1842.toNat, 0]

def k0_chk206 (v1842 : BitVec 32) : Prop :=
  (∀ a, (k0_off309 v1842) a + S1x8192.size a ≤ S8192x8192.size a)
instance k0_chk206.dec : ∀ (v1842 : BitVec 32), Decidable (k0_chk206 v1842) := fun v1842 => decidable_of_iff' _ (Iff.of_eq (k0_chk206.eq_1 v1842))
theorem k0_off309_inb : ∀ (v1842 : BitVec 32) (k0_hw206 : k0_chk206 v1842), ∀ a, (k0_off309 v1842) a + S1x8192.size a ≤ S8192x8192.size a := fun v1842 k0_hw206 => k0_hw206

def k0_off310 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1855 : BitVec 32 := Scalar.addi v0 c103_i32
  let v1856 : Index := Scalar.indexCast v1855
  ![v1856.toNat]
def k0_off311 (v1857 : BitVec 32) : Fin 2 → Nat :=
  let c0_i32_931 : BitVec 32 := 0#32
  ![v1857.toNat, 0]

def k0_chk207 (v1857 : BitVec 32) : Prop :=
  (∀ a, (k0_off311 v1857) a + S1x8192.size a ≤ S8192x8192.size a)
instance k0_chk207.dec : ∀ (v1857 : BitVec 32), Decidable (k0_chk207 v1857) := fun v1857 => decidable_of_iff' _ (Iff.of_eq (k0_chk207.eq_1 v1857))
theorem k0_off311_inb : ∀ (v1857 : BitVec 32) (k0_hw207 : k0_chk207 v1857), ∀ a, (k0_off311 v1857) a + S1x8192.size a ≤ S8192x8192.size a := fun v1857 k0_hw207 => k0_hw207

def k0_off312 (v1860 : BitVec 32) : Fin 2 → Nat :=
  let c0_i32_935 : BitVec 32 := 0#32
  ![v1860.toNat, 0]

def k0_chk208 (v1860 : BitVec 32) : Prop :=
  (∀ a, (k0_off312 v1860) a + S1x8192.size a ≤ S8192x8192.size a)
instance k0_chk208.dec : ∀ (v1860 : BitVec 32), Decidable (k0_chk208 v1860) := fun v1860 => decidable_of_iff' _ (Iff.of_eq (k0_chk208.eq_1 v1860))
theorem k0_off312_inb : ∀ (v1860 : BitVec 32) (k0_hw208 : k0_chk208 v1860), ∀ a, (k0_off312 v1860) a + S1x8192.size a ≤ S8192x8192.size a := fun v1860 k0_hw208 => k0_hw208

def k0_off313 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1873 : BitVec 32 := Scalar.addi v0 c104_i32
  let v1874 : Index := Scalar.indexCast v1873
  ![v1874.toNat]
def k0_off314 (v1875 : BitVec 32) : Fin 2 → Nat :=
  let c0_i32_940 : BitVec 32 := 0#32
  ![v1875.toNat, 0]

def k0_chk209 (v1875 : BitVec 32) : Prop :=
  (∀ a, (k0_off314 v1875) a + S1x8192.size a ≤ S8192x8192.size a)
instance k0_chk209.dec : ∀ (v1875 : BitVec 32), Decidable (k0_chk209 v1875) := fun v1875 => decidable_of_iff' _ (Iff.of_eq (k0_chk209.eq_1 v1875))
theorem k0_off314_inb : ∀ (v1875 : BitVec 32) (k0_hw209 : k0_chk209 v1875), ∀ a, (k0_off314 v1875) a + S1x8192.size a ≤ S8192x8192.size a := fun v1875 k0_hw209 => k0_hw209

def k0_off315 (v1878 : BitVec 32) : Fin 2 → Nat :=
  let c0_i32_944 : BitVec 32 := 0#32
  ![v1878.toNat, 0]

def k0_chk210 (v1878 : BitVec 32) : Prop :=
  (∀ a, (k0_off315 v1878) a + S1x8192.size a ≤ S8192x8192.size a)
instance k0_chk210.dec : ∀ (v1878 : BitVec 32), Decidable (k0_chk210 v1878) := fun v1878 => decidable_of_iff' _ (Iff.of_eq (k0_chk210.eq_1 v1878))
theorem k0_off315_inb : ∀ (v1878 : BitVec 32) (k0_hw210 : k0_chk210 v1878), ∀ a, (k0_off315 v1878) a + S1x8192.size a ≤ S8192x8192.size a := fun v1878 k0_hw210 => k0_hw210

def k0_off316 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1891 : BitVec 32 := Scalar.addi v0 c105_i32
  let v1892 : Index := Scalar.indexCast v1891
  ![v1892.toNat]
def k0_off317 (v1893 : BitVec 32) : Fin 2 → Nat :=
  let c0_i32_949 : BitVec 32 := 0#32
  ![v1893.toNat, 0]

def k0_chk211 (v1893 : BitVec 32) : Prop :=
  (∀ a, (k0_off317 v1893) a + S1x8192.size a ≤ S8192x8192.size a)
instance k0_chk211.dec : ∀ (v1893 : BitVec 32), Decidable (k0_chk211 v1893) := fun v1893 => decidable_of_iff' _ (Iff.of_eq (k0_chk211.eq_1 v1893))
theorem k0_off317_inb : ∀ (v1893 : BitVec 32) (k0_hw211 : k0_chk211 v1893), ∀ a, (k0_off317 v1893) a + S1x8192.size a ≤ S8192x8192.size a := fun v1893 k0_hw211 => k0_hw211

def k0_off318 (v1896 : BitVec 32) : Fin 2 → Nat :=
  let c0_i32_953 : BitVec 32 := 0#32
  ![v1896.toNat, 0]

def k0_chk212 (v1896 : BitVec 32) : Prop :=
  (∀ a, (k0_off318 v1896) a + S1x8192.size a ≤ S8192x8192.size a)
instance k0_chk212.dec : ∀ (v1896 : BitVec 32), Decidable (k0_chk212 v1896) := fun v1896 => decidable_of_iff' _ (Iff.of_eq (k0_chk212.eq_1 v1896))
theorem k0_off318_inb : ∀ (v1896 : BitVec 32) (k0_hw212 : k0_chk212 v1896), ∀ a, (k0_off318 v1896) a + S1x8192.size a ≤ S8192x8192.size a := fun v1896 k0_hw212 => k0_hw212

def k0_off319 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1909 : BitVec 32 := Scalar.addi v0 c106_i32
  let v1910 : Index := Scalar.indexCast v1909
  ![v1910.toNat]
def k0_off320 (v1911 : BitVec 32) : Fin 2 → Nat :=
  let c0_i32_958 : BitVec 32 := 0#32
  ![v1911.toNat, 0]

def k0_chk213 (v1911 : BitVec 32) : Prop :=
  (∀ a, (k0_off320 v1911) a + S1x8192.size a ≤ S8192x8192.size a)
instance k0_chk213.dec : ∀ (v1911 : BitVec 32), Decidable (k0_chk213 v1911) := fun v1911 => decidable_of_iff' _ (Iff.of_eq (k0_chk213.eq_1 v1911))
theorem k0_off320_inb : ∀ (v1911 : BitVec 32) (k0_hw213 : k0_chk213 v1911), ∀ a, (k0_off320 v1911) a + S1x8192.size a ≤ S8192x8192.size a := fun v1911 k0_hw213 => k0_hw213

def k0_off321 (v1914 : BitVec 32) : Fin 2 → Nat :=
  let c0_i32_962 : BitVec 32 := 0#32
  ![v1914.toNat, 0]

def k0_chk214 (v1914 : BitVec 32) : Prop :=
  (∀ a, (k0_off321 v1914) a + S1x8192.size a ≤ S8192x8192.size a)
instance k0_chk214.dec : ∀ (v1914 : BitVec 32), Decidable (k0_chk214 v1914) := fun v1914 => decidable_of_iff' _ (Iff.of_eq (k0_chk214.eq_1 v1914))
theorem k0_off321_inb : ∀ (v1914 : BitVec 32) (k0_hw214 : k0_chk214 v1914), ∀ a, (k0_off321 v1914) a + S1x8192.size a ≤ S8192x8192.size a := fun v1914 k0_hw214 => k0_hw214

def k0_off322 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1927 : BitVec 32 := Scalar.addi v0 c107_i32
  let v1928 : Index := Scalar.indexCast v1927
  ![v1928.toNat]
def k0_off323 (v1929 : BitVec 32) : Fin 2 → Nat :=
  let c0_i32_967 : BitVec 32 := 0#32
  ![v1929.toNat, 0]

def k0_chk215 (v1929 : BitVec 32) : Prop :=
  (∀ a, (k0_off323 v1929) a + S1x8192.size a ≤ S8192x8192.size a)
instance k0_chk215.dec : ∀ (v1929 : BitVec 32), Decidable (k0_chk215 v1929) := fun v1929 => decidable_of_iff' _ (Iff.of_eq (k0_chk215.eq_1 v1929))
theorem k0_off323_inb : ∀ (v1929 : BitVec 32) (k0_hw215 : k0_chk215 v1929), ∀ a, (k0_off323 v1929) a + S1x8192.size a ≤ S8192x8192.size a := fun v1929 k0_hw215 => k0_hw215

def k0_off324 (v1932 : BitVec 32) : Fin 2 → Nat :=
  let c0_i32_971 : BitVec 32 := 0#32
  ![v1932.toNat, 0]

def k0_chk216 (v1932 : BitVec 32) : Prop :=
  (∀ a, (k0_off324 v1932) a + S1x8192.size a ≤ S8192x8192.size a)
instance k0_chk216.dec : ∀ (v1932 : BitVec 32), Decidable (k0_chk216 v1932) := fun v1932 => decidable_of_iff' _ (Iff.of_eq (k0_chk216.eq_1 v1932))
theorem k0_off324_inb : ∀ (v1932 : BitVec 32) (k0_hw216 : k0_chk216 v1932), ∀ a, (k0_off324 v1932) a + S1x8192.size a ≤ S8192x8192.size a := fun v1932 k0_hw216 => k0_hw216

def k0_off325 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1945 : BitVec 32 := Scalar.addi v0 c108_i32
  let v1946 : Index := Scalar.indexCast v1945
  ![v1946.toNat]
def k0_off326 (v1947 : BitVec 32) : Fin 2 → Nat :=
  let c0_i32_976 : BitVec 32 := 0#32
  ![v1947.toNat, 0]

def k0_chk217 (v1947 : BitVec 32) : Prop :=
  (∀ a, (k0_off326 v1947) a + S1x8192.size a ≤ S8192x8192.size a)
instance k0_chk217.dec : ∀ (v1947 : BitVec 32), Decidable (k0_chk217 v1947) := fun v1947 => decidable_of_iff' _ (Iff.of_eq (k0_chk217.eq_1 v1947))
theorem k0_off326_inb : ∀ (v1947 : BitVec 32) (k0_hw217 : k0_chk217 v1947), ∀ a, (k0_off326 v1947) a + S1x8192.size a ≤ S8192x8192.size a := fun v1947 k0_hw217 => k0_hw217

def k0_off327 (v1950 : BitVec 32) : Fin 2 → Nat :=
  let c0_i32_980 : BitVec 32 := 0#32
  ![v1950.toNat, 0]

def k0_chk218 (v1950 : BitVec 32) : Prop :=
  (∀ a, (k0_off327 v1950) a + S1x8192.size a ≤ S8192x8192.size a)
instance k0_chk218.dec : ∀ (v1950 : BitVec 32), Decidable (k0_chk218 v1950) := fun v1950 => decidable_of_iff' _ (Iff.of_eq (k0_chk218.eq_1 v1950))
theorem k0_off327_inb : ∀ (v1950 : BitVec 32) (k0_hw218 : k0_chk218 v1950), ∀ a, (k0_off327 v1950) a + S1x8192.size a ≤ S8192x8192.size a := fun v1950 k0_hw218 => k0_hw218

def k0_off328 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1963 : BitVec 32 := Scalar.addi v0 c109_i32
  let v1964 : Index := Scalar.indexCast v1963
  ![v1964.toNat]
def k0_off329 (v1965 : BitVec 32) : Fin 2 → Nat :=
  let c0_i32_985 : BitVec 32 := 0#32
  ![v1965.toNat, 0]

def k0_chk219 (v1965 : BitVec 32) : Prop :=
  (∀ a, (k0_off329 v1965) a + S1x8192.size a ≤ S8192x8192.size a)
instance k0_chk219.dec : ∀ (v1965 : BitVec 32), Decidable (k0_chk219 v1965) := fun v1965 => decidable_of_iff' _ (Iff.of_eq (k0_chk219.eq_1 v1965))
theorem k0_off329_inb : ∀ (v1965 : BitVec 32) (k0_hw219 : k0_chk219 v1965), ∀ a, (k0_off329 v1965) a + S1x8192.size a ≤ S8192x8192.size a := fun v1965 k0_hw219 => k0_hw219

def k0_off330 (v1968 : BitVec 32) : Fin 2 → Nat :=
  let c0_i32_989 : BitVec 32 := 0#32
  ![v1968.toNat, 0]

def k0_chk220 (v1968 : BitVec 32) : Prop :=
  (∀ a, (k0_off330 v1968) a + S1x8192.size a ≤ S8192x8192.size a)
instance k0_chk220.dec : ∀ (v1968 : BitVec 32), Decidable (k0_chk220 v1968) := fun v1968 => decidable_of_iff' _ (Iff.of_eq (k0_chk220.eq_1 v1968))
theorem k0_off330_inb : ∀ (v1968 : BitVec 32) (k0_hw220 : k0_chk220 v1968), ∀ a, (k0_off330 v1968) a + S1x8192.size a ≤ S8192x8192.size a := fun v1968 k0_hw220 => k0_hw220

def k0_off331 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1981 : BitVec 32 := Scalar.addi v0 c110_i32
  let v1982 : Index := Scalar.indexCast v1981
  ![v1982.toNat]
def k0_off332 (v1983 : BitVec 32) : Fin 2 → Nat :=
  let c0_i32_994 : BitVec 32 := 0#32
  ![v1983.toNat, 0]

def k0_chk221 (v1983 : BitVec 32) : Prop :=
  (∀ a, (k0_off332 v1983) a + S1x8192.size a ≤ S8192x8192.size a)
instance k0_chk221.dec : ∀ (v1983 : BitVec 32), Decidable (k0_chk221 v1983) := fun v1983 => decidable_of_iff' _ (Iff.of_eq (k0_chk221.eq_1 v1983))
theorem k0_off332_inb : ∀ (v1983 : BitVec 32) (k0_hw221 : k0_chk221 v1983), ∀ a, (k0_off332 v1983) a + S1x8192.size a ≤ S8192x8192.size a := fun v1983 k0_hw221 => k0_hw221

def k0_off333 (v1986 : BitVec 32) : Fin 2 → Nat :=
  let c0_i32_998 : BitVec 32 := 0#32
  ![v1986.toNat, 0]

def k0_chk222 (v1986 : BitVec 32) : Prop :=
  (∀ a, (k0_off333 v1986) a + S1x8192.size a ≤ S8192x8192.size a)
instance k0_chk222.dec : ∀ (v1986 : BitVec 32), Decidable (k0_chk222 v1986) := fun v1986 => decidable_of_iff' _ (Iff.of_eq (k0_chk222.eq_1 v1986))
theorem k0_off333_inb : ∀ (v1986 : BitVec 32) (k0_hw222 : k0_chk222 v1986), ∀ a, (k0_off333 v1986) a + S1x8192.size a ≤ S8192x8192.size a := fun v1986 k0_hw222 => k0_hw222

def k0_off334 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1999 : BitVec 32 := Scalar.addi v0 c111_i32
  let v2000 : Index := Scalar.indexCast v1999
  ![v2000.toNat]
def k0_off335 (v2001 : BitVec 32) : Fin 2 → Nat :=
  let c0_i32_1003 : BitVec 32 := 0#32
  ![v2001.toNat, 0]

def k0_chk223 (v2001 : BitVec 32) : Prop :=
  (∀ a, (k0_off335 v2001) a + S1x8192.size a ≤ S8192x8192.size a)
instance k0_chk223.dec : ∀ (v2001 : BitVec 32), Decidable (k0_chk223 v2001) := fun v2001 => decidable_of_iff' _ (Iff.of_eq (k0_chk223.eq_1 v2001))
theorem k0_off335_inb : ∀ (v2001 : BitVec 32) (k0_hw223 : k0_chk223 v2001), ∀ a, (k0_off335 v2001) a + S1x8192.size a ≤ S8192x8192.size a := fun v2001 k0_hw223 => k0_hw223

def k0_off336 (v2004 : BitVec 32) : Fin 2 → Nat :=
  let c0_i32_1007 : BitVec 32 := 0#32
  ![v2004.toNat, 0]

def k0_chk224 (v2004 : BitVec 32) : Prop :=
  (∀ a, (k0_off336 v2004) a + S1x8192.size a ≤ S8192x8192.size a)
instance k0_chk224.dec : ∀ (v2004 : BitVec 32), Decidable (k0_chk224 v2004) := fun v2004 => decidable_of_iff' _ (Iff.of_eq (k0_chk224.eq_1 v2004))
theorem k0_off336_inb : ∀ (v2004 : BitVec 32) (k0_hw224 : k0_chk224 v2004), ∀ a, (k0_off336 v2004) a + S1x8192.size a ≤ S8192x8192.size a := fun v2004 k0_hw224 => k0_hw224

def k0_off337 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v2017 : BitVec 32 := Scalar.addi v0 c112_i32
  let v2018 : Index := Scalar.indexCast v2017
  ![v2018.toNat]
def k0_off338 (v2019 : BitVec 32) : Fin 2 → Nat :=
  let c0_i32_1012 : BitVec 32 := 0#32
  ![v2019.toNat, 0]

def k0_chk225 (v2019 : BitVec 32) : Prop :=
  (∀ a, (k0_off338 v2019) a + S1x8192.size a ≤ S8192x8192.size a)
instance k0_chk225.dec : ∀ (v2019 : BitVec 32), Decidable (k0_chk225 v2019) := fun v2019 => decidable_of_iff' _ (Iff.of_eq (k0_chk225.eq_1 v2019))
theorem k0_off338_inb : ∀ (v2019 : BitVec 32) (k0_hw225 : k0_chk225 v2019), ∀ a, (k0_off338 v2019) a + S1x8192.size a ≤ S8192x8192.size a := fun v2019 k0_hw225 => k0_hw225

def k0_off339 (v2022 : BitVec 32) : Fin 2 → Nat :=
  let c0_i32_1016 : BitVec 32 := 0#32
  ![v2022.toNat, 0]

def k0_chk226 (v2022 : BitVec 32) : Prop :=
  (∀ a, (k0_off339 v2022) a + S1x8192.size a ≤ S8192x8192.size a)
instance k0_chk226.dec : ∀ (v2022 : BitVec 32), Decidable (k0_chk226 v2022) := fun v2022 => decidable_of_iff' _ (Iff.of_eq (k0_chk226.eq_1 v2022))
theorem k0_off339_inb : ∀ (v2022 : BitVec 32) (k0_hw226 : k0_chk226 v2022), ∀ a, (k0_off339 v2022) a + S1x8192.size a ≤ S8192x8192.size a := fun v2022 k0_hw226 => k0_hw226

def k0_off340 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v2035 : BitVec 32 := Scalar.addi v0 c113_i32
  let v2036 : Index := Scalar.indexCast v2035
  ![v2036.toNat]
def k0_off341 (v2037 : BitVec 32) : Fin 2 → Nat :=
  let c0_i32_1021 : BitVec 32 := 0#32
  ![v2037.toNat, 0]

def k0_chk227 (v2037 : BitVec 32) : Prop :=
  (∀ a, (k0_off341 v2037) a + S1x8192.size a ≤ S8192x8192.size a)
instance k0_chk227.dec : ∀ (v2037 : BitVec 32), Decidable (k0_chk227 v2037) := fun v2037 => decidable_of_iff' _ (Iff.of_eq (k0_chk227.eq_1 v2037))
theorem k0_off341_inb : ∀ (v2037 : BitVec 32) (k0_hw227 : k0_chk227 v2037), ∀ a, (k0_off341 v2037) a + S1x8192.size a ≤ S8192x8192.size a := fun v2037 k0_hw227 => k0_hw227

def k0_off342 (v2040 : BitVec 32) : Fin 2 → Nat :=
  let c0_i32_1025 : BitVec 32 := 0#32
  ![v2040.toNat, 0]

def k0_chk228 (v2040 : BitVec 32) : Prop :=
  (∀ a, (k0_off342 v2040) a + S1x8192.size a ≤ S8192x8192.size a)
instance k0_chk228.dec : ∀ (v2040 : BitVec 32), Decidable (k0_chk228 v2040) := fun v2040 => decidable_of_iff' _ (Iff.of_eq (k0_chk228.eq_1 v2040))
theorem k0_off342_inb : ∀ (v2040 : BitVec 32) (k0_hw228 : k0_chk228 v2040), ∀ a, (k0_off342 v2040) a + S1x8192.size a ≤ S8192x8192.size a := fun v2040 k0_hw228 => k0_hw228

def k0_off343 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v2053 : BitVec 32 := Scalar.addi v0 c114_i32
  let v2054 : Index := Scalar.indexCast v2053
  ![v2054.toNat]
def k0_off344 (v2055 : BitVec 32) : Fin 2 → Nat :=
  let c0_i32_1030 : BitVec 32 := 0#32
  ![v2055.toNat, 0]

def k0_chk229 (v2055 : BitVec 32) : Prop :=
  (∀ a, (k0_off344 v2055) a + S1x8192.size a ≤ S8192x8192.size a)
instance k0_chk229.dec : ∀ (v2055 : BitVec 32), Decidable (k0_chk229 v2055) := fun v2055 => decidable_of_iff' _ (Iff.of_eq (k0_chk229.eq_1 v2055))
theorem k0_off344_inb : ∀ (v2055 : BitVec 32) (k0_hw229 : k0_chk229 v2055), ∀ a, (k0_off344 v2055) a + S1x8192.size a ≤ S8192x8192.size a := fun v2055 k0_hw229 => k0_hw229

def k0_off345 (v2058 : BitVec 32) : Fin 2 → Nat :=
  let c0_i32_1034 : BitVec 32 := 0#32
  ![v2058.toNat, 0]

def k0_chk230 (v2058 : BitVec 32) : Prop :=
  (∀ a, (k0_off345 v2058) a + S1x8192.size a ≤ S8192x8192.size a)
instance k0_chk230.dec : ∀ (v2058 : BitVec 32), Decidable (k0_chk230 v2058) := fun v2058 => decidable_of_iff' _ (Iff.of_eq (k0_chk230.eq_1 v2058))
theorem k0_off345_inb : ∀ (v2058 : BitVec 32) (k0_hw230 : k0_chk230 v2058), ∀ a, (k0_off345 v2058) a + S1x8192.size a ≤ S8192x8192.size a := fun v2058 k0_hw230 => k0_hw230

def k0_off346 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v2071 : BitVec 32 := Scalar.addi v0 c115_i32
  let v2072 : Index := Scalar.indexCast v2071
  ![v2072.toNat]
def k0_off347 (v2073 : BitVec 32) : Fin 2 → Nat :=
  let c0_i32_1039 : BitVec 32 := 0#32
  ![v2073.toNat, 0]

def k0_chk231 (v2073 : BitVec 32) : Prop :=
  (∀ a, (k0_off347 v2073) a + S1x8192.size a ≤ S8192x8192.size a)
instance k0_chk231.dec : ∀ (v2073 : BitVec 32), Decidable (k0_chk231 v2073) := fun v2073 => decidable_of_iff' _ (Iff.of_eq (k0_chk231.eq_1 v2073))
theorem k0_off347_inb : ∀ (v2073 : BitVec 32) (k0_hw231 : k0_chk231 v2073), ∀ a, (k0_off347 v2073) a + S1x8192.size a ≤ S8192x8192.size a := fun v2073 k0_hw231 => k0_hw231

def k0_off348 (v2076 : BitVec 32) : Fin 2 → Nat :=
  let c0_i32_1043 : BitVec 32 := 0#32
  ![v2076.toNat, 0]

def k0_chk232 (v2076 : BitVec 32) : Prop :=
  (∀ a, (k0_off348 v2076) a + S1x8192.size a ≤ S8192x8192.size a)
instance k0_chk232.dec : ∀ (v2076 : BitVec 32), Decidable (k0_chk232 v2076) := fun v2076 => decidable_of_iff' _ (Iff.of_eq (k0_chk232.eq_1 v2076))
theorem k0_off348_inb : ∀ (v2076 : BitVec 32) (k0_hw232 : k0_chk232 v2076), ∀ a, (k0_off348 v2076) a + S1x8192.size a ≤ S8192x8192.size a := fun v2076 k0_hw232 => k0_hw232

def k0_off349 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v2089 : BitVec 32 := Scalar.addi v0 c116_i32
  let v2090 : Index := Scalar.indexCast v2089
  ![v2090.toNat]
def k0_off350 (v2091 : BitVec 32) : Fin 2 → Nat :=
  let c0_i32_1048 : BitVec 32 := 0#32
  ![v2091.toNat, 0]

def k0_chk233 (v2091 : BitVec 32) : Prop :=
  (∀ a, (k0_off350 v2091) a + S1x8192.size a ≤ S8192x8192.size a)
instance k0_chk233.dec : ∀ (v2091 : BitVec 32), Decidable (k0_chk233 v2091) := fun v2091 => decidable_of_iff' _ (Iff.of_eq (k0_chk233.eq_1 v2091))
theorem k0_off350_inb : ∀ (v2091 : BitVec 32) (k0_hw233 : k0_chk233 v2091), ∀ a, (k0_off350 v2091) a + S1x8192.size a ≤ S8192x8192.size a := fun v2091 k0_hw233 => k0_hw233

def k0_off351 (v2094 : BitVec 32) : Fin 2 → Nat :=
  let c0_i32_1052 : BitVec 32 := 0#32
  ![v2094.toNat, 0]

def k0_chk234 (v2094 : BitVec 32) : Prop :=
  (∀ a, (k0_off351 v2094) a + S1x8192.size a ≤ S8192x8192.size a)
instance k0_chk234.dec : ∀ (v2094 : BitVec 32), Decidable (k0_chk234 v2094) := fun v2094 => decidable_of_iff' _ (Iff.of_eq (k0_chk234.eq_1 v2094))
theorem k0_off351_inb : ∀ (v2094 : BitVec 32) (k0_hw234 : k0_chk234 v2094), ∀ a, (k0_off351 v2094) a + S1x8192.size a ≤ S8192x8192.size a := fun v2094 k0_hw234 => k0_hw234

def k0_off352 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v2107 : BitVec 32 := Scalar.addi v0 c117_i32
  let v2108 : Index := Scalar.indexCast v2107
  ![v2108.toNat]
def k0_off353 (v2109 : BitVec 32) : Fin 2 → Nat :=
  let c0_i32_1057 : BitVec 32 := 0#32
  ![v2109.toNat, 0]

def k0_chk235 (v2109 : BitVec 32) : Prop :=
  (∀ a, (k0_off353 v2109) a + S1x8192.size a ≤ S8192x8192.size a)
instance k0_chk235.dec : ∀ (v2109 : BitVec 32), Decidable (k0_chk235 v2109) := fun v2109 => decidable_of_iff' _ (Iff.of_eq (k0_chk235.eq_1 v2109))
theorem k0_off353_inb : ∀ (v2109 : BitVec 32) (k0_hw235 : k0_chk235 v2109), ∀ a, (k0_off353 v2109) a + S1x8192.size a ≤ S8192x8192.size a := fun v2109 k0_hw235 => k0_hw235

def k0_off354 (v2112 : BitVec 32) : Fin 2 → Nat :=
  let c0_i32_1061 : BitVec 32 := 0#32
  ![v2112.toNat, 0]

def k0_chk236 (v2112 : BitVec 32) : Prop :=
  (∀ a, (k0_off354 v2112) a + S1x8192.size a ≤ S8192x8192.size a)
instance k0_chk236.dec : ∀ (v2112 : BitVec 32), Decidable (k0_chk236 v2112) := fun v2112 => decidable_of_iff' _ (Iff.of_eq (k0_chk236.eq_1 v2112))
theorem k0_off354_inb : ∀ (v2112 : BitVec 32) (k0_hw236 : k0_chk236 v2112), ∀ a, (k0_off354 v2112) a + S1x8192.size a ≤ S8192x8192.size a := fun v2112 k0_hw236 => k0_hw236

def k0_off355 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v2125 : BitVec 32 := Scalar.addi v0 c118_i32
  let v2126 : Index := Scalar.indexCast v2125
  ![v2126.toNat]
def k0_off356 (v2127 : BitVec 32) : Fin 2 → Nat :=
  let c0_i32_1066 : BitVec 32 := 0#32
  ![v2127.toNat, 0]

def k0_chk237 (v2127 : BitVec 32) : Prop :=
  (∀ a, (k0_off356 v2127) a + S1x8192.size a ≤ S8192x8192.size a)
instance k0_chk237.dec : ∀ (v2127 : BitVec 32), Decidable (k0_chk237 v2127) := fun v2127 => decidable_of_iff' _ (Iff.of_eq (k0_chk237.eq_1 v2127))
theorem k0_off356_inb : ∀ (v2127 : BitVec 32) (k0_hw237 : k0_chk237 v2127), ∀ a, (k0_off356 v2127) a + S1x8192.size a ≤ S8192x8192.size a := fun v2127 k0_hw237 => k0_hw237

def k0_off357 (v2130 : BitVec 32) : Fin 2 → Nat :=
  let c0_i32_1070 : BitVec 32 := 0#32
  ![v2130.toNat, 0]

def k0_chk238 (v2130 : BitVec 32) : Prop :=
  (∀ a, (k0_off357 v2130) a + S1x8192.size a ≤ S8192x8192.size a)
instance k0_chk238.dec : ∀ (v2130 : BitVec 32), Decidable (k0_chk238 v2130) := fun v2130 => decidable_of_iff' _ (Iff.of_eq (k0_chk238.eq_1 v2130))
theorem k0_off357_inb : ∀ (v2130 : BitVec 32) (k0_hw238 : k0_chk238 v2130), ∀ a, (k0_off357 v2130) a + S1x8192.size a ≤ S8192x8192.size a := fun v2130 k0_hw238 => k0_hw238

def k0_off358 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v2143 : BitVec 32 := Scalar.addi v0 c119_i32
  let v2144 : Index := Scalar.indexCast v2143
  ![v2144.toNat]
def k0_off359 (v2145 : BitVec 32) : Fin 2 → Nat :=
  let c0_i32_1075 : BitVec 32 := 0#32
  ![v2145.toNat, 0]

def k0_chk239 (v2145 : BitVec 32) : Prop :=
  (∀ a, (k0_off359 v2145) a + S1x8192.size a ≤ S8192x8192.size a)
instance k0_chk239.dec : ∀ (v2145 : BitVec 32), Decidable (k0_chk239 v2145) := fun v2145 => decidable_of_iff' _ (Iff.of_eq (k0_chk239.eq_1 v2145))
theorem k0_off359_inb : ∀ (v2145 : BitVec 32) (k0_hw239 : k0_chk239 v2145), ∀ a, (k0_off359 v2145) a + S1x8192.size a ≤ S8192x8192.size a := fun v2145 k0_hw239 => k0_hw239

def k0_off360 (v2148 : BitVec 32) : Fin 2 → Nat :=
  let c0_i32_1079 : BitVec 32 := 0#32
  ![v2148.toNat, 0]

def k0_chk240 (v2148 : BitVec 32) : Prop :=
  (∀ a, (k0_off360 v2148) a + S1x8192.size a ≤ S8192x8192.size a)
instance k0_chk240.dec : ∀ (v2148 : BitVec 32), Decidable (k0_chk240 v2148) := fun v2148 => decidable_of_iff' _ (Iff.of_eq (k0_chk240.eq_1 v2148))
theorem k0_off360_inb : ∀ (v2148 : BitVec 32) (k0_hw240 : k0_chk240 v2148), ∀ a, (k0_off360 v2148) a + S1x8192.size a ≤ S8192x8192.size a := fun v2148 k0_hw240 => k0_hw240

def k0_off361 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v2161 : BitVec 32 := Scalar.addi v0 c120_i32
  let v2162 : Index := Scalar.indexCast v2161
  ![v2162.toNat]
def k0_off362 (v2163 : BitVec 32) : Fin 2 → Nat :=
  let c0_i32_1084 : BitVec 32 := 0#32
  ![v2163.toNat, 0]

def k0_chk241 (v2163 : BitVec 32) : Prop :=
  (∀ a, (k0_off362 v2163) a + S1x8192.size a ≤ S8192x8192.size a)
instance k0_chk241.dec : ∀ (v2163 : BitVec 32), Decidable (k0_chk241 v2163) := fun v2163 => decidable_of_iff' _ (Iff.of_eq (k0_chk241.eq_1 v2163))
theorem k0_off362_inb : ∀ (v2163 : BitVec 32) (k0_hw241 : k0_chk241 v2163), ∀ a, (k0_off362 v2163) a + S1x8192.size a ≤ S8192x8192.size a := fun v2163 k0_hw241 => k0_hw241

def k0_off363 (v2166 : BitVec 32) : Fin 2 → Nat :=
  let c0_i32_1088 : BitVec 32 := 0#32
  ![v2166.toNat, 0]

def k0_chk242 (v2166 : BitVec 32) : Prop :=
  (∀ a, (k0_off363 v2166) a + S1x8192.size a ≤ S8192x8192.size a)
instance k0_chk242.dec : ∀ (v2166 : BitVec 32), Decidable (k0_chk242 v2166) := fun v2166 => decidable_of_iff' _ (Iff.of_eq (k0_chk242.eq_1 v2166))
theorem k0_off363_inb : ∀ (v2166 : BitVec 32) (k0_hw242 : k0_chk242 v2166), ∀ a, (k0_off363 v2166) a + S1x8192.size a ≤ S8192x8192.size a := fun v2166 k0_hw242 => k0_hw242

def k0_off364 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v2179 : BitVec 32 := Scalar.addi v0 c121_i32
  let v2180 : Index := Scalar.indexCast v2179
  ![v2180.toNat]
def k0_off365 (v2181 : BitVec 32) : Fin 2 → Nat :=
  let c0_i32_1093 : BitVec 32 := 0#32
  ![v2181.toNat, 0]

def k0_chk243 (v2181 : BitVec 32) : Prop :=
  (∀ a, (k0_off365 v2181) a + S1x8192.size a ≤ S8192x8192.size a)
instance k0_chk243.dec : ∀ (v2181 : BitVec 32), Decidable (k0_chk243 v2181) := fun v2181 => decidable_of_iff' _ (Iff.of_eq (k0_chk243.eq_1 v2181))
theorem k0_off365_inb : ∀ (v2181 : BitVec 32) (k0_hw243 : k0_chk243 v2181), ∀ a, (k0_off365 v2181) a + S1x8192.size a ≤ S8192x8192.size a := fun v2181 k0_hw243 => k0_hw243

def k0_off366 (v2184 : BitVec 32) : Fin 2 → Nat :=
  let c0_i32_1097 : BitVec 32 := 0#32
  ![v2184.toNat, 0]

def k0_chk244 (v2184 : BitVec 32) : Prop :=
  (∀ a, (k0_off366 v2184) a + S1x8192.size a ≤ S8192x8192.size a)
instance k0_chk244.dec : ∀ (v2184 : BitVec 32), Decidable (k0_chk244 v2184) := fun v2184 => decidable_of_iff' _ (Iff.of_eq (k0_chk244.eq_1 v2184))
theorem k0_off366_inb : ∀ (v2184 : BitVec 32) (k0_hw244 : k0_chk244 v2184), ∀ a, (k0_off366 v2184) a + S1x8192.size a ≤ S8192x8192.size a := fun v2184 k0_hw244 => k0_hw244

def k0_off367 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v2197 : BitVec 32 := Scalar.addi v0 c122_i32
  let v2198 : Index := Scalar.indexCast v2197
  ![v2198.toNat]
def k0_off368 (v2199 : BitVec 32) : Fin 2 → Nat :=
  let c0_i32_1102 : BitVec 32 := 0#32
  ![v2199.toNat, 0]

def k0_chk245 (v2199 : BitVec 32) : Prop :=
  (∀ a, (k0_off368 v2199) a + S1x8192.size a ≤ S8192x8192.size a)
instance k0_chk245.dec : ∀ (v2199 : BitVec 32), Decidable (k0_chk245 v2199) := fun v2199 => decidable_of_iff' _ (Iff.of_eq (k0_chk245.eq_1 v2199))
theorem k0_off368_inb : ∀ (v2199 : BitVec 32) (k0_hw245 : k0_chk245 v2199), ∀ a, (k0_off368 v2199) a + S1x8192.size a ≤ S8192x8192.size a := fun v2199 k0_hw245 => k0_hw245

def k0_off369 (v2202 : BitVec 32) : Fin 2 → Nat :=
  let c0_i32_1106 : BitVec 32 := 0#32
  ![v2202.toNat, 0]

def k0_chk246 (v2202 : BitVec 32) : Prop :=
  (∀ a, (k0_off369 v2202) a + S1x8192.size a ≤ S8192x8192.size a)
instance k0_chk246.dec : ∀ (v2202 : BitVec 32), Decidable (k0_chk246 v2202) := fun v2202 => decidable_of_iff' _ (Iff.of_eq (k0_chk246.eq_1 v2202))
theorem k0_off369_inb : ∀ (v2202 : BitVec 32) (k0_hw246 : k0_chk246 v2202), ∀ a, (k0_off369 v2202) a + S1x8192.size a ≤ S8192x8192.size a := fun v2202 k0_hw246 => k0_hw246

def k0_off370 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v2215 : BitVec 32 := Scalar.addi v0 c123_i32
  let v2216 : Index := Scalar.indexCast v2215
  ![v2216.toNat]
def k0_off371 (v2217 : BitVec 32) : Fin 2 → Nat :=
  let c0_i32_1111 : BitVec 32 := 0#32
  ![v2217.toNat, 0]

def k0_chk247 (v2217 : BitVec 32) : Prop :=
  (∀ a, (k0_off371 v2217) a + S1x8192.size a ≤ S8192x8192.size a)
instance k0_chk247.dec : ∀ (v2217 : BitVec 32), Decidable (k0_chk247 v2217) := fun v2217 => decidable_of_iff' _ (Iff.of_eq (k0_chk247.eq_1 v2217))
theorem k0_off371_inb : ∀ (v2217 : BitVec 32) (k0_hw247 : k0_chk247 v2217), ∀ a, (k0_off371 v2217) a + S1x8192.size a ≤ S8192x8192.size a := fun v2217 k0_hw247 => k0_hw247

def k0_off372 (v2220 : BitVec 32) : Fin 2 → Nat :=
  let c0_i32_1115 : BitVec 32 := 0#32
  ![v2220.toNat, 0]

def k0_chk248 (v2220 : BitVec 32) : Prop :=
  (∀ a, (k0_off372 v2220) a + S1x8192.size a ≤ S8192x8192.size a)
instance k0_chk248.dec : ∀ (v2220 : BitVec 32), Decidable (k0_chk248 v2220) := fun v2220 => decidable_of_iff' _ (Iff.of_eq (k0_chk248.eq_1 v2220))
theorem k0_off372_inb : ∀ (v2220 : BitVec 32) (k0_hw248 : k0_chk248 v2220), ∀ a, (k0_off372 v2220) a + S1x8192.size a ≤ S8192x8192.size a := fun v2220 k0_hw248 => k0_hw248

def k0_off373 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v2233 : BitVec 32 := Scalar.addi v0 c124_i32
  let v2234 : Index := Scalar.indexCast v2233
  ![v2234.toNat]
def k0_off374 (v2235 : BitVec 32) : Fin 2 → Nat :=
  let c0_i32_1120 : BitVec 32 := 0#32
  ![v2235.toNat, 0]

def k0_chk249 (v2235 : BitVec 32) : Prop :=
  (∀ a, (k0_off374 v2235) a + S1x8192.size a ≤ S8192x8192.size a)
instance k0_chk249.dec : ∀ (v2235 : BitVec 32), Decidable (k0_chk249 v2235) := fun v2235 => decidable_of_iff' _ (Iff.of_eq (k0_chk249.eq_1 v2235))
theorem k0_off374_inb : ∀ (v2235 : BitVec 32) (k0_hw249 : k0_chk249 v2235), ∀ a, (k0_off374 v2235) a + S1x8192.size a ≤ S8192x8192.size a := fun v2235 k0_hw249 => k0_hw249

def k0_off375 (v2238 : BitVec 32) : Fin 2 → Nat :=
  let c0_i32_1124 : BitVec 32 := 0#32
  ![v2238.toNat, 0]

def k0_chk250 (v2238 : BitVec 32) : Prop :=
  (∀ a, (k0_off375 v2238) a + S1x8192.size a ≤ S8192x8192.size a)
instance k0_chk250.dec : ∀ (v2238 : BitVec 32), Decidable (k0_chk250 v2238) := fun v2238 => decidable_of_iff' _ (Iff.of_eq (k0_chk250.eq_1 v2238))
theorem k0_off375_inb : ∀ (v2238 : BitVec 32) (k0_hw250 : k0_chk250 v2238), ∀ a, (k0_off375 v2238) a + S1x8192.size a ≤ S8192x8192.size a := fun v2238 k0_hw250 => k0_hw250

def k0_off376 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v2251 : BitVec 32 := Scalar.addi v0 c125_i32
  let v2252 : Index := Scalar.indexCast v2251
  ![v2252.toNat]
def k0_off377 (v2253 : BitVec 32) : Fin 2 → Nat :=
  let c0_i32_1129 : BitVec 32 := 0#32
  ![v2253.toNat, 0]

def k0_chk251 (v2253 : BitVec 32) : Prop :=
  (∀ a, (k0_off377 v2253) a + S1x8192.size a ≤ S8192x8192.size a)
instance k0_chk251.dec : ∀ (v2253 : BitVec 32), Decidable (k0_chk251 v2253) := fun v2253 => decidable_of_iff' _ (Iff.of_eq (k0_chk251.eq_1 v2253))
theorem k0_off377_inb : ∀ (v2253 : BitVec 32) (k0_hw251 : k0_chk251 v2253), ∀ a, (k0_off377 v2253) a + S1x8192.size a ≤ S8192x8192.size a := fun v2253 k0_hw251 => k0_hw251

def k0_off378 (v2256 : BitVec 32) : Fin 2 → Nat :=
  let c0_i32_1133 : BitVec 32 := 0#32
  ![v2256.toNat, 0]

def k0_chk252 (v2256 : BitVec 32) : Prop :=
  (∀ a, (k0_off378 v2256) a + S1x8192.size a ≤ S8192x8192.size a)
instance k0_chk252.dec : ∀ (v2256 : BitVec 32), Decidable (k0_chk252 v2256) := fun v2256 => decidable_of_iff' _ (Iff.of_eq (k0_chk252.eq_1 v2256))
theorem k0_off378_inb : ∀ (v2256 : BitVec 32) (k0_hw252 : k0_chk252 v2256), ∀ a, (k0_off378 v2256) a + S1x8192.size a ≤ S8192x8192.size a := fun v2256 k0_hw252 => k0_hw252

def k0_off379 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v2269 : BitVec 32 := Scalar.addi v0 c126_i32
  let v2270 : Index := Scalar.indexCast v2269
  ![v2270.toNat]
def k0_off380 (v2271 : BitVec 32) : Fin 2 → Nat :=
  let c0_i32_1138 : BitVec 32 := 0#32
  ![v2271.toNat, 0]

def k0_chk253 (v2271 : BitVec 32) : Prop :=
  (∀ a, (k0_off380 v2271) a + S1x8192.size a ≤ S8192x8192.size a)
instance k0_chk253.dec : ∀ (v2271 : BitVec 32), Decidable (k0_chk253 v2271) := fun v2271 => decidable_of_iff' _ (Iff.of_eq (k0_chk253.eq_1 v2271))
theorem k0_off380_inb : ∀ (v2271 : BitVec 32) (k0_hw253 : k0_chk253 v2271), ∀ a, (k0_off380 v2271) a + S1x8192.size a ≤ S8192x8192.size a := fun v2271 k0_hw253 => k0_hw253

def k0_off381 (v2274 : BitVec 32) : Fin 2 → Nat :=
  let c0_i32_1142 : BitVec 32 := 0#32
  ![v2274.toNat, 0]

def k0_chk254 (v2274 : BitVec 32) : Prop :=
  (∀ a, (k0_off381 v2274) a + S1x8192.size a ≤ S8192x8192.size a)
instance k0_chk254.dec : ∀ (v2274 : BitVec 32), Decidable (k0_chk254 v2274) := fun v2274 => decidable_of_iff' _ (Iff.of_eq (k0_chk254.eq_1 v2274))
theorem k0_off381_inb : ∀ (v2274 : BitVec 32) (k0_hw254 : k0_chk254 v2274), ∀ a, (k0_off381 v2274) a + S1x8192.size a ≤ S8192x8192.size a := fun v2274 k0_hw254 => k0_hw254

def k0_off382 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v2287 : BitVec 32 := Scalar.addi v0 c127_i32
  let v2288 : Index := Scalar.indexCast v2287
  ![v2288.toNat]
def k0_off383 (v2289 : BitVec 32) : Fin 2 → Nat :=
  let c0_i32_1147 : BitVec 32 := 0#32
  ![v2289.toNat, 0]

def k0_chk255 (v2289 : BitVec 32) : Prop :=
  (∀ a, (k0_off383 v2289) a + S1x8192.size a ≤ S8192x8192.size a)
instance k0_chk255.dec : ∀ (v2289 : BitVec 32), Decidable (k0_chk255 v2289) := fun v2289 => decidable_of_iff' _ (Iff.of_eq (k0_chk255.eq_1 v2289))
theorem k0_off383_inb : ∀ (v2289 : BitVec 32) (k0_hw255 : k0_chk255 v2289), ∀ a, (k0_off383 v2289) a + S1x8192.size a ≤ S8192x8192.size a := fun v2289 k0_hw255 => k0_hw255

def k0_off384 (v2292 : BitVec 32) : Fin 2 → Nat :=
  let c0_i32_1151 : BitVec 32 := 0#32
  ![v2292.toNat, 0]

def k0_chk256 (v2292 : BitVec 32) : Prop :=
  (∀ a, (k0_off384 v2292) a + S1x8192.size a ≤ S8192x8192.size a)
instance k0_chk256.dec : ∀ (v2292 : BitVec 32), Decidable (k0_chk256 v2292) := fun v2292 => decidable_of_iff' _ (Iff.of_eq (k0_chk256.eq_1 v2292))
theorem k0_off384_inb : ∀ (v2292 : BitVec 32) (k0_hw256 : k0_chk256 v2292), ∀ a, (k0_off384 v2292) a + S1x8192.size a ≤ S8192x8192.size a := fun v2292 k0_hw256 => k0_hw256

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2x8192_S1x8192_0_0 : S2x8192.Slices ![0, 0] S1x8192
  shapeCasts_S1x8192_S8192 : S1x8192.ShapeCasts S8192
  slices_S2x8192_S1x8192_1_0 : S2x8192.Slices ![1, 0] S1x8192
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  numel1_S1 : S1.numel = 1
  inb_S128_S1_0 : ∀ a, (![0] : Fin 1 → Nat) a + S1.size a ≤ S128.size a
  squeezes_S1_S_ : S1.Squeezes S_
  inb_S128x8192_S1x8192_0_0 : ∀ a, (![0, 0] : Fin 2 → Nat) a + S1x8192.size a ≤ S128x8192.size a
  squeezes_S1x8192_S8192 : S1x8192.Squeezes S8192
  inb_S128_S1_1 : ∀ a, (![1] : Fin 1 → Nat) a + S1.size a ≤ S128.size a
  inb_S128x8192_S1x8192_1_0 : ∀ a, (![1, 0] : Fin 2 → Nat) a + S1x8192.size a ≤ S128x8192.size a
  inb_S128_S1_2 : ∀ a, (![2] : Fin 1 → Nat) a + S1.size a ≤ S128.size a
  inb_S128x8192_S1x8192_2_0 : ∀ a, (![2, 0] : Fin 2 → Nat) a + S1x8192.size a ≤ S128x8192.size a
  inb_S128_S1_3 : ∀ a, (![3] : Fin 1 → Nat) a + S1.size a ≤ S128.size a
  inb_S128x8192_S1x8192_3_0 : ∀ a, (![3, 0] : Fin 2 → Nat) a + S1x8192.size a ≤ S128x8192.size a
  inb_S128_S1_4 : ∀ a, (![4] : Fin 1 → Nat) a + S1.size a ≤ S128.size a
  inb_S128x8192_S1x8192_4_0 : ∀ a, (![4, 0] : Fin 2 → Nat) a + S1x8192.size a ≤ S128x8192.size a
  inb_S128_S1_5 : ∀ a, (![5] : Fin 1 → Nat) a + S1.size a ≤ S128.size a
  inb_S128x8192_S1x8192_5_0 : ∀ a, (![5, 0] : Fin 2 → Nat) a + S1x8192.size a ≤ S128x8192.size a
  inb_S128_S1_6 : ∀ a, (![6] : Fin 1 → Nat) a + S1.size a ≤ S128.size a
  inb_S128x8192_S1x8192_6_0 : ∀ a, (![6, 0] : Fin 2 → Nat) a + S1x8192.size a ≤ S128x8192.size a
  inb_S128_S1_7 : ∀ a, (![7] : Fin 1 → Nat) a + S1.size a ≤ S128.size a
  inb_S128x8192_S1x8192_7_0 : ∀ a, (![7, 0] : Fin 2 → Nat) a + S1x8192.size a ≤ S128x8192.size a
  inb_S128_S1_8 : ∀ a, (![8] : Fin 1 → Nat) a + S1.size a ≤ S128.size a
  inb_S128x8192_S1x8192_8_0 : ∀ a, (![8, 0] : Fin 2 → Nat) a + S1x8192.size a ≤ S128x8192.size a
  inb_S128_S1_9 : ∀ a, (![9] : Fin 1 → Nat) a + S1.size a ≤ S128.size a
  inb_S128x8192_S1x8192_9_0 : ∀ a, (![9, 0] : Fin 2 → Nat) a + S1x8192.size a ≤ S128x8192.size a
  inb_S128_S1_10 : ∀ a, (![10] : Fin 1 → Nat) a + S1.size a ≤ S128.size a
  inb_S128x8192_S1x8192_10_0 : ∀ a, (![10, 0] : Fin 2 → Nat) a + S1x8192.size a ≤ S128x8192.size a
  inb_S128_S1_11 : ∀ a, (![11] : Fin 1 → Nat) a + S1.size a ≤ S128.size a
  inb_S128x8192_S1x8192_11_0 : ∀ a, (![11, 0] : Fin 2 → Nat) a + S1x8192.size a ≤ S128x8192.size a
  inb_S128_S1_12 : ∀ a, (![12] : Fin 1 → Nat) a + S1.size a ≤ S128.size a
  inb_S128x8192_S1x8192_12_0 : ∀ a, (![12, 0] : Fin 2 → Nat) a + S1x8192.size a ≤ S128x8192.size a
  inb_S128_S1_13 : ∀ a, (![13] : Fin 1 → Nat) a + S1.size a ≤ S128.size a
  inb_S128x8192_S1x8192_13_0 : ∀ a, (![13, 0] : Fin 2 → Nat) a + S1x8192.size a ≤ S128x8192.size a
  inb_S128_S1_14 : ∀ a, (![14] : Fin 1 → Nat) a + S1.size a ≤ S128.size a
  inb_S128x8192_S1x8192_14_0 : ∀ a, (![14, 0] : Fin 2 → Nat) a + S1x8192.size a ≤ S128x8192.size a
  inb_S128_S1_15 : ∀ a, (![15] : Fin 1 → Nat) a + S1.size a ≤ S128.size a
  inb_S128x8192_S1x8192_15_0 : ∀ a, (![15, 0] : Fin 2 → Nat) a + S1x8192.size a ≤ S128x8192.size a
  inb_S128_S1_16 : ∀ a, (![16] : Fin 1 → Nat) a + S1.size a ≤ S128.size a
  inb_S128x8192_S1x8192_16_0 : ∀ a, (![16, 0] : Fin 2 → Nat) a + S1x8192.size a ≤ S128x8192.size a
  inb_S128_S1_17 : ∀ a, (![17] : Fin 1 → Nat) a + S1.size a ≤ S128.size a
  inb_S128x8192_S1x8192_17_0 : ∀ a, (![17, 0] : Fin 2 → Nat) a + S1x8192.size a ≤ S128x8192.size a
  inb_S128_S1_18 : ∀ a, (![18] : Fin 1 → Nat) a + S1.size a ≤ S128.size a
  inb_S128x8192_S1x8192_18_0 : ∀ a, (![18, 0] : Fin 2 → Nat) a + S1x8192.size a ≤ S128x8192.size a
  inb_S128_S1_19 : ∀ a, (![19] : Fin 1 → Nat) a + S1.size a ≤ S128.size a
  inb_S128x8192_S1x8192_19_0 : ∀ a, (![19, 0] : Fin 2 → Nat) a + S1x8192.size a ≤ S128x8192.size a
  inb_S128_S1_20 : ∀ a, (![20] : Fin 1 → Nat) a + S1.size a ≤ S128.size a
  inb_S128x8192_S1x8192_20_0 : ∀ a, (![20, 0] : Fin 2 → Nat) a + S1x8192.size a ≤ S128x8192.size a
  inb_S128_S1_21 : ∀ a, (![21] : Fin 1 → Nat) a + S1.size a ≤ S128.size a
  inb_S128x8192_S1x8192_21_0 : ∀ a, (![21, 0] : Fin 2 → Nat) a + S1x8192.size a ≤ S128x8192.size a
  inb_S128_S1_22 : ∀ a, (![22] : Fin 1 → Nat) a + S1.size a ≤ S128.size a
  inb_S128x8192_S1x8192_22_0 : ∀ a, (![22, 0] : Fin 2 → Nat) a + S1x8192.size a ≤ S128x8192.size a
  inb_S128_S1_23 : ∀ a, (![23] : Fin 1 → Nat) a + S1.size a ≤ S128.size a
  inb_S128x8192_S1x8192_23_0 : ∀ a, (![23, 0] : Fin 2 → Nat) a + S1x8192.size a ≤ S128x8192.size a
  inb_S128_S1_24 : ∀ a, (![24] : Fin 1 → Nat) a + S1.size a ≤ S128.size a
  inb_S128x8192_S1x8192_24_0 : ∀ a, (![24, 0] : Fin 2 → Nat) a + S1x8192.size a ≤ S128x8192.size a
  inb_S128_S1_25 : ∀ a, (![25] : Fin 1 → Nat) a + S1.size a ≤ S128.size a
  inb_S128x8192_S1x8192_25_0 : ∀ a, (![25, 0] : Fin 2 → Nat) a + S1x8192.size a ≤ S128x8192.size a
  inb_S128_S1_26 : ∀ a, (![26] : Fin 1 → Nat) a + S1.size a ≤ S128.size a
  inb_S128x8192_S1x8192_26_0 : ∀ a, (![26, 0] : Fin 2 → Nat) a + S1x8192.size a ≤ S128x8192.size a
  inb_S128_S1_27 : ∀ a, (![27] : Fin 1 → Nat) a + S1.size a ≤ S128.size a
  inb_S128x8192_S1x8192_27_0 : ∀ a, (![27, 0] : Fin 2 → Nat) a + S1x8192.size a ≤ S128x8192.size a
  inb_S128_S1_28 : ∀ a, (![28] : Fin 1 → Nat) a + S1.size a ≤ S128.size a
  inb_S128x8192_S1x8192_28_0 : ∀ a, (![28, 0] : Fin 2 → Nat) a + S1x8192.size a ≤ S128x8192.size a
  inb_S128_S1_29 : ∀ a, (![29] : Fin 1 → Nat) a + S1.size a ≤ S128.size a
  inb_S128x8192_S1x8192_29_0 : ∀ a, (![29, 0] : Fin 2 → Nat) a + S1x8192.size a ≤ S128x8192.size a
  inb_S128_S1_30 : ∀ a, (![30] : Fin 1 → Nat) a + S1.size a ≤ S128.size a
  inb_S128x8192_S1x8192_30_0 : ∀ a, (![30, 0] : Fin 2 → Nat) a + S1x8192.size a ≤ S128x8192.size a
  inb_S128_S1_31 : ∀ a, (![31] : Fin 1 → Nat) a + S1.size a ≤ S128.size a
  inb_S128x8192_S1x8192_31_0 : ∀ a, (![31, 0] : Fin 2 → Nat) a + S1x8192.size a ≤ S128x8192.size a
  inb_S128_S1_32 : ∀ a, (![32] : Fin 1 → Nat) a + S1.size a ≤ S128.size a
  inb_S128x8192_S1x8192_32_0 : ∀ a, (![32, 0] : Fin 2 → Nat) a + S1x8192.size a ≤ S128x8192.size a
  inb_S128_S1_33 : ∀ a, (![33] : Fin 1 → Nat) a + S1.size a ≤ S128.size a
  inb_S128x8192_S1x8192_33_0 : ∀ a, (![33, 0] : Fin 2 → Nat) a + S1x8192.size a ≤ S128x8192.size a
  inb_S128_S1_34 : ∀ a, (![34] : Fin 1 → Nat) a + S1.size a ≤ S128.size a
  inb_S128x8192_S1x8192_34_0 : ∀ a, (![34, 0] : Fin 2 → Nat) a + S1x8192.size a ≤ S128x8192.size a
  inb_S128_S1_35 : ∀ a, (![35] : Fin 1 → Nat) a + S1.size a ≤ S128.size a
  inb_S128x8192_S1x8192_35_0 : ∀ a, (![35, 0] : Fin 2 → Nat) a + S1x8192.size a ≤ S128x8192.size a
  inb_S128_S1_36 : ∀ a, (![36] : Fin 1 → Nat) a + S1.size a ≤ S128.size a
  inb_S128x8192_S1x8192_36_0 : ∀ a, (![36, 0] : Fin 2 → Nat) a + S1x8192.size a ≤ S128x8192.size a
  inb_S128_S1_37 : ∀ a, (![37] : Fin 1 → Nat) a + S1.size a ≤ S128.size a
  inb_S128x8192_S1x8192_37_0 : ∀ a, (![37, 0] : Fin 2 → Nat) a + S1x8192.size a ≤ S128x8192.size a
  inb_S128_S1_38 : ∀ a, (![38] : Fin 1 → Nat) a + S1.size a ≤ S128.size a
  inb_S128x8192_S1x8192_38_0 : ∀ a, (![38, 0] : Fin 2 → Nat) a + S1x8192.size a ≤ S128x8192.size a
  inb_S128_S1_39 : ∀ a, (![39] : Fin 1 → Nat) a + S1.size a ≤ S128.size a
  inb_S128x8192_S1x8192_39_0 : ∀ a, (![39, 0] : Fin 2 → Nat) a + S1x8192.size a ≤ S128x8192.size a
  inb_S128_S1_40 : ∀ a, (![40] : Fin 1 → Nat) a + S1.size a ≤ S128.size a
  inb_S128x8192_S1x8192_40_0 : ∀ a, (![40, 0] : Fin 2 → Nat) a + S1x8192.size a ≤ S128x8192.size a
  inb_S128_S1_41 : ∀ a, (![41] : Fin 1 → Nat) a + S1.size a ≤ S128.size a
  inb_S128x8192_S1x8192_41_0 : ∀ a, (![41, 0] : Fin 2 → Nat) a + S1x8192.size a ≤ S128x8192.size a
  inb_S128_S1_42 : ∀ a, (![42] : Fin 1 → Nat) a + S1.size a ≤ S128.size a
  inb_S128x8192_S1x8192_42_0 : ∀ a, (![42, 0] : Fin 2 → Nat) a + S1x8192.size a ≤ S128x8192.size a
  inb_S128_S1_43 : ∀ a, (![43] : Fin 1 → Nat) a + S1.size a ≤ S128.size a
  inb_S128x8192_S1x8192_43_0 : ∀ a, (![43, 0] : Fin 2 → Nat) a + S1x8192.size a ≤ S128x8192.size a
  inb_S128_S1_44 : ∀ a, (![44] : Fin 1 → Nat) a + S1.size a ≤ S128.size a
  inb_S128x8192_S1x8192_44_0 : ∀ a, (![44, 0] : Fin 2 → Nat) a + S1x8192.size a ≤ S128x8192.size a
  inb_S128_S1_45 : ∀ a, (![45] : Fin 1 → Nat) a + S1.size a ≤ S128.size a
  inb_S128x8192_S1x8192_45_0 : ∀ a, (![45, 0] : Fin 2 → Nat) a + S1x8192.size a ≤ S128x8192.size a
  inb_S128_S1_46 : ∀ a, (![46] : Fin 1 → Nat) a + S1.size a ≤ S128.size a
  inb_S128x8192_S1x8192_46_0 : ∀ a, (![46, 0] : Fin 2 → Nat) a + S1x8192.size a ≤ S128x8192.size a
  inb_S128_S1_47 : ∀ a, (![47] : Fin 1 → Nat) a + S1.size a ≤ S128.size a
  inb_S128x8192_S1x8192_47_0 : ∀ a, (![47, 0] : Fin 2 → Nat) a + S1x8192.size a ≤ S128x8192.size a
  inb_S128_S1_48 : ∀ a, (![48] : Fin 1 → Nat) a + S1.size a ≤ S128.size a
  inb_S128x8192_S1x8192_48_0 : ∀ a, (![48, 0] : Fin 2 → Nat) a + S1x8192.size a ≤ S128x8192.size a
  inb_S128_S1_49 : ∀ a, (![49] : Fin 1 → Nat) a + S1.size a ≤ S128.size a
  inb_S128x8192_S1x8192_49_0 : ∀ a, (![49, 0] : Fin 2 → Nat) a + S1x8192.size a ≤ S128x8192.size a
  inb_S128_S1_50 : ∀ a, (![50] : Fin 1 → Nat) a + S1.size a ≤ S128.size a
  inb_S128x8192_S1x8192_50_0 : ∀ a, (![50, 0] : Fin 2 → Nat) a + S1x8192.size a ≤ S128x8192.size a
  inb_S128_S1_51 : ∀ a, (![51] : Fin 1 → Nat) a + S1.size a ≤ S128.size a
  inb_S128x8192_S1x8192_51_0 : ∀ a, (![51, 0] : Fin 2 → Nat) a + S1x8192.size a ≤ S128x8192.size a
  inb_S128_S1_52 : ∀ a, (![52] : Fin 1 → Nat) a + S1.size a ≤ S128.size a
  inb_S128x8192_S1x8192_52_0 : ∀ a, (![52, 0] : Fin 2 → Nat) a + S1x8192.size a ≤ S128x8192.size a
  inb_S128_S1_53 : ∀ a, (![53] : Fin 1 → Nat) a + S1.size a ≤ S128.size a
  inb_S128x8192_S1x8192_53_0 : ∀ a, (![53, 0] : Fin 2 → Nat) a + S1x8192.size a ≤ S128x8192.size a
  inb_S128_S1_54 : ∀ a, (![54] : Fin 1 → Nat) a + S1.size a ≤ S128.size a
  inb_S128x8192_S1x8192_54_0 : ∀ a, (![54, 0] : Fin 2 → Nat) a + S1x8192.size a ≤ S128x8192.size a
  inb_S128_S1_55 : ∀ a, (![55] : Fin 1 → Nat) a + S1.size a ≤ S128.size a
  inb_S128x8192_S1x8192_55_0 : ∀ a, (![55, 0] : Fin 2 → Nat) a + S1x8192.size a ≤ S128x8192.size a
  inb_S128_S1_56 : ∀ a, (![56] : Fin 1 → Nat) a + S1.size a ≤ S128.size a
  inb_S128x8192_S1x8192_56_0 : ∀ a, (![56, 0] : Fin 2 → Nat) a + S1x8192.size a ≤ S128x8192.size a
  inb_S128_S1_57 : ∀ a, (![57] : Fin 1 → Nat) a + S1.size a ≤ S128.size a
  inb_S128x8192_S1x8192_57_0 : ∀ a, (![57, 0] : Fin 2 → Nat) a + S1x8192.size a ≤ S128x8192.size a
  inb_S128_S1_58 : ∀ a, (![58] : Fin 1 → Nat) a + S1.size a ≤ S128.size a
  inb_S128x8192_S1x8192_58_0 : ∀ a, (![58, 0] : Fin 2 → Nat) a + S1x8192.size a ≤ S128x8192.size a
  inb_S128_S1_59 : ∀ a, (![59] : Fin 1 → Nat) a + S1.size a ≤ S128.size a
  inb_S128x8192_S1x8192_59_0 : ∀ a, (![59, 0] : Fin 2 → Nat) a + S1x8192.size a ≤ S128x8192.size a
  inb_S128_S1_60 : ∀ a, (![60] : Fin 1 → Nat) a + S1.size a ≤ S128.size a
  inb_S128x8192_S1x8192_60_0 : ∀ a, (![60, 0] : Fin 2 → Nat) a + S1x8192.size a ≤ S128x8192.size a
  inb_S128_S1_61 : ∀ a, (![61] : Fin 1 → Nat) a + S1.size a ≤ S128.size a
  inb_S128x8192_S1x8192_61_0 : ∀ a, (![61, 0] : Fin 2 → Nat) a + S1x8192.size a ≤ S128x8192.size a
  inb_S128_S1_62 : ∀ a, (![62] : Fin 1 → Nat) a + S1.size a ≤ S128.size a
  inb_S128x8192_S1x8192_62_0 : ∀ a, (![62, 0] : Fin 2 → Nat) a + S1x8192.size a ≤ S128x8192.size a
  inb_S128_S1_63 : ∀ a, (![63] : Fin 1 → Nat) a + S1.size a ≤ S128.size a
  inb_S128x8192_S1x8192_63_0 : ∀ a, (![63, 0] : Fin 2 → Nat) a + S1x8192.size a ≤ S128x8192.size a
  inb_S128_S1_64 : ∀ a, (![64] : Fin 1 → Nat) a + S1.size a ≤ S128.size a
  inb_S128x8192_S1x8192_64_0 : ∀ a, (![64, 0] : Fin 2 → Nat) a + S1x8192.size a ≤ S128x8192.size a
  inb_S128_S1_65 : ∀ a, (![65] : Fin 1 → Nat) a + S1.size a ≤ S128.size a
  inb_S128x8192_S1x8192_65_0 : ∀ a, (![65, 0] : Fin 2 → Nat) a + S1x8192.size a ≤ S128x8192.size a
  inb_S128_S1_66 : ∀ a, (![66] : Fin 1 → Nat) a + S1.size a ≤ S128.size a
  inb_S128x8192_S1x8192_66_0 : ∀ a, (![66, 0] : Fin 2 → Nat) a + S1x8192.size a ≤ S128x8192.size a
  inb_S128_S1_67 : ∀ a, (![67] : Fin 1 → Nat) a + S1.size a ≤ S128.size a
  inb_S128x8192_S1x8192_67_0 : ∀ a, (![67, 0] : Fin 2 → Nat) a + S1x8192.size a ≤ S128x8192.size a
  inb_S128_S1_68 : ∀ a, (![68] : Fin 1 → Nat) a + S1.size a ≤ S128.size a
  inb_S128x8192_S1x8192_68_0 : ∀ a, (![68, 0] : Fin 2 → Nat) a + S1x8192.size a ≤ S128x8192.size a
  inb_S128_S1_69 : ∀ a, (![69] : Fin 1 → Nat) a + S1.size a ≤ S128.size a
  inb_S128x8192_S1x8192_69_0 : ∀ a, (![69, 0] : Fin 2 → Nat) a + S1x8192.size a ≤ S128x8192.size a
  inb_S128_S1_70 : ∀ a, (![70] : Fin 1 → Nat) a + S1.size a ≤ S128.size a
  inb_S128x8192_S1x8192_70_0 : ∀ a, (![70, 0] : Fin 2 → Nat) a + S1x8192.size a ≤ S128x8192.size a
  inb_S128_S1_71 : ∀ a, (![71] : Fin 1 → Nat) a + S1.size a ≤ S128.size a
  inb_S128x8192_S1x8192_71_0 : ∀ a, (![71, 0] : Fin 2 → Nat) a + S1x8192.size a ≤ S128x8192.size a
  inb_S128_S1_72 : ∀ a, (![72] : Fin 1 → Nat) a + S1.size a ≤ S128.size a
  inb_S128x8192_S1x8192_72_0 : ∀ a, (![72, 0] : Fin 2 → Nat) a + S1x8192.size a ≤ S128x8192.size a
  inb_S128_S1_73 : ∀ a, (![73] : Fin 1 → Nat) a + S1.size a ≤ S128.size a
  inb_S128x8192_S1x8192_73_0 : ∀ a, (![73, 0] : Fin 2 → Nat) a + S1x8192.size a ≤ S128x8192.size a
  inb_S128_S1_74 : ∀ a, (![74] : Fin 1 → Nat) a + S1.size a ≤ S128.size a
  inb_S128x8192_S1x8192_74_0 : ∀ a, (![74, 0] : Fin 2 → Nat) a + S1x8192.size a ≤ S128x8192.size a
  inb_S128_S1_75 : ∀ a, (![75] : Fin 1 → Nat) a + S1.size a ≤ S128.size a
  inb_S128x8192_S1x8192_75_0 : ∀ a, (![75, 0] : Fin 2 → Nat) a + S1x8192.size a ≤ S128x8192.size a
  inb_S128_S1_76 : ∀ a, (![76] : Fin 1 → Nat) a + S1.size a ≤ S128.size a
  inb_S128x8192_S1x8192_76_0 : ∀ a, (![76, 0] : Fin 2 → Nat) a + S1x8192.size a ≤ S128x8192.size a
  inb_S128_S1_77 : ∀ a, (![77] : Fin 1 → Nat) a + S1.size a ≤ S128.size a
  inb_S128x8192_S1x8192_77_0 : ∀ a, (![77, 0] : Fin 2 → Nat) a + S1x8192.size a ≤ S128x8192.size a
  inb_S128_S1_78 : ∀ a, (![78] : Fin 1 → Nat) a + S1.size a ≤ S128.size a
  inb_S128x8192_S1x8192_78_0 : ∀ a, (![78, 0] : Fin 2 → Nat) a + S1x8192.size a ≤ S128x8192.size a
  inb_S128_S1_79 : ∀ a, (![79] : Fin 1 → Nat) a + S1.size a ≤ S128.size a
  inb_S128x8192_S1x8192_79_0 : ∀ a, (![79, 0] : Fin 2 → Nat) a + S1x8192.size a ≤ S128x8192.size a
  inb_S128_S1_80 : ∀ a, (![80] : Fin 1 → Nat) a + S1.size a ≤ S128.size a
  inb_S128x8192_S1x8192_80_0 : ∀ a, (![80, 0] : Fin 2 → Nat) a + S1x8192.size a ≤ S128x8192.size a
  inb_S128_S1_81 : ∀ a, (![81] : Fin 1 → Nat) a + S1.size a ≤ S128.size a
  inb_S128x8192_S1x8192_81_0 : ∀ a, (![81, 0] : Fin 2 → Nat) a + S1x8192.size a ≤ S128x8192.size a
  inb_S128_S1_82 : ∀ a, (![82] : Fin 1 → Nat) a + S1.size a ≤ S128.size a
  inb_S128x8192_S1x8192_82_0 : ∀ a, (![82, 0] : Fin 2 → Nat) a + S1x8192.size a ≤ S128x8192.size a
  inb_S128_S1_83 : ∀ a, (![83] : Fin 1 → Nat) a + S1.size a ≤ S128.size a
  inb_S128x8192_S1x8192_83_0 : ∀ a, (![83, 0] : Fin 2 → Nat) a + S1x8192.size a ≤ S128x8192.size a
  inb_S128_S1_84 : ∀ a, (![84] : Fin 1 → Nat) a + S1.size a ≤ S128.size a
  inb_S128x8192_S1x8192_84_0 : ∀ a, (![84, 0] : Fin 2 → Nat) a + S1x8192.size a ≤ S128x8192.size a
  inb_S128_S1_85 : ∀ a, (![85] : Fin 1 → Nat) a + S1.size a ≤ S128.size a
  inb_S128x8192_S1x8192_85_0 : ∀ a, (![85, 0] : Fin 2 → Nat) a + S1x8192.size a ≤ S128x8192.size a
  inb_S128_S1_86 : ∀ a, (![86] : Fin 1 → Nat) a + S1.size a ≤ S128.size a
  inb_S128x8192_S1x8192_86_0 : ∀ a, (![86, 0] : Fin 2 → Nat) a + S1x8192.size a ≤ S128x8192.size a
  inb_S128_S1_87 : ∀ a, (![87] : Fin 1 → Nat) a + S1.size a ≤ S128.size a
  inb_S128x8192_S1x8192_87_0 : ∀ a, (![87, 0] : Fin 2 → Nat) a + S1x8192.size a ≤ S128x8192.size a
  inb_S128_S1_88 : ∀ a, (![88] : Fin 1 → Nat) a + S1.size a ≤ S128.size a
  inb_S128x8192_S1x8192_88_0 : ∀ a, (![88, 0] : Fin 2 → Nat) a + S1x8192.size a ≤ S128x8192.size a
  inb_S128_S1_89 : ∀ a, (![89] : Fin 1 → Nat) a + S1.size a ≤ S128.size a
  inb_S128x8192_S1x8192_89_0 : ∀ a, (![89, 0] : Fin 2 → Nat) a + S1x8192.size a ≤ S128x8192.size a
  inb_S128_S1_90 : ∀ a, (![90] : Fin 1 → Nat) a + S1.size a ≤ S128.size a
  inb_S128x8192_S1x8192_90_0 : ∀ a, (![90, 0] : Fin 2 → Nat) a + S1x8192.size a ≤ S128x8192.size a
  inb_S128_S1_91 : ∀ a, (![91] : Fin 1 → Nat) a + S1.size a ≤ S128.size a
  inb_S128x8192_S1x8192_91_0 : ∀ a, (![91, 0] : Fin 2 → Nat) a + S1x8192.size a ≤ S128x8192.size a
  inb_S128_S1_92 : ∀ a, (![92] : Fin 1 → Nat) a + S1.size a ≤ S128.size a
  inb_S128x8192_S1x8192_92_0 : ∀ a, (![92, 0] : Fin 2 → Nat) a + S1x8192.size a ≤ S128x8192.size a
  inb_S128_S1_93 : ∀ a, (![93] : Fin 1 → Nat) a + S1.size a ≤ S128.size a
  inb_S128x8192_S1x8192_93_0 : ∀ a, (![93, 0] : Fin 2 → Nat) a + S1x8192.size a ≤ S128x8192.size a
  inb_S128_S1_94 : ∀ a, (![94] : Fin 1 → Nat) a + S1.size a ≤ S128.size a
  inb_S128x8192_S1x8192_94_0 : ∀ a, (![94, 0] : Fin 2 → Nat) a + S1x8192.size a ≤ S128x8192.size a
  inb_S128_S1_95 : ∀ a, (![95] : Fin 1 → Nat) a + S1.size a ≤ S128.size a
  inb_S128x8192_S1x8192_95_0 : ∀ a, (![95, 0] : Fin 2 → Nat) a + S1x8192.size a ≤ S128x8192.size a
  inb_S128_S1_96 : ∀ a, (![96] : Fin 1 → Nat) a + S1.size a ≤ S128.size a
  inb_S128x8192_S1x8192_96_0 : ∀ a, (![96, 0] : Fin 2 → Nat) a + S1x8192.size a ≤ S128x8192.size a
  inb_S128_S1_97 : ∀ a, (![97] : Fin 1 → Nat) a + S1.size a ≤ S128.size a
  inb_S128x8192_S1x8192_97_0 : ∀ a, (![97, 0] : Fin 2 → Nat) a + S1x8192.size a ≤ S128x8192.size a
  inb_S128_S1_98 : ∀ a, (![98] : Fin 1 → Nat) a + S1.size a ≤ S128.size a
  inb_S128x8192_S1x8192_98_0 : ∀ a, (![98, 0] : Fin 2 → Nat) a + S1x8192.size a ≤ S128x8192.size a
  inb_S128_S1_99 : ∀ a, (![99] : Fin 1 → Nat) a + S1.size a ≤ S128.size a
  inb_S128x8192_S1x8192_99_0 : ∀ a, (![99, 0] : Fin 2 → Nat) a + S1x8192.size a ≤ S128x8192.size a
  inb_S128_S1_100 : ∀ a, (![100] : Fin 1 → Nat) a + S1.size a ≤ S128.size a
  inb_S128x8192_S1x8192_100_0 : ∀ a, (![100, 0] : Fin 2 → Nat) a + S1x8192.size a ≤ S128x8192.size a
  inb_S128_S1_101 : ∀ a, (![101] : Fin 1 → Nat) a + S1.size a ≤ S128.size a
  inb_S128x8192_S1x8192_101_0 : ∀ a, (![101, 0] : Fin 2 → Nat) a + S1x8192.size a ≤ S128x8192.size a
  inb_S128_S1_102 : ∀ a, (![102] : Fin 1 → Nat) a + S1.size a ≤ S128.size a
  inb_S128x8192_S1x8192_102_0 : ∀ a, (![102, 0] : Fin 2 → Nat) a + S1x8192.size a ≤ S128x8192.size a
  inb_S128_S1_103 : ∀ a, (![103] : Fin 1 → Nat) a + S1.size a ≤ S128.size a
  inb_S128x8192_S1x8192_103_0 : ∀ a, (![103, 0] : Fin 2 → Nat) a + S1x8192.size a ≤ S128x8192.size a
  inb_S128_S1_104 : ∀ a, (![104] : Fin 1 → Nat) a + S1.size a ≤ S128.size a
  inb_S128x8192_S1x8192_104_0 : ∀ a, (![104, 0] : Fin 2 → Nat) a + S1x8192.size a ≤ S128x8192.size a
  inb_S128_S1_105 : ∀ a, (![105] : Fin 1 → Nat) a + S1.size a ≤ S128.size a
  inb_S128x8192_S1x8192_105_0 : ∀ a, (![105, 0] : Fin 2 → Nat) a + S1x8192.size a ≤ S128x8192.size a
  inb_S128_S1_106 : ∀ a, (![106] : Fin 1 → Nat) a + S1.size a ≤ S128.size a
  inb_S128x8192_S1x8192_106_0 : ∀ a, (![106, 0] : Fin 2 → Nat) a + S1x8192.size a ≤ S128x8192.size a
  inb_S128_S1_107 : ∀ a, (![107] : Fin 1 → Nat) a + S1.size a ≤ S128.size a
  inb_S128x8192_S1x8192_107_0 : ∀ a, (![107, 0] : Fin 2 → Nat) a + S1x8192.size a ≤ S128x8192.size a
  inb_S128_S1_108 : ∀ a, (![108] : Fin 1 → Nat) a + S1.size a ≤ S128.size a
  inb_S128x8192_S1x8192_108_0 : ∀ a, (![108, 0] : Fin 2 → Nat) a + S1x8192.size a ≤ S128x8192.size a
  inb_S128_S1_109 : ∀ a, (![109] : Fin 1 → Nat) a + S1.size a ≤ S128.size a
  inb_S128x8192_S1x8192_109_0 : ∀ a, (![109, 0] : Fin 2 → Nat) a + S1x8192.size a ≤ S128x8192.size a
  inb_S128_S1_110 : ∀ a, (![110] : Fin 1 → Nat) a + S1.size a ≤ S128.size a
  inb_S128x8192_S1x8192_110_0 : ∀ a, (![110, 0] : Fin 2 → Nat) a + S1x8192.size a ≤ S128x8192.size a
  inb_S128_S1_111 : ∀ a, (![111] : Fin 1 → Nat) a + S1.size a ≤ S128.size a
  inb_S128x8192_S1x8192_111_0 : ∀ a, (![111, 0] : Fin 2 → Nat) a + S1x8192.size a ≤ S128x8192.size a
  inb_S128_S1_112 : ∀ a, (![112] : Fin 1 → Nat) a + S1.size a ≤ S128.size a
  inb_S128x8192_S1x8192_112_0 : ∀ a, (![112, 0] : Fin 2 → Nat) a + S1x8192.size a ≤ S128x8192.size a
  inb_S128_S1_113 : ∀ a, (![113] : Fin 1 → Nat) a + S1.size a ≤ S128.size a
  inb_S128x8192_S1x8192_113_0 : ∀ a, (![113, 0] : Fin 2 → Nat) a + S1x8192.size a ≤ S128x8192.size a
  inb_S128_S1_114 : ∀ a, (![114] : Fin 1 → Nat) a + S1.size a ≤ S128.size a
  inb_S128x8192_S1x8192_114_0 : ∀ a, (![114, 0] : Fin 2 → Nat) a + S1x8192.size a ≤ S128x8192.size a
  inb_S128_S1_115 : ∀ a, (![115] : Fin 1 → Nat) a + S1.size a ≤ S128.size a
  inb_S128x8192_S1x8192_115_0 : ∀ a, (![115, 0] : Fin 2 → Nat) a + S1x8192.size a ≤ S128x8192.size a
  inb_S128_S1_116 : ∀ a, (![116] : Fin 1 → Nat) a + S1.size a ≤ S128.size a
  inb_S128x8192_S1x8192_116_0 : ∀ a, (![116, 0] : Fin 2 → Nat) a + S1x8192.size a ≤ S128x8192.size a
  inb_S128_S1_117 : ∀ a, (![117] : Fin 1 → Nat) a + S1.size a ≤ S128.size a
  inb_S128x8192_S1x8192_117_0 : ∀ a, (![117, 0] : Fin 2 → Nat) a + S1x8192.size a ≤ S128x8192.size a
  inb_S128_S1_118 : ∀ a, (![118] : Fin 1 → Nat) a + S1.size a ≤ S128.size a
  inb_S128x8192_S1x8192_118_0 : ∀ a, (![118, 0] : Fin 2 → Nat) a + S1x8192.size a ≤ S128x8192.size a
  inb_S128_S1_119 : ∀ a, (![119] : Fin 1 → Nat) a + S1.size a ≤ S128.size a
  inb_S128x8192_S1x8192_119_0 : ∀ a, (![119, 0] : Fin 2 → Nat) a + S1x8192.size a ≤ S128x8192.size a
  inb_S128_S1_120 : ∀ a, (![120] : Fin 1 → Nat) a + S1.size a ≤ S128.size a
  inb_S128x8192_S1x8192_120_0 : ∀ a, (![120, 0] : Fin 2 → Nat) a + S1x8192.size a ≤ S128x8192.size a
  inb_S128_S1_121 : ∀ a, (![121] : Fin 1 → Nat) a + S1.size a ≤ S128.size a
  inb_S128x8192_S1x8192_121_0 : ∀ a, (![121, 0] : Fin 2 → Nat) a + S1x8192.size a ≤ S128x8192.size a
  inb_S128_S1_122 : ∀ a, (![122] : Fin 1 → Nat) a + S1.size a ≤ S128.size a
  inb_S128x8192_S1x8192_122_0 : ∀ a, (![122, 0] : Fin 2 → Nat) a + S1x8192.size a ≤ S128x8192.size a
  inb_S128_S1_123 : ∀ a, (![123] : Fin 1 → Nat) a + S1.size a ≤ S128.size a
  inb_S128x8192_S1x8192_123_0 : ∀ a, (![123, 0] : Fin 2 → Nat) a + S1x8192.size a ≤ S128x8192.size a
  inb_S128_S1_124 : ∀ a, (![124] : Fin 1 → Nat) a + S1.size a ≤ S128.size a
  inb_S128x8192_S1x8192_124_0 : ∀ a, (![124, 0] : Fin 2 → Nat) a + S1x8192.size a ≤ S128x8192.size a
  inb_S128_S1_125 : ∀ a, (![125] : Fin 1 → Nat) a + S1.size a ≤ S128.size a
  inb_S128x8192_S1x8192_125_0 : ∀ a, (![125, 0] : Fin 2 → Nat) a + S1x8192.size a ≤ S128x8192.size a
  inb_S128_S1_126 : ∀ a, (![126] : Fin 1 → Nat) a + S1.size a ≤ S128.size a
  inb_S128x8192_S1x8192_126_0 : ∀ a, (![126, 0] : Fin 2 → Nat) a + S1x8192.size a ≤ S128x8192.size a
  inb_S128_S1_127 : ∀ a, (![127] : Fin 1 → Nat) a + S1.size a ≤ S128.size a
  inb_S128x8192_S1x8192_127_0 : ∀ a, (![127, 0] : Fin 2 → Nat) a + S1x8192.size a ≤ S128x8192.size a
  inb_S8192x8192_S1x8192_0_0 : ∀ a, (![0, 0] : Fin 2 → Nat) a + S1x8192.size a ≤ S8192x8192.size a
  inb_S128x8192_S128x8192_0_0 : ∀ a, (![0, 0] : Fin 2 → Nat) a + S128x8192.size a ≤ S128x8192.size a
  h_S128x8192 : 0 < S128x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S128x256_S128x256_0_0 : ∀ a, (![0, 0] : Fin 2 → Nat) a + S128x256.size a ≤ S128x256.size a
  h_S128x256 : 0 < S128x256.numel
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  gather_S8192x256_S8192x1_S8192x256_1_0_n_n_0_1_1256_wf : GatherDims.WF S8192x256 S8192x1 S8192x256 [1] [0] [] [0] [] 1 ![1, 256]
  dot_S128x8192_S8192x256_S128x256_1_0_0_1_n_n_wf : DotDims.WF S128x8192 S8192x256 S128x256 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  hcc0_scratch2 : 3 + S128.numel ≤ 259
  hcc0_scratch3 : 131 + S128.numel ≤ 259
  hrank0 : 0 < grid0.rank
  k0_off1_inb : ∀ i : grid0.Coords, ∀ a, (k0_off1 i) a + S1.size a ≤ S8192.size a
  k0_off4_inb : ∀ i : grid0.Coords, ∀ a, (k0_off4 i) a + S1.size a ≤ S8192.size a
  k0_off7_inb : ∀ i : grid0.Coords, ∀ a, (k0_off7 i) a + S1.size a ≤ S8192.size a
  k0_off10_inb : ∀ i : grid0.Coords, ∀ a, (k0_off10 i) a + S1.size a ≤ S8192.size a
  k0_off13_inb : ∀ i : grid0.Coords, ∀ a, (k0_off13 i) a + S1.size a ≤ S8192.size a
  k0_off16_inb : ∀ i : grid0.Coords, ∀ a, (k0_off16 i) a + S1.size a ≤ S8192.size a
  k0_off19_inb : ∀ i : grid0.Coords, ∀ a, (k0_off19 i) a + S1.size a ≤ S8192.size a
  k0_off22_inb : ∀ i : grid0.Coords, ∀ a, (k0_off22 i) a + S1.size a ≤ S8192.size a
  k0_off25_inb : ∀ i : grid0.Coords, ∀ a, (k0_off25 i) a + S1.size a ≤ S8192.size a
  k0_off28_inb : ∀ i : grid0.Coords, ∀ a, (k0_off28 i) a + S1.size a ≤ S8192.size a
  k0_off31_inb : ∀ i : grid0.Coords, ∀ a, (k0_off31 i) a + S1.size a ≤ S8192.size a
  k0_off34_inb : ∀ i : grid0.Coords, ∀ a, (k0_off34 i) a + S1.size a ≤ S8192.size a
  k0_off37_inb : ∀ i : grid0.Coords, ∀ a, (k0_off37 i) a + S1.size a ≤ S8192.size a
  k0_off40_inb : ∀ i : grid0.Coords, ∀ a, (k0_off40 i) a + S1.size a ≤ S8192.size a
  k0_off43_inb : ∀ i : grid0.Coords, ∀ a, (k0_off43 i) a + S1.size a ≤ S8192.size a
  k0_off46_inb : ∀ i : grid0.Coords, ∀ a, (k0_off46 i) a + S1.size a ≤ S8192.size a
  k0_off49_inb : ∀ i : grid0.Coords, ∀ a, (k0_off49 i) a + S1.size a ≤ S8192.size a
  k0_off52_inb : ∀ i : grid0.Coords, ∀ a, (k0_off52 i) a + S1.size a ≤ S8192.size a
  k0_off55_inb : ∀ i : grid0.Coords, ∀ a, (k0_off55 i) a + S1.size a ≤ S8192.size a
  k0_off58_inb : ∀ i : grid0.Coords, ∀ a, (k0_off58 i) a + S1.size a ≤ S8192.size a
  k0_off61_inb : ∀ i : grid0.Coords, ∀ a, (k0_off61 i) a + S1.size a ≤ S8192.size a
  k0_off64_inb : ∀ i : grid0.Coords, ∀ a, (k0_off64 i) a + S1.size a ≤ S8192.size a
  k0_off67_inb : ∀ i : grid0.Coords, ∀ a, (k0_off67 i) a + S1.size a ≤ S8192.size a
  k0_off70_inb : ∀ i : grid0.Coords, ∀ a, (k0_off70 i) a + S1.size a ≤ S8192.size a
  k0_off73_inb : ∀ i : grid0.Coords, ∀ a, (k0_off73 i) a + S1.size a ≤ S8192.size a
  k0_off76_inb : ∀ i : grid0.Coords, ∀ a, (k0_off76 i) a + S1.size a ≤ S8192.size a
  k0_off79_inb : ∀ i : grid0.Coords, ∀ a, (k0_off79 i) a + S1.size a ≤ S8192.size a
  k0_off82_inb : ∀ i : grid0.Coords, ∀ a, (k0_off82 i) a + S1.size a ≤ S8192.size a
  k0_off85_inb : ∀ i : grid0.Coords, ∀ a, (k0_off85 i) a + S1.size a ≤ S8192.size a
  k0_off88_inb : ∀ i : grid0.Coords, ∀ a, (k0_off88 i) a + S1.size a ≤ S8192.size a
  k0_off91_inb : ∀ i : grid0.Coords, ∀ a, (k0_off91 i) a + S1.size a ≤ S8192.size a
  k0_off94_inb : ∀ i : grid0.Coords, ∀ a, (k0_off94 i) a + S1.size a ≤ S8192.size a
  k0_off97_inb : ∀ i : grid0.Coords, ∀ a, (k0_off97 i) a + S1.size a ≤ S8192.size a
  k0_off100_inb : ∀ i : grid0.Coords, ∀ a, (k0_off100 i) a + S1.size a ≤ S8192.size a
  k0_off103_inb : ∀ i : grid0.Coords, ∀ a, (k0_off103 i) a + S1.size a ≤ S8192.size a
  k0_off106_inb : ∀ i : grid0.Coords, ∀ a, (k0_off106 i) a + S1.size a ≤ S8192.size a
  k0_off109_inb : ∀ i : grid0.Coords, ∀ a, (k0_off109 i) a + S1.size a ≤ S8192.size a
  k0_off112_inb : ∀ i : grid0.Coords, ∀ a, (k0_off112 i) a + S1.size a ≤ S8192.size a
  k0_off115_inb : ∀ i : grid0.Coords, ∀ a, (k0_off115 i) a + S1.size a ≤ S8192.size a
  k0_off118_inb : ∀ i : grid0.Coords, ∀ a, (k0_off118 i) a + S1.size a ≤ S8192.size a
  k0_off121_inb : ∀ i : grid0.Coords, ∀ a, (k0_off121 i) a + S1.size a ≤ S8192.size a
  k0_off124_inb : ∀ i : grid0.Coords, ∀ a, (k0_off124 i) a + S1.size a ≤ S8192.size a
  k0_off127_inb : ∀ i : grid0.Coords, ∀ a, (k0_off127 i) a + S1.size a ≤ S8192.size a
  k0_off130_inb : ∀ i : grid0.Coords, ∀ a, (k0_off130 i) a + S1.size a ≤ S8192.size a
  k0_off133_inb : ∀ i : grid0.Coords, ∀ a, (k0_off133 i) a + S1.size a ≤ S8192.size a
  k0_off136_inb : ∀ i : grid0.Coords, ∀ a, (k0_off136 i) a + S1.size a ≤ S8192.size a
  k0_off139_inb : ∀ i : grid0.Coords, ∀ a, (k0_off139 i) a + S1.size a ≤ S8192.size a
  k0_off142_inb : ∀ i : grid0.Coords, ∀ a, (k0_off142 i) a + S1.size a ≤ S8192.size a
  k0_off145_inb : ∀ i : grid0.Coords, ∀ a, (k0_off145 i) a + S1.size a ≤ S8192.size a
  k0_off148_inb : ∀ i : grid0.Coords, ∀ a, (k0_off148 i) a + S1.size a ≤ S8192.size a
  k0_off151_inb : ∀ i : grid0.Coords, ∀ a, (k0_off151 i) a + S1.size a ≤ S8192.size a
  k0_off154_inb : ∀ i : grid0.Coords, ∀ a, (k0_off154 i) a + S1.size a ≤ S8192.size a
  k0_off157_inb : ∀ i : grid0.Coords, ∀ a, (k0_off157 i) a + S1.size a ≤ S8192.size a
  k0_off160_inb : ∀ i : grid0.Coords, ∀ a, (k0_off160 i) a + S1.size a ≤ S8192.size a
  k0_off163_inb : ∀ i : grid0.Coords, ∀ a, (k0_off163 i) a + S1.size a ≤ S8192.size a
  k0_off166_inb : ∀ i : grid0.Coords, ∀ a, (k0_off166 i) a + S1.size a ≤ S8192.size a
  k0_off169_inb : ∀ i : grid0.Coords, ∀ a, (k0_off169 i) a + S1.size a ≤ S8192.size a
  k0_off172_inb : ∀ i : grid0.Coords, ∀ a, (k0_off172 i) a + S1.size a ≤ S8192.size a
  k0_off175_inb : ∀ i : grid0.Coords, ∀ a, (k0_off175 i) a + S1.size a ≤ S8192.size a
  k0_off178_inb : ∀ i : grid0.Coords, ∀ a, (k0_off178 i) a + S1.size a ≤ S8192.size a
  k0_off181_inb : ∀ i : grid0.Coords, ∀ a, (k0_off181 i) a + S1.size a ≤ S8192.size a
  k0_off184_inb : ∀ i : grid0.Coords, ∀ a, (k0_off184 i) a + S1.size a ≤ S8192.size a
  k0_off187_inb : ∀ i : grid0.Coords, ∀ a, (k0_off187 i) a + S1.size a ≤ S8192.size a
  k0_off190_inb : ∀ i : grid0.Coords, ∀ a, (k0_off190 i) a + S1.size a ≤ S8192.size a
  k0_off193_inb : ∀ i : grid0.Coords, ∀ a, (k0_off193 i) a + S1.size a ≤ S8192.size a
  k0_off196_inb : ∀ i : grid0.Coords, ∀ a, (k0_off196 i) a + S1.size a ≤ S8192.size a
  k0_off199_inb : ∀ i : grid0.Coords, ∀ a, (k0_off199 i) a + S1.size a ≤ S8192.size a
  k0_off202_inb : ∀ i : grid0.Coords, ∀ a, (k0_off202 i) a + S1.size a ≤ S8192.size a
  k0_off205_inb : ∀ i : grid0.Coords, ∀ a, (k0_off205 i) a + S1.size a ≤ S8192.size a
  k0_off208_inb : ∀ i : grid0.Coords, ∀ a, (k0_off208 i) a + S1.size a ≤ S8192.size a
  k0_off211_inb : ∀ i : grid0.Coords, ∀ a, (k0_off211 i) a + S1.size a ≤ S8192.size a
  k0_off214_inb : ∀ i : grid0.Coords, ∀ a, (k0_off214 i) a + S1.size a ≤ S8192.size a
  k0_off217_inb : ∀ i : grid0.Coords, ∀ a, (k0_off217 i) a + S1.size a ≤ S8192.size a
  k0_off220_inb : ∀ i : grid0.Coords, ∀ a, (k0_off220 i) a + S1.size a ≤ S8192.size a
  k0_off223_inb : ∀ i : grid0.Coords, ∀ a, (k0_off223 i) a + S1.size a ≤ S8192.size a
  k0_off226_inb : ∀ i : grid0.Coords, ∀ a, (k0_off226 i) a + S1.size a ≤ S8192.size a
  k0_off229_inb : ∀ i : grid0.Coords, ∀ a, (k0_off229 i) a + S1.size a ≤ S8192.size a
  k0_off232_inb : ∀ i : grid0.Coords, ∀ a, (k0_off232 i) a + S1.size a ≤ S8192.size a
  k0_off235_inb : ∀ i : grid0.Coords, ∀ a, (k0_off235 i) a + S1.size a ≤ S8192.size a
  k0_off238_inb : ∀ i : grid0.Coords, ∀ a, (k0_off238 i) a + S1.size a ≤ S8192.size a
  k0_off241_inb : ∀ i : grid0.Coords, ∀ a, (k0_off241 i) a + S1.size a ≤ S8192.size a
  k0_off244_inb : ∀ i : grid0.Coords, ∀ a, (k0_off244 i) a + S1.size a ≤ S8192.size a
  k0_off247_inb : ∀ i : grid0.Coords, ∀ a, (k0_off247 i) a + S1.size a ≤ S8192.size a
  k0_off250_inb : ∀ i : grid0.Coords, ∀ a, (k0_off250 i) a + S1.size a ≤ S8192.size a
  k0_off253_inb : ∀ i : grid0.Coords, ∀ a, (k0_off253 i) a + S1.size a ≤ S8192.size a
  k0_off256_inb : ∀ i : grid0.Coords, ∀ a, (k0_off256 i) a + S1.size a ≤ S8192.size a
  k0_off259_inb : ∀ i : grid0.Coords, ∀ a, (k0_off259 i) a + S1.size a ≤ S8192.size a
  k0_off262_inb : ∀ i : grid0.Coords, ∀ a, (k0_off262 i) a + S1.size a ≤ S8192.size a
  k0_off265_inb : ∀ i : grid0.Coords, ∀ a, (k0_off265 i) a + S1.size a ≤ S8192.size a
  k0_off268_inb : ∀ i : grid0.Coords, ∀ a, (k0_off268 i) a + S1.size a ≤ S8192.size a
  k0_off271_inb : ∀ i : grid0.Coords, ∀ a, (k0_off271 i) a + S1.size a ≤ S8192.size a
  k0_off274_inb : ∀ i : grid0.Coords, ∀ a, (k0_off274 i) a + S1.size a ≤ S8192.size a
  k0_off277_inb : ∀ i : grid0.Coords, ∀ a, (k0_off277 i) a + S1.size a ≤ S8192.size a
  k0_off280_inb : ∀ i : grid0.Coords, ∀ a, (k0_off280 i) a + S1.size a ≤ S8192.size a
  k0_off283_inb : ∀ i : grid0.Coords, ∀ a, (k0_off283 i) a + S1.size a ≤ S8192.size a
  k0_off286_inb : ∀ i : grid0.Coords, ∀ a, (k0_off286 i) a + S1.size a ≤ S8192.size a
  k0_off289_inb : ∀ i : grid0.Coords, ∀ a, (k0_off289 i) a + S1.size a ≤ S8192.size a
  k0_off292_inb : ∀ i : grid0.Coords, ∀ a, (k0_off292 i) a + S1.size a ≤ S8192.size a
  k0_off295_inb : ∀ i : grid0.Coords, ∀ a, (k0_off295 i) a + S1.size a ≤ S8192.size a
  k0_off298_inb : ∀ i : grid0.Coords, ∀ a, (k0_off298 i) a + S1.size a ≤ S8192.size a
  k0_off301_inb : ∀ i : grid0.Coords, ∀ a, (k0_off301 i) a + S1.size a ≤ S8192.size a
  k0_off304_inb : ∀ i : grid0.Coords, ∀ a, (k0_off304 i) a + S1.size a ≤ S8192.size a
  k0_off307_inb : ∀ i : grid0.Coords, ∀ a, (k0_off307 i) a + S1.size a ≤ S8192.size a
  k0_off310_inb : ∀ i : grid0.Coords, ∀ a, (k0_off310 i) a + S1.size a ≤ S8192.size a
  k0_off313_inb : ∀ i : grid0.Coords, ∀ a, (k0_off313 i) a + S1.size a ≤ S8192.size a
  k0_off316_inb : ∀ i : grid0.Coords, ∀ a, (k0_off316 i) a + S1.size a ≤ S8192.size a
  k0_off319_inb : ∀ i : grid0.Coords, ∀ a, (k0_off319 i) a + S1.size a ≤ S8192.size a
  k0_off322_inb : ∀ i : grid0.Coords, ∀ a, (k0_off322 i) a + S1.size a ≤ S8192.size a
  k0_off325_inb : ∀ i : grid0.Coords, ∀ a, (k0_off325 i) a + S1.size a ≤ S8192.size a
  k0_off328_inb : ∀ i : grid0.Coords, ∀ a, (k0_off328 i) a + S1.size a ≤ S8192.size a
  k0_off331_inb : ∀ i : grid0.Coords, ∀ a, (k0_off331 i) a + S1.size a ≤ S8192.size a
  k0_off334_inb : ∀ i : grid0.Coords, ∀ a, (k0_off334 i) a + S1.size a ≤ S8192.size a
  k0_off337_inb : ∀ i : grid0.Coords, ∀ a, (k0_off337 i) a + S1.size a ≤ S8192.size a
  k0_off340_inb : ∀ i : grid0.Coords, ∀ a, (k0_off340 i) a + S1.size a ≤ S8192.size a
  k0_off343_inb : ∀ i : grid0.Coords, ∀ a, (k0_off343 i) a + S1.size a ≤ S8192.size a
  k0_off346_inb : ∀ i : grid0.Coords, ∀ a, (k0_off346 i) a + S1.size a ≤ S8192.size a
  k0_off349_inb : ∀ i : grid0.Coords, ∀ a, (k0_off349 i) a + S1.size a ≤ S8192.size a
  k0_off352_inb : ∀ i : grid0.Coords, ∀ a, (k0_off352 i) a + S1.size a ≤ S8192.size a
  k0_off355_inb : ∀ i : grid0.Coords, ∀ a, (k0_off355 i) a + S1.size a ≤ S8192.size a
  k0_off358_inb : ∀ i : grid0.Coords, ∀ a, (k0_off358 i) a + S1.size a ≤ S8192.size a
  k0_off361_inb : ∀ i : grid0.Coords, ∀ a, (k0_off361 i) a + S1.size a ≤ S8192.size a
  k0_off364_inb : ∀ i : grid0.Coords, ∀ a, (k0_off364 i) a + S1.size a ≤ S8192.size a
  k0_off367_inb : ∀ i : grid0.Coords, ∀ a, (k0_off367 i) a + S1.size a ≤ S8192.size a
  k0_off370_inb : ∀ i : grid0.Coords, ∀ a, (k0_off370 i) a + S1.size a ≤ S8192.size a
  k0_off373_inb : ∀ i : grid0.Coords, ∀ a, (k0_off373 i) a + S1.size a ≤ S8192.size a
  k0_off376_inb : ∀ i : grid0.Coords, ∀ a, (k0_off376 i) a + S1.size a ≤ S8192.size a
  k0_off379_inb : ∀ i : grid0.Coords, ∀ a, (k0_off379 i) a + S1.size a ≤ S8192.size a
  k0_off382_inb : ∀ i : grid0.Coords, ∀ a, (k0_off382 i) a + S1.size a ≤ S8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S128x256.size a ≤ S8192x256.size a
  hwx0_1 : ∀ i : grid0.Coords, EltTy.bits .f32 = 32 ∨ (Rect.block (s := S8192x256) S128x256.size (cc0_transform_2 i) (hinb0_1 i)).WholeWords (EltTy.packing .f32)

variable [Facts₀]

abbrev cc0_scratch2 : DmaSems sig S128 := SemArray.consecutive 3 S128 hcc0_scratch2
abbrev cc0_scratch3 : DmaSems sig S128 := SemArray.consecutive 131 S128 hcc0_scratch3
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

abbrev spec0_0 : Pipeline.WinSpec sig grid0.rank :=
  Pipeline.WinSpec.ofSpec (Memref.whole main_v18) S8192x256.size reads0_0 false true 1 stage0_0 sem0_0 nbuf0_0 hstage0_0

abbrev spec0_1 : Pipeline.WinSpec sig grid0.rank :=
  Pipeline.WinSpec.ofSpec (Memref.whole main_v19) S128x256.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8192x256 : Shape := ⟨2, ![8192, 256]⟩
abbrev S8192x8192 : Shape := ⟨2, ![8192, 8192]⟩
abbrev S2x8192 : Shape := ⟨2, ![2, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x8192 : Shape := ⟨2, ![1, 8192]⟩
abbrev S8192 : Shape := ⟨1, ![8192]⟩
abbrev S_ : Shape := ⟨0, ![]⟩
abbrev S8192x1 : Shape := ⟨2, ![8192, 1]⟩
abbrev S1x256 : Shape := ⟨2, ![1, 256]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x8192, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x1, .f32⟩
  | .hbm, ⟨16, _⟩ => ⟨S1, .f32⟩
  | .hbm, ⟨17, _⟩ => ⟨S1x8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x256, .f32⟩
  | .hbm, ⟨28, _⟩ => ⟨S1x8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x256, .f32⟩
  | .hbm, ⟨39, _⟩ => ⟨S1x8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192x8192, .f32⟩
  | .hbm, ⟨50, _⟩ => ⟨S1x8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192x8192, .f32⟩
  | .hbm, ⟨61, _⟩ => ⟨S8192x8192, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S1x256, .f32⟩
  | .hbm, ⟨66, _⟩ => ⟨S8192x256, .f32⟩
  | .hbm, ⟨67, _⟩ => ⟨S8192x256, .f32⟩
  | .hbm, ⟨68, _⟩ => ⟨S_, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S1x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S1x256, .f32⟩
  | .hbm, ⟨77, _⟩ => ⟨S8192x256, .f32⟩
  | .hbm, ⟨78, _⟩ => ⟨S8192x256, .f32⟩
  | .hbm, ⟨79, _⟩ => ⟨S_, .f32⟩
  | .hbm, ⟨80, _⟩ => ⟨S8192x256, .f32⟩
  | .hbm, ⟨81, _⟩ => ⟨S8192x256, .f32⟩
  | .hbm, ⟨82, _⟩ => ⟨S8192x256, .f32⟩
  | .hbm, ⟨83, _⟩ => ⟨S1x256, .f32⟩
  | .hbm, ⟨84, _⟩ => ⟨S8192x256, .f32⟩
  | .hbm, ⟨85, _⟩ => ⟨S8192x256, .f32⟩
  | .hbm, ⟨86, _⟩ => ⟨S_, .f32⟩
  | .hbm, ⟨87, _⟩ => ⟨S8192x256, .f32⟩
  | .hbm, ⟨88, _⟩ => ⟨S8192x256, .f32⟩
  | .hbm, ⟨89, _⟩ => ⟨S8192x256, .f32⟩
  | .hbm, ⟨90, _⟩ => ⟨S8192x256, .f32⟩
  | .hbm, ⟨91, _⟩ => ⟨S1x256, .f32⟩
  | .hbm, ⟨92, _⟩ => ⟨S8192x256, .f32⟩
  | .hbm, ⟨93, _⟩ => ⟨S8192x256, .f32⟩
  | .hbm, ⟨94, _⟩ => ⟨S_, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S1x256, .f32⟩
  | .hbm, ⟨99, _⟩ => ⟨S8192x256, .f32⟩
  | .hbm, ⟨100, _⟩ => ⟨S8192x256, .f32⟩
  | .hbm, ⟨101, _⟩ => ⟨S_, .f32⟩
  | .hbm, ⟨102, _⟩ => ⟨S8192x256, .f32⟩
  | .hbm, ⟨103, _⟩ => ⟨S8192x256, .f32⟩
  | .hbm, ⟨104, _⟩ => ⟨S8192x1, .f32⟩
  | .hbm, ⟨105, _⟩ => ⟨S1x1, .f32⟩
  | .hbm, ⟨106, _⟩ => ⟨S8192x1, .f32⟩
  | .hbm, ⟨107, _⟩ => ⟨S8192x1, .f32⟩
  | .hbm, ⟨108, _⟩ => ⟨S8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call0_cst : Ref sig .tc := ⟨.hbm, 68, rfl⟩
abbrev main_call0_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]

class Facts₀ : Prop where
  slices_S2x8192_S1x8192_0_0 : S2x8192.Slices ![0, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S2x8192_S1x8192_1_0 : S2x8192.Slices ![1, 0] S1x8192
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  gather_S8192x256_S8192x1_S8192x256_1_0_n_n_0_1_1256_wf : GatherDims.WF S8192x256 S8192x1 S8192x256 [1] [0] [] [0] [] 1 ![1, 256]
  gather_S8192x8192_S8192x1_S8192x8192_1_0_n_n_0_1_18192_wf : GatherDims.WF S8192x8192 S8192x1 S8192x8192 [1] [0] [] [0] [] 1 ![1, 8192]
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []

variable [Facts₀]

def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def gather_S8192x8192_S8192x1_S8192x8192_1_0_n_n_0_1_18192 : GatherDims S8192x8192 S8192x1 S8192x8192 where
  offsetDims := [1]
  collapsedSliceDims := [0]
  operandBatchingDims := []
  startIndicesBatchingDims := []
  startIndexMap := [0]
  indexVectorDim := 1
  sliceSizes := ![1, 8192]
  wf := gather_S8192x8192_S8192x1_S8192x8192_1_0_n_n_0_1_18192_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.Spec.lean ====
/-
  The aggregation both programs compute before their shared dense layers, stated once over the extended reals:
  for edge e and feature j,   xcn e j = Σ_k (adj[t0 e, k] · adj[t1 e, k]) · x[k, j],
  the two endpoint rows of the adjacency multiplied entry by entry and contracted against x.
  A row word is read as a row number modulo the extent, which is the word itself when it is in range.
-/
import Idealize.ShloMosaic.PureOps.Ideal
import Idealize.ShloMosaic.Lib.ValueIdx

noncomputable section

open scoped BigOperators

namespace Cert.Agg

open Idealize.ShloMosaic Idealize.ShloMosaic.ValueIdx

/-- The row a 32-bit word names among 8192 rows (the word itself when it is below 8192). -/
def row (w : BitVec 32) : Fin 8192 := ⟨w.toNat % 8192, Nat.mod_lt _ (by decide)⟩

theorem row_of_lt (w : BitVec 32) (h : w.toNat < 8192) : (row w).val = w.toNat := Nat.mod_eq_of_lt h

/-- The common-neighbour aggregation: row `t0 e` times row `t1 e` of `adj`, entry by entry, contracted against `x`. -/
def xcn (x : (⟨2, ![8192, 256]⟩ : Shape).Idx → EReal) (adj : (⟨2, ![8192, 8192]⟩ : Shape).Idx → EReal)
    (t0 t1 : (⟨1, ![8192]⟩ : Shape).Idx → BitVec 32) : (⟨2, ![8192, 256]⟩ : Shape).Idx → EReal :=
  fun i => ∑ k : Fin 8192, (adj (ix2 (row (t0 (ix1 (i 0)))) k) * adj (ix2 (row (t1 (ix1 (i 0)))) k)) * x (ix2 k (i 1))

end Cert.Agg

end
-- ==== Proof.Tail.lean ====
/-
  The reference's host operations around the aggregation, as plain functions over the extended reals:
  the two index tables cut from the [2, 8192] table, their normalisation (a negative word is shifted up by the extent),
  the row gathers of x at the two tables, and everything from the aggregation to the result:
    h_c  = relu(xcn · W1c + b1c) · W2c + b2c,      h_ij = relu((x_i ⊙ x_j) · W1j + b1j) · W2j + b2j,
    out  = reshape( relu(relu((1 · h_c + h_ij) · Wl1 + bl1) · Wl2 + bl2) · Wout + bout ),
  with relu y = max(y, 0), every product and sum exact.
-/
import proofs.«426739_j39281770889759_1_alg».proof.ReferenceIdeal
import Idealize.ShloMosaic.PureOps.Ideal

noncomputable section

namespace Cert.Tail

open Idealize.ShloMosaic Idealize.SL.Sem
open Cert.ReferenceIdeal

variable [Cert.ReferenceIdeal.Facts₀]
open Cert.ReferenceIdeal.Facts₀

/-- Row 0 of the index table as a vector of 8192 words. -/
def t0Of (tar : IVec S2x8192 32) : IVec S8192 32 :=
  shapeCast S8192 (extractStridedSlice S1x8192 ![0, 0] tar slices_S2x8192_S1x8192_0_0) shapeCasts_S1x8192_S8192

/-- Row 1 of the index table as a vector of 8192 words. -/
def t1Of (tar : IVec S2x8192 32) : IVec S8192 32 :=
  shapeCast S8192 (extractStridedSlice S1x8192 ![1, 0] tar slices_S2x8192_S1x8192_1_0) shapeCasts_S1x8192_S8192

/-- The normalised start indices: a word below zero (signed) has 8192 added; laid out as a column [8192, 1]. -/
def normIdx (t : IVec S8192 32) : IVec S8192x1 32 :=
  broadcastInDim S8192x1 ![0] bcast_S8192_S8192x1_0
    (select (cmpi .slt t (broadcastInDim S8192 ![] bcast_S_S8192 (constantI S_ 32 0#32)))
      (addi t (broadcastInDim S8192 ![] bcast_S_S8192 (constantI S_ 32 8192#32))) t)

/-- The rows of x named by row 0 of the table. -/
def xiOf (x : FVec Ideal S8192x256 .f32) (tar : IVec S2x8192 32) : FVec Ideal S8192x256 .f32 :=
  Host.gather gather_S8192x256_S8192x1_S8192x256_1_0_n_n_0_1_1256 x (normIdx (t0Of tar))

/-- The rows of x named by row 1 of the table. -/
def xjOf (x : FVec Ideal S8192x256 .f32) (tar : IVec S2x8192 32) : FVec Ideal S8192x256 .f32 :=
  Host.gather gather_S8192x256_S8192x1_S8192x256_1_0_n_n_0_1_1256 x (normIdx (t1Of tar))

/-- relu y = max(y, 0), entry by entry. -/
def relu (y : FVec Ideal S8192x256 .f32) : FVec Ideal S8192x256 .f32 :=
  maximumf y (broadcastInDim S8192x256 ![] bcast_S_S8192x256 (constant (F := Ideal) S_ .f32 0x00000000#32))

/-- A bias vector [256] repeated down the 8192 rows. -/
def bias (b : FVec Ideal S256 .f32) : FVec Ideal S8192x256 .f32 :=
  broadcastInDim S8192x256 ![0, 1] bcast_S1x256_S8192x256_0_1 (broadcastInDim S1x256 ![1] bcast_S256_S1x256_1 b)

/-- One dense layer y · W + b. -/
def dense (y : FVec Ideal S8192x256 .f32) (W : FVec Ideal S256x256 .f32) (b : FVec Ideal S256 .f32) :
    FVec Ideal S8192x256 .f32 :=
  addf (Host.dotGeneral dot_S8192x256_S256x256_S8192x256_1_0_0_1_n_n none y W) (bias b)

/-- Everything after the aggregation: the two 2-layer perceptrons, their sum, two dense relu layers, the output layer. -/
def tail (xcn xi xj : FVec Ideal S8192x256 .f32)
    (W1c : FVec Ideal S256x256 .f32) (b1c : FVec Ideal S256 .f32) (W2c : FVec Ideal S256x256 .f32) (b2c : FVec Ideal S256 .f32)
    (W1j : FVec Ideal S256x256 .f32) (b1j : FVec Ideal S256 .f32) (W2j : FVec Ideal S256x256 .f32) (b2j : FVec Ideal S256 .f32)
    (Wl1 : FVec Ideal S256x256 .f32) (bl1 : FVec Ideal S256 .f32) (Wl2 : FVec Ideal S256x256 .f32) (bl2 : FVec Ideal S256 .f32)
    (Wout : FVec Ideal S256x1 .f32) (bout : FVec Ideal S1 .f32) : FVec Ideal S8192 .f32 :=
  shapeCast S8192
    (addf
      (Host.dotGeneral dot_S8192x256_S256x1_S8192x1_1_0_0_1_n_n none
        (relu (dense (relu (dense
          (addf
            (mulf (broadcastInDim S8192x256 ![] bcast_S_S8192x256 (constant (F := Ideal) S_ .f32 0x3F800000#32))
              (dense (relu (dense xcn W1c b1c)) W2c b2c))
            (dense (relu (dense (mulf xi xj) W1j b1j)) W2j b2j))
          Wl1 bl1)) Wl2 bl2))
        Wout)
      (broadcastInDim S8192x1 ![0, 1] bcast_S1x1_S8192x1_0_1 (broadcastInDim S1x1 ![1] bcast_S1_S1x1_1 bout)))
    shapeCasts_S8192x1_S8192

end Cert.Tail

end
-- ==== Proof.PreTar.lean ====
/-
  The precondition decoded at the index table: from the printed predicate being 1, every entry of the [2, 8192]
  table of 32-bit words lies in [0, 8192) signed, hence is below 8192 unsigned.
-/
import proofs.«426739_j39281770889759_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.PreTar

open Idealize.ShloMosaic Idealize.ShloMosaic.ValueIdx
open Cert.Pre_finite_inputs

/-- The scalar shape has one index. -/
instance : Subsingleton S_.Idx := ⟨fun a b => funext fun d => d.elim0⟩

/-- A word in [0, n) signed, n below 2³¹, is below n unsigned. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, StableHlo.Predicate.toInt_ofNat_small n hn,
    StableHlo.Predicate.toInt_eq_toNat_of_lt (by omega)] at h1
  omega

section Decode
variable {F : FTy → Type} [FloatOps F] [Cert.Pre_finite_inputs.Facts]

/-- THE PRECONDITION DECODED: every entry of the index table is below 8192 as a word. -/
theorem tar_lt (a0 : FVec F S8192x256 .f32) (a1 : FVec F S8192x8192 .f32) (tar : IVec S2x8192 32)
    (a3 : FVec F S256x256 .f32) (a4 : FVec F S256 .f32) (a5 : FVec F S256x256 .f32) (a6 : FVec F S256 .f32)
    (a7 : FVec F S256x256 .f32) (a8 : FVec F S256 .f32) (a9 : FVec F S256x256 .f32) (a10 : FVec F S256 .f32)
    (a11 : FVec F S256x256 .f32) (a12 : FVec F S256 .f32) (a13 : FVec F S256x256 .f32) (a14 : FVec F S256 .f32)
    (a15 : FVec F S256x1 .f32) (a16 : FVec F S1 .f32)
    (h : Cert.Pre_finite_inputs.fn (F := F) a0 a1 tar a3 a4 a5 a6 a7 a8 a9 a10 a11 a12 a13 a14 a15 a16 = fun _ => 1#1) :
    ∀ i : (⟨2, ![2, 8192]⟩ : Shape).Idx, (tar i).toNat < 8192 := by
  intro i
  have e := congrFun h ix0
  dsimp only [fn, fn_part1, fn_part2, fn_part3, fn_part4, fn_part5] at e
  -- the last two conjuncts: all entries ≥ 0 signed, all entries < 8192 signed
  obtain ⟨e', hlt⟩ := IntOp.andi_eq_one.1 e
  obtain ⟨-, hge⟩ := IntOp.andi_eq_one.1 e'
  -- each is a reduction by `and` over all axes: it holds at every entry; a broadcast scalar reads the scalar
  exact toNat_lt_of_signed (tar i) 8192 (by decide)
    (Host.reduce_andi_all _ _ _ _ _ hge i) (Host.reduce_andi_all _ _ _ _ _ hlt i)

end Decode

/-! ## The two rows of the table, as the program cuts them

Row r of the [2, 8192] table, sliced out as a [1, 8192] rectangle at offsets (r, 0) and reshaped to a vector of 8192 words,
reads at position k the table's entry (r, k). -/

section Rows
variable {α : Type}

/-- Row 0: slice at (0, 0), reshape; position j reads entry (0, j). -/
theorem row0_apply (tar : (⟨2, ![2, 8192]⟩ : Shape).Idx → α)
    (hS : (⟨2, ![2, 8192]⟩ : Shape).Slices ![0, 0] ⟨2, ![1, 8192]⟩)
    (hC : (⟨2, ![1, 8192]⟩ : Shape).ShapeCasts ⟨1, ![8192]⟩) (j : (⟨1, ![8192]⟩ : Shape).Idx) :
    shapeCast ⟨1, ![8192]⟩ (extractStridedSlice ⟨2, ![1, 8192]⟩ ![0, 0] tar hS) hC j
      = tar (ix2 (⟨0, by decide⟩ : Fin 2) (j 0)) := by
  refine (shapeCast_apply _ hC j (ix2 (⟨0, by decide⟩ : Fin 1) (j 0)) ?_).trans ?_
  · rw [Shape.rowMajor_val_two, Shape.rowMajor_val_one]
    show 0 * _ + (j 0).val = (j 0).val
    omega
  · refine extractStridedSlice_apply _ tar hS _ _ fun a => ?_
    match a with
    | ⟨0, _⟩ => rfl
    | ⟨1, _⟩ => show (j 0).val = 0 + (j 0).val; omega

/-- Row 1: slice at (1, 0), reshape; position j reads entry (1, j). -/
theorem row1_apply (tar : (⟨2, ![2, 8192]⟩ : Shape).Idx → α)
    (hS : (⟨2, ![2, 8192]⟩ : Shape).Slices ![1, 0] ⟨2, ![1, 8192]⟩)
    (hC : (⟨2, ![1, 8192]⟩ : Shape).ShapeCasts ⟨1, ![8192]⟩) (j : (⟨1, ![8192]⟩ : Shape).Idx) :
    shapeCast ⟨1, ![8192]⟩ (extractStridedSlice ⟨2, ![1, 8192]⟩ ![1, 0] tar hS) hC j
      = tar (ix2 (⟨1, by decide⟩ : Fin 2) (j 0)) := by
  refine (shapeCast_apply _ hC j (ix2 (⟨0, by decide⟩ : Fin 1) (j 0)) ?_).trans ?_
  · rw [Shape.rowMajor_val_two, Shape.rowMajor_val_one]
    show 0 * _ + (j 0).val = (j 0).val
    omega
  · refine extractStridedSlice_apply _ tar hS _ _ fun a => ?_
    match a with
    | ⟨0, _⟩ => rfl
    | ⟨1, _⟩ => show (j 0).val = 0 + (j 0).val; omega

end Rows

/-- Every word of row 0, as the program cuts it, is below 8192, when every entry of the table is. -/
theorem row0_lt (tar : IVec (⟨2, ![2, 8192]⟩ : Shape) 32) (ht : ∀ i, (tar i).toNat < 8192)
    (hS : (⟨2, ![2, 8192]⟩ : Shape).Slices ![0, 0] ⟨2, ![1, 8192]⟩)
    (hC : (⟨2, ![1, 8192]⟩ : Shape).ShapeCasts ⟨1, ![8192]⟩) (j : (⟨1, ![8192]⟩ : Shape).Idx) :
    (shapeCast ⟨1, ![8192]⟩ (extractStridedSlice ⟨2, ![1, 8192]⟩ ![0, 0] tar hS) hC j).toNat < 8192 := by
  rw [row0_apply tar hS hC j]; exact ht _

/-- Every word of row 1, as the program cuts it, is below 8192, when every entry of the table is. -/
theorem row1_lt (tar : IVec (⟨2, ![2, 8192]⟩ : Shape) 32) (ht : ∀ i, (tar i).toNat < 8192)
    (hS : (⟨2, ![2, 8192]⟩ : Shape).Slices ![1, 0] ⟨2, ![1, 8192]⟩)
    (hC : (⟨2, ![1, 8192]⟩ : Shape).ShapeCasts ⟨1, ![8192]⟩) (j : (⟨1, ![8192]⟩ : Shape).Idx) :
    (shapeCast ⟨1, ![8192]⟩ (extractStridedSlice ⟨2, ![1, 8192]⟩ ![1, 0] tar hS) hC j).toNat < 8192 := by
  rw [row1_apply tar hS hC j]; exact ht _

end Cert.PreTar

end
-- ==== Proof.RefSide.lean ====
/-
  The reference side over the extended reals.
  (1) The reference runs, and its arguments end unchanged.
  (2) A row gather read at an index: entry (e, k) of the gathered array is the operand's entry (r, k), r the start word
      of row e read as a signed integer and clamped into [0, 8191]. For a word below 8192 the normalised start index is
      the word itself, and its clamp is the word's value.
  (3) With every table entry below 8192, the contraction of (adj[t0] ⊙ adj[t1]) against x is, index by index,
      Σ_k (adj[t0 e, k] · adj[t1 e, k]) · x[k, j].
  (4) The reference's result is the dense tail applied to that aggregation and to the two row gathers of x.
-/
import proofs.«426739_j39281770889759_1_alg».proof.Defs
import proofs.«426739_j39281770889759_1_alg».proof.Proof.Gen.ReferenceIdeal.Run
import proofs.«426739_j39281770889759_1_alg».proof.Proof.Gen.ReferenceIdeal.Read
import proofs.«426739_j39281770889759_1_alg».proof.Proof.Gen.Pre_finite_inputs
import proofs.«426739_j39281770889759_1_alg».proof.Proof.Spec
import proofs.«426739_j39281770889759_1_alg».proof.Proof.Tail
import proofs.«426739_j39281770889759_1_alg».proof.Proof.PreTar
import Idealize.ShloMosaic.Lib.StableHlo.Predicate
import Idealize.ShloMosaic.Lib.Affine

noncomputable section

open scoped BigOperators

namespace Cert.RefSide

open Idealize.ShloMosaic Idealize.ShloMosaic.ValueIdx Idealize.ShloMosaic.TcCoe Idealize.SL.Sem
open Cert.ReferenceIdeal Cert.ReferenceIdeal.Gen

/-! ## The reference runs -/

theorem frame_ri : Cert.frame_ReferenceIdeal := fun m ρ _ =>
  (θ_run Cert.ReferenceIdeal.defs _ _).mono (fun _ h c => (h c).2) (Cert.ReferenceIdeal.Value.run (F := Ideal) m ρ)

/-! ## A row gather read at an index -/

section Gather
variable {α : Type}

/-- Entry (e, k) of the row gather: the operand's row at the start word of row e, read signed and clamped into [0, 8191]. -/
theorem gather_row_apply {w : Nat} (a : S8192x8192.Idx → α) (idx : IVec S8192x1 w) (e k : Fin 8192) :
    Host.gather gather_S8192x8192_S8192x1_S8192x8192_1_0_n_n_0_1_18192 a idx (ix2 e k)
      = a (ix2 (⟨min (idx (ix2 e (0 : Fin 1))).toInt.toNat 8191, by omega⟩ : Fin 8192) k) := by
  unfold Host.gather
  congr 1
  funext b
  refine Fin.ext ?_
  match b with
  | ⟨0, _⟩ =>
    show gather_S8192x8192_S8192x1_S8192x8192_1_0_n_n_0_1_18192.start (ix2 e k) idx 0
        + gather_S8192x8192_S8192x1_S8192x8192_1_0_n_n_0_1_18192.batchCoord (ix2 e k) 0
        + gather_S8192x8192_S8192x1_S8192x8192_1_0_n_n_0_1_18192.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x8192_S8192x1_S8192x8192_1_0_n_n_0_1_18192.startIndexMap
      from List.mem_singleton.mpr rfl)]
    have hsi : gather_S8192x8192_S8192x1_S8192x8192_1_0_n_n_0_1_18192.siIdx (ix2 e k)
        ⟨List.idxOf (0 : Fin 2) gather_S8192x8192_S8192x1_S8192x8192_1_0_n_n_0_1_18192.startIndexMap,
          List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show gather_S8192x8192_S8192x1_S8192x8192_1_0_n_n_0_1_18192.start (ix2 e k) idx 1
        + gather_S8192x8192_S8192x1_S8192x8192_1_0_n_n_0_1_18192.batchCoord (ix2 e k) 1
        + gather_S8192x8192_S8192x1_S8192x8192_1_0_n_n_0_1_18192.offCoord (ix2 e k) 1 = k.val
    rw [GatherDims.batchCoord_eq_zero _ _ _ List.not_mem_nil]
    unfold GatherDims.start
    rw [dif_neg (show ¬ (1 : Fin 2) ∈ gather_S8192x8192_S8192x1_S8192x8192_1_0_n_n_0_1_18192.startIndexMap by decide)]
    unfold GatherDims.offCoord
    rw [dif_pos (show (1 : Fin 2) ∈ gather_S8192x8192_S8192x1_S8192x8192_1_0_n_n_0_1_18192.sKept by decide)]
    show 0 + 0 + k.val = k.val
    omega

end Gather

/-! ## The normalised start index of an in-range word -/

/-- The normalised table at row e: the word, shifted up by 8192 when it is negative as a signed integer. -/
theorem normIdx_apply (t : IVec S8192 32) (e : Fin 8192) :
    Cert.Tail.normIdx t (ix2 e (0 : Fin 1))
      = Scalar.select (IntOp.cmpi .slt (t (ix1 e)) 0#32) (IntOp.addi (t (ix1 e)) 8192#32) (t (ix1 e)) := by
  unfold Cert.Tail.normIdx
  refine (broadcastInDim_apply _ Facts₀.bcast_S8192_S8192x1_0 _ (ix2 e (0 : Fin 1)) (ix1 e) (fun a => ?_)).trans rfl
  match a with
  | ⟨0, _⟩ => show e.val = if (8192 : Nat) = 1 then 0 else e.val; rw [if_neg (by decide)]

/-- A word below 8192 is not negative, so it is its own normalisation, and its clamp into [0, 8191] is its value. -/
theorem clamp_norm (t : IVec S8192 32) (e : Fin 8192) (h : (t (ix1 e)).toNat < 8192) :
    (⟨min (Cert.Tail.normIdx t (ix2 e (0 : Fin 1))).toInt.toNat 8191, by omega⟩ : Fin 8192) = Cert.Agg.row (t (ix1 e)) := by
  have hi : (t (ix1 e)).toInt = ((t (ix1 e)).toNat : Int) := StableHlo.Predicate.toInt_eq_toNat_of_lt (by omega)
  have hc : IntOp.cmpi .slt (t (ix1 e)) 0#32 = 0#1 := by
    refine eq_zero_of_ne_one fun h1 => ?_
    rw [IntOp.cmpi_slt, hi, show (0#32 : BitVec 32).toInt = 0 from by decide] at h1
    omega
  refine Fin.ext ?_
  rw [Cert.Agg.row_of_lt _ h]
  show min (Cert.Tail.normIdx t (ix2 e (0 : Fin 1))).toInt.toNat 8191 = _
  rw [normIdx_apply, hc, select_zero, hi, Int.toNat_natCast]
  omega

/-! ## The aggregation -/

/-- Row 0 of the table at position e is entry (0, e); likewise row 1. -/
theorem t0Of_apply (tar : IVec S2x8192 32) (e : Fin 8192) :
    Cert.Tail.t0Of tar (ix1 e) = tar (ix2 (⟨0, by decide⟩ : Fin 2) e) :=
  Cert.PreTar.row0_apply tar Facts₀.slices_S2x8192_S1x8192_0_0 Facts₀.shapeCasts_S1x8192_S8192 (ix1 e)

theorem t1Of_apply (tar : IVec S2x8192 32) (e : Fin 8192) :
    Cert.Tail.t1Of tar (ix1 e) = tar (ix2 (⟨1, by decide⟩ : Fin 2) e) :=
  Cert.PreTar.row1_apply tar Facts₀.slices_S2x8192_S1x8192_1_0 Facts₀.shapeCasts_S1x8192_S8192 (ix1 e)

/-- THE AGGREGATION: with every table entry below 8192, the contraction of the entrywise product of the two gathered
    rows against x is Σ_k (adj[t0 e, k] · adj[t1 e, k]) · x[k, j]. -/
theorem agg_at (x : FVec Ideal S8192x256 .f32) (adj : FVec Ideal S8192x8192 .f32) (tar : IVec S2x8192 32)
    (hT : ∀ i : S2x8192.Idx, (tar i).toNat < 8192) (e : Fin 8192) (j : Fin 256) :
    Read.val_main_v37 (F := Ideal) x adj tar (ix2 e j)
      = ∑ k : Fin 8192, (adj (ix2 (Cert.Agg.row (Cert.Tail.t0Of tar (ix1 e))) k)
          * adj (ix2 (Cert.Agg.row (Cert.Tail.t1Of tar (ix1 e))) k)) * x (ix2 k j) := by
  rw [Read.val_main_v37_apply]
  refine Finset.sum_congr rfl fun k _ => ?_
  have hl : Read.lidx_main_v37 (ix2 e j) k = ix2 e k := by
    funext a
    match a with
    | ⟨0, _⟩ => rfl
    | ⟨1, _⟩ => rfl
  have hr : Read.ridx_main_v37 (ix2 e j) k = ix2 k j := by
    funext a
    match a with
    | ⟨0, _⟩ => rfl
    | ⟨1, _⟩ => rfl
  rw [hl, hr, Read.val_main_v36_apply]
  show Read.val_main_v26 (F := Ideal) adj tar (ix2 e k) * Read.val_main_v35 (F := Ideal) adj tar (ix2 e k) * _ = _
  have e26 : Read.val_main_v26 (F := Ideal) adj tar
      = Host.gather gather_S8192x8192_S8192x1_S8192x8192_1_0_n_n_0_1_18192 adj (Cert.Tail.normIdx (Cert.Tail.t0Of tar)) := rfl
  have e35 : Read.val_main_v35 (F := Ideal) adj tar
      = Host.gather gather_S8192x8192_S8192x1_S8192x8192_1_0_n_n_0_1_18192 adj (Cert.Tail.normIdx (Cert.Tail.t1Of tar)) := rfl
  rw [e26, e35, gather_row_apply, gather_row_apply,
    clamp_norm _ _ (by rw [t0Of_apply]; exact hT _), clamp_norm _ _ (by rw [t1Of_apply]; exact hT _)]

theorem agg_eq (x : FVec Ideal S8192x256 .f32) (adj : FVec Ideal S8192x8192 .f32) (tar : IVec S2x8192 32)
    (hT : ∀ i : S2x8192.Idx, (tar i).toNat < 8192) :
    Read.val_main_v37 (F := Ideal) x adj tar = Cert.Agg.xcn x adj (Cert.Tail.t0Of tar) (Cert.Tail.t1Of tar) := by
  funext i
  obtain ⟨e, j, rfl⟩ : ∃ (e : Fin 8192) (j : Fin 256), i = ix2 e j := ⟨i 0, i 1, eq_ix2 i⟩
  exact agg_at x adj tar hT e j

/-! ## The reference's result -/

/-- THE REFERENCE'S VALUE: with every table entry below 8192, the result of the reference is the dense tail of the
    aggregation Σ_k (adj[t0 e, k] · adj[t1 e, k]) · x[k, j] and of the two row gathers of x. -/
theorem ref_value (m : (ℓ : Loc nD τ sig) → Buf (Elt Ideal) ℓ) (c : Dev nD)
    (hT : ∀ i : S2x8192.Idx, (((m ((c.tc : Thread nD τ).loc main_arg2)) : IVec S2x8192 32) i).toNat < 8192) :
    Cert.ReferenceIdeal.Value.res_main_v74 (F := Ideal) m c
      = Cert.Tail.tail
          (Cert.Agg.xcn (m ((c.tc : Thread nD τ).loc main_arg0)) (m ((c.tc : Thread nD τ).loc main_arg1))
            (Cert.Tail.t0Of (m ((c.tc : Thread nD τ).loc main_arg2))) (Cert.Tail.t1Of (m ((c.tc : Thread nD τ).loc main_arg2))))
          (Cert.Tail.xiOf (m ((c.tc : Thread nD τ).loc main_arg0)) (m ((c.tc : Thread nD τ).loc main_arg2)))
          (Cert.Tail.xjOf (m ((c.tc : Thread nD τ).loc main_arg0)) (m ((c.tc : Thread nD τ).loc main_arg2)))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) := by
  rw [← agg_eq (m ((c.tc : Thread nD τ).loc main_arg0)) (m ((c.tc : Thread nD τ).loc main_arg1)) (m ((c.tc : Thread nD τ).loc main_arg2)) hT]
  unfold Cert.ReferenceIdeal.Value.res_main_v74
  rfl

end Cert.RefSide

end
-- ==== Proof.KEntry.lean ====
/-
  The buffers' contents when the kernel region is entered: the launch contents carried through the host operations
  that precede the region. Each argument array is as launched; the two index vectors are the two rows of the index
  table; the narrowed features are the features rounded to bf16; the two gathered arrays are gathers of the features'
  rows at the index vectors, each index first moved into range (an index below zero has the extent added).
-/
import proofs.«426739_j39281770889759_1_alg».proof.Proof.Gen.KernelIdeal.Launch
import Idealize.ShloMosaic.Lib.StableHlo.Run
import Idealize.ShloMosaic.Lib.StableHlo.Predicate
import Idealize.ShloMosaic.Lib.ValueIdx
import proofs.«426739_j39281770889759_1_alg».proof.Proof.PreTar

noncomputable section

namespace Cert.KernelIdeal.Entry

open Idealize.ShloMosaic Idealize.ShloMosaic.TcCoe
open Idealize.SL.Sem
open Cert.KernelIdeal Cert.KernelIdeal.Gen
open Idealize.ShloMosaic.StableHlo

variable {F : FTy → Type} [FloatOps F]
variable (m : (ℓ : Loc nD τ sig) → Buf (Elt F) ℓ)

/-- Core c's buffers when the region is entered: the launch contents after the host operations before the region. -/
abbrev V0 (c : Dev nD) : Valuation τ sig (Elt F) := StableHlo.after (hostOps0 (F := F)) (fun b => m (c, b))

/-! ## The arguments: as launched -/

theorem V0_main_arg0 (c : Dev nD) : V0 m c (Proc.devRef .tc main_arg0) = m ((c : Thread nD τ).loc main_arg0) := by
  dsimp only [V0, hostOps0]; after_results
theorem V0_main_arg1 (c : Dev nD) : V0 m c (Proc.devRef .tc main_arg1) = m ((c : Thread nD τ).loc main_arg1) := by
  dsimp only [V0, hostOps0]; after_results
theorem V0_main_arg2 (c : Dev nD) : V0 m c (Proc.devRef .tc main_arg2) = m ((c : Thread nD τ).loc main_arg2) := by
  dsimp only [V0, hostOps0]; after_results
theorem V0_main_arg3 (c : Dev nD) : V0 m c (Proc.devRef .tc main_arg3) = m ((c : Thread nD τ).loc main_arg3) := by
  dsimp only [V0, hostOps0]; after_results
theorem V0_main_arg4 (c : Dev nD) : V0 m c (Proc.devRef .tc main_arg4) = m ((c : Thread nD τ).loc main_arg4) := by
  dsimp only [V0, hostOps0]; after_results
theorem V0_main_arg5 (c : Dev nD) : V0 m c (Proc.devRef .tc main_arg5) = m ((c : Thread nD τ).loc main_arg5) := by
  dsimp only [V0, hostOps0]; after_results
theorem V0_main_arg6 (c : Dev nD) : V0 m c (Proc.devRef .tc main_arg6) = m ((c : Thread nD τ).loc main_arg6) := by
  dsimp only [V0, hostOps0]; after_results
theorem V0_main_arg7 (c : Dev nD) : V0 m c (Proc.devRef .tc main_arg7) = m ((c : Thread nD τ).loc main_arg7) := by
  dsimp only [V0, hostOps0]; after_results
theorem V0_main_arg8 (c : Dev nD) : V0 m c (Proc.devRef .tc main_arg8) = m ((c : Thread nD τ).loc main_arg8) := by
  dsimp only [V0, hostOps0]; after_results
theorem V0_main_arg9 (c : Dev nD) : V0 m c (Proc.devRef .tc main_arg9) = m ((c : Thread nD τ).loc main_arg9) := by
  dsimp only [V0, hostOps0]; after_results
theorem V0_main_arg10 (c : Dev nD) : V0 m c (Proc.devRef .tc main_arg10) = m ((c : Thread nD τ).loc main_arg10) := by
  dsimp only [V0, hostOps0]; after_results
theorem V0_main_arg11 (c : Dev nD) : V0 m c (Proc.devRef .tc main_arg11) = m ((c : Thread nD τ).loc main_arg11) := by
  dsimp only [V0, hostOps0]; after_results
theorem V0_main_arg12 (c : Dev nD) : V0 m c (Proc.devRef .tc main_arg12) = m ((c : Thread nD τ).loc main_arg12) := by
  dsimp only [V0, hostOps0]; after_results
theorem V0_main_arg13 (c : Dev nD) : V0 m c (Proc.devRef .tc main_arg13) = m ((c : Thread nD τ).loc main_arg13) := by
  dsimp only [V0, hostOps0]; after_results
theorem V0_main_arg14 (c : Dev nD) : V0 m c (Proc.devRef .tc main_arg14) = m ((c : Thread nD τ).loc main_arg14) := by
  dsimp only [V0, hostOps0]; after_results
theorem V0_main_arg15 (c : Dev nD) : V0 m c (Proc.devRef .tc main_arg15) = m ((c : Thread nD τ).loc main_arg15) := by
  dsimp only [V0, hostOps0]; after_results
theorem V0_main_arg16 (c : Dev nD) : V0 m c (Proc.devRef .tc main_arg16) = m ((c : Thread nD τ).loc main_arg16) := by
  dsimp only [V0, hostOps0]; after_results

/-! ## The two rows of the index table -/

/-- Row 0 of the index table as a vector of 8192 words. -/
abbrev row0 (c : Dev nD) : IVec S8192 32 :=
  shapeCast S8192 (extractStridedSlice S1x8192 ![0, 0] (m ((c : Thread nD τ).loc main_arg2)) slices_S2x8192_S1x8192_0_0) shapeCasts_S1x8192_S8192
/-- Row 1 of the index table as a vector of 8192 words. -/
abbrev row1 (c : Dev nD) : IVec S8192 32 :=
  shapeCast S8192 (extractStridedSlice S1x8192 ![1, 0] (m ((c : Thread nD τ).loc main_arg2)) slices_S2x8192_S1x8192_1_0) shapeCasts_S1x8192_S8192

theorem V0_main_v1 (c : Dev nD) : (V0 m c (Proc.devRef .tc main_v1) : IVec S8192 32) = row0 m c := by
  dsimp only [V0, hostOps0]; after_results; rfl
theorem V0_main_v3 (c : Dev nD) : (V0 m c (Proc.devRef .tc main_v3) : IVec S8192 32) = row1 m c := by
  dsimp only [V0, hostOps0]; after_results; rfl

/-! ## The features rounded to bf16 -/

theorem V0_main_v18 (c : Dev nD) :
    (V0 m c (Proc.devRef .tc main_v18) : FVec F S8192x256 .bf16) = truncf .bf16 (m ((c : Thread nD τ).loc main_arg0)) bitsLt_bf16_f32 := by
  dsimp only [V0, hostOps0]; after_results

/-! ## The two gathers -/

/-- An index vector moved into range the host's way: a word below zero (signed) has 8192 added. -/
abbrev norm (t : IVec S8192 32) : IVec S8192 32 :=
  select (cmpi .slt t (broadcastInDim S8192 ![] bcast_S_S8192 (constantI S_ 32 0#32)))
    (addi t (broadcastInDim S8192 ![] bcast_S_S8192 (constantI S_ 32 8192#32))) t

/-- A vector of words all below 8192 is already in range. -/
theorem norm_eq_self (t : IVec S8192 32) (h : ∀ k, (t k).toNat < 8192) : norm t = t := by
  funext k
  show Scalar.select (IntOp.cmpi .slt (t k) 0#32) _ (t k) = t k
  have hk := h k
  have : ¬ IntOp.cmpi .slt (t k) 0#32 = 1#1 := by
    rw [StableHlo.Predicate.slt_iff_toNat (by omega) (by decide)]
    show ¬ (t k).toNat < 0
    omega
  rw [ValueIdx.eq_zero_of_ne_one this, ValueIdx.select_zero]

theorem V0_main_v10 (c : Dev nD) :
    (V0 m c (Proc.devRef .tc main_v10) : FVec F S8192x256 .f32)
      = Host.gather gather_S8192x256_S8192x1_S8192x256_1_0_n_n_0_1_1256 (m ((c : Thread nD τ).loc main_arg0))
          (broadcastInDim S8192x1 ![0] bcast_S8192_S8192x1_0 (norm (row0 m c))) := by
  dsimp only [V0, hostOps0]; after_results
  refine congrArg (Host.gather _ _) (congrArg (broadcastInDim _ _ _) (congrArg norm ?_))
  rfl
set_option maxHeartbeats 1600000 in
theorem V0_main_v17 (c : Dev nD) :
    (V0 m c (Proc.devRef .tc main_v17) : FVec F S8192x256 .f32)
      = Host.gather gather_S8192x256_S8192x1_S8192x256_1_0_n_n_0_1_1256 (m ((c : Thread nD τ).loc main_arg0))
          (broadcastInDim S8192x1 ![0] bcast_S8192_S8192x1_0 (norm (row1 m c))) := by
  dsimp only [V0, hostOps0]; after_results
  refine congrArg (Host.gather _ _) (congrArg (broadcastInDim _ _ _) (congrArg norm ?_))
  rfl

/-! ## In range: the rows' words below 8192 when the table's are -/

section InRange
variable (c : Dev nD) (h : ∀ i, ((m ((c : Thread nD τ).loc main_arg2) : IVec S2x8192 32) i).toNat < 8192)
include h

theorem row0_lt (k : S8192.Idx) : (row0 m c k).toNat < 8192 := Cert.PreTar.row0_lt _ h _ _ k
theorem row1_lt (k : S8192.Idx) : (row1 m c k).toNat < 8192 := Cert.PreTar.row1_lt _ h _ _ k

theorem V0_main_v1_lt (k : S8192.Idx) : ((V0 m c (Proc.devRef .tc main_v1) : IVec S8192 32) k).toNat < 8192 := by
  rw [V0_main_v1]; exact row0_lt m c h k
theorem V0_main_v3_lt (k : S8192.Idx) : ((V0 m c (Proc.devRef .tc main_v3) : IVec S8192 32) k).toNat < 8192 := by
  rw [V0_main_v3]; exact row1_lt m c h k

/-- With the table in range the gathers read at the rows themselves. -/
theorem V0_main_v10_of_lt :
    (V0 m c (Proc.devRef .tc main_v10) : FVec F S8192x256 .f32)
      = Host.gather gather_S8192x256_S8192x1_S8192x256_1_0_n_n_0_1_1256 (m ((c : Thread nD τ).loc main_arg0))
          (broadcastInDim S8192x1 ![0] bcast_S8192_S8192x1_0 (row0 m c)) := by
  rw [V0_main_v10, norm_eq_self _ (row0_lt m c h)]
theorem V0_main_v17_of_lt :
    (V0 m c (Proc.devRef .tc main_v17) : FVec F S8192x256 .f32)
      = Host.gather gather_S8192x256_S8192x1_S8192x256_1_0_n_n_0_1_1256 (m ((c : Thread nD τ).loc main_arg0))
          (broadcastInDim S8192x1 ![0] bcast_S8192_S8192x1_0 (row1 m c)) := by
  rw [V0_main_v17, norm_eq_self _ (row1_lt m c h)]

end InRange

/-- Row 0 at position j is the table's entry (0, j); row 1 at j its entry (1, j). -/
theorem row0_apply (c : Dev nD) (j : S8192.Idx) :
    row0 m c j = (m ((c : Thread nD τ).loc main_arg2) : IVec S2x8192 32) (ValueIdx.ix2 (⟨0, by decide⟩ : Fin 2) (j 0)) :=
  Cert.PreTar.row0_apply _ _ _ j
theorem row1_apply (c : Dev nD) (j : S8192.Idx) :
    row1 m c j = (m ((c : Thread nD τ).loc main_arg2) : IVec S2x8192 32) (ValueIdx.ix2 (⟨1, by decide⟩ : Fin 2) (j 0)) :=
  Cert.PreTar.row1_apply _ _ _ j

end Cert.KernelIdeal.Entry

end
-- ==== Proof.KTail.lean ====
/-
  The kernel program's host operations after the region, over the extended reals: from any contents W of the
  TensorCore's buffers, the 43 operations leave in the result buffer the dense tail
    reshape( relu(relu((1 · h_c + h_ij) · Wl1 + bl1) · Wl2 + bl2) · Wout + bout ),
    h_c = relu(r · W1c + b1c) · W2c + b2c,   h_ij = relu((x_i ⊙ x_j) · W1j + b1j) · W2j + b2j,
  of the region's result r, the two row gathers x_i, x_j computed before the region, and the fourteen weight arrays.
-/
import proofs.«426739_j39281770889759_1_alg».proof.Proof.Gen.KernelIdeal.Launch
import proofs.«426739_j39281770889759_1_alg».proof.Proof.Gen.ReferenceIdeal
import proofs.«426739_j39281770889759_1_alg».proof.Proof.Tail
import proofs.«426739_j39281770889759_1_alg».proof.Proof.KEntry
import Idealize.ShloMosaic.Lib.StableHlo.Run
import Idealize.ShloMosaic.Lib.Pipeline.FrameSuffix

noncomputable section

namespace Cert.KernelIdeal.Tail

open Cert.KernelIdeal Cert.KernelIdeal.Gen
open Idealize.ShloMosaic Idealize.ShloMosaic.TcCoe Idealize.SL.Sem Idealize.ShloMosaic.StableHlo

/-- The nine stretches of host operations after the region, in order. -/
abbrev tailStretches {F : FTy → Type} [FloatOps F] : List (List (HloOp τ sig (Elt F))) :=
  [hostOps1, hostOps1_1, hostOps1_2, hostOps1_3, hostOps1_4, hostOps1_5, hostOps1_6, hostOps1_7, hostOps1_8]

set_option maxRecDepth 8192 in
set_option maxHeartbeats 4000000 in
/-- THE HOST TAIL: from any buffer contents W, the operations after the region leave the dense tail of the region's
    result, the two row gathers and the weights in the result buffer. -/
theorem tail_result (W : Valuation τ sig (Elt Ideal)) :
    StableHlo.after (tailStretches (F := Ideal)).flatten W (Proc.devRef .tc main_v56)
      = Cert.Tail.tail (W (Proc.devRef .tc main_v19)) (W (Proc.devRef .tc main_v10)) (W (Proc.devRef .tc main_v17))
          (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  simp only [tailStretches, hostOps1, hostOps1_1, hostOps1_2, hostOps1_3, hostOps1_4, hostOps1_5, hostOps1_6, hostOps1_7, hostOps1_8,
    List.flatten_cons, List.flatten_nil, List.append_nil, List.cons_append, List.nil_append]
  after_results_simp
  rfl

/-- The same from nested stretches: the operations of the nine stretches run one stretch after the other. -/
theorem flatten_eq (W : Valuation τ sig (Elt Ideal)) :
    StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
        (StableHlo.after hostOps1 W))))))))
      = StableHlo.after (tailStretches (F := Ideal)).flatten W := rfl

/-! ## From the launch contents -/

/-- The dense tail of equal arrays is equal. -/
theorem tail_congr {r r' xi xi' xj xj' : FVec Ideal S8192x256 .f32}
    {W1c W1c' : FVec Ideal S256x256 .f32} {b1c b1c' : FVec Ideal S256 .f32} {W2c W2c' : FVec Ideal S256x256 .f32} {b2c b2c' : FVec Ideal S256 .f32} {W1j W1j' : FVec Ideal S256x256 .f32} {b1j b1j' : FVec Ideal S256 .f32} {W2j W2j' : FVec Ideal S256x256 .f32} {b2j b2j' : FVec Ideal S256 .f32} {Wl1 Wl1' : FVec Ideal S256x256 .f32} {bl1 bl1' : FVec Ideal S256 .f32} {Wl2 Wl2' : FVec Ideal S256x256 .f32} {bl2 bl2' : FVec Ideal S256 .f32}
    {Wout Wout' : FVec Ideal S256x1 .f32} {bout bout' : FVec Ideal S1 .f32}
    (h_r : r = r') (h_xi : xi = xi') (h_xj : xj = xj') (h_W1c : W1c = W1c') (h_b1c : b1c = b1c') (h_W2c : W2c = W2c') (h_b2c : b2c = b2c') (h_W1j : W1j = W1j') (h_b1j : b1j = b1j') (h_W2j : W2j = W2j') (h_b2j : b2j = b2j') (h_Wl1 : Wl1 = Wl1') (h_bl1 : bl1 = bl1') (h_Wl2 : Wl2 = Wl2') (h_bl2 : bl2 = bl2') (h_Wout : Wout = Wout') (h_bout : bout = bout') :
    Cert.Tail.tail r xi xj W1c b1c W2c b2c W1j b1j W2j b2j Wl1 bl1 Wl2 bl2 Wout bout = Cert.Tail.tail r' xi' xj' W1c' b1c' W2c' b2c' W1j' b1j' W2j' b2j' Wl1' bl1' Wl2' bl2' Wout' bout' := by
  subst_vars; rfl

/-- The first row gather, as the operations before the region leave it. -/
theorem xi_eq {m : (ℓ : Loc nD τ sig) → Buf (Elt Ideal) ℓ} (c : Dev nD) :
    (Cert.KernelIdeal.Entry.V0 m c (Proc.devRef .tc main_v10) : FVec Ideal S8192x256 .f32)
      = Cert.Tail.xiOf (m ((c : Thread nD τ).loc main_arg0)) (m ((c : Thread nD τ).loc main_arg2)) :=
  (Cert.KernelIdeal.Entry.V0_main_v10 m c).trans rfl

/-- The second row gather, as the operations before the region leave it. -/
theorem xj_eq {m : (ℓ : Loc nD τ sig) → Buf (Elt Ideal) ℓ} (c : Dev nD) :
    (Cert.KernelIdeal.Entry.V0 m c (Proc.devRef .tc main_v17) : FVec Ideal S8192x256 .f32)
      = Cert.Tail.xjOf (m ((c : Thread nD τ).loc main_arg0)) (m ((c : Thread nD τ).loc main_arg2)) :=
  (Cert.KernelIdeal.Entry.V0_main_v17 m c).trans rfl

set_option maxRecDepth 8192 in
/-- THE KERNEL PROGRAM'S RESULT: when the region leaves the arrays A in its two windows' buffers (window 1's is the
    region's result) and every other buffer as the operations before the region left it, the operations after the region
    leave the dense tail of A 1, of the two row gathers of x at the two rows of the index table, and of the weights. -/
theorem kernel_result (m : (ℓ : Loc nD τ sig) → Buf (Elt Ideal) ℓ) (c : Dev nD)
    (A : (w : Fin 2) → Buf (Elt Ideal) ((spec0 w).arr.view.loc (c.tc : Thread nD τ))) :
    StableHlo.after (tailStretches (F := Ideal)).flatten (Pipeline.withArrays spec0 c (Cert.KernelIdeal.Entry.V0 m c) A)
        (Proc.devRef .tc main_v56)
      = Cert.Tail.tail (A 1)
          (Cert.Tail.xiOf (m ((c : Thread nD τ).loc main_arg0)) (m ((c : Thread nD τ).loc main_arg2)))
          (Cert.Tail.xjOf (m ((c : Thread nD τ).loc main_arg0)) (m ((c : Thread nD τ).loc main_arg2)))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14))
          (m ((c : Thread nD τ).loc main_arg15)) (m ((c : Thread nD τ).loc main_arg16)) := by
  have h19 : Pipeline.withArrays spec0 c (Cert.KernelIdeal.Entry.V0 m c) A (Proc.devRef .tc main_v19) = A 1 :=
    Pipeline.withArrays_arr spec0 (launch0 (F := Ideal)).win.arr_inj c _ A 1
  have hne : ∀ b : Ref sig .tc, (∀ w, Pipeline.arrRef spec0 w ≠ b) →
      Pipeline.withArrays spec0 c (Cert.KernelIdeal.Entry.V0 m c) A (Proc.devRef .tc b)
        = Cert.KernelIdeal.Entry.V0 m c (Proc.devRef .tc b) :=
    fun b hb => Pipeline.withArrays_of_ne spec0 c _ A b hb
  exact (tail_result _).trans (tail_congr h19
    ((hne main_v10 (by decide)).trans (xi_eq c)) ((hne main_v17 (by decide)).trans (xj_eq c))
    ((hne main_arg3 (by decide)).trans (Cert.KernelIdeal.Entry.V0_main_arg3 m c))
    ((hne main_arg4 (by decide)).trans (Cert.KernelIdeal.Entry.V0_main_arg4 m c))
    ((hne main_arg5 (by decide)).trans (Cert.KernelIdeal.Entry.V0_main_arg5 m c))
    ((hne main_arg6 (by decide)).trans (Cert.KernelIdeal.Entry.V0_main_arg6 m c))
    ((hne main_arg7 (by decide)).trans (Cert.KernelIdeal.Entry.V0_main_arg7 m c))
    ((hne main_arg8 (by decide)).trans (Cert.KernelIdeal.Entry.V0_main_arg8 m c))
    ((hne main_arg9 (by decide)).trans (Cert.KernelIdeal.Entry.V0_main_arg9 m c))
    ((hne main_arg10 (by decide)).trans (Cert.KernelIdeal.Entry.V0_main_arg10 m c))
    ((hne main_arg11 (by decide)).trans (Cert.KernelIdeal.Entry.V0_main_arg11 m c))
    ((hne main_arg12 (by decide)).trans (Cert.KernelIdeal.Entry.V0_main_arg12 m c))
    ((hne main_arg13 (by decide)).trans (Cert.KernelIdeal.Entry.V0_main_arg13 m c))
    ((hne main_arg14 (by decide)).trans (Cert.KernelIdeal.Entry.V0_main_arg14 m c))
    ((hne main_arg15 (by decide)).trans (Cert.KernelIdeal.Entry.V0_main_arg15 m c))
    ((hne main_arg16 (by decide)).trans (Cert.KernelIdeal.Entry.V0_main_arg16 m c)))

end Cert.KernelIdeal.Tail

end
-- ==== Proof.KRows.lean ====
/-
  Rows of a two-dimensional buffer seen as vectors: a row's view (a one-row rectangle of the buffer's view with the unit
  axis dropped), where its indices sit, what a write through it leaves and what a read through it gives, and the
  contents after a list of rows has been written one after the other.
-/
import Idealize.ShloMosaic.Signature.Memref
import Idealize.ShloMosaic.Lib.ValueIdx

namespace Cert.KernelIdeal.Hand

open Idealize.ShloMosaic Idealize.ShloMosaic.ValueIdx

variable {sig : RefSig} {κ : Kind} {sp : Space} {e : EltTy} {R C : Nat}

/-- An index `k` of a vector of `C` elements, matched with the one-row shape, is `(0, k)`. -/
theorem reshapeEquiv_ix1_1c (h : (⟨1, ![C]⟩ : Shape).numel = (⟨2, ![1, C]⟩ : Shape).numel) (k : Fin C) :
    Shape.reshapeEquiv h (ix1 k) = ix2 (⟨0, Nat.one_pos⟩ : Fin 1) k :=
  Shape.reshapeEquiv_eq_of_rowMajor h (by
    rw [Shape.rowMajor_val_two, Shape.rowMajor_val_one]
    show 0 * C + k.val = k.val
    rw [Nat.zero_mul, Nat.zero_add])

/-- The one-row rectangle at offsets `off` places `(0, k)` at row `off 0`, column `off 1 + k`: with `off = (r, 0)`, at `(r, k)`. -/
theorem unit_row_emb (off : Fin 2 → Nat) (inb : ∀ a, off a + (![1, C] : Fin 2 → Nat) a ≤ (⟨2, ![R, C]⟩ : Shape).size a)
    (r : Fin R) (h0 : off 0 = r.val) (h1 : off 1 = 0) (k : Fin C) :
    (Rect.unit (s := ⟨2, ![R, C]⟩) off ![1, C] inb).emb (ix2 (⟨0, Nat.one_pos⟩ : Fin 1) k) = ix2 r k := by
  funext a
  refine Fin.ext ?_
  rw [Rect.emb_apply]
  match a with
  | ⟨0, _⟩ => show off 0 + 1 * 0 = r.val; rw [h0, Nat.mul_zero, Nat.add_zero]
  | ⟨1, _⟩ => show off 1 + 1 * k.val = k.val; rw [h1, Nat.one_mul, Nat.zero_add]

variable (v : View sig κ sp ⟨2, ![R, C]⟩ e)

/-- WHERE A ROW'S INDICES SIT: through the row view at offsets `off = (r, 0)` — the one-row rectangle of `v`, its unit
    axis dropped — index `k` is `v`'s index `(r, k)`. Any in-bounds and element-count evidence. -/
theorem row_emb (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (k : Fin C) :
    ((v.slice (Rect.unit off ![1, C] inb)).reshape ⟨1, ![C]⟩ hn).emb (ix1 k) = v.emb (ix2 r k) := by
  show v.emb ((Rect.unit off ![1, C] inb).emb (Shape.reshapeEquiv hn (ix1 k))) = _
  rw [show Shape.reshapeEquiv hn (ix1 k) = ix2 (⟨0, Nat.one_pos⟩ : Fin 1) k from reshapeEquiv_ix1_1c hn k,
    unit_row_emb off inb r h0 h1 k]

variable (Val : EltTy → Type)

/-- A READ THROUGH A ROW VIEW: element `k` is the buffer's at `v`'s index `(r, k)`. -/
theorem row_read (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (f : v.ty.Contents Val) (k : Fin C) :
    ((v.slice (Rect.unit off ![1, C] inb)).reshape ⟨1, ![C]⟩ hn).read Val f (ix1 k) = v.read Val f (ix2 r k) := by
  rw [View.read_apply, View.read_apply, row_emb v off inb hn r h0 h1 k]

/-- A WRITE THROUGH A ROW VIEW, read at `v`'s index `(r', k)`: the payload's element `k` on the row written, the old
    contents on every other row. -/
theorem row_write (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (f : v.ty.Contents Val) (p : (⟨1, ![C]⟩ : Shape).Idx → Val e)
    (r' : Fin R) (k : Fin C) :
    ((v.slice (Rect.unit off ![1, C] inb)).reshape ⟨1, ![C]⟩ hn).write Val f p Finset.univ (v.emb (ix2 r' k))
      = if r' = r then cast (congrArg Val v.elt_eq.symm) (p (ix1 k)) else f (v.emb (ix2 r' k)) := by
  by_cases hr : r' = r
  · subst hr
    rw [if_pos rfl, ← row_emb v off inb hn r' h0 h1 k]
    exact View.write_emb_of_mem (v := (v.slice (Rect.unit off ![1, C] inb)).reshape ⟨1, ![C]⟩ hn) f p (Finset.mem_univ _)
  · rw [if_neg hr]
    refine View.write_of_not_mem (v := (v.slice (Rect.unit off ![1, C] inb)).reshape ⟨1, ![C]⟩ hn) f p Finset.univ fun hmem => hr ?_
    obtain ⟨x, -, hx⟩ := Finset.mem_map.mp hmem
    obtain ⟨k', rfl⟩ : ∃ k' : Fin C, x = ix1 k' := ⟨x 0, eq_ix1 x⟩
    rw [row_emb v off inb hn r h0 h1 k'] at hx
    exact (congrFun (v.emb.injective hx) 0).symm

/-! ## Rows written one after the other -/

section Fold

variable {A P X : Type} (W : Fin R → A → P → A) (val : A → Fin R → Fin C → X) (pv : P → Fin C → X)

/-- The contents after the rows of `L` are written in order, from `f`: each entry a row and its payload. -/
def rowsWritten (L : List (Fin R × P)) (f : A) : A := L.foldl (fun acc rp => W rp.1 acc rp.2) f

@[simp] theorem rowsWritten_nil (f : A) : rowsWritten W [] f = f := rfl
@[simp] theorem rowsWritten_cons (x : Fin R × P) (L : List (Fin R × P)) (f : A) :
    rowsWritten W (x :: L) f = rowsWritten W L (W x.1 f x.2) := rfl

variable (hW : ∀ r f p r' k, val (W r f p) r' k = if r' = r then pv p k else val f r' k)
include hW

/-- A row no entry of the list names keeps its contents. -/
theorem rowsWritten_of_not_mem : ∀ (L : List (Fin R × P)) (f : A) (r' : Fin R) (k : Fin C),
    r' ∉ L.map Prod.fst → val (rowsWritten W L f) r' k = val f r' k
  | [], _, _, _, _ => rfl
  | x :: L, f, r', k, h => by
    have hne : ¬ r' = x.1 := fun he => h (by rw [List.map_cons, he]; exact List.mem_cons_self)
    rw [rowsWritten_cons, rowsWritten_of_not_mem L _ r' k fun hm => h (List.mem_cons_of_mem _ hm), hW, if_neg hne]

/-- A row the list names once holds its payload. -/
theorem rowsWritten_of_mem : ∀ (L : List (Fin R × P)) (f : A), (L.map Prod.fst).Nodup → ∀ (r : Fin R) (p : P) (k : Fin C),
    (r, p) ∈ L → val (rowsWritten W L f) r k = pv p k
  | x :: L, f, hnd, r, p, k, h => by
    rw [rowsWritten_cons]
    rw [List.map_cons, List.nodup_cons] at hnd
    rcases List.mem_cons.mp h with rfl | h
    · rw [rowsWritten_of_not_mem W val pv hW L _ _ k hnd.1, hW, if_pos rfl]
    · exact rowsWritten_of_mem L _ hnd.2 r p k h

end Fold

/-! ## The instance: whole rows of `v` written through their row views -/

/-- Row `r` of `v` is inside it. -/
theorem inb_row (r : Fin R) : ∀ a, (![r.val, 0] : Fin 2 → Nat) a + (![1, C] : Fin 2 → Nat) a ≤ (⟨2, ![R, C]⟩ : Shape).size a :=
  Fin.forall_fin_two.mpr ⟨r.isLt, Nat.le_of_eq (Nat.zero_add C)⟩

/-- A row has as many elements as the vector. -/
theorem numel_row (off : Fin 2 → Nat) (inb : ∀ a, off a + (![1, C] : Fin 2 → Nat) a ≤ (⟨2, ![R, C]⟩ : Shape).size a) :
    (⟨1, ![C]⟩ : Shape).numel = (Rect.unit (s := ⟨2, ![R, C]⟩) off ![1, C] inb).shape.numel := by
  show (⟨1, ![C]⟩ : Shape).numel = (⟨2, ![1, C]⟩ : Shape).numel
  simp [Shape.numel, Fin.prod_univ_succ]

/-- Row `r` of `v` as a vector's view. -/
abbrev rowV (r : Fin R) : View sig κ sp ⟨1, ![C]⟩ e :=
  (v.slice (Rect.unit ![r.val, 0] ![1, C] (inb_row r))).reshape ⟨1, ![C]⟩ (numel_row _ _)

/-- The buffer's contents after the rows of `L` are written whole through their row views, in order. -/
abbrev rowsWrittenV (L : List (Fin R × ((⟨1, ![C]⟩ : Shape).Idx → Val e))) (f : v.ty.Contents Val) : v.ty.Contents Val :=
  rowsWritten (fun r acc p => (rowV v r).write Val acc p Finset.univ) L f

/-- A row no entry names keeps its contents; -/
theorem rowsWrittenV_of_not_mem (L : List (Fin R × ((⟨1, ![C]⟩ : Shape).Idx → Val e))) (f : v.ty.Contents Val) (r' : Fin R) (k : Fin C)
    (h : r' ∉ L.map Prod.fst) : rowsWrittenV v Val L f (v.emb (ix2 r' k)) = f (v.emb (ix2 r' k)) :=
  rowsWritten_of_not_mem (fun r acc p => (rowV v r).write Val acc p Finset.univ) (fun g r k => g (v.emb (ix2 r k)))
    (fun p k => cast (congrArg Val v.elt_eq.symm) (p (ix1 k)))
    (fun r g p r' k => row_write v Val ![r.val, 0] (inb_row r) (numel_row _ _) r rfl rfl g p r' k) L f r' k h

/-- a row named once holds its payload. -/
theorem rowsWrittenV_of_mem (L : List (Fin R × ((⟨1, ![C]⟩ : Shape).Idx → Val e))) (f : v.ty.Contents Val) (hnd : (L.map Prod.fst).Nodup)
    (r : Fin R) (p : (⟨1, ![C]⟩ : Shape).Idx → Val e) (k : Fin C) (h : (r, p) ∈ L) :
    rowsWrittenV v Val L f (v.emb (ix2 r k)) = cast (congrArg Val v.elt_eq.symm) (p (ix1 k)) :=
  rowsWritten_of_mem (fun r acc p => (rowV v r).write Val acc p Finset.univ) (fun g r k => g (v.emb (ix2 r k)))
    (fun p k => cast (congrArg Val v.elt_eq.symm) (p (ix1 k)))
    (fun r g p r' k => row_write v Val ![r.val, 0] (inb_row r) (numel_row _ _) r rfl rfl g p r' k) L f hnd r p k h

end Cert.KernelIdeal.Hand
-- ==== Proof.KJoin.lean ====
/-
  The rows of a two-dimensional buffer as element sets: the rows are pairwise disjoint and together are the whole
  view, so the buffer's points-to is the separating conjunction of its rows' points-tos; and a row written whole
  holds, on the row, its payload.
-/
import proofs.«426739_j39281770889759_1_alg».proof.Proof.KRows
import Idealize.ShloMosaic.Rules.PointsTo
import Idealize.ShloMosaic.Lib.Pipeline.Kit

noncomputable section

namespace Cert.KernelIdeal.Hand

open Idealize.ShloMosaic Idealize.ShloMosaic.ValueIdx
open Idealize.SL Idealize.SL.RA Idealize.SL.BI
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U] {Lvl : Type}

local notation "𝕄" => MT nD τ sig Ix Val Name U Lvl

variable {c : Thread nD τ} {sp : Space} {e : EltTy} {R C : Nat} (v : View sig c.2.kind sp ⟨2, ![R, C]⟩ e)

/-- The elements of the row view at offsets `(r, 0)`: `v`'s elements `(r, k)`. -/
theorem mem_row_set (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (i : v.ty.Idx) :
    i ∈ ((v.slice (Rect.unit off ![1, C] inb)).reshape ⟨1, ![C]⟩ hn).set ↔ ∃ k : Fin C, v.emb (ix2 r k) = i := by
  unfold View.set
  rw [Finset.mem_map]
  constructor
  · rintro ⟨x, -, rfl⟩
    obtain ⟨k, rfl⟩ : ∃ k : Fin C, x = ix1 k := ⟨x 0, eq_ix1 x⟩
    exact ⟨k, (row_emb v off inb hn r h0 h1 k).symm⟩
  · rintro ⟨k, rfl⟩
    exact ⟨ix1 k, Finset.mem_univ _, row_emb v off inb hn r h0 h1 k⟩

/-- Row `r`'s elements, among the buffer's. -/
abbrev rowSet (r : Fin R) : Finset (Idx (v.loc c)) := (rowV v r).set

/-- They are `v`'s elements `(r, k)`. -/
theorem mem_rowSet (r : Fin R) (i : Idx (v.loc c)) : i ∈ rowSet v r ↔ ∃ k : Fin C, v.emb (ix2 r k) = i :=
  mem_row_set v ![r.val, 0] (inb_row r) (numel_row _ _) r rfl rfl i

/-- Two different rows share no element. -/
theorem rows_disjoint {r r' : Fin R} (h : r ≠ r') : Disjoint (rowSet v r) (rowSet v r') :=
  Finset.disjoint_left.mpr fun i hi hi' => by
    obtain ⟨k, rfl⟩ := (mem_rowSet v r i).mp hi
    obtain ⟨k', hk'⟩ := (mem_rowSet v r' _).mp hi'
    exact h (congrFun (v.emb.injective hk') 0).symm

/-- The view's elements, among the buffer's. -/
abbrev viewSet : Finset (Idx (v.loc c)) := v.set

/-- The rows together are the whole view. -/
theorem rows_cover : (Finset.univ : Finset (Fin R)).biUnion (rowSet v) = viewSet v := by
  ext i
  rw [Finset.mem_biUnion]
  constructor
  · rintro ⟨r, -, hi⟩
    obtain ⟨k, rfl⟩ := (mem_rowSet v r i).mp hi
    exact Finset.mem_map.mpr ⟨_, Finset.mem_univ _, rfl⟩
  · intro hi
    obtain ⟨x, -, rfl⟩ := Finset.mem_map.mp hi
    obtain ⟨r, k, rfl⟩ : ∃ (r : Fin R) (k : Fin C), x = ix2 r k := ⟨x 0, x 1, eq_ix2 x⟩
    exact ⟨r, Finset.mem_univ _, (mem_rowSet v r _).mpr ⟨k, rfl⟩⟩

variable (q : PosShare TreeShare)

/-- THE JOIN: the rows' points-tos, at one contents, are the view's. -/
theorem rows_join (G : Buf Val (v.loc c)) :
    (bigSep (Finset.univ : Finset (Fin R)) fun r => (v.loc c ↦[rowSet v r]{q} G : sProp 𝕄)) = (v.loc c ↦[viewSet v]{q} G) :=
  (pointsTo_biUnion (ℓ := v.loc c) (q := q) (f := G) (Finset.univ : Finset (Fin R)) (rowSet v)
      fun r _ r' _ h => rows_disjoint v h).symm.trans
    (congrArg (fun S : Finset (Idx (v.loc c)) => (v.loc c ↦[S]{q} G : sProp 𝕄)) (rows_cover v))

/-- The same with the rows listed in order: for a literal number of rows the left side unfolds to the chain
    `row 0 ∗ row 1 ∗ … ∗ row (R - 1)`. -/
theorem rows_joinL (G : Buf Val (v.loc c)) :
    (bigSepL (List.finRange R) fun r => (v.loc c ↦[rowSet v r]{q} G : sProp 𝕄)) = (v.loc c ↦[viewSet v]{q} G) :=
  (bigSep_univ_eq_bigSepL (List.finRange R) (List.toFinset_finRange R).symm (List.nodup_finRange R) _).symm.trans (rows_join v q G)

/-- For a view that is its whole buffer, the rows in order are the buffer's points-to. -/
theorem rows_joinL_univ (hv : viewSet v = Finset.univ) (G : Buf Val (v.loc c)) :
    (bigSepL (List.finRange R) fun r => (v.loc c ↦[rowSet v r]{q} G : sProp 𝕄)) = (v.loc c ↦{q} G) :=
  (rows_joinL v q G).trans (congrArg (fun S : Finset (Idx (v.loc c)) => (v.loc c ↦[S]{q} G : sProp 𝕄)) hv)

/-- A ROW WRITTEN WHOLE holds its payload on the row: the piece a landed row copy delivers, at any contents `G` that has
    the payload on that row. -/
theorem piece_congr (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (f G : Buf Val (v.loc c)) (p : (⟨1, ![C]⟩ : Shape).Idx → Val e)
    (hp : ∀ k : Fin C, cast (congrArg Val v.elt_eq.symm) (p (ix1 k)) = G (v.emb (ix2 r k))) :
    (v.loc c ↦[((v.slice (Rect.unit off ![1, C] inb)).reshape ⟨1, ![C]⟩ hn).set]{q}
        (((v.slice (Rect.unit off ![1, C] inb)).reshape ⟨1, ![C]⟩ hn).write Val f p Finset.univ) : sProp 𝕄)
      = (v.loc c ↦[((v.slice (Rect.unit off ![1, C] inb)).reshape ⟨1, ![C]⟩ hn).set]{q} G) :=
  pointsTo_congr fun i hi => by
    obtain ⟨k, rfl⟩ := (mem_row_set v off inb hn r h0 h1 i).mp hi
    rw [row_write v Val off inb hn r h0 h1 f p r k, if_pos rfl]
    exact hp k

/-! ## The pieces as a run leaves them: every row written over a base of its own, one row still inside the rest -/

/-- Taking row `r` out of the rows of `T` leaves the rows of `T` without `r`. -/
theorem biUnion_sdiff_row (T : Finset (Fin R)) (r : Fin R) :
    T.biUnion (rowSet v) \ rowSet v r = (T.erase r).biUnion (rowSet v) := by
  ext i
  simp only [Finset.mem_sdiff, Finset.mem_biUnion, Finset.mem_erase]
  constructor
  · rintro ⟨⟨t, ht, hi⟩, hni⟩
    exact ⟨t, ⟨fun h => hni (h ▸ hi), ht⟩, hi⟩
  · rintro ⟨t, ⟨hne, ht⟩, hi⟩
    exact ⟨⟨t, ht, hi⟩, fun hi' => Finset.disjoint_left.mp (rows_disjoint v hne) hi hi'⟩

/-- Taking the rows of a list out one after the other. -/
theorem foldl_sdiff_rows : ∀ (L : List (Fin R)) (T : Finset (Fin R)),
    L.foldl (fun A r => A \ rowSet v r) (T.biUnion (rowSet v)) = (T \ L.toFinset).biUnion (rowSet v)
  | [], T => by rw [List.foldl_nil, List.toFinset_nil, Finset.sdiff_empty]
  | r :: L, T => by
    rw [List.foldl_cons, biUnion_sdiff_row, foldl_sdiff_rows L (T.erase r), List.toFinset_cons]
    congr 1
    ext t
    simp only [Finset.mem_sdiff, Finset.mem_erase, Finset.mem_insert, not_or]
    constructor
    · rintro ⟨⟨h1, h2⟩, h3⟩; exact ⟨h2, h1, h3⟩
    · rintro ⟨h2, h1, h3⟩; exact ⟨⟨h1, h2⟩, h3⟩

/-- What is left of a whole buffer when every row but `z` has been taken out is row `z`. -/
theorem rest_eq_row (hv : viewSet v = Finset.univ) (L : List (Fin R)) (z : Fin R) (hnd : (z :: L).Nodup) (hall : ∀ r, r ∈ z :: L) :
    L.foldl (fun A r => A \ rowSet v r) (Finset.univ : Finset (Idx (v.loc c))) = rowSet v z := by
  rw [← hv, ← rows_cover v, foldl_sdiff_rows v L Finset.univ]
  have hz : (Finset.univ : Finset (Fin R)) \ L.toFinset = {z} := by
    ext t
    simp only [Finset.mem_sdiff, Finset.mem_univ, true_and, List.mem_toFinset, Finset.mem_singleton]
    constructor
    · intro ht
      rcases List.mem_cons.mp (hall t) with h | h
      · exact h
      · exact absurd h ht
    · rintro rfl; exact (List.nodup_cons.mp hnd).1
  rw [hz, Finset.singleton_biUnion]

/-- THE JOIN OF THE PIECES: every row of `L` held apart, written whole over a base of its own, and the one remaining row
    `z` written inside what is left of the buffer, are the whole buffer at any contents `G` that has each row's payload on
    that row. -/
theorem join_allL (hv : viewSet v = Finset.univ) (L : List (Fin R)) (z : Fin R) (hnd : (z :: L).Nodup) (hall : ∀ r, r ∈ z :: L)
    (b : Fin R → Buf Val (v.loc c)) (G : Buf Val (v.loc c)) (P : Fin R → (⟨1, ![C]⟩ : Shape).Idx → Val e)
    (hG : ∀ (r : Fin R) (k : Fin C), cast (congrArg Val v.elt_eq.symm) (P r (ix1 k)) = G (v.emb (ix2 r k))) :
    (BI.sep (v.loc c ↦[L.foldl (fun A r => A \ rowSet v r) Finset.univ]{q} ((rowV v z).write Val (b z) (P z) Finset.univ))
        (bigSepL L fun r => (v.loc c ↦[rowSet v r]{q} ((rowV v r).write Val (b r) (P r) Finset.univ))) : sProp 𝕄)
      = (v.loc c ↦{q} G) := by
  have hpiece : ∀ r : Fin R, (v.loc c ↦[rowSet v r]{q} ((rowV v r).write Val (b r) (P r) Finset.univ) : sProp 𝕄) = (v.loc c ↦[rowSet v r]{q} G) :=
    fun r => piece_congr v q ![r.val, 0] (inb_row r) (numel_row _ _) r rfl rfl (b r) G (P r) (hG r)
  rw [rest_eq_row v hv L z hnd hall, show (fun r => (v.loc c ↦[rowSet v r]{q} ((rowV v r).write Val (b r) (P r) Finset.univ) : sProp 𝕄))
      = fun r => (v.loc c ↦[rowSet v r]{q} G) from funext hpiece, hpiece z, ← bigSepL_cons z L (fun r => (v.loc c ↦[rowSet v r]{q} G : sProp 𝕄)),
    ← bigSep_eq_bigSepL (z :: L) hnd,
    show (z :: L).toFinset = (Finset.univ : Finset (Fin R)) from Finset.eq_univ_iff_forall.mpr fun r => List.mem_toFinset.mpr (hall r),
    rows_join v q G, hv]

set_option maxHeartbeats 0 in
set_option maxRecDepth 100000 in
/-- The same for a buffer of 128 rows of 8192 elements, every base its own argument: the rest, holding row 127, then the
    rows 0 … 126 in order. -/
theorem join_all {c : Thread nD τ} {sp : Space} {e : EltTy} (v : View sig c.2.kind sp ⟨2, ![128, 8192]⟩ e) (hv : viewSet v = Finset.univ)
    (q : PosShare TreeShare) {b0 b1 b2 b3 b4 b5 b6 b7 b8 b9 b10 b11 b12 b13 b14 b15 b16 b17 b18 b19 b20 b21 b22 b23 b24 b25 b26 b27 b28 b29 b30 b31 b32 b33 b34 b35 b36 b37 b38 b39 b40 b41 b42 b43 b44 b45 b46 b47 b48 b49 b50 b51 b52 b53 b54 b55 b56 b57 b58 b59 b60 b61 b62 b63 b64 b65 b66 b67 b68 b69 b70 b71 b72 b73 b74 b75 b76 b77 b78 b79 b80 b81 b82 b83 b84 b85 b86 b87 b88 b89 b90 b91 b92 b93 b94 b95 b96 b97 b98 b99 b100 b101 b102 b103 b104 b105 b106 b107 b108 b109 b110 b111 b112 b113 b114 b115 b116 b117 b118 b119 b120 b121 b122 b123 b124 b125 b126 b127 : Buf Val (v.loc c)}
    (P : Fin 128 → (⟨1, ![8192]⟩ : Shape).Idx → Val e) (G : Buf Val (v.loc c))
    (hG : ∀ (r : Fin 128) (k : Fin 8192), cast (congrArg Val v.elt_eq.symm) (P r (ix1 k)) = G (v.emb (ix2 r k))) :
    (iprop((v.loc c ↦[((((((((((((((((((((((((((((((((((((((((((((((((((((((((((((((((((((((((((((((((((((((((((((((((((((((((((((((((((((((((((((((((Finset.univ : Finset (Idx (v.loc c))) \ (rowV v (0 : Fin 128)).set) \ (rowV v (1 : Fin 128)).set) \ (rowV v (2 : Fin 128)).set) \ (rowV v (3 : Fin 128)).set) \ (rowV v (4 : Fin 128)).set) \ (rowV v (5 : Fin 128)).set) \ (rowV v (6 : Fin 128)).set) \ (rowV v (7 : Fin 128)).set) \ (rowV v (8 : Fin 128)).set) \ (rowV v (9 : Fin 128)).set) \ (rowV v (10 : Fin 128)).set) \ (rowV v (11 : Fin 128)).set) \ (rowV v (12 : Fin 128)).set) \ (rowV v (13 : Fin 128)).set) \ (rowV v (14 : Fin 128)).set) \ (rowV v (15 : Fin 128)).set) \ (rowV v (16 : Fin 128)).set) \ (rowV v (17 : Fin 128)).set) \ (rowV v (18 : Fin 128)).set) \ (rowV v (19 : Fin 128)).set) \ (rowV v (20 : Fin 128)).set) \ (rowV v (21 : Fin 128)).set) \ (rowV v (22 : Fin 128)).set) \ (rowV v (23 : Fin 128)).set) \ (rowV v (24 : Fin 128)).set) \ (rowV v (25 : Fin 128)).set) \ (rowV v (26 : Fin 128)).set) \ (rowV v (27 : Fin 128)).set) \ (rowV v (28 : Fin 128)).set) \ (rowV v (29 : Fin 128)).set) \ (rowV v (30 : Fin 128)).set) \ (rowV v (31 : Fin 128)).set) \ (rowV v (32 : Fin 128)).set) \ (rowV v (33 : Fin 128)).set) \ (rowV v (34 : Fin 128)).set) \ (rowV v (35 : Fin 128)).set) \ (rowV v (36 : Fin 128)).set) \ (rowV v (37 : Fin 128)).set) \ (rowV v (38 : Fin 128)).set) \ (rowV v (39 : Fin 128)).set) \ (rowV v (40 : Fin 128)).set) \ (rowV v (41 : Fin 128)).set) \ (rowV v (42 : Fin 128)).set) \ (rowV v (43 : Fin 128)).set) \ (rowV v (44 : Fin 128)).set) \ (rowV v (45 : Fin 128)).set) \ (rowV v (46 : Fin 128)).set) \ (rowV v (47 : Fin 128)).set) \ (rowV v (48 : Fin 128)).set) \ (rowV v (49 : Fin 128)).set) \ (rowV v (50 : Fin 128)).set) \ (rowV v (51 : Fin 128)).set) \ (rowV v (52 : Fin 128)).set) \ (rowV v (53 : Fin 128)).set) \ (rowV v (54 : Fin 128)).set) \ (rowV v (55 : Fin 128)).set) \ (rowV v (56 : Fin 128)).set) \ (rowV v (57 : Fin 128)).set) \ (rowV v (58 : Fin 128)).set) \ (rowV v (59 : Fin 128)).set) \ (rowV v (60 : Fin 128)).set) \ (rowV v (61 : Fin 128)).set) \ (rowV v (62 : Fin 128)).set) \ (rowV v (63 : Fin 128)).set) \ (rowV v (64 : Fin 128)).set) \ (rowV v (65 : Fin 128)).set) \ (rowV v (66 : Fin 128)).set) \ (rowV v (67 : Fin 128)).set) \ (rowV v (68 : Fin 128)).set) \ (rowV v (69 : Fin 128)).set) \ (rowV v (70 : Fin 128)).set) \ (rowV v (71 : Fin 128)).set) \ (rowV v (72 : Fin 128)).set) \ (rowV v (73 : Fin 128)).set) \ (rowV v (74 : Fin 128)).set) \ (rowV v (75 : Fin 128)).set) \ (rowV v (76 : Fin 128)).set) \ (rowV v (77 : Fin 128)).set) \ (rowV v (78 : Fin 128)).set) \ (rowV v (79 : Fin 128)).set) \ (rowV v (80 : Fin 128)).set) \ (rowV v (81 : Fin 128)).set) \ (rowV v (82 : Fin 128)).set) \ (rowV v (83 : Fin 128)).set) \ (rowV v (84 : Fin 128)).set) \ (rowV v (85 : Fin 128)).set) \ (rowV v (86 : Fin 128)).set) \ (rowV v (87 : Fin 128)).set) \ (rowV v (88 : Fin 128)).set) \ (rowV v (89 : Fin 128)).set) \ (rowV v (90 : Fin 128)).set) \ (rowV v (91 : Fin 128)).set) \ (rowV v (92 : Fin 128)).set) \ (rowV v (93 : Fin 128)).set) \ (rowV v (94 : Fin 128)).set) \ (rowV v (95 : Fin 128)).set) \ (rowV v (96 : Fin 128)).set) \ (rowV v (97 : Fin 128)).set) \ (rowV v (98 : Fin 128)).set) \ (rowV v (99 : Fin 128)).set) \ (rowV v (100 : Fin 128)).set) \ (rowV v (101 : Fin 128)).set) \ (rowV v (102 : Fin 128)).set) \ (rowV v (103 : Fin 128)).set) \ (rowV v (104 : Fin 128)).set) \ (rowV v (105 : Fin 128)).set) \ (rowV v (106 : Fin 128)).set) \ (rowV v (107 : Fin 128)).set) \ (rowV v (108 : Fin 128)).set) \ (rowV v (109 : Fin 128)).set) \ (rowV v (110 : Fin 128)).set) \ (rowV v (111 : Fin 128)).set) \ (rowV v (112 : Fin 128)).set) \ (rowV v (113 : Fin 128)).set) \ (rowV v (114 : Fin 128)).set) \ (rowV v (115 : Fin 128)).set) \ (rowV v (116 : Fin 128)).set) \ (rowV v (117 : Fin 128)).set) \ (rowV v (118 : Fin 128)).set) \ (rowV v (119 : Fin 128)).set) \ (rowV v (120 : Fin 128)).set) \ (rowV v (121 : Fin 128)).set) \ (rowV v (122 : Fin 128)).set) \ (rowV v (123 : Fin 128)).set) \ (rowV v (124 : Fin 128)).set) \ (rowV v (125 : Fin 128)).set) \ (rowV v (126 : Fin 128)).set)]{q} ((rowV v (127 : Fin 128)).write Val b127 (P 127) Finset.univ))
        ∗ (v.loc c ↦[(rowV v (0 : Fin 128)).set]{q} ((rowV v (0 : Fin 128)).write Val b0 (P 0) Finset.univ))
        ∗ (v.loc c ↦[(rowV v (1 : Fin 128)).set]{q} ((rowV v (1 : Fin 128)).write Val b1 (P 1) Finset.univ))
        ∗ (v.loc c ↦[(rowV v (2 : Fin 128)).set]{q} ((rowV v (2 : Fin 128)).write Val b2 (P 2) Finset.univ))
        ∗ (v.loc c ↦[(rowV v (3 : Fin 128)).set]{q} ((rowV v (3 : Fin 128)).write Val b3 (P 3) Finset.univ))
        ∗ (v.loc c ↦[(rowV v (4 : Fin 128)).set]{q} ((rowV v (4 : Fin 128)).write Val b4 (P 4) Finset.univ))
        ∗ (v.loc c ↦[(rowV v (5 : Fin 128)).set]{q} ((rowV v (5 : Fin 128)).write Val b5 (P 5) Finset.univ))
        ∗ (v.loc c ↦[(rowV v (6 : Fin 128)).set]{q} ((rowV v (6 : Fin 128)).write Val b6 (P 6) Finset.univ))
        ∗ (v.loc c ↦[(rowV v (7 : Fin 128)).set]{q} ((rowV v (7 : Fin 128)).write Val b7 (P 7) Finset.univ))
        ∗ (v.loc c ↦[(rowV v (8 : Fin 128)).set]{q} ((rowV v (8 : Fin 128)).write Val b8 (P 8) Finset.univ))
        ∗ (v.loc c ↦[(rowV v (9 : Fin 128)).set]{q} ((rowV v (9 : Fin 128)).write Val b9 (P 9) Finset.univ))
        ∗ (v.loc c ↦[(rowV v (10 : Fin 128)).set]{q} ((rowV v (10 : Fin 128)).write Val b10 (P 10) Finset.univ))
        ∗ (v.loc c ↦[(rowV v (11 : Fin 128)).set]{q} ((rowV v (11 : Fin 128)).write Val b11 (P 11) Finset.univ))
        ∗ (v.loc c ↦[(rowV v (12 : Fin 128)).set]{q} ((rowV v (12 : Fin 128)).write Val b12 (P 12) Finset.univ))
        ∗ (v.loc c ↦[(rowV v (13 : Fin 128)).set]{q} ((rowV v (13 : Fin 128)).write Val b13 (P 13) Finset.univ))
        ∗ (v.loc c ↦[(rowV v (14 : Fin 128)).set]{q} ((rowV v (14 : Fin 128)).write Val b14 (P 14) Finset.univ))
        ∗ (v.loc c ↦[(rowV v (15 : Fin 128)).set]{q} ((rowV v (15 : Fin 128)).write Val b15 (P 15) Finset.univ))
        ∗ (v.loc c ↦[(rowV v (16 : Fin 128)).set]{q} ((rowV v (16 : Fin 128)).write Val b16 (P 16) Finset.univ))
        ∗ (v.loc c ↦[(rowV v (17 : Fin 128)).set]{q} ((rowV v (17 : Fin 128)).write Val b17 (P 17) Finset.univ))
        ∗ (v.loc c ↦[(rowV v (18 : Fin 128)).set]{q} ((rowV v (18 : Fin 128)).write Val b18 (P 18) Finset.univ))
        ∗ (v.loc c ↦[(rowV v (19 : Fin 128)).set]{q} ((rowV v (19 : Fin 128)).write Val b19 (P 19) Finset.univ))
        ∗ (v.loc c ↦[(rowV v (20 : Fin 128)).set]{q} ((rowV v (20 : Fin 128)).write Val b20 (P 20) Finset.univ))
        ∗ (v.loc c ↦[(rowV v (21 : Fin 128)).set]{q} ((rowV v (21 : Fin 128)).write Val b21 (P 21) Finset.univ))
        ∗ (v.loc c ↦[(rowV v (22 : Fin 128)).set]{q} ((rowV v (22 : Fin 128)).write Val b22 (P 22) Finset.univ))
        ∗ (v.loc c ↦[(rowV v (23 : Fin 128)).set]{q} ((rowV v (23 : Fin 128)).write Val b23 (P 23) Finset.univ))
        ∗ (v.loc c ↦[(rowV v (24 : Fin 128)).set]{q} ((rowV v (24 : Fin 128)).write Val b24 (P 24) Finset.univ))
        ∗ (v.loc c ↦[(rowV v (25 : Fin 128)).set]{q} ((rowV v (25 : Fin 128)).write Val b25 (P 25) Finset.univ))
        ∗ (v.loc c ↦[(rowV v (26 : Fin 128)).set]{q} ((rowV v (26 : Fin 128)).write Val b26 (P 26) Finset.univ))
        ∗ (v.loc c ↦[(rowV v (27 : Fin 128)).set]{q} ((rowV v (27 : Fin 128)).write Val b27 (P 27) Finset.univ))
        ∗ (v.loc c ↦[(rowV v (28 : Fin 128)).set]{q} ((rowV v (28 : Fin 128)).write Val b28 (P 28) Finset.univ))
        ∗ (v.loc c ↦[(rowV v (29 : Fin 128)).set]{q} ((rowV v (29 : Fin 128)).write Val b29 (P 29) Finset.univ))
        ∗ (v.loc c ↦[(rowV v (30 : Fin 128)).set]{q} ((rowV v (30 : Fin 128)).write Val b30 (P 30) Finset.univ))
        ∗ (v.loc c ↦[(rowV v (31 : Fin 128)).set]{q} ((rowV v (31 : Fin 128)).write Val b31 (P 31) Finset.univ))
        ∗ (v.loc c ↦[(rowV v (32 : Fin 128)).set]{q} ((rowV v (32 : Fin 128)).write Val b32 (P 32) Finset.univ))
        ∗ (v.loc c ↦[(rowV v (33 : Fin 128)).set]{q} ((rowV v (33 : Fin 128)).write Val b33 (P 33) Finset.univ))
        ∗ (v.loc c ↦[(rowV v (34 : Fin 128)).set]{q} ((rowV v (34 : Fin 128)).write Val b34 (P 34) Finset.univ))
        ∗ (v.loc c ↦[(rowV v (35 : Fin 128)).set]{q} ((rowV v (35 : Fin 128)).write Val b35 (P 35) Finset.univ))
        ∗ (v.loc c ↦[(rowV v (36 : Fin 128)).set]{q} ((rowV v (36 : Fin 128)).write Val b36 (P 36) Finset.univ))
        ∗ (v.loc c ↦[(rowV v (37 : Fin 128)).set]{q} ((rowV v (37 : Fin 128)).write Val b37 (P 37) Finset.univ))
        ∗ (v.loc c ↦[(rowV v (38 : Fin 128)).set]{q} ((rowV v (38 : Fin 128)).write Val b38 (P 38) Finset.univ))
        ∗ (v.loc c ↦[(rowV v (39 : Fin 128)).set]{q} ((rowV v (39 : Fin 128)).write Val b39 (P 39) Finset.univ))
        ∗ (v.loc c ↦[(rowV v (40 : Fin 128)).set]{q} ((rowV v (40 : Fin 128)).write Val b40 (P 40) Finset.univ))
        ∗ (v.loc c ↦[(rowV v (41 : Fin 128)).set]{q} ((rowV v (41 : Fin 128)).write Val b41 (P 41) Finset.univ))
        ∗ (v.loc c ↦[(rowV v (42 : Fin 128)).set]{q} ((rowV v (42 : Fin 128)).write Val b42 (P 42) Finset.univ))
        ∗ (v.loc c ↦[(rowV v (43 : Fin 128)).set]{q} ((rowV v (43 : Fin 128)).write Val b43 (P 43) Finset.univ))
        ∗ (v.loc c ↦[(rowV v (44 : Fin 128)).set]{q} ((rowV v (44 : Fin 128)).write Val b44 (P 44) Finset.univ))
        ∗ (v.loc c ↦[(rowV v (45 : Fin 128)).set]{q} ((rowV v (45 : Fin 128)).write Val b45 (P 45) Finset.univ))
        ∗ (v.loc c ↦[(rowV v (46 : Fin 128)).set]{q} ((rowV v (46 : Fin 128)).write Val b46 (P 46) Finset.univ))
        ∗ (v.loc c ↦[(rowV v (47 : Fin 128)).set]{q} ((rowV v (47 : Fin 128)).write Val b47 (P 47) Finset.univ))
        ∗ (v.loc c ↦[(rowV v (48 : Fin 128)).set]{q} ((rowV v (48 : Fin 128)).write Val b48 (P 48) Finset.univ))
        ∗ (v.loc c ↦[(rowV v (49 : Fin 128)).set]{q} ((rowV v (49 : Fin 128)).write Val b49 (P 49) Finset.univ))
        ∗ (v.loc c ↦[(rowV v (50 : Fin 128)).set]{q} ((rowV v (50 : Fin 128)).write Val b50 (P 50) Finset.univ))
        ∗ (v.loc c ↦[(rowV v (51 : Fin 128)).set]{q} ((rowV v (51 : Fin 128)).write Val b51 (P 51) Finset.univ))
        ∗ (v.loc c ↦[(rowV v (52 : Fin 128)).set]{q} ((rowV v (52 : Fin 128)).write Val b52 (P 52) Finset.univ))
        ∗ (v.loc c ↦[(rowV v (53 : Fin 128)).set]{q} ((rowV v (53 : Fin 128)).write Val b53 (P 53) Finset.univ))
        ∗ (v.loc c ↦[(rowV v (54 : Fin 128)).set]{q} ((rowV v (54 : Fin 128)).write Val b54 (P 54) Finset.univ))
        ∗ (v.loc c ↦[(rowV v (55 : Fin 128)).set]{q} ((rowV v (55 : Fin 128)).write Val b55 (P 55) Finset.univ))
        ∗ (v.loc c ↦[(rowV v (56 : Fin 128)).set]{q} ((rowV v (56 : Fin 128)).write Val b56 (P 56) Finset.univ))
        ∗ (v.loc c ↦[(rowV v (57 : Fin 128)).set]{q} ((rowV v (57 : Fin 128)).write Val b57 (P 57) Finset.univ))
        ∗ (v.loc c ↦[(rowV v (58 : Fin 128)).set]{q} ((rowV v (58 : Fin 128)).write Val b58 (P 58) Finset.univ))
        ∗ (v.loc c ↦[(rowV v (59 : Fin 128)).set]{q} ((rowV v (59 : Fin 128)).write Val b59 (P 59) Finset.univ))
        ∗ (v.loc c ↦[(rowV v (60 : Fin 128)).set]{q} ((rowV v (60 : Fin 128)).write Val b60 (P 60) Finset.univ))
        ∗ (v.loc c ↦[(rowV v (61 : Fin 128)).set]{q} ((rowV v (61 : Fin 128)).write Val b61 (P 61) Finset.univ))
        ∗ (v.loc c ↦[(rowV v (62 : Fin 128)).set]{q} ((rowV v (62 : Fin 128)).write Val b62 (P 62) Finset.univ))
        ∗ (v.loc c ↦[(rowV v (63 : Fin 128)).set]{q} ((rowV v (63 : Fin 128)).write Val b63 (P 63) Finset.univ))
        ∗ (v.loc c ↦[(rowV v (64 : Fin 128)).set]{q} ((rowV v (64 : Fin 128)).write Val b64 (P 64) Finset.univ))
        ∗ (v.loc c ↦[(rowV v (65 : Fin 128)).set]{q} ((rowV v (65 : Fin 128)).write Val b65 (P 65) Finset.univ))
        ∗ (v.loc c ↦[(rowV v (66 : Fin 128)).set]{q} ((rowV v (66 : Fin 128)).write Val b66 (P 66) Finset.univ))
        ∗ (v.loc c ↦[(rowV v (67 : Fin 128)).set]{q} ((rowV v (67 : Fin 128)).write Val b67 (P 67) Finset.univ))
        ∗ (v.loc c ↦[(rowV v (68 : Fin 128)).set]{q} ((rowV v (68 : Fin 128)).write Val b68 (P 68) Finset.univ))
        ∗ (v.loc c ↦[(rowV v (69 : Fin 128)).set]{q} ((rowV v (69 : Fin 128)).write Val b69 (P 69) Finset.univ))
        ∗ (v.loc c ↦[(rowV v (70 : Fin 128)).set]{q} ((rowV v (70 : Fin 128)).write Val b70 (P 70) Finset.univ))
        ∗ (v.loc c ↦[(rowV v (71 : Fin 128)).set]{q} ((rowV v (71 : Fin 128)).write Val b71 (P 71) Finset.univ))
        ∗ (v.loc c ↦[(rowV v (72 : Fin 128)).set]{q} ((rowV v (72 : Fin 128)).write Val b72 (P 72) Finset.univ))
        ∗ (v.loc c ↦[(rowV v (73 : Fin 128)).set]{q} ((rowV v (73 : Fin 128)).write Val b73 (P 73) Finset.univ))
        ∗ (v.loc c ↦[(rowV v (74 : Fin 128)).set]{q} ((rowV v (74 : Fin 128)).write Val b74 (P 74) Finset.univ))
        ∗ (v.loc c ↦[(rowV v (75 : Fin 128)).set]{q} ((rowV v (75 : Fin 128)).write Val b75 (P 75) Finset.univ))
        ∗ (v.loc c ↦[(rowV v (76 : Fin 128)).set]{q} ((rowV v (76 : Fin 128)).write Val b76 (P 76) Finset.univ))
        ∗ (v.loc c ↦[(rowV v (77 : Fin 128)).set]{q} ((rowV v (77 : Fin 128)).write Val b77 (P 77) Finset.univ))
        ∗ (v.loc c ↦[(rowV v (78 : Fin 128)).set]{q} ((rowV v (78 : Fin 128)).write Val b78 (P 78) Finset.univ))
        ∗ (v.loc c ↦[(rowV v (79 : Fin 128)).set]{q} ((rowV v (79 : Fin 128)).write Val b79 (P 79) Finset.univ))
        ∗ (v.loc c ↦[(rowV v (80 : Fin 128)).set]{q} ((rowV v (80 : Fin 128)).write Val b80 (P 80) Finset.univ))
        ∗ (v.loc c ↦[(rowV v (81 : Fin 128)).set]{q} ((rowV v (81 : Fin 128)).write Val b81 (P 81) Finset.univ))
        ∗ (v.loc c ↦[(rowV v (82 : Fin 128)).set]{q} ((rowV v (82 : Fin 128)).write Val b82 (P 82) Finset.univ))
        ∗ (v.loc c ↦[(rowV v (83 : Fin 128)).set]{q} ((rowV v (83 : Fin 128)).write Val b83 (P 83) Finset.univ))
        ∗ (v.loc c ↦[(rowV v (84 : Fin 128)).set]{q} ((rowV v (84 : Fin 128)).write Val b84 (P 84) Finset.univ))
        ∗ (v.loc c ↦[(rowV v (85 : Fin 128)).set]{q} ((rowV v (85 : Fin 128)).write Val b85 (P 85) Finset.univ))
        ∗ (v.loc c ↦[(rowV v (86 : Fin 128)).set]{q} ((rowV v (86 : Fin 128)).write Val b86 (P 86) Finset.univ))
        ∗ (v.loc c ↦[(rowV v (87 : Fin 128)).set]{q} ((rowV v (87 : Fin 128)).write Val b87 (P 87) Finset.univ))
        ∗ (v.loc c ↦[(rowV v (88 : Fin 128)).set]{q} ((rowV v (88 : Fin 128)).write Val b88 (P 88) Finset.univ))
        ∗ (v.loc c ↦[(rowV v (89 : Fin 128)).set]{q} ((rowV v (89 : Fin 128)).write Val b89 (P 89) Finset.univ))
        ∗ (v.loc c ↦[(rowV v (90 : Fin 128)).set]{q} ((rowV v (90 : Fin 128)).write Val b90 (P 90) Finset.univ))
        ∗ (v.loc c ↦[(rowV v (91 : Fin 128)).set]{q} ((rowV v (91 : Fin 128)).write Val b91 (P 91) Finset.univ))
        ∗ (v.loc c ↦[(rowV v (92 : Fin 128)).set]{q} ((rowV v (92 : Fin 128)).write Val b92 (P 92) Finset.univ))
        ∗ (v.loc c ↦[(rowV v (93 : Fin 128)).set]{q} ((rowV v (93 : Fin 128)).write Val b93 (P 93) Finset.univ))
        ∗ (v.loc c ↦[(rowV v (94 : Fin 128)).set]{q} ((rowV v (94 : Fin 128)).write Val b94 (P 94) Finset.univ))
        ∗ (v.loc c ↦[(rowV v (95 : Fin 128)).set]{q} ((rowV v (95 : Fin 128)).write Val b95 (P 95) Finset.univ))
        ∗ (v.loc c ↦[(rowV v (96 : Fin 128)).set]{q} ((rowV v (96 : Fin 128)).write Val b96 (P 96) Finset.univ))
        ∗ (v.loc c ↦[(rowV v (97 : Fin 128)).set]{q} ((rowV v (97 : Fin 128)).write Val b97 (P 97) Finset.univ))
        ∗ (v.loc c ↦[(rowV v (98 : Fin 128)).set]{q} ((rowV v (98 : Fin 128)).write Val b98 (P 98) Finset.univ))
        ∗ (v.loc c ↦[(rowV v (99 : Fin 128)).set]{q} ((rowV v (99 : Fin 128)).write Val b99 (P 99) Finset.univ))
        ∗ (v.loc c ↦[(rowV v (100 : Fin 128)).set]{q} ((rowV v (100 : Fin 128)).write Val b100 (P 100) Finset.univ))
        ∗ (v.loc c ↦[(rowV v (101 : Fin 128)).set]{q} ((rowV v (101 : Fin 128)).write Val b101 (P 101) Finset.univ))
        ∗ (v.loc c ↦[(rowV v (102 : Fin 128)).set]{q} ((rowV v (102 : Fin 128)).write Val b102 (P 102) Finset.univ))
        ∗ (v.loc c ↦[(rowV v (103 : Fin 128)).set]{q} ((rowV v (103 : Fin 128)).write Val b103 (P 103) Finset.univ))
        ∗ (v.loc c ↦[(rowV v (104 : Fin 128)).set]{q} ((rowV v (104 : Fin 128)).write Val b104 (P 104) Finset.univ))
        ∗ (v.loc c ↦[(rowV v (105 : Fin 128)).set]{q} ((rowV v (105 : Fin 128)).write Val b105 (P 105) Finset.univ))
        ∗ (v.loc c ↦[(rowV v (106 : Fin 128)).set]{q} ((rowV v (106 : Fin 128)).write Val b106 (P 106) Finset.univ))
        ∗ (v.loc c ↦[(rowV v (107 : Fin 128)).set]{q} ((rowV v (107 : Fin 128)).write Val b107 (P 107) Finset.univ))
        ∗ (v.loc c ↦[(rowV v (108 : Fin 128)).set]{q} ((rowV v (108 : Fin 128)).write Val b108 (P 108) Finset.univ))
        ∗ (v.loc c ↦[(rowV v (109 : Fin 128)).set]{q} ((rowV v (109 : Fin 128)).write Val b109 (P 109) Finset.univ))
        ∗ (v.loc c ↦[(rowV v (110 : Fin 128)).set]{q} ((rowV v (110 : Fin 128)).write Val b110 (P 110) Finset.univ))
        ∗ (v.loc c ↦[(rowV v (111 : Fin 128)).set]{q} ((rowV v (111 : Fin 128)).write Val b111 (P 111) Finset.univ))
        ∗ (v.loc c ↦[(rowV v (112 : Fin 128)).set]{q} ((rowV v (112 : Fin 128)).write Val b112 (P 112) Finset.univ))
        ∗ (v.loc c ↦[(rowV v (113 : Fin 128)).set]{q} ((rowV v (113 : Fin 128)).write Val b113 (P 113) Finset.univ))
        ∗ (v.loc c ↦[(rowV v (114 : Fin 128)).set]{q} ((rowV v (114 : Fin 128)).write Val b114 (P 114) Finset.univ))
        ∗ (v.loc c ↦[(rowV v (115 : Fin 128)).set]{q} ((rowV v (115 : Fin 128)).write Val b115 (P 115) Finset.univ))
        ∗ (v.loc c ↦[(rowV v (116 : Fin 128)).set]{q} ((rowV v (116 : Fin 128)).write Val b116 (P 116) Finset.univ))
        ∗ (v.loc c ↦[(rowV v (117 : Fin 128)).set]{q} ((rowV v (117 : Fin 128)).write Val b117 (P 117) Finset.univ))
        ∗ (v.loc c ↦[(rowV v (118 : Fin 128)).set]{q} ((rowV v (118 : Fin 128)).write Val b118 (P 118) Finset.univ))
        ∗ (v.loc c ↦[(rowV v (119 : Fin 128)).set]{q} ((rowV v (119 : Fin 128)).write Val b119 (P 119) Finset.univ))
        ∗ (v.loc c ↦[(rowV v (120 : Fin 128)).set]{q} ((rowV v (120 : Fin 128)).write Val b120 (P 120) Finset.univ))
        ∗ (v.loc c ↦[(rowV v (121 : Fin 128)).set]{q} ((rowV v (121 : Fin 128)).write Val b121 (P 121) Finset.univ))
        ∗ (v.loc c ↦[(rowV v (122 : Fin 128)).set]{q} ((rowV v (122 : Fin 128)).write Val b122 (P 122) Finset.univ))
        ∗ (v.loc c ↦[(rowV v (123 : Fin 128)).set]{q} ((rowV v (123 : Fin 128)).write Val b123 (P 123) Finset.univ))
        ∗ (v.loc c ↦[(rowV v (124 : Fin 128)).set]{q} ((rowV v (124 : Fin 128)).write Val b124 (P 124) Finset.univ))
        ∗ (v.loc c ↦[(rowV v (125 : Fin 128)).set]{q} ((rowV v (125 : Fin 128)).write Val b125 (P 125) Finset.univ))
        ∗ (v.loc c ↦[(rowV v (126 : Fin 128)).set]{q} ((rowV v (126 : Fin 128)).write Val b126 (P 126) Finset.univ))) : sProp 𝕄)
      ⊢ (v.loc c ↦{q} G) :=
  Entails.of_eq (join_allL v q hv [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126] 127 (by decide) (by decide) ![b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, b60, b61, b62, b63, b64, b65, b66, b67, b68, b69, b70, b71, b72, b73, b74, b75, b76, b77, b78, b79, b80, b81, b82, b83, b84, b85, b86, b87, b88, b89, b90, b91, b92, b93, b94, b95, b96, b97, b98, b99, b100, b101, b102, b103, b104, b105, b106, b107, b108, b109, b110, b111, b112, b113, b114, b115, b116, b117, b118, b119, b120, b121, b122, b123, b124, b125, b126, b127] G P hG)

end Cert.KernelIdeal.Hand

end
-- ==== Proof.KBody.lean ====
/-
  The kernel body of the aggregation region, run once at symbolic operands.
  At grid point i the body reads, for each of the 128 edges r of its block, the two endpoint words of the prefetched
  tables at 128 i + r, starts the copy of the adjacency row each word names into row r of one of two scratch
  buffers — every copy on a semaphore cell of its own, 256 copies in flight, all reading the one adjacency array,
  which is therefore held as one read share per cell beside a remainder —, waits for all of them, loads both
  scratch buffers and the staged block of x whole, and stores the product of the two row blocks contracted against x
  into the staged output block. A row word is in range whenever the table's words are (hT1, hT2): that is the side
  condition each copy assumes. After the waits each scratch buffer is held row by row, every row at the row
  copied into it; the rows are joined into the whole buffer at the contents "row r is the r-th copied row" before the
  loads. What the body leaves in the output block is the witness of the subtype; the scratch buffers end at something, every cell back at zero, every read share returned.
-/
import proofs.«426739_j39281770889759_1_alg».proof.Proof.Gen.KernelIdeal.Skeleton
import Idealize.ShloMosaic.Lib.Tactic
import Idealize.ShloMosaic.Lib.Pipeline.Kit
import proofs.«426739_j39281770889759_1_alg».proof.Proof.KJoin

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

open Lean Elab Term in
/-- `sepChain% lo hi "pre" "post"`: the separating conjunction of `pre k post` for `lo ≤ k < hi`. -/
elab "sepChain%" lo:num hi:num pre:str post:str : term <= ty => do
  let items := (List.range (hi.getNat - lo.getNat)).map fun j => s!"{pre.getString}{lo.getNat + j}{post.getString}"
  let s := "iprop(" ++ " ∗ ".intercalate items ++ ")"
  match Parser.runParserCategory (← getEnv) `term s with
  | .ok stx => elabTerm stx (some ty)
  | .error e => throwError e

open Lean Elab Tactic in
/-- Introduce a chain of hypotheses named `pre k` for `lo ≤ k < hi` out of hypothesis `H`. -/
elab "icasesChain" H:ident lo:num hi:num pre:str : tactic => do
  let items := (List.range (hi.getNat - lo.getNat)).map fun j => s!"{pre.getString}{lo.getNat + j}"
  let s := s!"icases {H.getId} with ⟨" ++ ", ".intercalate items ++ "⟩"
  match Parser.runParserCategory (← getEnv) `tactic s with
  | .ok stx => evalTactic stx
  | .error e => throwError e

open Lean Elab Tactic in
/-- Split the goal's first conjunct off with the hypotheses `pre k`, `lo ≤ k < hi`. -/
elab "isplitlChain" lo:num hi:num pre:str : tactic => do
  let items := (List.range (hi.getNat - lo.getNat)).map fun j => s!"{pre.getString}{lo.getNat + j}"
  let s := "isplitl [" ++ " ".intercalate items ++ "]"
  match Parser.runParserCategory (← getEnv) `tactic s with
  | .ok stx => evalTactic stx
  | .error e => throwError e

open Lean Elab Tactic in
/-- Close a chain `P lo ∗ … ∗ P (hi-1)` conjunct by conjunct from the hypotheses `pre k`. -/
elab "iexactChain" lo:num hi:num pre:str : tactic => do
  let n := hi.getNat - lo.getNat
  for j in [0:n] do
    let nm := s!"{pre.getString}{lo.getNat + j}"
    let s := if j + 1 < n then s!"(isplitl [{nm}]; (focus iexact {nm}))" else s!"iexact {nm}"
    match Parser.runParserCategory (← getEnv) `tactic s with
    | .ok stx => evalTactic stx
    | .error e => throwError e

open Lean Elab Term in
/-- The family `![pre 2 post, pre 4 post, …, pre 256 post]` of 128 terms. -/
elab "famEven%" pre:str post:str : term <= ty => do
  let items := (List.range 128).map fun r => s!"{pre.getString}{2 * r + 2}{post.getString}"
  let s := "![" ++ ", ".intercalate items ++ "]"
  match Parser.runParserCategory (← getEnv) `term s with
  | .ok stx => elabTerm stx (some ty)
  | .error e => throwError e

open Lean Elab Tactic in
/-- Join the 128 landed rows of one scratch buffer (hypotheses `H`, `H_2` … `H_128`) into the whole buffer held at
    "row r is the r-th copied row", the copied rows the named values `pre (2r+2) post`; the new hypothesis is `out`. -/
elab "ihaveJoin" out:str H:str buf:str pre:str post:str : tactic => do
  let q := "\""
  let fam := "(famEven% " ++ q ++ pre.getString ++ q ++ " " ++ q ++ post.getString ++ q ++ " : Fin 128 → (⟨1, ![8192]⟩ : Shape).Idx → Elt F .f32)"
  let names := " ".intercalate ((List.range 127).map fun j => s!"{H.getString}_{j + 2}")
  let s := "ihave " ++ out.getString ++ " := (join_all (c := (c : Thread nD τ)) (Memref.whole " ++ buf.getString ++
    ").view (View.set_whole _) fullShare " ++ fam ++ " (fun x => " ++ fam ++ " (x 0) (ix1 (x 1))) (fun _ _ => rfl)) $$ [" ++
    H.getString ++ " " ++ names ++ "]"
  match Parser.runParserCategory (← getEnv) `tactic s with
  | .ok stx => evalTactic stx
  | .error e => throwError e

/-- A word below 8192 names a row inside the [8192, 8192] array. -/
theorem chk_of_lt (v : BitVec 32) (h : v.toNat < 8192) :
    ∀ a : Fin 2, (![v.toNat, 0] : Fin 2 → Nat) a + S1x8192.size a ≤ S8192x8192.size a := by
  intro a; fin_cases a
  · show v.toNat + 1 ≤ 8192; omega
  · show 0 + 8192 ≤ 8192; omega

open Lean Elab Tactic Meta in
/-- Close a row-in-range side condition from the bound on the table whose contents the word was read from. -/
elab "chkDisch" h1:ident h2:ident f1:ident : tactic => do
  let g ← instantiateMVars (← getMainTarget)
  let some d1 := (← getLCtx).findFromUserName? f1.getId | throwError "chkDisch: no such table"
  if g.containsFVar d1.fvarId then evalTactic (← `(tactic| exact chk_of_lt _ ($h1 _)))
  else evalTactic (← `(tactic| exact chk_of_lt _ ($h2 _)))

abbrev semsAll (c : Dev nD) : sProp 𝕄 :=
  sepChain% 3 259 "semVal ((c : Thread nD τ), SemLoc.dma (" " : DmaSem sig)) 0"

abbrev toksAll (c : Dev nD) (fA : Bf (F := F) c (Memref.whole main_arg1)) : sProp 𝕄 :=
  sepChain% 3 259 "((Memref.whole main_arg1).view.loc (c : Thread nD τ) ↦{Transfers.shareTokN fullShare " "} fA)"

set_option maxHeartbeats 0 in
set_option maxRecDepth 100000 in
set_option sl_exec.dmaWindow true in
set_option sl_exec.rejoinHeartbeats 50 in
noncomputable def kernelRun (c : Dev nD) (i : grid0.Coords)
    (M3 : Memref sig .tc .vmem S8192x256 .bf16) (h3 : M3.IsWhole) (M5 : Memref sig .tc .vmem S128x256 .f32) (h5 : M5.IsWhole)
    (f1 : Bf (F := F) c (Memref.whole main_v1)) (f2 : Bf (F := F) c (Memref.whole main_v3)) (f3 : Bf (F := F) c M3)
    (fA : Bf (F := F) c (Memref.whole main_arg1))
    (hT1 : ∀ j, (f1 j).toNat < 8192) (hT2 : ∀ j, (f2 j).toNat < 8192) :
    { W : Bf (F := F) c M5 //
      ∀ (f5 : Bf (F := F) c M5) (f6 : Bf (F := F) c (Memref.whole cc0_scratch0)) (f7 : Bf (F := F) c (Memref.whole cc0_scratch1))
        (W0 : Waits sig Unit) (Q : PUnit → sProp 𝕄),
        iprop(pt c (Memref.whole main_v1) f1 ∗ pt c (Memref.whole main_v3) f2 ∗ pt c M3 f3 ∗ pt c M5 f5
          ∗ pt c (Memref.whole cc0_scratch0) f6 ∗ pt c (Memref.whole cc0_scratch1) f7
          ∗ ((Memref.whole main_arg1).view.loc (c : Thread nD τ) ↦{Transfers.shareDrop fullShare 259} fA)
          ∗ toksAll c fA ∗ semsAll c ∗ owes (c : Thread nD τ) 0 W0
          ∗ (iprop(pt c (Memref.whole main_v1) f1 ∗ pt c (Memref.whole main_v3) f2 ∗ pt c M3 f3 ∗ pt c M5 W
                ∗ (∃ f, pt c (Memref.whole cc0_scratch0) f) ∗ (∃ f, pt c (Memref.whole cc0_scratch1) f)
                ∗ ((Memref.whole main_arg1).view.loc (c : Thread nD τ) ↦{Transfers.shareDrop fullShare 259} fA)
                ∗ toksAll c fA ∗ semsAll c ∗ ∃ W, owes (c : Thread nD τ) 0 W) -∗ Q ⟨⟩))
        ⊢ wp frame (wpE (defs₀ (F := F)) Variants.none c none) Set.univ
            (cc0__gnn_agg_kernel i (Memref.whole main_v1) (Memref.isWhole_whole _) (Memref.whole main_v3) (Memref.isWhole_whole _)
              M3 h3 (Memref.whole main_arg1) (Memref.isWhole_whole _) M5 h5
              (Memref.whole cc0_scratch0) (Memref.isWhole_whole _) (Memref.whole cc0_scratch1) (Memref.isWhole_whole _) cc0_scratch2 cc0_scratch3) Q } := by
  refine ⟨?_, fun f5 f6 f7 W0 Q => ?run⟩
  case run =>
    unfold toksAll semsAll
    iintro ⟨H1, H2, H3, H5, H6, H7, HAr, HT, HS, HO, Hk⟩
    icasesChain HT 3 259 "HT"
    icasesChain HS 3 259 "HS"
    sl_exec_parts! (disch := chkDisch hT1 hT2 f1)
    ihaveJoin "H6w" "H6" "cc0_scratch0" "kernelRun.sl.dma" " c i f1 fA hT1"
    · (isplitl [H6]; focus iexact H6)
      iexactChain 2 129 "H6_"
    ihaveJoin "H7w" "H7" "cc0_scratch1" "kernelRun.sl.dma" "_1 c i f2 fA hT2"
    · (isplitl [H7]; focus iexact H7)
      iexactChain 2 129 "H7_"
    sl_exec!
    sl_step
    iapply Hk
    isplitl [H1]; · iexact H1
    isplitl [H2]; · iexact H2
    isplitl [H3]; · iexact H3
    isplitl [H5]; · iexact H5
    isplitl [H6w]; · iexists _; iexact H6w
    isplitl [H7w]; · iexists _; iexact H7w
    isplitl [HAr]; · iexact HAr
    isplitlChain 3 259 "HT"
    · iexactChain 3 259 "HT"
    isplitlChain 3 259 "HS"
    · iexactChain 3 259 "HS"
    iexists _; iexact HO

end Cert.KernelIdeal.Hand

end
-- ==== Proof.KData.lean ====
/-
  The kernel region of the kernel program, its data: the kernel's own semaphores, the valuation the
  region is entered at, the pipeline's proof data and the statement of the body obligation.

  @main is 23 host operations, the kernel region, then nine stretches of host operations. The region's two
  prefetched tables hold what the host operations before it computed; the adjacency matrix stays in HBM and is
  read by the body's own transfers, so its buffer is handed to the region invariant and given back at the exit.
-/
import proofs.«426739_j39281770889759_1_alg».proof.Proof.KBody
import proofs.«426739_j39281770889759_1_alg».proof.Proof.Gen.KernelIdeal.Launch
import Idealize.ShloMosaic.Lib.Pipeline.Kit
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The kernel's own semaphores: the 256 DMA semaphores of its two scratch arrays, the pool's 3 … 258
    (the first array is 3 … 130, the second 131 … 258). -/
abbrev osem : Fin 256 → SemLoc sig := fun k => .dma ⟨3 + k.val, by have := k.isLt; show 3 + k.val < 259; omega⟩

/-- They are scoped, distinct, and none is a staging semaphore. -/
theorem ownSemFacts : Pipeline.OwnSemFacts spec0 osem := by decide

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the 23 operations before it have run. -/
abbrev Vv (c : Dev nD) : Valuation τ sig (Elt F) := StableHlo.after hostOps0 (V₀ m c)
abbrev V (c : Dev nD) (b : Ref sig .tc) : Buf (Elt F) ((c : Thread nD τ).loc b) := Vv m c b

/-- The two tables as the host operations computed them. -/
abbrev tbl (c : Dev nD) : pre0.Contents (Elt F) := fun k => V m c (pre0.ref k)

/-! ## The pipeline's proof data, at admissible contents `a` of the tables -/

variable (a : (pcfg0 (F := F)).Adm)

/-- The adjacency matrix's buffer, whole, as the host operations left it (no operation writes it). -/
abbrev ptAdj (c : Dev nD) : sProp 𝕄 := ((c : Thread nD τ).loc main_arg1) ↦{fullShare} V m c main_arg1

/-- The first grid point. -/
theorem N_a : (cfg0 a).N = 64 := N_0
abbrev t0 : Fin (cfg0 a).N := ⟨0, by rw [N_a]; decide⟩

/-- The features' block (the whole bf16 array) as the fetch at the first point stages it. -/
abbrev stg (c : Dev nD) : ((cfg0 a).win 0).block.Idx → Elt F ((cfg0 a).win 0).elt :=
  (((cfg0 a).win 0).blk (t0 a)).view.read (Elt F) (V m c main_v18)

-- What the body stores into the result's block at each point: a parameter of the proof data.
variable (outBlk : (c : Dev nD) → Fin (cfg0 a).N → ((cfg0 a).win 1).block.Idx → Elt F ((cfg0 a).win 1).elt)

/-- The invariant between points, the same at every point: the two tables held whole at `a`'s contents, the two
    scratch buffers at some contents, the adjacency matrix whole at its entry contents, the 256 counters at zero. -/
def Φc (c : Dev nD) : sProp 𝕄 :=
  iprop(Pipeline.prefHeld pre0 c (fun _ => fullShare) a.1
    ∗ Pipeline.scopedRest (Ix := Unit) (Name := ℕ) (U := UU nD τ) (Lvl := ℕ) (Val := Elt F) spec0 c
    ∗ ptAdj m c
    ∗ Pipeline.ownSems0 (Ix := Unit) (Name := ℕ) (U := UU nD τ) (Lvl := ℕ) (Val := Elt F) (τ := τ) osem c)

/-- The proof data on core `c`: the arrays at their entry contents; after the body the features' buffer as fetched
    and the result's block at `outBlk`; the invariant; nothing owed; the full share. -/
def dats (_ : Fin 1) (c : Dev nD) : Dat τ (Elt F) Unit ℕ (UU nD τ) ℕ (cfg0 a) c where
  A w := V m c (Pipeline.arrRef spec0 w)
  after w t := match w with
    | ⟨0, _⟩ => stg m a c
    | ⟨1, _⟩ => outBlk c t
  Φ _ := Φc m a c
  q _ := fullShare
  owed _ := 0

abbrev 𝒱₀ : Variants := Variants.none

/-- The body obligation of the region, as the launch takes it. -/
abbrev BodyStmt (c : Dev nD) : Prop := BodyObligation (dats m a outBlk 0 c) (defs₀ (F := F)) 𝒱₀ () Set.univ

end Cert.KernelIdeal.Hand

end
-- ==== Proof.KLaunch.lean ====
/-
  The launch of @main around the kernel region, for the kernel program: @main as a list of segments —
  the stretch of host operations before the region, the region, the nine stretches after it — run by the library's
  theorem for such lists, from the region's body obligation and the fact that the entry valuation has the tables
  at the contents the pipeline is pinned at.
-/
import proofs.«426739_j39281770889759_1_alg».proof.Proof.KData
import Idealize.ShloMosaic.Lib.Pipeline.Kit
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (a : (pcfg0 (F := F)).Adm)
variable (outBlk : (c : Dev nD) → Fin (cfg0 a).N → ((cfg0 a).win 1).block.Idx → Elt F ((cfg0 a).win 1).elt)

/-! ## The launch, by the library: @main as segments -/

/-- No core owes another anything: no level is assigned. -/
abbrev L : GSem nD τ sig → Finset Unit := fun _ => ∅
abbrev lv : GSem nD τ sig → Unit → ℕ := fun _ _ => 0

/-- The pipeline library's algebra is the left component of the certificate's. -/
abbrev EP : Emb (UR sig nD τ) (MT nD τ sig Unit (Elt F) ℕ (UU nD τ) ℕ) := embL

/-- The tables' admissible contents, the same for the one pipeline. -/
abbrev adm : (p : Fin 1) → (pcfgs (F := F) p).Adm := fun _ => a

/-- What rides beside the buffers through the host operations: the core's `owes`. -/
abbrev R (c : Dev nD) : sProp 𝕄 := iprop(∃ W, owes (c : Thread nD τ) (0 : CellTallies nD τ sig Unit) W)

/-- The core's buffers when the region is left: the result's array at what the pipeline library computes, every
    other buffer as at the entry. -/
abbrev Vp (c : Dev nD) : Valuation τ sig (Elt F) :=
  Pipeline.withArrays spec0 c (Vv m c) fun w => (dats m a outBlk 0 c).arrAt w (cfg0 a).N

/-- The unscoped buffers that are no window's array, no table and not the adjacency matrix: they bypass the region. -/
abbrev bypass : Finset (Ref sig .tc) :=
  (((Finset.univ.filter fun b : Ref sig .tc => ¬ b.isScoped) \ Finset.univ.image (Pipeline.arrRef spec0)) \ Finset.univ.image pre0.ref) \ {main_arg1}

abbrev Zc (c : Dev nD) : sProp 𝕄 := bigSep bypass fun b => ((c : Thread nD τ).loc b) ↦{fullShare} V m c b

/-- The unscoped buffers that are no window's array, at the entry valuation: the two tables held whole (at `a`'s
    contents, which the valuation has), the adjacency matrix, and the buffers that bypass the region. -/
theorem unscopedRest_eq (c : Dev nD) (ha : tbl m c = a.1) :
    (Pipeline.unscopedRest (Ix := Unit) (Name := ℕ) (U := UU nD τ) (Lvl := ℕ) spec0 c (V m c) : sProp 𝕄)
      = iprop(Pipeline.prefHeld pre0 c (fun _ => fullShare) a.1 ∗ ptAdj m c ∗ Zc m c) := by
  rw [Pipeline.unscopedRest_split (preFacts0) c (V m c), show (fun k => V m c (pre0.ref k)) = a.1 from ha]
  unfold Pipeline.unscopedRestP
  rw [BI.bigSep_sdiff_split (show ({main_arg1} : Finset (Ref sig .tc)) ⊆ _ from by decide), BI.bigSep_singleton]
  rfl

theorem fresh_of_forall {ops : List (HloOp τ sig (Elt F))} (h : ops.Forall fun op => op.fresh = ∅) : ∀ op ∈ ops, op.fresh = ∅ :=
  List.forall_iff_forall_mem.mp h

/-- THE HOST SEGMENT of a stretch `ops` from the valuation `W`: the operations over the unscoped buffers. -/
abbrev hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UU nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hf W R

set_option backward.isDefEq.respectTransparency.types false in
/-- THE REGION: entered from what the first stretch left — the two windows' arrays into the pipeline, the tables held at
    `a`'s contents (which the entry valuation has, `ha`), the adjacency matrix and the 256 counters into the invariant,
    every other unscoped buffer bypassing —, left with the result's array at its final contents. -/
def reg0 (hbody : ∀ c, BodyStmt m a outBlk c) (ha : ∀ c, tbl m c = a.1) :
    Pipeline.RegionSeg (pcfgs (F := F)) (adm a) (dats m a outBlk) () defs₀ 𝒱₀ L lv 0 where
  win := (launch0 (F := F)).win.to₀
  block_pos := (launch0 (F := F)).block_pos
  stage_whole := (launch0 (F := F)).stage_whole
  K := Fin 256
  osem := osem
  ho := ownSemFacts
  hbody c := (hbody c).loose
  hwaits := Pipeline.hwaits_of_owed_zero _ _ _ _ L lv 0 fun _ _ => rfl
  pre c := iprop(StableHlo.held (c : Thread nD τ) (Pipeline.ucRefs τ sig) (Vv m c) ∗ R c)
  post c := iprop(StableHlo.held (c : Thread nD τ) (Pipeline.ucRefs τ sig) (Vp m a outBlk c) ∗ R c)
  X c := iprop(ptAdj m c ∗ Pipeline.ownSems0 (Ix := Unit) (Name := ℕ) (U := UU nD τ) (Lvl := ℕ) (Val := Elt F) (τ := τ) osem c)
  Y c := iprop(Pipeline.prefHeld pre0 c (fun _ => fullShare) a.1 ∗ ptAdj m c)
  Z c := Zc m c
  hentry c := by
    rw [show StableHlo.held (c : Thread nD τ) (Pipeline.ucRefs τ sig) (Vv m c) = unscopedBufs c (V m c) from (Pipeline.unscopedBufs_held c _).symm]
    have hsplit := (Pipeline.arrays_of_unscopedBufs (p := 0) (pcfgs (F := F)) (adm a) (dats m a outBlk) (launch0 (F := F)).win (launch0 (F := F)).arr_whole c
      ((dats m a outBlk 0 c).share_full fun _ => rfl) (V m c) fun _ => rfl).trans (sep_mono .rfl (Entails.of_eq (unscopedRest_eq m a c (ha c))))
    iintro ⟨⟨Hub, HO⟩, Hos, -⟩
    ihave H := hsplit $$ Hub
    icases H with ⟨Ha, Hpf, Hadj, Hz⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hadj Hos]
    · isplitl [Hadj]; · iexact Hadj
      iexact Hos
    iexact Hz
  hin c := by
    rw [show (dats m a outBlk 0 c).Φ 0 = Φc m a c from rfl]; unfold Φc
    iintro ⟨⟨Hadj, Hos⟩, Hpf, Hr⟩
    isplitl [Hpf]; · iexact Hpf
    isplitl [Hr]; · iexact Hr
    isplitl [Hadj] <;> iassumption
  hout c := by
    rw [show (dats m a outBlk 0 c).Φ (Fin.last (cfg0 a).N) = Φc m a c from rfl]; unfold Φc
    iintro ⟨Hpf, Hr, Hadj, Hos⟩
    isplitl [Hpf Hadj]
    · isplitl [Hpf] <;> iassumption
    isplitl [Hos] <;> iassumption
  hexit c := by
    have hjoin := (sep_mono .rfl (Entails.of_eq (unscopedRest_eq m a c (ha c)).symm)).trans
      (Pipeline.unscopedBufs_of_arrays (p := 0) (pcfgs (F := F)) (adm a) (Ix := Unit) (Name := ℕ) (U := UU nD τ) (Lvl := ℕ) (launch0 (F := F)).win (launch0 (F := F)).arr_whole c
        (dats m a outBlk) ((dats m a outBlk 0 c).share_full fun _ => rfl) (V m c) (fun b => Vp m a outBlk c b) ((dats m a outBlk 0 c).arrAt · (cfg0 a).N)
        (fun w => (Pipeline.withArrays_arr spec0 (launch0 (F := F)).win.arr_inj c (Vv m c) (fun w => (dats m a outBlk 0 c).arrAt w (cfg0 a).N) w).symm)
        (fun b hb => Pipeline.withArrays_of_ne spec0 c (Vv m c) (fun w => (dats m a outBlk 0 c).arrAt w (cfg0 a).N) b fun w h => hb (Finset.mem_image.mpr ⟨w, Finset.mem_univ _, h⟩)))
    rw [show StableHlo.held (c : Thread nD τ) (Pipeline.ucRefs τ sig) (Vp m a outBlk c) = unscopedBufs c (fun b => Vp m a outBlk c b) from (Pipeline.unscopedBufs_held c _).symm]
    iintro ⟨Ha, HO, ⟨Hpf, Hadj⟩, Hz⟩
    imodintro
    isplitr [HO]
    · iapply hjoin
      isplitl [Ha]; · iexact Ha
      isplitl [Hpf]; · iexact Hpf
      isplitl [Hadj] <;> iassumption
    · unfold Pipeline.Dat.owesAt Pipeline.owesWithin
      icases HO with ⟨%W, -, HO⟩; iexists W; iexact HO

/-! ## The host operations after the region, and the run -/

/-- The core's buffers after each stretch of host operations that follows the region. -/
abbrev W1 (c : Dev nD) : Valuation τ sig (Elt F) := StableHlo.after hostOps1 (Vp m a outBlk c)
abbrev W2 (c : Dev nD) : Valuation τ sig (Elt F) := StableHlo.after hostOps1_1 (W1 m a outBlk c)
abbrev W3 (c : Dev nD) : Valuation τ sig (Elt F) := StableHlo.after hostOps1_2 (W2 m a outBlk c)
abbrev W4 (c : Dev nD) : Valuation τ sig (Elt F) := StableHlo.after hostOps1_3 (W3 m a outBlk c)
abbrev W5 (c : Dev nD) : Valuation τ sig (Elt F) := StableHlo.after hostOps1_4 (W4 m a outBlk c)
abbrev W6 (c : Dev nD) : Valuation τ sig (Elt F) := StableHlo.after hostOps1_5 (W5 m a outBlk c)
abbrev W7 (c : Dev nD) : Valuation τ sig (Elt F) := StableHlo.after hostOps1_6 (W6 m a outBlk c)
abbrev W8 (c : Dev nD) : Valuation τ sig (Elt F) := StableHlo.after hostOps1_7 (W7 m a outBlk c)
/-- The core's buffers when @main returns. -/
abbrev Vfin (c : Dev nD) : Valuation τ sig (Elt F) := StableHlo.after hostOps1_8 (W8 m a outBlk c)

/-- No stretch allocates a buffer. -/
theorem fresh0 : ∀ op ∈ (hostOps0 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h
theorem fresh1_1 : ∀ op ∈ (hostOps1_1 (F := F)), op.fresh = ∅ := by
  intro _ h; (repeat (cases h with | head => rfl | tail _ h => ?_)); exact nomatch h
theorem fresh1_2 : ∀ op ∈ (hostOps1_2 (F := F)), op.fresh = ∅ := by
  intro _ h; (repeat (cases h with | head => rfl | tail _ h => ?_)); exact nomatch h
theorem fresh1_3 : ∀ op ∈ (hostOps1_3 (F := F)), op.fresh = ∅ := by
  intro _ h; (repeat (cases h with | head => rfl | tail _ h => ?_)); exact nomatch h
theorem fresh1_4 : ∀ op ∈ (hostOps1_4 (F := F)), op.fresh = ∅ := by
  intro _ h; (repeat (cases h with | head => rfl | tail _ h => ?_)); exact nomatch h
theorem fresh1_5 : ∀ op ∈ (hostOps1_5 (F := F)), op.fresh = ∅ := by
  intro _ h; (repeat (cases h with | head => rfl | tail _ h => ?_)); exact nomatch h
theorem fresh1_6 : ∀ op ∈ (hostOps1_6 (F := F)), op.fresh = ∅ := by
  intro _ h; (repeat (cases h with | head => rfl | tail _ h => ?_)); exact nomatch h
theorem fresh1_7 : ∀ op ∈ (hostOps1_7 (F := F)), op.fresh = ∅ := by
  intro _ h; (repeat (cases h with | head => rfl | tail _ h => ?_)); exact nomatch h
theorem fresh1_8 : ∀ op ∈ (hostOps1_8 (F := F)), op.fresh = ∅ := by
  intro _ h; (repeat (cases h with | head => rfl | tail _ h => ?_)); exact nomatch h

/-- @main as the list of its segments: the stretch before the region, the region, the nine stretches after it. -/
abbrev segs (hbody : ∀ c, BodyStmt m a outBlk c) (ha : ∀ c, tbl m c = a.1) :
    List (Pipeline.Seg (pcfgs (F := F)) (adm a) (dats m a outBlk) () defs₀ 𝒱₀ L lv) :=
  [ .host (hostSeg hostOps0 hostOps0_sub fresh0 (V₀ m)),
    .region (reg0 m a outBlk hbody ha),
    .host (hostSeg hostOps1 hostOps1_sub fresh1 (Vp m a outBlk)),
    .host (hostSeg hostOps1_1 hostOps1_1_sub fresh1_1 (W1 m a outBlk)),
    .host (hostSeg hostOps1_2 hostOps1_2_sub fresh1_2 (W2 m a outBlk)),
    .host (hostSeg hostOps1_3 hostOps1_3_sub fresh1_3 (W3 m a outBlk)),
    .host (hostSeg hostOps1_4 hostOps1_4_sub fresh1_4 (W4 m a outBlk)),
    .host (hostSeg hostOps1_5 hostOps1_5_sub fresh1_5 (W5 m a outBlk)),
    .host (hostSeg hostOps1_6 hostOps1_6_sub fresh1_6 (W6 m a outBlk)),
    .host (hostSeg hostOps1_7 hostOps1_7_sub fresh1_7 (W7 m a outBlk)),
    .host (hostSeg hostOps1_8 hostOps1_8_sub fresh1_8 (W8 m a outBlk)) ]

/-- The launch element: the pipeline library's at the staging cells and the pipeline's transfers; no counter yet. -/
def u₀ : UU nD τ := (initOf (Pipeline.cells (Pipeline.pin (pcfgs (F := F)) (adm a)) (cellOf_inj (adm a))) (Pipeline.launchToks (Pipeline.pin (pcfgs (F := F)) (adm a)) (cellOf_inj (adm a))), 1)

variable (ρ : Dev nD → PrngReg)

/-- The physical post: every unscoped buffer of every core at what @main's operations and the region leave there. -/
def QC : PUnit × MemSt nD τ sig (Elt F) → Prop := fun r =>
  ∀ c : Dev nD, ∀ b ∈ Pipeline.ucRefs τ sig, r.2.mem ((c : Thread nD τ).1, b) = Vfin m a outBlk c b

set_option backward.isDefEq.respectTransparency.types false in
/-- At the compiled mesh, from any memory with zero counters: every weakly fair execution of @main on the TensorCores
    terminates, and every final state has every unscoped buffer at `Vfin`. -/
theorem run_main (hbody : ∀ c, BodyStmt m a outBlk c) (ha : ∀ c, tbl m c = a.1) :
    θ_run defs (onTc (τ := τ) (main (F := F))) ⟨m, fun _ => 0, ρ⟩ (QC m a outBlk) :=
  Pipeline.θ_run_regions_kit (pcfgs (F := F)) (adm a) (dats m a outBlk) () (cellOf_inj (adm a)) EP defs₀ 𝒱₀ L lv m ρ main (segs m a outBlk hbody ha)
    (fun c Q => by
      rw [main_chain c, Pipeline.Seg.run_eq_chain]
      exact .rfl)
    (by simp only [Pipeline.Seg.pipes_host, Pipeline.Seg.pipes_region, Pipeline.Seg.pipes_nil]; decide) (O₀ := 0) (hL := fun _ _ => rfl) (G := fun _ => iprop(emp)) (u₀ := u₀ a)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vfin m a outBlk c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vfin m a outBlk c b)
    (hfin := fun c s' => by
      unfold StableHlo.held
      iintro ⟨Hh, HSI⟩
      ihave Hr := (pointsTo_read_all (Pipeline.ucRefs τ sig) (fun b => ((c : Thread nD τ).1, b)) (fun b => Vfin m a outBlk c b) s') $$ [Hh HSI]
      · isplitl [Hh] <;> iassumption
      icases Hr with ⟨%hr, HSI⟩
      imodintro
      isplitr; · ipureintro; exact hr
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.KFinal.lean ====
/-
  From the blocks to the array, for the kernel region of the idealized kernel program: the result's array after the
  region is one whole-array function when every grid point's staging block is that function's block.

  The grid has 64 points; the result f32[8192,256] is written back in blocks [128,256], point `t`'s block at block
  index `(t, 0)`: rows `128 t … 128 t + 127`, all 256 columns. The index map reads no table: the block
  index at a point is the same whatever the tables hold. Every point writes its block back, the 64 blocks
  cover the array, and a block that is a restriction of one function `G` of the whole array leaves `G` there. The
  features' window is an input's: its array is never written.
-/
import proofs.«426739_j39281770889759_1_alg».proof.Proof.KData
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.SL.Sem
open Idealize.ShloMosaic.Pipeline (Dat Cfg Window)
open Idealize.ShloMosaic.ValueIdx

variable {F : FTy → Type} [FloatOps F]
variable (m : (ℓ : Loc nD τ sig) → Buf (Elt F) ℓ)
variable (a : (pcfg0 (F := F)).Adm)
variable (outBlk : (c : Dev nD) → Fin (cfg0 a).N → ((cfg0 a).win 1).block.Idx → Elt F ((cfg0 a).win 1).elt)

/-! ## The result window's index map over the grid -/

/-- Point `t`'s block of the result is block `(t, 0)`, at each of the 64 points (the map reads no table). -/
theorem outIndexMap_facts : ∀ t : Fin grid0.N, cc0_transform_2 (grid0.coords t) (0 : Fin 2) = t.val
    ∧ cc0_transform_2 (grid0.coords t) (1 : Fin 2) = 0 :=
  by decide +kernel

/-- The same of the window at any admissible contents of the tables. -/
theorem outIndex (t : Fin (cfg0 a).N) :
    ((cfg0 a).win 1).index t (0 : Fin 2) = t.val ∧ ((cfg0 a).win 1).index t (1 : Fin 2) = 0 :=
  outIndexMap_facts t

/-- A grid point is below 64. -/
theorem point_lt (t : Fin (cfg0 a).N) : t.val < 64 := lt_of_lt_of_eq t.isLt (N_a a)

/-- Every point writes its block back: the next point's block index differs. -/
theorem out_flush (t : Fin (cfg0 a).N) : ((cfg0 a).win 1).flush t = true := by
  unfold Pipeline.Window.flush
  rw [show ((cfg0 a).win 1).isOut = true from rfl, Bool.true_and, Bool.or_eq_true, decide_eq_true_eq, decide_eq_true_eq]
  by_cases h : t.val + 1 = (cfg0 a).grid.N
  · exact .inl h
  · have hlt : t.val + 1 < (cfg0 a).grid.N := by have : t.val < (cfg0 a).grid.N := t.isLt; omega
    refine .inr ⟨hlt, fun e => ?_⟩
    have e0 := congrFun e (0 : Fin 2)
    rw [(outIndex a ⟨t.val + 1, hlt⟩).1, (outIndex a t).1] at e0
    exact absurd e0 (Nat.succ_ne_self _)

/-! ## From the blocks to the array -/

/-- What point `t` writes back to the result's array is what the body left in the staging block. -/
theorem flushed_out (c : Dev nD) (t : Fin (cfg0 a).N) : (dats m a outBlk 0 c).flushed 1 t = outBlk c t := rfl

/-- Element `(r, k)` of point `t`'s block sits in the array at row `128 t + r`, column `k`. -/
theorem outBlk_emb (t : Fin (cfg0 a).N) (y : S128x256.Idx) :
    (((cfg0 a).win 1).blk t).view.emb y
      = ix2 (⟨128 * t.val + (y 0).val, by have := point_lt a t; have : (y 0).val < 128 := (y 0).isLt; omega⟩ : Fin 8192) (y 1 : Fin 256) := by
  obtain ⟨e0, e1⟩ := outIndex a t
  funext b; apply Fin.ext
  match b with
  | ⟨0, _⟩ => show ((cfg0 a).win 1).index t (0 : Fin 2) * 128 + 1 * (y 0).val = 128 * t.val + (y 0).val; rw [e0]; omega
  | ⟨1, _⟩ => show ((cfg0 a).win 1).index t (1 : Fin 2) * 256 + 1 * (y 1).val = (y 1).val; rw [e1]; omega

/-- An array index that is the place of an element of point `t`'s block is in that block. -/
theorem mem_outBlk_of_emb (t : Fin (cfg0 a).N) (y : S128x256.Idx) (i : S8192x256.Idx)
    (h : (((cfg0 a).win 1).blk t).view.emb y = i) : i ∈ (((cfg0 a).win 1).blk t).view.set := by
  subst h; exact View.emb_mem_set _ y

/-- The blocks cover the array: element `(r, k)` is element `(r % 128, k)` of the block of point `r / 128`. -/
theorem out_cover (i : S8192x256.Idx) :
    ∃ t : Fin (cfg0 a).N, ((cfg0 a).win 1).flush t = true ∧ i ∈ (((cfg0 a).win 1).blk t).view.set := by
  have hi0 : (i 0).val < 8192 := (i 0).isLt
  have ht : (i 0).val / 128 < (cfg0 a).N := by rw [N_a]; omega
  refine ⟨⟨(i 0).val / 128, ht⟩, out_flush a _, ?_⟩
  refine mem_outBlk_of_emb a _ (ix2 (⟨(i 0).val % 128, Nat.mod_lt _ (by decide)⟩ : Fin 128) (i 1 : Fin 256)) i ?_
  rw [outBlk_emb]
  funext b; apply Fin.ext
  match b with
  | ⟨0, _⟩ => show 128 * ((i 0).val / 128) + (i 0).val % 128 = (i 0).val; omega
  | ⟨1, _⟩ => rfl

/-- THE RESULT'S ARRAY after the region: if every point's block is its block of one whole-array function `G`, the
    array is `G`. -/
theorem final (G : S8192x256.Idx → Elt F .f32)
    (hblk : ∀ c t, outBlk c t = (((cfg0 a).win 1).blk t).view.read (Elt F) G) (c : Dev nD) :
    (dats m a outBlk 0 c).arrAt 1 (cfg0 a).N = G :=
  (dats m a outBlk 0 c).arrAt_eq_of_cover 1 G (fun t _ => (flushed_out m a outBlk c t).trans (hblk c t)) (out_cover a)

/-- A block of `G` read through the window, element by element. -/
theorem read_outBlk (G : S8192x256.Idx → Elt F .f32) (t : Fin (cfg0 a).N) (y : S128x256.Idx) :
    (((cfg0 a).win 1).blk t).view.read (Elt F) G y
      = G (ix2 (⟨128 * t.val + (y 0).val, by have := point_lt a t; have : (y 0).val < 128 := (y 0).isLt; omega⟩ : Fin 8192) (y 1 : Fin 256)) := by
  show G ((((cfg0 a).win 1).blk t).view.emb y) = _
  exact congrArg G (outBlk_emb a t y)

/-- The same from the blocks stated element by element: element `(r, k)` of point `t`'s block is `G (128 t + r, k)`. -/
theorem final_of_rows (G : S8192x256.Idx → Elt F .f32)
    (hrow : ∀ c (t : Fin (cfg0 a).N) (y : S128x256.Idx), outBlk c t y
      = G (ix2 (⟨128 * t.val + (y 0).val, by have := point_lt a t; have : (y 0).val < 128 := (y 0).isLt; omega⟩ : Fin 8192) (y 1 : Fin 256)))
    (c : Dev nD) : (dats m a outBlk 0 c).arrAt 1 (cfg0 a).N = G :=
  final m a outBlk G (fun c t => funext fun y => (hrow c t y).trans (read_outBlk a G t y).symm) c

/-- The features' array is unchanged by the region: its window is an input's. -/
theorem final_in (c : Dev nD) : (dats m a outBlk 0 c).arrAt 0 (cfg0 a).N = V m c main_v18 :=
  (dats m a outBlk 0 c).arrAt_in 0 rfl _

end Cert.KernelIdeal.Hand

end
-- ==== Proof.KFrame.lean ====
/-
  The frame conjunct of the kernel program: after @main's run every argument array holds what it held at
  launch — no host operation writes an argument, and the region's two arrays are not arguments.
-/
import proofs.«426739_j39281770889759_1_alg».proof.Proof.KLaunch

noncomputable section

namespace Cert.KernelIdeal.Hand

open Cert.KernelIdeal Cert.KernelIdeal.Gen

open Idealize.ShloMosaic
open Idealize.ShloMosaic.TcCoe
open Idealize.ShloMosaic.StableHlo
open Idealize.SL Idealize.SL.Sem
open Idealize.ShloMosaic.Pipeline (Dat Cfg Window BodyObligation cellOf)

variable {F : FTy → Type} [FloatOps F]

variable (m : (ℓ : Loc nD τ sig) → Buf (Elt F) ℓ) (a : (pcfg0 (F := F)).Adm)
variable (outBlk : (c : Dev nD) → Fin (cfg0 a).N → ((cfg0 a).win 1).block.Idx → Elt F ((cfg0 a).win 1).elt)

/-- An unscoped TensorCore reference is among the buffers the thread state holds. -/
theorem mem_uc (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by rw [h]; exact Bool.false_ne_true⟩

/-- The run's post read at one unscoped reference. -/
theorem QC_read {r : PUnit × MemSt nD τ sig (Elt F)} (h : QC m a outBlk r) (c : Dev nD) (b : Ref sig .tc)
    (hb : (Proc.devRef .tc b : DevRef τ sig).isScoped = false) :
    r.2.mem ((c.tc : Thread nD τ).loc b) = Vfin m a outBlk c (Proc.devRef .tc b) :=
  h c _ (mem_uc b hb)

set_option hygiene false in
/-- An argument is written by no host operation and is no array of the region: it holds its launch contents at the end. -/
macro "vfin_arg" b:ident : tactic =>
  `(tactic| (dsimp only [Vfin, W8, W7, W6, W5, W4, W3, W2, W1, hostOps1_8, hostOps1_7, hostOps1_6, hostOps1_5, hostOps1_4, hostOps1_3, hostOps1_2, hostOps1_1, hostOps1]
             after_results
             rw [show Vp m a outBlk c (Proc.devRef .tc $b) = Vv m c (Proc.devRef .tc $b) from
               Pipeline.withArrays_of_ne spec0 c (Vv m c) (fun w => (dats m a outBlk 0 c).arrAt w (cfg0 a).N) $b (by decide)]
             dsimp only [Vv, hostOps0]
             after_results))

theorem Vfin_main_arg0 (c : Dev nD) : Vfin m a outBlk c (Proc.devRef .tc main_arg0) = m ((c : Thread nD τ).loc main_arg0) := by
  vfin_arg main_arg0
theorem Vfin_main_arg1 (c : Dev nD) : Vfin m a outBlk c (Proc.devRef .tc main_arg1) = m ((c : Thread nD τ).loc main_arg1) := by
  vfin_arg main_arg1
theorem Vfin_main_arg2 (c : Dev nD) : Vfin m a outBlk c (Proc.devRef .tc main_arg2) = m ((c : Thread nD τ).loc main_arg2) := by
  vfin_arg main_arg2
theorem Vfin_main_arg3 (c : Dev nD) : Vfin m a outBlk c (Proc.devRef .tc main_arg3) = m ((c : Thread nD τ).loc main_arg3) := by
  vfin_arg main_arg3
theorem Vfin_main_arg4 (c : Dev nD) : Vfin m a outBlk c (Proc.devRef .tc main_arg4) = m ((c : Thread nD τ).loc main_arg4) := by
  vfin_arg main_arg4
theorem Vfin_main_arg5 (c : Dev nD) : Vfin m a outBlk c (Proc.devRef .tc main_arg5) = m ((c : Thread nD τ).loc main_arg5) := by
  vfin_arg main_arg5
theorem Vfin_main_arg6 (c : Dev nD) : Vfin m a outBlk c (Proc.devRef .tc main_arg6) = m ((c : Thread nD τ).loc main_arg6) := by
  vfin_arg main_arg6
theorem Vfin_main_arg7 (c : Dev nD) : Vfin m a outBlk c (Proc.devRef .tc main_arg7) = m ((c : Thread nD τ).loc main_arg7) := by
  vfin_arg main_arg7
theorem Vfin_main_arg8 (c : Dev nD) : Vfin m a outBlk c (Proc.devRef .tc main_arg8) = m ((c : Thread nD τ).loc main_arg8) := by
  vfin_arg main_arg8
theorem Vfin_main_arg9 (c : Dev nD) : Vfin m a outBlk c (Proc.devRef .tc main_arg9) = m ((c : Thread nD τ).loc main_arg9) := by
  vfin_arg main_arg9
theorem Vfin_main_arg10 (c : Dev nD) : Vfin m a outBlk c (Proc.devRef .tc main_arg10) = m ((c : Thread nD τ).loc main_arg10) := by
  vfin_arg main_arg10
theorem Vfin_main_arg11 (c : Dev nD) : Vfin m a outBlk c (Proc.devRef .tc main_arg11) = m ((c : Thread nD τ).loc main_arg11) := by
  vfin_arg main_arg11
theorem Vfin_main_arg12 (c : Dev nD) : Vfin m a outBlk c (Proc.devRef .tc main_arg12) = m ((c : Thread nD τ).loc main_arg12) := by
  vfin_arg main_arg12
theorem Vfin_main_arg13 (c : Dev nD) : Vfin m a outBlk c (Proc.devRef .tc main_arg13) = m ((c : Thread nD τ).loc main_arg13) := by
  vfin_arg main_arg13
theorem Vfin_main_arg14 (c : Dev nD) : Vfin m a outBlk c (Proc.devRef .tc main_arg14) = m ((c : Thread nD τ).loc main_arg14) := by
  vfin_arg main_arg14
theorem Vfin_main_arg15 (c : Dev nD) : Vfin m a outBlk c (Proc.devRef .tc main_arg15) = m ((c : Thread nD τ).loc main_arg15) := by
  vfin_arg main_arg15
theorem Vfin_main_arg16 (c : Dev nD) : Vfin m a outBlk c (Proc.devRef .tc main_arg16) = m ((c : Thread nD τ).loc main_arg16) := by
  vfin_arg main_arg16

/-- At the compiled mesh, from any memory with zero counters: every weakly fair execution of @main terminates, and every
    argument array ends as launched. -/
theorem frame_of (ρ : Dev nD → PrngReg) (hbody : ∀ c, BodyStmt m a outBlk c) (ha : ∀ c, tbl m c = a.1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(QC_read m a outBlk h c main_arg0 rfl).trans (Vfin_main_arg0 m a outBlk c),
      (QC_read m a outBlk h c main_arg1 rfl).trans (Vfin_main_arg1 m a outBlk c),
      (QC_read m a outBlk h c main_arg2 rfl).trans (Vfin_main_arg2 m a outBlk c),
      (QC_read m a outBlk h c main_arg3 rfl).trans (Vfin_main_arg3 m a outBlk c),
      (QC_read m a outBlk h c main_arg4 rfl).trans (Vfin_main_arg4 m a outBlk c),
      (QC_read m a outBlk h c main_arg5 rfl).trans (Vfin_main_arg5 m a outBlk c),
      (QC_read m a outBlk h c main_arg6 rfl).trans (Vfin_main_arg6 m a outBlk c),
      (QC_read m a outBlk h c main_arg7 rfl).trans (Vfin_main_arg7 m a outBlk c),
      (QC_read m a outBlk h c main_arg8 rfl).trans (Vfin_main_arg8 m a outBlk c),
      (QC_read m a outBlk h c main_arg9 rfl).trans (Vfin_main_arg9 m a outBlk c),
      (QC_read m a outBlk h c main_arg10 rfl).trans (Vfin_main_arg10 m a outBlk c),
      (QC_read m a outBlk h c main_arg11 rfl).trans (Vfin_main_arg11 m a outBlk c),
      (QC_read m a outBlk h c main_arg12 rfl).trans (Vfin_main_arg12 m a outBlk c),
      (QC_read m a outBlk h c main_arg13 rfl).trans (Vfin_main_arg13 m a outBlk c),
      (QC_read m a outBlk h c main_arg14 rfl).trans (Vfin_main_arg14 m a outBlk c),
      (QC_read m a outBlk h c main_arg15 rfl).trans (Vfin_main_arg15 m a outBlk c),
      (QC_read m a outBlk h c main_arg16 rfl).trans (Vfin_main_arg16 m a outBlk c)⟩)
    (run_main m a outBlk ρ hbody ha)

end Cert.KernelIdeal.Hand

end
-- ==== Proof.KAlg.lean ====
/-
  The assembly. Over the extended reals, from memories that agree on the seventeen arguments, the kernel program and
  the reference both run and leave the same result: the dense tail of the aggregation
  Σ_k (adj[t0 e, k] · adj[t1 e, k]) · x[k, j], of the two row gathers of x, and of the weights. The kernel side reaches
  it through the region's final array (each block of it a block of the aggregation) and the host operations after the
  region; the reference side through its run. The index table is in range by the precondition.
-/
import proofs.«426739_j39281770889759_1_alg».proof.Defs
import proofs.«426739_j39281770889759_1_alg».proof.Proof.RefSide
import proofs.«426739_j39281770889759_1_alg».proof.Proof.KTail
import proofs.«426739_j39281770889759_1_alg».proof.Proof.KEntry
import proofs.«426739_j39281770889759_1_alg».proof.Proof.KData
import proofs.«426739_j39281770889759_1_alg».proof.Proof.KLaunch
import proofs.«426739_j39281770889759_1_alg».proof.Proof.KFinal
import proofs.«426739_j39281770889759_1_alg».proof.Proof.KFrame
import proofs.«426739_j39281770889759_1_alg».proof.Proof.PreTar
import proofs.«426739_j39281770889759_1_alg».proof.Proof.Gen.Kernel
import proofs.«426739_j39281770889759_1_alg».proof.Proof.Gen.KernelIdeal
import proofs.«426739_j39281770889759_1_alg».proof.Proof.Gen.ReferenceIdeal
import proofs.«426739_j39281770889759_1_alg».proof.Proof.Gen.Pre_finite_inputs

noncomputable section
namespace Cert.Proof.Alg

open Idealize.ShloMosaic Idealize.ShloMosaic.TcCoe Idealize.SL.Sem

/-! ## The index table is in range -/

/-- From the precondition: every entry of the index table is below 8192 as a word. -/
theorem tar_lt_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S2x8192.Idx, (((m ((c.tc : Thread Cert.KernelIdeal.nD Cert.KernelIdeal.τ).loc Cert.KernelIdeal.main_arg2)) : IVec Cert.KernelIdeal.S2x8192 32) i).toNat < 8192 :=
  Cert.PreTar.tar_lt _ _ _ _ _ _ _ _ _ _ _ _ _ _ _ _ _ (hpre c)

/-! ## The kernel program's result -/

section KernelSide
variable (m : (ℓ : Loc Cert.KernelIdeal.nD Cert.KernelIdeal.τ Cert.KernelIdeal.sig) → Buf (Elt Ideal) ℓ)

/-- The aggregation of the kernel program's arguments on core c. -/
abbrev agg (c : Dev Cert.KernelIdeal.nD) : FVec Ideal Cert.KernelIdeal.S8192x256 .f32 :=
  Cert.Agg.xcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.Tail.t0Of (m ((c.tc : Thread Cert.KernelIdeal.nD Cert.KernelIdeal.τ).loc Cert.KernelIdeal.main_arg2))) (Cert.Tail.t1Of (m ((c.tc : Thread Cert.KernelIdeal.nD Cert.KernelIdeal.τ).loc Cert.KernelIdeal.main_arg2)))

/-- The common result: the dense tail of the aggregation, the two row gathers and the weights. -/
abbrev result (c : Dev Cert.KernelIdeal.nD) : FVec Ideal Cert.KernelIdeal.S8192 .f32 :=
  Cert.Tail.tail (agg m c) (Cert.Tail.xiOf (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.Tail.xjOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))

/-- The two tables the region holds: the two rows of the index table as the operations before the region left them. -/
abbrev adm : (Cert.KernelIdeal.pcfg0 (F := Ideal)).Adm := ⟨Cert.KernelIdeal.Hand.tbl m 0, trivial⟩

theorem tbl_eq (c : Dev Cert.KernelIdeal.nD) : Cert.KernelIdeal.Hand.tbl m c = (adm m).1 := by
  obtain rfl : c = 0 := Subsingleton.elim _ _
  rfl

/-- What the region supplies: the blocks its body stores, the body's obligation at them, and every block's value —
    element (r, k) of point t's block is the aggregation at row 128 t + r, column k. -/
def RegionSide : Prop :=
  ∃ outBlk : (c : Dev Cert.KernelIdeal.nD) → Fin (Cert.KernelIdeal.cfg0 (adm m)).N → ((Cert.KernelIdeal.cfg0 (adm m)).win 1).block.Idx
      → Elt Ideal ((Cert.KernelIdeal.cfg0 (adm m)).win 1).elt,
    (∀ c, Cert.KernelIdeal.Hand.BodyStmt m (adm m) outBlk c)
    ∧ ∀ c (t : Fin (Cert.KernelIdeal.cfg0 (adm m)).N) (y : Cert.KernelIdeal.S128x256.Idx), outBlk c t y
        = agg m c (ValueIdx.ix2 (⟨128 * t.val + (y 0).val, by
            have := Cert.KernelIdeal.Hand.point_lt (adm m) t; have : (y 0).val < 128 := (y 0).isLt; omega⟩ : Fin 8192) (y 1 : Fin 256))

/-- The result buffer at the return: the dense tail of the region's final result array. -/
theorem Vfin_result (a : (Cert.KernelIdeal.pcfg0 (F := Ideal)).Adm)
    (outBlk : (c : Dev Cert.KernelIdeal.nD) → Fin (Cert.KernelIdeal.cfg0 a).N → ((Cert.KernelIdeal.cfg0 a).win 1).block.Idx → Elt Ideal ((Cert.KernelIdeal.cfg0 a).win 1).elt)
    (c : Dev Cert.KernelIdeal.nD) :
    Cert.KernelIdeal.Hand.Vfin m a outBlk c (Proc.devRef .tc Cert.KernelIdeal.main_v56)
      = Cert.Tail.tail ((Cert.KernelIdeal.Hand.dats m a outBlk 0 c).arrAt 1 (Cert.KernelIdeal.cfg0 a).N)
          (Cert.Tail.xiOf (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.Tail.xjOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) :=
  (congrFun (Cert.KernelIdeal.Tail.flatten_eq (Cert.KernelIdeal.Hand.Vp m a outBlk c)) (Proc.devRef .tc Cert.KernelIdeal.main_v56)).trans
    (Cert.KernelIdeal.Tail.kernel_result m c fun w => (Cert.KernelIdeal.Hand.dats m a outBlk 0 c).arrAt w (Cert.KernelIdeal.cfg0 a).N)

end KernelSide

/-! ## The region's inputs in terms of the arguments -/

section Bridges
variable (m : (ℓ : Loc Cert.KernelIdeal.nD Cert.KernelIdeal.τ Cert.KernelIdeal.sig) → Buf (Elt Ideal) ℓ)

/-- The first table the region holds is row 0 of the index table; the second is row 1. -/
theorem adm_row0 (c : Dev Cert.KernelIdeal.nD) : ((adm m).1 0 : IVec Cert.KernelIdeal.S8192 32) = Cert.Tail.t0Of (m ((c.tc : Thread Cert.KernelIdeal.nD Cert.KernelIdeal.τ).loc Cert.KernelIdeal.main_arg2)) := by
  obtain rfl : c = 0 := Subsingleton.elim _ _
  exact (Cert.KernelIdeal.Entry.V0_main_v1 m 0).trans rfl

theorem adm_row1 (c : Dev Cert.KernelIdeal.nD) : ((adm m).1 1 : IVec Cert.KernelIdeal.S8192 32) = Cert.Tail.t1Of (m ((c.tc : Thread Cert.KernelIdeal.nD Cert.KernelIdeal.τ).loc Cert.KernelIdeal.main_arg2)) := by
  obtain rfl : c = 0 := Subsingleton.elim _ _
  exact (Cert.KernelIdeal.Entry.V0_main_v3 m 0).trans rfl

/-- The features the region fetches are x: over the extended reals the change of format is the identity. -/
theorem entry_x (c : Dev Cert.KernelIdeal.nD) :
    (Cert.KernelIdeal.Hand.V m c Cert.KernelIdeal.main_v18 : Cert.KernelIdeal.S8192x256.Idx → EReal) = (m ((c.tc : Thread Cert.KernelIdeal.nD Cert.KernelIdeal.τ).loc Cert.KernelIdeal.main_arg0)) :=
  (Cert.KernelIdeal.Entry.V0_main_v18 m c).trans rfl

/-- The adjacency array the region reads is the argument. -/
theorem entry_adj (c : Dev Cert.KernelIdeal.nD) :
    (Cert.KernelIdeal.Hand.V m c Cert.KernelIdeal.main_arg1 : Cert.KernelIdeal.S8192x8192.Idx → EReal) = (m ((c.tc : Thread Cert.KernelIdeal.nD Cert.KernelIdeal.τ).loc Cert.KernelIdeal.main_arg1)) :=
  Cert.KernelIdeal.Entry.V0_main_arg1 m c

/-- The aggregation of the region's inputs is the aggregation of the arguments. -/
theorem agg_entry (c : Dev Cert.KernelIdeal.nD) :
    Cert.Agg.xcn (Cert.KernelIdeal.Hand.V m c Cert.KernelIdeal.main_v18) (Cert.KernelIdeal.Hand.V m c Cert.KernelIdeal.main_arg1) ((adm m).1 0) ((adm m).1 1) = agg m c :=
  congr (congr (congr (congrArg Cert.Agg.xcn (entry_x m c)) (entry_adj m c)) (adm_row0 m c)) (adm_row1 m c)

/-- With the precondition, both tables' words are below 8192. -/
theorem inRange_adm (hpre : Cert.Pre_KernelIdeal m) :
    (∀ j, (((adm m).1 0 : IVec Cert.KernelIdeal.S8192 32) j).toNat < 8192) ∧ (∀ j, (((adm m).1 1 : IVec Cert.KernelIdeal.S8192 32) j).toNat < 8192) :=
  ⟨fun j => Cert.KernelIdeal.Entry.V0_main_v1_lt m 0 (tar_lt_of_pre m hpre 0) j, fun j => Cert.KernelIdeal.Entry.V0_main_v3_lt m 0 (tar_lt_of_pre m hpre 0) j⟩

/-- The region's side from blocks whose elements are the aggregation of the region's own inputs. -/
theorem regionSide_of
    (outBlk : (c : Dev Cert.KernelIdeal.nD) → Fin (Cert.KernelIdeal.cfg0 (adm m)).N → ((Cert.KernelIdeal.cfg0 (adm m)).win 1).block.Idx
      → Elt Ideal ((Cert.KernelIdeal.cfg0 (adm m)).win 1).elt)
    (hbody : ∀ c, Cert.KernelIdeal.Hand.BodyStmt m (adm m) outBlk c)
    (hval : ∀ c (t : Fin (Cert.KernelIdeal.cfg0 (adm m)).N) (y : Cert.KernelIdeal.S128x256.Idx), outBlk c t y
      = Cert.Agg.xcn (Cert.KernelIdeal.Hand.V m c Cert.KernelIdeal.main_v18) (Cert.KernelIdeal.Hand.V m c Cert.KernelIdeal.main_arg1) ((adm m).1 0) ((adm m).1 1)
          (ValueIdx.ix2 (⟨128 * t.val + (y 0).val, by
            have := Cert.KernelIdeal.Hand.point_lt (adm m) t; have : (y 0).val < 128 := (y 0).isLt; omega⟩ : Fin 8192) (y 1 : Fin 256))) :
    RegionSide m :=
  ⟨outBlk, hbody, fun c t y => (hval c t y).trans (congrFun (agg_entry m c) _)⟩

end Bridges

/-! ## The two runs meet -/

set_option maxRecDepth 8192 in
/-- THE ALGEBRAIC CONJUNCT, given the region's side: both programs run, leave their arguments unchanged, and end with the
    same result on every core. -/
theorem algebraic (hK : ∀ m, Cert.Pre_KernelIdeal m → RegionSide m) : Cert.algebraic_KernelIdeal_ReferenceIdeal := by
  intro m ρ m' ρ' hpre hagree
  obtain ⟨outBlk, hbody, hblk⟩ := hK m hpre
  refine ⟨fun c => result m c, ?_, ?_⟩
  · -- the kernel program: the run of @main, read at the result buffer and at the arguments
    refine (θ_run Cert.KernelIdeal.defs _ _).mono (fun r h c => ?_) (Cert.KernelIdeal.Hand.run_main m (adm m) outBlk ρ hbody (tbl_eq m))
    have hfin : (Cert.KernelIdeal.Hand.dats m (adm m) outBlk 0 c).arrAt 1 (Cert.KernelIdeal.cfg0 (adm m)).N = agg m c :=
      Cert.KernelIdeal.Hand.final_of_rows m (adm m) outBlk (agg m c)
        (fun c' t y => by obtain rfl : c' = c := Subsingleton.elim _ _; exact hblk c' t y) c
    refine ⟨?_, (Cert.KernelIdeal.Hand.QC_read m (adm m) outBlk h c Cert.KernelIdeal.main_arg0 rfl).trans (Cert.KernelIdeal.Hand.Vfin_main_arg0 m (adm m) outBlk c),
      (Cert.KernelIdeal.Hand.QC_read m (adm m) outBlk h c Cert.KernelIdeal.main_arg1 rfl).trans (Cert.KernelIdeal.Hand.Vfin_main_arg1 m (adm m) outBlk c),
      (Cert.KernelIdeal.Hand.QC_read m (adm m) outBlk h c Cert.KernelIdeal.main_arg2 rfl).trans (Cert.KernelIdeal.Hand.Vfin_main_arg2 m (adm m) outBlk c),
      (Cert.KernelIdeal.Hand.QC_read m (adm m) outBlk h c Cert.KernelIdeal.main_arg3 rfl).trans (Cert.KernelIdeal.Hand.Vfin_main_arg3 m (adm m) outBlk c),
      (Cert.KernelIdeal.Hand.QC_read m (adm m) outBlk h c Cert.KernelIdeal.main_arg4 rfl).trans (Cert.KernelIdeal.Hand.Vfin_main_arg4 m (adm m) outBlk c),
      (Cert.KernelIdeal.Hand.QC_read m (adm m) outBlk h c Cert.KernelIdeal.main_arg5 rfl).trans (Cert.KernelIdeal.Hand.Vfin_main_arg5 m (adm m) outBlk c),
      (Cert.KernelIdeal.Hand.QC_read m (adm m) outBlk h c Cert.KernelIdeal.main_arg6 rfl).trans (Cert.KernelIdeal.Hand.Vfin_main_arg6 m (adm m) outBlk c),
      (Cert.KernelIdeal.Hand.QC_read m (adm m) outBlk h c Cert.KernelIdeal.main_arg7 rfl).trans (Cert.KernelIdeal.Hand.Vfin_main_arg7 m (adm m) outBlk c),
      (Cert.KernelIdeal.Hand.QC_read m (adm m) outBlk h c Cert.KernelIdeal.main_arg8 rfl).trans (Cert.KernelIdeal.Hand.Vfin_main_arg8 m (adm m) outBlk c),
      (Cert.KernelIdeal.Hand.QC_read m (adm m) outBlk h c Cert.KernelIdeal.main_arg9 rfl).trans (Cert.KernelIdeal.Hand.Vfin_main_arg9 m (adm m) outBlk c),
      (Cert.KernelIdeal.Hand.QC_read m (adm m) outBlk h c Cert.KernelIdeal.main_arg10 rfl).trans (Cert.KernelIdeal.Hand.Vfin_main_arg10 m (adm m) outBlk c),
      (Cert.KernelIdeal.Hand.QC_read m (adm m) outBlk h c Cert.KernelIdeal.main_arg11 rfl).trans (Cert.KernelIdeal.Hand.Vfin_main_arg11 m (adm m) outBlk c),
      (Cert.KernelIdeal.Hand.QC_read m (adm m) outBlk h c Cert.KernelIdeal.main_arg12 rfl).trans (Cert.KernelIdeal.Hand.Vfin_main_arg12 m (adm m) outBlk c),
      (Cert.KernelIdeal.Hand.QC_read m (adm m) outBlk h c Cert.KernelIdeal.main_arg13 rfl).trans (Cert.KernelIdeal.Hand.Vfin_main_arg13 m (adm m) outBlk c),
      (Cert.KernelIdeal.Hand.QC_read m (adm m) outBlk h c Cert.KernelIdeal.main_arg14 rfl).trans (Cert.KernelIdeal.Hand.Vfin_main_arg14 m (adm m) outBlk c),
      (Cert.KernelIdeal.Hand.QC_read m (adm m) outBlk h c Cert.KernelIdeal.main_arg15 rfl).trans (Cert.KernelIdeal.Hand.Vfin_main_arg15 m (adm m) outBlk c),
      (Cert.KernelIdeal.Hand.QC_read m (adm m) outBlk h c Cert.KernelIdeal.main_arg16 rfl).trans (Cert.KernelIdeal.Hand.Vfin_main_arg16 m (adm m) outBlk c)⟩
    exact (Cert.KernelIdeal.Hand.QC_read m (adm m) outBlk h c Cert.KernelIdeal.main_v56 rfl).trans
      ((Vfin_result m (adm m) outBlk c).trans (congrArg (fun r => Cert.Tail.tail r
        (Cert.Tail.xiOf (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.Tail.xjOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) hfin))
  · -- the reference: its run, its value, and the agreement of the two memories on the arguments
    refine (θ_run Cert.ReferenceIdeal.defs _ _).mono (fun r h c => ⟨?_, (h c).2⟩) (Cert.ReferenceIdeal.Value.run (F := Ideal) m' ρ')
    obtain ⟨h0, h1, h2, h3, h4, h5, h6, h7, h8, h9, h10, h11, h12, h13, h14, h15, h16⟩ := hagree c
    have hT : ∀ i : Cert.ReferenceIdeal.S2x8192.Idx, (((m' ((c.tc : Thread Cert.ReferenceIdeal.nD Cert.ReferenceIdeal.τ).loc Cert.ReferenceIdeal.main_arg2)) : IVec Cert.ReferenceIdeal.S2x8192 32) i).toNat < 8192 := by
      rw [h2]; exact tar_lt_of_pre m hpre c
    rw [(h c).1, Cert.RefSide.ref_value m' c hT, h0, h1, h2, h3, h4, h5, h6, h7, h8, h9, h10, h11, h12, h13, h14, h15, h16]

/-! ## The frames and the claim -/

/-- The kernel program over the extended reals runs and leaves its arguments unchanged. -/
theorem frame_pi (hK : ∀ m, Cert.Pre_KernelIdeal m → RegionSide m) : Cert.frame_KernelIdeal := fun m ρ hpre => by
  obtain ⟨outBlk, hbody, -⟩ := hK m hpre
  exact Cert.KernelIdeal.Hand.frame_of m (adm m) outBlk ρ hbody (tbl_eq m)

/-- Everything claimed, from the frame of the kernel program over machine floats and the region's side. -/
theorem claim_of (hFK : Cert.frame_Kernel (hKernel := Cert.Kernel.Gen.facts))
    (hK : ∀ m, Cert.Pre_KernelIdeal m → RegionSide m) : Cert.Claim :=
  ⟨Cert.Kernel.Gen.facts, Cert.KernelIdeal.Gen.facts, Cert.ReferenceIdeal.Gen.facts, Cert.Pre_finite_inputs.Gen.facts,
    hFK, frame_pi hK, Cert.RefSide.frame_ri, trivial, algebraic hK⟩

end Cert.Proof.Alg

end
-- ==== Proof.KOpen.lean ====
/-
  The features' window of the kernel region: its one fetch, and what its staging buffer holds when the body runs.
-/
import proofs.«426739_j39281770889759_1_alg».proof.Proof.KData

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (a : (pcfg0 (F := F)).Adm)
variable (outBlk : (c : Dev nD) → Fin (cfg0 a).N → ((cfg0 a).win 1).block.Idx → Elt F ((cfg0 a).win 1).elt)

/-- The features' block index is the same at every point: the whole array is one block. -/
theorem index0 (t t' : Fin (cfg0 a).N) : ((cfg0 a).win 0).index t = ((cfg0 a).win 0).index t' := rfl

/-- The features are fetched at the first point only. -/
theorem fetch0 (t : Fin (cfg0 a).N) : ((cfg0 a).win 0).fetch t = decide (t.val = 0) := by
  have key : ∀ (q : Prop) [Decidable q], ¬ q → (!false && (decide (t.val = 0) || decide q)) = decide (t.val = 0) := by
    intro q _ hq; simp only [Bool.not_false, Bool.true_and, decide_eq_false hq, Bool.or_false]
  unfold Pipeline.Window.fetch
  rw [show ((cfg0 a).win 0).isOut = false from rfl]
  refine key _ ?_
  rintro ⟨_, hne⟩
  exact hne (index0 a _ _)

/-- They are an input: never written back. -/
theorem flush0 (t : Fin (cfg0 a).N) : ((cfg0 a).win 0).flush t = false := by
  unfold Pipeline.Window.flush
  rw [show ((cfg0 a).win 0).isOut = false from rfl, Bool.false_and]

/-- The features' staging buffer holds the array's block whenever the body runs: fetched at the first point, kept since. -/
theorem before_in (c : Dev nD) (t : Fin (cfg0 a).N) (d : ((cfg0 a).win 0).block.Idx → Elt F ((cfg0 a).win 0).elt) :
    (dats m a outBlk 0 c).before 0 t d = stg m a c := by
  by_cases ht : t.val = 0
  · obtain rfl : t = t0 a := Fin.ext ht
    unfold Dat.before; rw [if_pos (by rw [fetch0]; exact decide_eq_true rfl)]; rfl
  · rw [Dat.before_of_pos _ 0 t ht (by rw [fetch0]; exact decide_eq_false ht) d, flush0, if_neg Bool.false_ne_true]
    rfl

end Cert.KernelIdeal.Hand

end
-- ==== Proof.KOblig.lean ====
/-
  The body obligation of the kernel region from the body's run: the region invariant and the windows' staging
  buffers taken apart into what the run takes, the run applied, and its post put back together.
-/
import proofs.«426739_j39281770889759_1_alg».proof.Proof.KData
import proofs.«426739_j39281770889759_1_alg».proof.Proof.KOpen

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The 256 counters, one by one -/

set_option maxRecDepth 100000 in
/-- The kernel's 256 counters at zero, as a conjunction over their indices, are the chain of them in order. -/
theorem sems_eq (c : Dev nD) :
    (bigSep Finset.univ fun k : Fin 256 =>
        semVal ((c : Thread nD τ), (SemLoc.dma ⟨3 + k.val, by have := k.isLt; show 3 + k.val < 259; omega⟩ : SemLoc sig)) 0 : sProp 𝕄)
      = semsAll (F := F) c := by
  rw [bigSep_univ_eq_bigSepL (List.finRange 256) (List.toFinset_finRange 256).symm (List.nodup_finRange 256)]
  rfl

/-! ## The adjacency array's read shares -/

set_option maxRecDepth 100000 in
/-- The adjacency array held whole is what remains after 259 read shares are split off, the first three of them, and
    the 256 the kernel's transfers take. -/
theorem adj_split (c : Dev nD) (fA : Bf (F := F) c (Memref.whole main_arg1)) :
    ((Memref.whole main_arg1).view.loc (c : Thread nD τ) ↦{fullShare} fA : sProp 𝕄)
      ⊣⊢ iprop(((Memref.whole main_arg1).view.loc (c : Thread nD τ) ↦{Transfers.shareDrop fullShare 259} fA)
          ∗ ((Memref.whole main_arg1).view.loc (c : Thread nD τ) ↦{Transfers.shareTokN fullShare 0} fA)
          ∗ ((Memref.whole main_arg1).view.loc (c : Thread nD τ) ↦{Transfers.shareTokN fullShare 1} fA)
          ∗ ((Memref.whole main_arg1).view.loc (c : Thread nD τ) ↦{Transfers.shareTokN fullShare 2} fA)
          ∗ toksAll c fA) := by
  have h : (_ : sProp 𝕄) ⊣⊢ _ :=
    Transfers.pointsTo_toks_range (ℓ := (Memref.whole main_arg1).view.loc (c : Thread nD τ)) (S := Finset.univ) (f := fA) fullShare 259
  rw [bigSep_eq_bigSepL_of_eq (List.range 259) (List.toFinset_range 259).symm List.nodup_range] at h
  exact h

/-! ## The two tables -/

/-- The two prefetched tables held whole are the two index vectors' buffers held whole. -/
theorem pref_eq (c : Dev nD) (V : pre0.Contents (Elt F)) :
    (Pipeline.prefHeld pre0 c (fun _ => fullShare) V : sProp 𝕄)
      = iprop(pt c (Memref.whole main_v1) (V 0) ∗ pt c (Memref.whole main_v3) (V 1)) := by
  unfold Pipeline.prefHeld
  rw [bigSep_W0]
  rfl

/-! ## The result block, and the obligation -/

variable (m : (ℓ : Loc nD τ sig) → Buf (Elt F) ℓ) (a : (pcfg0 (F := F)).Adm)

/-- Both tables' words name rows of the adjacency array. -/
abbrev InRange : Prop :=
  (∀ j, ((a.1 0 : IVec S8192 32) j).toNat < 8192) ∧ (∀ j, ((a.1 1 : IVec S8192 32) j).toNat < 8192)

/-- The body's run at grid point t on core c, the result's block staged in slot k. -/
abbrev runAt (hA : InRange a) (c : Dev nD) (t : Fin (cfg0 a).N) (k : Fin 2) :=
  kernelRun (F := F) c ((cfg0 a).grid.coords t) (stage0_0 0) (hstage0_0 0) (stage0_1 k) (hstage0_1 k)
    (a.1 0) (a.1 1) (stg m a c) (V m c main_arg1) hA.1 hA.2

/-- What the body leaves in the result's block at each point: the run's witness, at the slot the point uses. -/
def outBlkOf (hA : InRange a) : (c : Dev nD) → Fin (cfg0 a).N → ((cfg0 a).win 1).block.Idx → Elt F ((cfg0 a).win 1).elt :=
  fun c t => if ((cfg0 a).slots t 1).val = 0 then (runAt m a hA c t 0).1 else (runAt m a hA c t 1).1

/-- The body's program at a point and slots: the kernel function on the tables, the staging buffers and its own operands. -/
theorem body_eq (t : Fin (cfg0 a).N) (s : (w : Fin (cfg0 a).W) → Fin ((cfg0 a).win w).nbuf) :
    defs₀ (F := F) .tc (cfg0 a).body ((cfg0 a).bodyArgs t s)
      = cc0__gnn_agg_kernel (grid0.coords t) (Memref.whole main_v1) (Memref.isWhole_whole _) (Memref.whole main_v3) (Memref.isWhole_whole _)
          (spec0_0.stage (s 0)) (hstage0_0 ((s 0).cast nbuf0_0)) (Memref.whole main_arg1) (Memref.isWhole_whole _)
          (spec0_1.stage (s 1)) (hstage0_1 ((s 1).cast nbuf0_1))
          (Memref.whole cc0_scratch0) (Memref.isWhole_whole _) (Memref.whole cc0_scratch1) (Memref.isWhole_whole _) cc0_scratch2 cc0_scratch3 := rfl

/-- The staging buffers by slot: the features' one buffer, the result's two. -/
theorem stage0_0_zero (h : 0 < 1) : stage0_0 ⟨0, h⟩ = Memref.whole cc0_stg0_0 := rfl
theorem stage0_1_zero (h : 0 < 2) : stage0_1 ⟨0, h⟩ = Memref.whole cc0_stg1_0 := rfl
theorem stage0_1_one (h : 1 < 2) : stage0_1 ⟨1, h⟩ = Memref.whole cc0_stg1_1 := rfl

/-- The kernel's 256 counters at zero are the chain of them. -/
theorem ownSems0_eq (c : Dev nD) :
    (Pipeline.ownSems0 (Ix := Unit) (Name := ℕ) (U := UU nD τ) (Lvl := ℕ) (Val := Elt F) (τ := τ) osem c : sProp 𝕄) = semsAll c := by
  unfold Pipeline.ownSems0; exact sems_eq c

/-- THE BODY OBLIGATION at every point: the invariant opened into the two tables, the two scratch buffers, the adjacency
    array's remainder and read shares and the 256 counters; the run at the slot the point uses; its post closed back. -/
theorem body_obligation (hA : InRange a) (c : Dev nD) : BodyStmt m a (outBlkOf m a hA) c := fun t => by
  rw [bigSep_W0, bigSep_W0, body_eq]
  simp only [before_in]
  rw [show (dats m a (outBlkOf m a hA) 0 c).Φ t.castSucc = Φc m a c from rfl, show (dats m a (outBlkOf m a hA) 0 c).Φ t.succ = Φc m a c from rfl,
    show (dats m a (outBlkOf m a hA) 0 c).owesAt () t.succ = (dats m a (outBlkOf m a hA) 0 c).owesAt () t.castSucc from rfl]
  generalize hs0 : (cfg0 a).slots t 0 = s0
  generalize hs1 : (cfg0 a).slots t 1 = s1
  obtain ⟨v0, hv0⟩ := s0
  obtain ⟨v1, hv1⟩ := s1
  have hv0' : v0 < 1 := hv0
  have hv1' : v1 < 2 := hv1
  obtain rfl : v0 = 0 := by omega
  have hv : v1 = 0 ∨ v1 = 1 := by omega
  rcases hv with rfl | rfl
  · dsimp only [stage0_0_zero, stage0_1_zero]
    simp only [owns_whole_eq]
    unfold Φc
    rw [pref_eq, scopedRest0_eq, ownSems0_eq]
    unfold Pipeline.Dat.owesAt Pipeline.owesWithin
    iintro ⟨⟨⟨Hv1, Hv3⟩, ⟨⟨%f6, H6⟩, ⟨%f7, H7⟩⟩, Hadj, Hsm⟩, ⟨%W0, %hW0, Howes⟩, ⟨%d0, %f0, %hf0, H0⟩, ⟨%d1, %f1, -, H1⟩⟩
    have hf0' : f0 = stg m a c := hf0.trans (before_in m a (outBlkOf m a hA) c t d0)
    subst hf0'
    have hsp := (adj_split c (V m c main_arg1)).1
    ihave Hsp := hsp $$ Hadj
    icases Hsp with ⟨Hd, Ht0, Ht1, Ht2, Htk⟩
    iapply ((runAt m a hA c t 0).2 f1 f6 f7 W0 _)
    isplitl [Hv1]; · iexact Hv1
    isplitl [Hv3]; · iexact Hv3
    isplitl [H0]; · iexact H0
    isplitl [H1]; · iexact H1
    isplitl [H6]; · iexact H6
    isplitl [H7]; · iexact H7
    isplitl [Hd]; · iexact Hd
    isplitl [Htk]; · iexact Htk
    isplitl [Hsm]; · iexact Hsm
    isplitl [Howes]; · iexact Howes
    iintro ⟨Hv1, Hv3, H0, H1, H6, H7, Hd, Htk, Hsm, ⟨%W, Howes⟩⟩
    isplitl [Hv1 Hv3 H6 H7 Hd Htk Hsm Ht0 Ht1 Ht2]
    · isplitl [Hv1 Hv3]
      · isplitl [Hv1]; · iexact Hv1
        iexact Hv3
      isplitl [H6 H7]
      · isplitl [H6]; · iexact H6
        iexact H7
      isplitl [Hd Htk Ht0 Ht1 Ht2]
      · iapply (adj_split c (V m c main_arg1)).2
        isplitl [Hd]; · iexact Hd
        isplitl [Ht0]; · iexact Ht0
        isplitl [Ht1]; · iexact Ht1
        isplitl [Ht2]; · iexact Ht2
        iexact Htk
      iexact Hsm
    isplitl [Howes]
    · iexists W; isplitr; · ipureintro; exact fun _ _ => Or.inl trivial
      iexact Howes
    isplitl [H0]
    · iexists _; isplitr; swap; (· iexact H0); ipureintro; dsimp only [dats]
    iexists _; isplitr; swap; (· iexact H1); ipureintro
    show (runAt m a hA c t 0).1 = outBlkOf m a hA c t
    unfold outBlkOf
    exact (if_pos (show ((cfg0 a).slots t 1).val = 0 by rw [hs1])).symm
  · dsimp only [stage0_0_zero, stage0_1_one]
    simp only [owns_whole_eq]
    unfold Φc
    rw [pref_eq, scopedRest0_eq, ownSems0_eq]
    unfold Pipeline.Dat.owesAt Pipeline.owesWithin
    iintro ⟨⟨⟨Hv1, Hv3⟩, ⟨⟨%f6, H6⟩, ⟨%f7, H7⟩⟩, Hadj, Hsm⟩, ⟨%W0, %hW0, Howes⟩, ⟨%d0, %f0, %hf0, H0⟩, ⟨%d1, %f1, -, H1⟩⟩
    have hf0' : f0 = stg m a c := hf0.trans (before_in m a (outBlkOf m a hA) c t d0)
    subst hf0'
    have hsp := (adj_split c (V m c main_arg1)).1
    ihave Hsp := hsp $$ Hadj
    icases Hsp with ⟨Hd, Ht0, Ht1, Ht2, Htk⟩
    iapply ((runAt m a hA c t 1).2 f1 f6 f7 W0 _)
    isplitl [Hv1]; · iexact Hv1
    isplitl [Hv3]; · iexact Hv3
    isplitl [H0]; · iexact H0
    isplitl [H1]; · iexact H1
    isplitl [H6]; · iexact H6
    isplitl [H7]; · iexact H7
    isplitl [Hd]; · iexact Hd
    isplitl [Htk]; · iexact Htk
    isplitl [Hsm]; · iexact Hsm
    isplitl [Howes]; · iexact Howes
    iintro ⟨Hv1, Hv3, H0, H1, H6, H7, Hd, Htk, Hsm, ⟨%W, Howes⟩⟩
    isplitl [Hv1 Hv3 H6 H7 Hd Htk Hsm Ht0 Ht1 Ht2]
    · isplitl [Hv1 Hv3]
      · isplitl [Hv1]; · iexact Hv1
        iexact Hv3
      isplitl [H6 H7]
      · isplitl [H6]; · iexact H6
        iexact H7
      isplitl [Hd Htk Ht0 Ht1 Ht2]
      · iapply (adj_split c (V m c main_arg1)).2
        isplitl [Hd]; · iexact Hd
        isplitl [Ht0]; · iexact Ht0
        isplitl [Ht1]; · iexact Ht1
        isplitl [Ht2]; · iexact Ht2
        iexact Htk
      iexact Hsm
    isplitl [Howes]
    · iexists W; isplitr; · ipureintro; exact fun _ _ => Or.inl trivial
      iexact Howes
    isplitl [H0]
    · iexists _; isplitr; swap; (· iexact H0); ipureintro; dsimp only [dats]
    iexists _; isplitr; swap; (· iexact H1); ipureintro
    show (runAt m a hA c t 1).1 = outBlkOf m a hA c t
    unfold outBlkOf
    exact (if_neg (show ¬ ((cfg0 a).slots t 1).val = 0 by rw [hs1]; exact Nat.one_ne_zero)).symm

end Cert.KernelIdeal.Hand

end
-- ==== Proof.KWords.lean ====
/-
  The words the body computes: at grid point t (of 64) and row r (of 128) the position 128 t + r of the two index
  tables, computed in 32-bit words as t * 128 + r, is that natural number (no overflow: it is below 8192).
-/
import proofs.«426739_j39281770889759_1_alg».proof.KernelIdeal

namespace Cert.KernelIdeal.Hand

open Cert.KernelIdeal
open Idealize.ShloMosaic

/-- t * 128 + r in 32-bit words, for t < 64 and r < 128, is the natural number 128 t + r. -/
theorem off_word (t r : Nat) (ht : t < 64) (hr : r < 128) :
    (Scalar.indexCast (Scalar.addi (Scalar.muli (BitVec.ofNat 32 t) 128#32) (BitVec.ofNat 32 r))).toNat = 128 * t + r := by
  show (BitVec.ofNat 32 t * 128#32 + BitVec.ofNat 32 r).toNat = _
  rw [BitVec.toNat_add, BitVec.toNat_mul, BitVec.toNat_ofNat, BitVec.toNat_ofNat]
  show ((t % 2 ^ 32) * 128 % 2 ^ 32 + r % 2 ^ 32) % 2 ^ 32 = _
  omega

/-- The one coordinate of grid point t is t. -/
theorem coords_val (t : Fin grid0.N) : ((grid0.coords t) 0).val = t.val := by
  have ht : t.val < 64 := t.isLt
  show t.val / 1 % 64 = t.val
  omega

/-- The same at the grid's point t. -/
theorem off_coords (t : Fin grid0.N) (r : Nat) (hr : r < 128) :
    (Scalar.indexCast (Scalar.addi (Scalar.muli (BitVec.ofNat 32 ((grid0.coords t) 0).val) 128#32) (BitVec.ofNat 32 r))).toNat = 128 * t.val + r := by
  rw [coords_val]; exact off_word t.val r t.isLt hr

/-- The position is a row of the tables. -/
theorem off_lt (t : Fin grid0.N) (r : Nat) (hr : r < 128) : 128 * t.val + r < 8192 := by
  have ht : t.val < 64 := t.isLt
  omega

/-! ## Each of the body's 128 table offsets -/

theorem k0_off1_eq (t : Fin grid0.N) : k0_off1 (grid0.coords t) = ![128 * t.val + 0] := by
  unfold k0_off1; exact congrArg (fun n => ![n]) (off_coords t 0 (by decide))
theorem k0_off4_eq (t : Fin grid0.N) : k0_off4 (grid0.coords t) = ![128 * t.val + 1] := by
  unfold k0_off4; exact congrArg (fun n => ![n]) (off_coords t 1 (by decide))
theorem k0_off7_eq (t : Fin grid0.N) : k0_off7 (grid0.coords t) = ![128 * t.val + 2] := by
  unfold k0_off7; exact congrArg (fun n => ![n]) (off_coords t 2 (by decide))
theorem k0_off10_eq (t : Fin grid0.N) : k0_off10 (grid0.coords t) = ![128 * t.val + 3] := by
  unfold k0_off10; exact congrArg (fun n => ![n]) (off_coords t 3 (by decide))
theorem k0_off13_eq (t : Fin grid0.N) : k0_off13 (grid0.coords t) = ![128 * t.val + 4] := by
  unfold k0_off13; exact congrArg (fun n => ![n]) (off_coords t 4 (by decide))
theorem k0_off16_eq (t : Fin grid0.N) : k0_off16 (grid0.coords t) = ![128 * t.val + 5] := by
  unfold k0_off16; exact congrArg (fun n => ![n]) (off_coords t 5 (by decide))
theorem k0_off19_eq (t : Fin grid0.N) : k0_off19 (grid0.coords t) = ![128 * t.val + 6] := by
  unfold k0_off19; exact congrArg (fun n => ![n]) (off_coords t 6 (by decide))
theorem k0_off22_eq (t : Fin grid0.N) : k0_off22 (grid0.coords t) = ![128 * t.val + 7] := by
  unfold k0_off22; exact congrArg (fun n => ![n]) (off_coords t 7 (by decide))
theorem k0_off25_eq (t : Fin grid0.N) : k0_off25 (grid0.coords t) = ![128 * t.val + 8] := by
  unfold k0_off25; exact congrArg (fun n => ![n]) (off_coords t 8 (by decide))
theorem k0_off28_eq (t : Fin grid0.N) : k0_off28 (grid0.coords t) = ![128 * t.val + 9] := by
  unfold k0_off28; exact congrArg (fun n => ![n]) (off_coords t 9 (by decide))
theorem k0_off31_eq (t : Fin grid0.N) : k0_off31 (grid0.coords t) = ![128 * t.val + 10] := by
  unfold k0_off31; exact congrArg (fun n => ![n]) (off_coords t 10 (by decide))
theorem k0_off34_eq (t : Fin grid0.N) : k0_off34 (grid0.coords t) = ![128 * t.val + 11] := by
  unfold k0_off34; exact congrArg (fun n => ![n]) (off_coords t 11 (by decide))
theorem k0_off37_eq (t : Fin grid0.N) : k0_off37 (grid0.coords t) = ![128 * t.val + 12] := by
  unfold k0_off37; exact congrArg (fun n => ![n]) (off_coords t 12 (by decide))
theorem k0_off40_eq (t : Fin grid0.N) : k0_off40 (grid0.coords t) = ![128 * t.val + 13] := by
  unfold k0_off40; exact congrArg (fun n => ![n]) (off_coords t 13 (by decide))
theorem k0_off43_eq (t : Fin grid0.N) : k0_off43 (grid0.coords t) = ![128 * t.val + 14] := by
  unfold k0_off43; exact congrArg (fun n => ![n]) (off_coords t 14 (by decide))
theorem k0_off46_eq (t : Fin grid0.N) : k0_off46 (grid0.coords t) = ![128 * t.val + 15] := by
  unfold k0_off46; exact congrArg (fun n => ![n]) (off_coords t 15 (by decide))
theorem k0_off49_eq (t : Fin grid0.N) : k0_off49 (grid0.coords t) = ![128 * t.val + 16] := by
  unfold k0_off49; exact congrArg (fun n => ![n]) (off_coords t 16 (by decide))
theorem k0_off52_eq (t : Fin grid0.N) : k0_off52 (grid0.coords t) = ![128 * t.val + 17] := by
  unfold k0_off52; exact congrArg (fun n => ![n]) (off_coords t 17 (by decide))
theorem k0_off55_eq (t : Fin grid0.N) : k0_off55 (grid0.coords t) = ![128 * t.val + 18] := by
  unfold k0_off55; exact congrArg (fun n => ![n]) (off_coords t 18 (by decide))
theorem k0_off58_eq (t : Fin grid0.N) : k0_off58 (grid0.coords t) = ![128 * t.val + 19] := by
  unfold k0_off58; exact congrArg (fun n => ![n]) (off_coords t 19 (by decide))
theorem k0_off61_eq (t : Fin grid0.N) : k0_off61 (grid0.coords t) = ![128 * t.val + 20] := by
  unfold k0_off61; exact congrArg (fun n => ![n]) (off_coords t 20 (by decide))
theorem k0_off64_eq (t : Fin grid0.N) : k0_off64 (grid0.coords t) = ![128 * t.val + 21] := by
  unfold k0_off64; exact congrArg (fun n => ![n]) (off_coords t 21 (by decide))
theorem k0_off67_eq (t : Fin grid0.N) : k0_off67 (grid0.coords t) = ![128 * t.val + 22] := by
  unfold k0_off67; exact congrArg (fun n => ![n]) (off_coords t 22 (by decide))
theorem k0_off70_eq (t : Fin grid0.N) : k0_off70 (grid0.coords t) = ![128 * t.val + 23] := by
  unfold k0_off70; exact congrArg (fun n => ![n]) (off_coords t 23 (by decide))
theorem k0_off73_eq (t : Fin grid0.N) : k0_off73 (grid0.coords t) = ![128 * t.val + 24] := by
  unfold k0_off73; exact congrArg (fun n => ![n]) (off_coords t 24 (by decide))
theorem k0_off76_eq (t : Fin grid0.N) : k0_off76 (grid0.coords t) = ![128 * t.val + 25] := by
  unfold k0_off76; exact congrArg (fun n => ![n]) (off_coords t 25 (by decide))
theorem k0_off79_eq (t : Fin grid0.N) : k0_off79 (grid0.coords t) = ![128 * t.val + 26] := by
  unfold k0_off79; exact congrArg (fun n => ![n]) (off_coords t 26 (by decide))
theorem k0_off82_eq (t : Fin grid0.N) : k0_off82 (grid0.coords t) = ![128 * t.val + 27] := by
  unfold k0_off82; exact congrArg (fun n => ![n]) (off_coords t 27 (by decide))
theorem k0_off85_eq (t : Fin grid0.N) : k0_off85 (grid0.coords t) = ![128 * t.val + 28] := by
  unfold k0_off85; exact congrArg (fun n => ![n]) (off_coords t 28 (by decide))
theorem k0_off88_eq (t : Fin grid0.N) : k0_off88 (grid0.coords t) = ![128 * t.val + 29] := by
  unfold k0_off88; exact congrArg (fun n => ![n]) (off_coords t 29 (by decide))
theorem k0_off91_eq (t : Fin grid0.N) : k0_off91 (grid0.coords t) = ![128 * t.val + 30] := by
  unfold k0_off91; exact congrArg (fun n => ![n]) (off_coords t 30 (by decide))
theorem k0_off94_eq (t : Fin grid0.N) : k0_off94 (grid0.coords t) = ![128 * t.val + 31] := by
  unfold k0_off94; exact congrArg (fun n => ![n]) (off_coords t 31 (by decide))
theorem k0_off97_eq (t : Fin grid0.N) : k0_off97 (grid0.coords t) = ![128 * t.val + 32] := by
  unfold k0_off97; exact congrArg (fun n => ![n]) (off_coords t 32 (by decide))
theorem k0_off100_eq (t : Fin grid0.N) : k0_off100 (grid0.coords t) = ![128 * t.val + 33] := by
  unfold k0_off100; exact congrArg (fun n => ![n]) (off_coords t 33 (by decide))
theorem k0_off103_eq (t : Fin grid0.N) : k0_off103 (grid0.coords t) = ![128 * t.val + 34] := by
  unfold k0_off103; exact congrArg (fun n => ![n]) (off_coords t 34 (by decide))
theorem k0_off106_eq (t : Fin grid0.N) : k0_off106 (grid0.coords t) = ![128 * t.val + 35] := by
  unfold k0_off106; exact congrArg (fun n => ![n]) (off_coords t 35 (by decide))
theorem k0_off109_eq (t : Fin grid0.N) : k0_off109 (grid0.coords t) = ![128 * t.val + 36] := by
  unfold k0_off109; exact congrArg (fun n => ![n]) (off_coords t 36 (by decide))
theorem k0_off112_eq (t : Fin grid0.N) : k0_off112 (grid0.coords t) = ![128 * t.val + 37] := by
  unfold k0_off112; exact congrArg (fun n => ![n]) (off_coords t 37 (by decide))
theorem k0_off115_eq (t : Fin grid0.N) : k0_off115 (grid0.coords t) = ![128 * t.val + 38] := by
  unfold k0_off115; exact congrArg (fun n => ![n]) (off_coords t 38 (by decide))
theorem k0_off118_eq (t : Fin grid0.N) : k0_off118 (grid0.coords t) = ![128 * t.val + 39] := by
  unfold k0_off118; exact congrArg (fun n => ![n]) (off_coords t 39 (by decide))
theorem k0_off121_eq (t : Fin grid0.N) : k0_off121 (grid0.coords t) = ![128 * t.val + 40] := by
  unfold k0_off121; exact congrArg (fun n => ![n]) (off_coords t 40 (by decide))
theorem k0_off124_eq (t : Fin grid0.N) : k0_off124 (grid0.coords t) = ![128 * t.val + 41] := by
  unfold k0_off124; exact congrArg (fun n => ![n]) (off_coords t 41 (by decide))
theorem k0_off127_eq (t : Fin grid0.N) : k0_off127 (grid0.coords t) = ![128 * t.val + 42] := by
  unfold k0_off127; exact congrArg (fun n => ![n]) (off_coords t 42 (by decide))
theorem k0_off130_eq (t : Fin grid0.N) : k0_off130 (grid0.coords t) = ![128 * t.val + 43] := by
  unfold k0_off130; exact congrArg (fun n => ![n]) (off_coords t 43 (by decide))
theorem k0_off133_eq (t : Fin grid0.N) : k0_off133 (grid0.coords t) = ![128 * t.val + 44] := by
  unfold k0_off133; exact congrArg (fun n => ![n]) (off_coords t 44 (by decide))
theorem k0_off136_eq (t : Fin grid0.N) : k0_off136 (grid0.coords t) = ![128 * t.val + 45] := by
  unfold k0_off136; exact congrArg (fun n => ![n]) (off_coords t 45 (by decide))
theorem k0_off139_eq (t : Fin grid0.N) : k0_off139 (grid0.coords t) = ![128 * t.val + 46] := by
  unfold k0_off139; exact congrArg (fun n => ![n]) (off_coords t 46 (by decide))
theorem k0_off142_eq (t : Fin grid0.N) : k0_off142 (grid0.coords t) = ![128 * t.val + 47] := by
  unfold k0_off142; exact congrArg (fun n => ![n]) (off_coords t 47 (by decide))
theorem k0_off145_eq (t : Fin grid0.N) : k0_off145 (grid0.coords t) = ![128 * t.val + 48] := by
  unfold k0_off145; exact congrArg (fun n => ![n]) (off_coords t 48 (by decide))
theorem k0_off148_eq (t : Fin grid0.N) : k0_off148 (grid0.coords t) = ![128 * t.val + 49] := by
  unfold k0_off148; exact congrArg (fun n => ![n]) (off_coords t 49 (by decide))
theorem k0_off151_eq (t : Fin grid0.N) : k0_off151 (grid0.coords t) = ![128 * t.val + 50] := by
  unfold k0_off151; exact congrArg (fun n => ![n]) (off_coords t 50 (by decide))
theorem k0_off154_eq (t : Fin grid0.N) : k0_off154 (grid0.coords t) = ![128 * t.val + 51] := by
  unfold k0_off154; exact congrArg (fun n => ![n]) (off_coords t 51 (by decide))
theorem k0_off157_eq (t : Fin grid0.N) : k0_off157 (grid0.coords t) = ![128 * t.val + 52] := by
  unfold k0_off157; exact congrArg (fun n => ![n]) (off_coords t 52 (by decide))
theorem k0_off160_eq (t : Fin grid0.N) : k0_off160 (grid0.coords t) = ![128 * t.val + 53] := by
  unfold k0_off160; exact congrArg (fun n => ![n]) (off_coords t 53 (by decide))
theorem k0_off163_eq (t : Fin grid0.N) : k0_off163 (grid0.coords t) = ![128 * t.val + 54] := by
  unfold k0_off163; exact congrArg (fun n => ![n]) (off_coords t 54 (by decide))
theorem k0_off166_eq (t : Fin grid0.N) : k0_off166 (grid0.coords t) = ![128 * t.val + 55] := by
  unfold k0_off166; exact congrArg (fun n => ![n]) (off_coords t 55 (by decide))
theorem k0_off169_eq (t : Fin grid0.N) : k0_off169 (grid0.coords t) = ![128 * t.val + 56] := by
  unfold k0_off169; exact congrArg (fun n => ![n]) (off_coords t 56 (by decide))
theorem k0_off172_eq (t : Fin grid0.N) : k0_off172 (grid0.coords t) = ![128 * t.val + 57] := by
  unfold k0_off172; exact congrArg (fun n => ![n]) (off_coords t 57 (by decide))
theorem k0_off175_eq (t : Fin grid0.N) : k0_off175 (grid0.coords t) = ![128 * t.val + 58] := by
  unfold k0_off175; exact congrArg (fun n => ![n]) (off_coords t 58 (by decide))
theorem k0_off178_eq (t : Fin grid0.N) : k0_off178 (grid0.coords t) = ![128 * t.val + 59] := by
  unfold k0_off178; exact congrArg (fun n => ![n]) (off_coords t 59 (by decide))
theorem k0_off181_eq (t : Fin grid0.N) : k0_off181 (grid0.coords t) = ![128 * t.val + 60] := by
  unfold k0_off181; exact congrArg (fun n => ![n]) (off_coords t 60 (by decide))
theorem k0_off184_eq (t : Fin grid0.N) : k0_off184 (grid0.coords t) = ![128 * t.val + 61] := by
  unfold k0_off184; exact congrArg (fun n => ![n]) (off_coords t 61 (by decide))
theorem k0_off187_eq (t : Fin grid0.N) : k0_off187 (grid0.coords t) = ![128 * t.val + 62] := by
  unfold k0_off187; exact congrArg (fun n => ![n]) (off_coords t 62 (by decide))
theorem k0_off190_eq (t : Fin grid0.N) : k0_off190 (grid0.coords t) = ![128 * t.val + 63] := by
  unfold k0_off190; exact congrArg (fun n => ![n]) (off_coords t 63 (by decide))
theorem k0_off193_eq (t : Fin grid0.N) : k0_off193 (grid0.coords t) = ![128 * t.val + 64] := by
  unfold k0_off193; exact congrArg (fun n => ![n]) (off_coords t 64 (by decide))
theorem k0_off196_eq (t : Fin grid0.N) : k0_off196 (grid0.coords t) = ![128 * t.val + 65] := by
  unfold k0_off196; exact congrArg (fun n => ![n]) (off_coords t 65 (by decide))
theorem k0_off199_eq (t : Fin grid0.N) : k0_off199 (grid0.coords t) = ![128 * t.val + 66] := by
  unfold k0_off199; exact congrArg (fun n => ![n]) (off_coords t 66 (by decide))
theorem k0_off202_eq (t : Fin grid0.N) : k0_off202 (grid0.coords t) = ![128 * t.val + 67] := by
  unfold k0_off202; exact congrArg (fun n => ![n]) (off_coords t 67 (by decide))
theorem k0_off205_eq (t : Fin grid0.N) : k0_off205 (grid0.coords t) = ![128 * t.val + 68] := by
  unfold k0_off205; exact congrArg (fun n => ![n]) (off_coords t 68 (by decide))
theorem k0_off208_eq (t : Fin grid0.N) : k0_off208 (grid0.coords t) = ![128 * t.val + 69] := by
  unfold k0_off208; exact congrArg (fun n => ![n]) (off_coords t 69 (by decide))
theorem k0_off211_eq (t : Fin grid0.N) : k0_off211 (grid0.coords t) = ![128 * t.val + 70] := by
  unfold k0_off211; exact congrArg (fun n => ![n]) (off_coords t 70 (by decide))
theorem k0_off214_eq (t : Fin grid0.N) : k0_off214 (grid0.coords t) = ![128 * t.val + 71] := by
  unfold k0_off214; exact congrArg (fun n => ![n]) (off_coords t 71 (by decide))
theorem k0_off217_eq (t : Fin grid0.N) : k0_off217 (grid0.coords t) = ![128 * t.val + 72] := by
  unfold k0_off217; exact congrArg (fun n => ![n]) (off_coords t 72 (by decide))
theorem k0_off220_eq (t : Fin grid0.N) : k0_off220 (grid0.coords t) = ![128 * t.val + 73] := by
  unfold k0_off220; exact congrArg (fun n => ![n]) (off_coords t 73 (by decide))
theorem k0_off223_eq (t : Fin grid0.N) : k0_off223 (grid0.coords t) = ![128 * t.val + 74] := by
  unfold k0_off223; exact congrArg (fun n => ![n]) (off_coords t 74 (by decide))
theorem k0_off226_eq (t : Fin grid0.N) : k0_off226 (grid0.coords t) = ![128 * t.val + 75] := by
  unfold k0_off226; exact congrArg (fun n => ![n]) (off_coords t 75 (by decide))
theorem k0_off229_eq (t : Fin grid0.N) : k0_off229 (grid0.coords t) = ![128 * t.val + 76] := by
  unfold k0_off229; exact congrArg (fun n => ![n]) (off_coords t 76 (by decide))
theorem k0_off232_eq (t : Fin grid0.N) : k0_off232 (grid0.coords t) = ![128 * t.val + 77] := by
  unfold k0_off232; exact congrArg (fun n => ![n]) (off_coords t 77 (by decide))
theorem k0_off235_eq (t : Fin grid0.N) : k0_off235 (grid0.coords t) = ![128 * t.val + 78] := by
  unfold k0_off235; exact congrArg (fun n => ![n]) (off_coords t 78 (by decide))
theorem k0_off238_eq (t : Fin grid0.N) : k0_off238 (grid0.coords t) = ![128 * t.val + 79] := by
  unfold k0_off238; exact congrArg (fun n => ![n]) (off_coords t 79 (by decide))
theorem k0_off241_eq (t : Fin grid0.N) : k0_off241 (grid0.coords t) = ![128 * t.val + 80] := by
  unfold k0_off241; exact congrArg (fun n => ![n]) (off_coords t 80 (by decide))
theorem k0_off244_eq (t : Fin grid0.N) : k0_off244 (grid0.coords t) = ![128 * t.val + 81] := by
  unfold k0_off244; exact congrArg (fun n => ![n]) (off_coords t 81 (by decide))
theorem k0_off247_eq (t : Fin grid0.N) : k0_off247 (grid0.coords t) = ![128 * t.val + 82] := by
  unfold k0_off247; exact congrArg (fun n => ![n]) (off_coords t 82 (by decide))
theorem k0_off250_eq (t : Fin grid0.N) : k0_off250 (grid0.coords t) = ![128 * t.val + 83] := by
  unfold k0_off250; exact congrArg (fun n => ![n]) (off_coords t 83 (by decide))
theorem k0_off253_eq (t : Fin grid0.N) : k0_off253 (grid0.coords t) = ![128 * t.val + 84] := by
  unfold k0_off253; exact congrArg (fun n => ![n]) (off_coords t 84 (by decide))
theorem k0_off256_eq (t : Fin grid0.N) : k0_off256 (grid0.coords t) = ![128 * t.val + 85] := by
  unfold k0_off256; exact congrArg (fun n => ![n]) (off_coords t 85 (by decide))
theorem k0_off259_eq (t : Fin grid0.N) : k0_off259 (grid0.coords t) = ![128 * t.val + 86] := by
  unfold k0_off259; exact congrArg (fun n => ![n]) (off_coords t 86 (by decide))
theorem k0_off262_eq (t : Fin grid0.N) : k0_off262 (grid0.coords t) = ![128 * t.val + 87] := by
  unfold k0_off262; exact congrArg (fun n => ![n]) (off_coords t 87 (by decide))
theorem k0_off265_eq (t : Fin grid0.N) : k0_off265 (grid0.coords t) = ![128 * t.val + 88] := by
  unfold k0_off265; exact congrArg (fun n => ![n]) (off_coords t 88 (by decide))
theorem k0_off268_eq (t : Fin grid0.N) : k0_off268 (grid0.coords t) = ![128 * t.val + 89] := by
  unfold k0_off268; exact congrArg (fun n => ![n]) (off_coords t 89 (by decide))
theorem k0_off271_eq (t : Fin grid0.N) : k0_off271 (grid0.coords t) = ![128 * t.val + 90] := by
  unfold k0_off271; exact congrArg (fun n => ![n]) (off_coords t 90 (by decide))
theorem k0_off274_eq (t : Fin grid0.N) : k0_off274 (grid0.coords t) = ![128 * t.val + 91] := by
  unfold k0_off274; exact congrArg (fun n => ![n]) (off_coords t 91 (by decide))
theorem k0_off277_eq (t : Fin grid0.N) : k0_off277 (grid0.coords t) = ![128 * t.val + 92] := by
  unfold k0_off277; exact congrArg (fun n => ![n]) (off_coords t 92 (by decide))
theorem k0_off280_eq (t : Fin grid0.N) : k0_off280 (grid0.coords t) = ![128 * t.val + 93] := by
  unfold k0_off280; exact congrArg (fun n => ![n]) (off_coords t 93 (by decide))
theorem k0_off283_eq (t : Fin grid0.N) : k0_off283 (grid0.coords t) = ![128 * t.val + 94] := by
  unfold k0_off283; exact congrArg (fun n => ![n]) (off_coords t 94 (by decide))
theorem k0_off286_eq (t : Fin grid0.N) : k0_off286 (grid0.coords t) = ![128 * t.val + 95] := by
  unfold k0_off286; exact congrArg (fun n => ![n]) (off_coords t 95 (by decide))
theorem k0_off289_eq (t : Fin grid0.N) : k0_off289 (grid0.coords t) = ![128 * t.val + 96] := by
  unfold k0_off289; exact congrArg (fun n => ![n]) (off_coords t 96 (by decide))
theorem k0_off292_eq (t : Fin grid0.N) : k0_off292 (grid0.coords t) = ![128 * t.val + 97] := by
  unfold k0_off292; exact congrArg (fun n => ![n]) (off_coords t 97 (by decide))
theorem k0_off295_eq (t : Fin grid0.N) : k0_off295 (grid0.coords t) = ![128 * t.val + 98] := by
  unfold k0_off295; exact congrArg (fun n => ![n]) (off_coords t 98 (by decide))
theorem k0_off298_eq (t : Fin grid0.N) : k0_off298 (grid0.coords t) = ![128 * t.val + 99] := by
  unfold k0_off298; exact congrArg (fun n => ![n]) (off_coords t 99 (by decide))
theorem k0_off301_eq (t : Fin grid0.N) : k0_off301 (grid0.coords t) = ![128 * t.val + 100] := by
  unfold k0_off301; exact congrArg (fun n => ![n]) (off_coords t 100 (by decide))
theorem k0_off304_eq (t : Fin grid0.N) : k0_off304 (grid0.coords t) = ![128 * t.val + 101] := by
  unfold k0_off304; exact congrArg (fun n => ![n]) (off_coords t 101 (by decide))
theorem k0_off307_eq (t : Fin grid0.N) : k0_off307 (grid0.coords t) = ![128 * t.val + 102] := by
  unfold k0_off307; exact congrArg (fun n => ![n]) (off_coords t 102 (by decide))
theorem k0_off310_eq (t : Fin grid0.N) : k0_off310 (grid0.coords t) = ![128 * t.val + 103] := by
  unfold k0_off310; exact congrArg (fun n => ![n]) (off_coords t 103 (by decide))
theorem k0_off313_eq (t : Fin grid0.N) : k0_off313 (grid0.coords t) = ![128 * t.val + 104] := by
  unfold k0_off313; exact congrArg (fun n => ![n]) (off_coords t 104 (by decide))
theorem k0_off316_eq (t : Fin grid0.N) : k0_off316 (grid0.coords t) = ![128 * t.val + 105] := by
  unfold k0_off316; exact congrArg (fun n => ![n]) (off_coords t 105 (by decide))
theorem k0_off319_eq (t : Fin grid0.N) : k0_off319 (grid0.coords t) = ![128 * t.val + 106] := by
  unfold k0_off319; exact congrArg (fun n => ![n]) (off_coords t 106 (by decide))
theorem k0_off322_eq (t : Fin grid0.N) : k0_off322 (grid0.coords t) = ![128 * t.val + 107] := by
  unfold k0_off322; exact congrArg (fun n => ![n]) (off_coords t 107 (by decide))
theorem k0_off325_eq (t : Fin grid0.N) : k0_off325 (grid0.coords t) = ![128 * t.val + 108] := by
  unfold k0_off325; exact congrArg (fun n => ![n]) (off_coords t 108 (by decide))
theorem k0_off328_eq (t : Fin grid0.N) : k0_off328 (grid0.coords t) = ![128 * t.val + 109] := by
  unfold k0_off328; exact congrArg (fun n => ![n]) (off_coords t 109 (by decide))
theorem k0_off331_eq (t : Fin grid0.N) : k0_off331 (grid0.coords t) = ![128 * t.val + 110] := by
  unfold k0_off331; exact congrArg (fun n => ![n]) (off_coords t 110 (by decide))
theorem k0_off334_eq (t : Fin grid0.N) : k0_off334 (grid0.coords t) = ![128 * t.val + 111] := by
  unfold k0_off334; exact congrArg (fun n => ![n]) (off_coords t 111 (by decide))
theorem k0_off337_eq (t : Fin grid0.N) : k0_off337 (grid0.coords t) = ![128 * t.val + 112] := by
  unfold k0_off337; exact congrArg (fun n => ![n]) (off_coords t 112 (by decide))
theorem k0_off340_eq (t : Fin grid0.N) : k0_off340 (grid0.coords t) = ![128 * t.val + 113] := by
  unfold k0_off340; exact congrArg (fun n => ![n]) (off_coords t 113 (by decide))
theorem k0_off343_eq (t : Fin grid0.N) : k0_off343 (grid0.coords t) = ![128 * t.val + 114] := by
  unfold k0_off343; exact congrArg (fun n => ![n]) (off_coords t 114 (by decide))
theorem k0_off346_eq (t : Fin grid0.N) : k0_off346 (grid0.coords t) = ![128 * t.val + 115] := by
  unfold k0_off346; exact congrArg (fun n => ![n]) (off_coords t 115 (by decide))
theorem k0_off349_eq (t : Fin grid0.N) : k0_off349 (grid0.coords t) = ![128 * t.val + 116] := by
  unfold k0_off349; exact congrArg (fun n => ![n]) (off_coords t 116 (by decide))
theorem k0_off352_eq (t : Fin grid0.N) : k0_off352 (grid0.coords t) = ![128 * t.val + 117] := by
  unfold k0_off352; exact congrArg (fun n => ![n]) (off_coords t 117 (by decide))
theorem k0_off355_eq (t : Fin grid0.N) : k0_off355 (grid0.coords t) = ![128 * t.val + 118] := by
  unfold k0_off355; exact congrArg (fun n => ![n]) (off_coords t 118 (by decide))
theorem k0_off358_eq (t : Fin grid0.N) : k0_off358 (grid0.coords t) = ![128 * t.val + 119] := by
  unfold k0_off358; exact congrArg (fun n => ![n]) (off_coords t 119 (by decide))
theorem k0_off361_eq (t : Fin grid0.N) : k0_off361 (grid0.coords t) = ![128 * t.val + 120] := by
  unfold k0_off361; exact congrArg (fun n => ![n]) (off_coords t 120 (by decide))
theorem k0_off364_eq (t : Fin grid0.N) : k0_off364 (grid0.coords t) = ![128 * t.val + 121] := by
  unfold k0_off364; exact congrArg (fun n => ![n]) (off_coords t 121 (by decide))
theorem k0_off367_eq (t : Fin grid0.N) : k0_off367 (grid0.coords t) = ![128 * t.val + 122] := by
  unfold k0_off367; exact congrArg (fun n => ![n]) (off_coords t 122 (by decide))
theorem k0_off370_eq (t : Fin grid0.N) : k0_off370 (grid0.coords t) = ![128 * t.val + 123] := by
  unfold k0_off370; exact congrArg (fun n => ![n]) (off_coords t 123 (by decide))
theorem k0_off373_eq (t : Fin grid0.N) : k0_off373 (grid0.coords t) = ![128 * t.val + 124] := by
  unfold k0_off373; exact congrArg (fun n => ![n]) (off_coords t 124 (by decide))
theorem k0_off376_eq (t : Fin grid0.N) : k0_off376 (grid0.coords t) = ![128 * t.val + 125] := by
  unfold k0_off376; exact congrArg (fun n => ![n]) (off_coords t 125 (by decide))
theorem k0_off379_eq (t : Fin grid0.N) : k0_off379 (grid0.coords t) = ![128 * t.val + 126] := by
  unfold k0_off379; exact congrArg (fun n => ![n]) (off_coords t 126 (by decide))
theorem k0_off382_eq (t : Fin grid0.N) : k0_off382 (grid0.coords t) = ![128 * t.val + 127] := by
  unfold k0_off382; exact congrArg (fun n => ![n]) (off_coords t 127 (by decide))
end Cert.KernelIdeal.Hand
-- ==== Proof.KRowsOf.lean ====
/-
  The rows of the adjacency matrix that a table names at a grid point, as a block of 128 rows; a row of the matrix read
  through the row view at a table word.
-/
import proofs.«426739_j39281770889759_1_alg».proof.Proof.KRows
import proofs.«426739_j39281770889759_1_alg».proof.Proof.KWords
import proofs.«426739_j39281770889759_1_alg».proof.Proof.Spec
import Idealize.ShloMosaic.Lib.Pipeline.Value

noncomputable section

namespace Cert.KernelIdeal.Hand

open Cert.KernelIdeal
open Idealize.ShloMosaic Idealize.ShloMosaic.ValueIdx

variable {F : FTy → Type} [FloatOps F]

/-- The 128 rows of the adjacency matrix that the table `f` names at grid point `t`: row `r` is the matrix's row
    `f (128 t + r)`. -/
def rowsOf (fA : S8192x8192.Idx → Elt F .f32) (f : S8192.Idx → BitVec 32) (t : Nat) : Vec F S128x8192 .f32 :=
  fun idx => fA (ix2 (Cert.Agg.row (f (ix1 ⟨(128 * t + (idx 0).val) % 8192, Nat.mod_lt _ (by decide)⟩))) (idx 1))

/-- A row of the adjacency matrix read through the row view at a table word below 8192: the matrix's row the word names. -/
theorem adj_row_read (w : BitVec 32) (hw : w.toNat < 8192) (off : Fin 2 → Nat) (hoff : off = ![w.toNat, 0])
    (inb : ∀ a, off a + S1x8192.size a ≤ S8192x8192.size a) (h' : ∀ a, (Rect.unit (s := S8192x8192) off S1x8192.size inb).stride a = 1)
    (hs : S1x8192.Squeezes S8192) (fA : S8192x8192.Idx → Elt F .f32) :
    (((Memref.whole main_arg1).slice (Rect.unit off S1x8192.size inb) h').squeeze S8192 hs).view.read (Elt F) fA
      = fun x => fA (ix2 (Cert.Agg.row w) (x 0)) := by
  funext x
  obtain ⟨k, rfl⟩ : ∃ k : Fin 8192, x = ix1 k := ⟨x 0, eq_ix1 x⟩
  rw [show Cert.Agg.row w = (⟨w.toNat, hw⟩ : Fin 8192) from Fin.ext (Cert.Agg.row_of_lt w hw)]
  exact row_read (View.whole main_arg1) (Elt F) off inb hs.numel_eq ⟨w.toNat, hw⟩ (by rw [hoff]; rfl) (by rw [hoff]; rfl) fA k

/-- Row `r` of `rowsOf` at a point `t` of the grid, the position written without the reduction modulo 8192. -/
theorem rowsOf_row (fA : S8192x8192.Idx → Elt F .f32) (f : S8192.Idx → BitVec 32) (t : Fin grid0.N) (r : Fin 128) (k : Fin 8192) :
    rowsOf fA f t.val (ix2 r k) = fA (ix2 (Cert.Agg.row (f (ix1 ⟨128 * t.val + r.val, off_lt t r.val r.isLt⟩))) k) := by
  unfold rowsOf
  have h : (128 * t.val + r.val) % 8192 = 128 * t.val + r.val := Nat.mod_eq_of_lt (off_lt t r.val r.isLt)
  have hidx : (⟨(128 * t.val + r.val) % 8192, Nat.mod_lt _ (by decide)⟩ : Fin 8192) = ⟨128 * t.val + r.val, off_lt t r.val r.isLt⟩ :=
    Fin.ext h
  show fA (ix2 (Cert.Agg.row (f (ix1 ⟨(128 * t.val + r.val) % 8192, _⟩))) k) = _
  rw [hidx]

/-- A block given row by row, each row the matrix's row the table names there, is `rowsOf`. -/
theorem rows_family_eq (fA : S8192x8192.Idx → Elt F .f32) (f : S8192.Idx → BitVec 32) (t : Fin grid0.N)
    (D : Fin 128 → S8192.Idx → Elt F .f32)
    (hD : ∀ r : Fin 128, D r = fun x => fA (ix2 (Cert.Agg.row (f (ix1 ⟨128 * t.val + r.val, off_lt t r.val r.isLt⟩))) (x 0))) :
    (fun x : S128x8192.Idx => D (x 0) (ix1 (x 1))) = rowsOf fA f t.val := by
  funext x
  obtain ⟨r, k, rfl⟩ : ∃ (r : Fin 128) (k : Fin 8192), x = ix2 r k := ⟨x 0, x 1, eq_ix2 x⟩
  rw [rowsOf_row]
  show D r (ix1 k) = _
  rw [hD r]

section Whole

variable {sig : RefSig} {κ : Kind} {sp : Space} {S : Shape} {e : EltTy} {Val : EltTy → Type} [∀ e, Nonempty (Val e)]

/-- One store of a whole block, read back whole, is its payload, whatever was there before. -/
theorem read_writes_unit_zero (v : View sig κ sp S e) (f : v.ty.Contents Val) {off : Fin S.rank → Nat} (hz : off = fun _ => 0)
    (inb : ∀ a, off a + S.size a ≤ S.size a) (X : S.Idx → Val e) :
    v.read Val (v.writes Val f [(⟨Rect.unit off S.size inb, X⟩ : View.Piece Val S e)]) = X := by
  rw [View.read_writes_eq_canon v f _ fun y => ⟨_, List.mem_singleton_self _, View.mem_set_unit_zero hz inb y⟩,
    View.canon_unit_zero hz]

/-- A load of the whole block reads the contents. -/
theorem readAt_unit_zero (v : View sig κ sp S e) (f : v.ty.Contents Val) {off : Fin S.rank → Nat} (hz : off = fun _ => 0)
    (inb : ∀ a, off a + S.size a ≤ S.size a) :
    v.readAt Val (Rect.unit off S.size inb).toLoadRect f = v.read Val f := by
  rw [View.readAt_eq_ld, View.ld_unit_zero hz]

end Whole

/-- The zero offsets of a two-dimensional block. -/
theorem zero2 : (![0, 0] : Fin 2 → Nat) = fun _ => 0 := by
  funext a; fin_cases a <;> rfl

end Cert.KernelIdeal.Hand

end
-- ==== Proof.KScratch.lean ====
/-
  The block the body stores at a grid point, in closed form: the body's two scratch buffers hold, once the 256 row copies
  have landed, the adjacency matrix's rows the two tables name at the point, and the stored block is the payload of those
  two blocks of rows and the features.
-/
import proofs.«426739_j39281770889759_1_alg».proof.Proof.KBody
import proofs.«426739_j39281770889759_1_alg».proof.Proof.KRowsOf

noncomputable section

namespace Cert.KernelIdeal.Hand

open Cert.KernelIdeal Cert.KernelIdeal.Gen

open Idealize.ShloMosaic
open Idealize.ShloMosaic.TcCoe Idealize.ShloMosaic.ValueIdx

variable {F : FTy → Type} [FloatOps F]

/-- The matrix's row that table `f` names at position `128 t + r`, as the row copy reads it. -/
abbrev rowFun (fA : S8192x8192.Idx → Elt F .f32) (f : S8192.Idx → BitVec 32) (t : Fin grid0.N) (r : Fin 128) :
    (⟨1, ![8192]⟩ : Shape).Idx → Elt F .f32 :=
  fun x => fA (ix2 (Cert.Agg.row (f (ix1 ⟨128 * t.val + r.val, off_lt t r.val r.isLt⟩))) (x 0))

variable (c : Dev nD) (t : Fin grid0.N)
  (M3 : Memref sig .tc .vmem S8192x256 .bf16) (h3 : M3.IsWhole) (M5 : Memref sig .tc .vmem S128x256 .f32) (h5 : M5.IsWhole)
  (f1 : Bf (F := F) c (Memref.whole main_v1)) (f2 : Bf (F := F) c (Memref.whole main_v3)) (f3 : Bf (F := F) c M3)
  (fA : Bf (F := F) c (Memref.whole main_arg1)) (hT1 : ∀ j, (f1 j).toNat < 8192) (hT2 : ∀ j, (f2 j).toNat < 8192)

/-- The first scratch buffer as the body loads it: the rows the first table names, given that each copied row is that row. -/
theorem load0_eq
    (hD : ∀ r : Fin 128, (famEven% "kernelRun.sl.dma" " c (grid0.coords t) f1 fA hT1" : Fin 128 → (⟨1, ![8192]⟩ : Shape).Idx → Elt F .f32) r
      = rowFun fA f1 t r) :
    kernelRun.sl.v3841_1 c (grid0.coords t) f1 fA hT1 = rowsOf fA f1 t.val := by
  unfold kernelRun.sl.v3841_1
  exact (readAt_unit_zero (S := S128x8192) (Memref.whole cc0_scratch0).view _ zero2 _).trans (rows_family_eq fA f1 t _ hD)

/-- The second, likewise from the second table. -/
theorem load1_eq
    (hD : ∀ r : Fin 128, (famEven% "kernelRun.sl.dma" "_1 c (grid0.coords t) f2 fA hT2" : Fin 128 → (⟨1, ![8192]⟩ : Shape).Idx → Elt F .f32) r
      = rowFun fA f2 t r) :
    kernelRun.sl.v3842 c (grid0.coords t) f2 fA hT2 = rowsOf fA f2 t.val := by
  unfold kernelRun.sl.v3842
  exact (readAt_unit_zero (S := S128x8192) (Memref.whole cc0_scratch1).view _ zero2 _).trans (rows_family_eq fA f2 t _ hD)

/-- THE STORED BLOCK at grid point `t`, read through the result's staging buffer: the payload of the two blocks of rows and
    the features read through theirs — given the 128 + 128 copied rows. -/
theorem witness_read_of
    (hD0 : ∀ r : Fin 128, (famEven% "kernelRun.sl.dma" " c (grid0.coords t) f1 fA hT1" : Fin 128 → (⟨1, ![8192]⟩ : Shape).Idx → Elt F .f32) r
      = rowFun fA f1 t r)
    (hD1 : ∀ r : Fin 128, (famEven% "kernelRun.sl.dma" "_1 c (grid0.coords t) f2 fA hT2" : Fin 128 → (⟨1, ![8192]⟩ : Shape).Idx → Elt F .f32) r
      = rowFun fA f2 t r) :
    M5.view.read (Elt F) (kernelRun c (grid0.coords t) M3 h3 M5 h5 f1 f2 f3 fA hT1 hT2).1
      = k0_pay1 (rowsOf fA f1 t.val) (rowsOf fA f2 t.val) (M3.view.read (Elt F) f3) := by
  unfold kernelRun
  dsimp only
  unfold kernelRun.sl.H5_1
  rw [read_writes_unit_zero M5.view _ zero2, readAt_unit_zero M3.view f3 zero2, load0_eq c t f1 fA hT1 hD0, load1_eq c t f2 fA hT2 hD1]

end Cert.KernelIdeal.Hand

end
-- ==== Proof.KReads.lean ====
/-
  What the body's loads read: a table word at a position; and the features' block, which is the whole array.
-/
import proofs.«426739_j39281770889759_1_alg».proof.Proof.KWords
import proofs.«426739_j39281770889759_1_alg».proof.Proof.Gen.KernelIdeal.Launch
import Idealize.ShloMosaic.Lib.ValueIdx
import Idealize.ShloMosaic.Lib.Pipeline.Kit
import Idealize.ShloMosaic.Lib.WholeRead

noncomputable section

namespace Cert.KernelIdeal.Hand

open Cert.KernelIdeal Cert.KernelIdeal.Gen
open Idealize.ShloMosaic Idealize.ShloMosaic.ValueIdx Idealize.ShloMosaic.TcCoe

variable {F : FTy → Type} [FloatOps F]

/-- The word a unit rectangle at position n reads out of the index vector of row 0: its entry n. -/
theorem word_v1 (off : Fin 1 → Nat) (inb : ∀ a, off a + S1.size a ≤ S8192.size a) (f : IVec S8192 32)
    (x : (Rect.unit (s := S8192) off S1.size inb).toLoadRect.shape.Idx) (n : Nat) (hoff : off = ![n]) (hlt : n < 8192) :
    (Memref.whole main_v1).view.readAt (Elt F) (Rect.unit (s := S8192) off S1.size inb).toLoadRect f x = f (ix1 (⟨n, hlt⟩ : Fin 8192)) := by
  subst hoff
  show f _ = f _
  refine congrArg f (funext fun a => Fin.ext ?_)
  match a with
  | ⟨0, h⟩ =>
    have hx : (x ⟨0, h⟩).val < 1 := (x ⟨0, h⟩).isLt
    show n + 1 * (x ⟨0, h⟩).val = n
    omega

/-- The word a unit rectangle at position n reads out of the index vector of row 1: its entry n. -/
theorem word_v3 (off : Fin 1 → Nat) (inb : ∀ a, off a + S1.size a ≤ S8192.size a) (f : IVec S8192 32)
    (x : (Rect.unit (s := S8192) off S1.size inb).toLoadRect.shape.Idx) (n : Nat) (hoff : off = ![n]) (hlt : n < 8192) :
    (Memref.whole main_v3).view.readAt (Elt F) (Rect.unit (s := S8192) off S1.size inb).toLoadRect f x = f (ix1 (⟨n, hlt⟩ : Fin 8192)) := by
  subst hoff
  show f _ = f _
  refine congrArg f (funext fun a => Fin.ext ?_)
  match a with
  | ⟨0, h⟩ =>
    have hx : (x ⟨0, h⟩).val < 1 := (x ⟨0, h⟩).isLt
    show n + 1 * (x ⟨0, h⟩).val = n
    omega

/-- The features' block at any grid point is the whole array: a read through it is the array's entry. -/
theorem blk0_read (a : (pcfg0 (F := F)).Adm) (t : Fin (cfg0 a).N) (f : S8192x256.Idx → Elt F .bf16) (y : S8192x256.Idx) :
    (((cfg0 a).win 0).blk t).view.read (Elt F) f y = f y := by
  show f _ = f _
  refine congrArg f (funext fun b => Fin.ext ?_)
  match b with
  | ⟨0, h⟩ => show 0 * 8192 + 1 * (y ⟨0, h⟩).val = (y ⟨0, h⟩).val; omega
  | ⟨1, h⟩ => show 0 * 256 + 1 * (y ⟨1, h⟩).val = (y ⟨1, h⟩).val; omega

end Cert.KernelIdeal.Hand

end
-- ==== Proof.KLoop.lean ====
/-
  Two loops over the 128 rows of a block, as text templates: one declaration stated once per row, and a function on the 128
  row numbers given by its value at each. In a template «R» stands for the row number r, «D» for 2 r + 2, «O1», «O2», «O3»
  for 3 r + 1, 3 r + 2, 3 r + 3, and «W0», «W1» for the names of the two table words read for row r.
-/
import Lean

namespace Cert.KernelIdeal.Hand

/-- The template `s` at row `k`. -/
def rowText (k : Nat) (s : String) : String :=
  let s := s.replace "«R»" (toString k)
  let s := s.replace "«D»" (toString (2 * k + 2))
  let s := s.replace "«O1»" (toString (3 * k + 1))
  let s := s.replace "«O2»" (toString (3 * k + 2))
  let s := s.replace "«O3»" (toString (3 * k + 3))
  let s := s.replace "«W0»" (if k = 0 then "kernelRun.sl.r" else s!"kernelRun.sl.r_{2 * k}")
  s.replace "«W1»" s!"kernelRun.sl.r_{2 * k + 1}"

open Lean Elab Command in
/-- `rowDecls% lo hi "text"`: the declaration `text` once per row number `k`, `lo ≤ k < hi`. -/
elab "rowDecls%" lo:num hi:num tmpl:str : command => do
  for k in [lo.getNat:hi.getNat] do
    match Parser.runParserCategory (← getEnv) `command (rowText k tmpl.getString) with
    | .ok stx => elabCommand stx
    | .error e => throwError e

open Lean Elab Term in
/-- `byRow% n "text"`: the function on `Fin n` whose value at the literal row number `k` is `text` at row `k`:
    `fun r => match r with | ⟨0, _⟩ => … | … | ⟨n - 1, _⟩ => …`. -/
elab "byRow%" n:num tmpl:str : term <= ty => do
  let N := n.getNat
  let arms := (List.range N).map fun k => s!" | ⟨{k}, _⟩ => (" ++ rowText k tmpl.getString ++ ")"
  let s := "fun r => match r with" ++ "".intercalate arms ++ s!" | ⟨k + {N}, h⟩ => absurd h (Nat.not_lt.2 (Nat.le_add_left _ _))"
  match Parser.runParserCategory (← getEnv) `term s with
  | .ok stx => elabTerm stx (some ty)
  | .error e => throwError e

end Cert.KernelIdeal.Hand
-- ==== Proof.KRowFacts.lean ====
/-
  The 128 + 128 adjacency rows the body copies at a grid point t, one by one: the row copied into block row r of the
  first operand is the adjacency row named by the first table's word at position 128 t + r, and likewise the second
  operand's from the second table. Each is the source row slice read out of the adjacency array at the row the table
  word names, the word being the table's entry at the position the body computes (t * 128 + r in 32-bit words).
-/
import proofs.«426739_j39281770889759_1_alg».proof.Proof.KBody
import proofs.«426739_j39281770889759_1_alg».proof.Proof.KRowsOf
import proofs.«426739_j39281770889759_1_alg».proof.Proof.KReads
import proofs.«426739_j39281770889759_1_alg».proof.Proof.KLoop

noncomputable section

namespace Cert.KernelIdeal.Hand

open Cert.KernelIdeal Cert.KernelIdeal.Gen
open Idealize.ShloMosaic Idealize.ShloMosaic.ValueIdx Idealize.ShloMosaic.TcCoe

variable {F : FTy → Type} [FloatOps F]

/-! ## One row of the first operand: the word is the first table's entry 128 t + r; the row read is the array's at that row -/

rowDecls% 0 128 "theorem dma_row_«R» (c : Dev nD) (t : Fin grid0.N) (f1 : Bf (F := F) c (Memref.whole main_v1)) (fA : Bf (F := F) c (Memref.whole main_arg1)) (hT1 : ∀ j, (f1 j).toNat < 8192) :
    kernelRun.sl.dma«D» c (grid0.coords t) f1 fA hT1 = fun x => fA (ix2 (Cert.Agg.row (f1 (ix1 (⟨128 * t.val + «R», off_lt t «R» (by decide)⟩ : Fin 8192)))) (x 0)) := by
  have hw : «W0» c (grid0.coords t) f1 = f1 (ix1 (⟨128 * t.val + «R», off_lt t «R» (by decide)⟩ : Fin 8192)) :=
    word_v1 _ _ f1 _ _ (k0_off«O1»_eq t) _
  unfold kernelRun.sl.dma«D»
  show View.read (Elt F) _ _ = _
  rw [adj_row_read («W0» c (grid0.coords t) f1) (by rw [hw]; exact hT1 _) (k0_off«O2» _) rfl, hw]"

/-! ## One row of the second operand, from the second table -/

rowDecls% 0 128 "theorem dma1_row_«R» (c : Dev nD) (t : Fin grid0.N) (f2 : Bf (F := F) c (Memref.whole main_v3)) (fA : Bf (F := F) c (Memref.whole main_arg1)) (hT2 : ∀ j, (f2 j).toNat < 8192) :
    kernelRun.sl.dma«D»_1 c (grid0.coords t) f2 fA hT2 = fun x => fA (ix2 (Cert.Agg.row (f2 (ix1 (⟨128 * t.val + «R», off_lt t «R» (by decide)⟩ : Fin 8192)))) (x 0)) := by
  have hw : «W1» c (grid0.coords t) f2 = f2 (ix1 (⟨128 * t.val + «R», off_lt t «R» (by decide)⟩ : Fin 8192)) :=
    word_v3 _ _ f2 _ _ (k0_off«O1»_eq t) _
  unfold kernelRun.sl.dma«D»_1
  show View.read (Elt F) _ _ = _
  rw [adj_row_read («W1» c (grid0.coords t) f2) (by rw [hw]; exact hT2 _) (k0_off«O3» _) rfl, hw]"

/-! ## The rows as families over the row number -/

set_option maxRecDepth 100000 in
set_option maxHeartbeats 8000000 in
/-- Every row of the first operand. -/
theorem dma_rows (c : Dev nD) (t : Fin grid0.N) (f1 : Bf (F := F) c (Memref.whole main_v1)) (fA : Bf (F := F) c (Memref.whole main_arg1))
    (hT1 : ∀ j, (f1 j).toNat < 8192) :
    ∀ r : Fin 128, (famEven% "kernelRun.sl.dma" " c (grid0.coords t) f1 fA hT1" : Fin 128 → (⟨1, ![8192]⟩ : Shape).Idx → Elt F .f32) r
      = fun x => fA (ix2 (Cert.Agg.row (f1 (ix1 (⟨128 * t.val + r.val, off_lt t r.val r.isLt⟩ : Fin 8192)))) (x 0)) :=
  byRow% 128 "dma_row_«R» c t f1 fA hT1"

set_option maxRecDepth 100000 in
set_option maxHeartbeats 8000000 in
/-- Every row of the second operand. -/
theorem dma1_rows (c : Dev nD) (t : Fin grid0.N) (f2 : Bf (F := F) c (Memref.whole main_v3)) (fA : Bf (F := F) c (Memref.whole main_arg1))
    (hT2 : ∀ j, (f2 j).toNat < 8192) :
    ∀ r : Fin 128, (famEven% "kernelRun.sl.dma" "_1 c (grid0.coords t) f2 fA hT2" : Fin 128 → (⟨1, ![8192]⟩ : Shape).Idx → Elt F .f32) r
      = fun x => fA (ix2 (Cert.Agg.row (f2 (ix1 (⟨128 * t.val + r.val, off_lt t r.val r.isLt⟩ : Fin 8192)))) (x 0)) :=
  byRow% 128 "dma1_row_«R» c t f2 fA hT2"

end Cert.KernelIdeal.Hand

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.KPay.lean ====
/-
  The body's arithmetic at the ideal values, read at an index.

  At a grid point the body multiplies its two [128, 8192] blocks of gathered rows element by element, changes the
  format of the product to bf16, and contracts it with the [8192, 256] features into a zero accumulator. At the
  ideal values a format change is the identity and every float is an extended real, so element `(r, j)` of the result
  is the sum over `k` of `(a (r, k) * b (r, k)) * x (k, j)`.
-/
import proofs.«426739_j39281770889759_1_alg».proof.Proof.Gen.KernelIdeal.Skeleton
import proofs.«426739_j39281770889759_1_alg».proof.Proof.LibPlainMatmul
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-- The product's dimension numbers are a plain product's: axis 1 of the [128, 8192] operand against axis 0 of the
    [8192, 256] operand, no batch axis. -/
theorem dot_eq_plain : dot_S128x8192_S8192x256_S128x256_1_0_0_1_n_n = DotDims.plain 128 8192 256 := rfl

/-- THE BODY'S RESULT AT AN INDEX, at the ideal values: the sum along the contracted axis of the products of the two
    row blocks with the features. -/
theorem pay_apply (a b : Vec Ideal S128x8192 .f32) (x : Vec Ideal S8192x256 .bf16) (r : Fin 128) (j : Fin 256) :
    Gen.k0_pay1 (F := Ideal) a b x (ix2 r j) = ∑ k : Fin 8192, (a (ix2 r k) * b (ix2 r k)) * x (ix2 k j) := by
  unfold Gen.k0_pay1
  rw [shapeCast_self, dot_eq_plain]
  exact Cert.Lib.matmul_plain_zero_apply 128 8192 256 none _ _ (ix2 r j)

end Cert.KernelIdeal.Hand

end
-- ==== Proof.KValue.lean ====
/-
  The value of the result's block at a grid point, at the ideal values: when the two [128, 8192] blocks hold the rows of
  the adjacency array the two index tables name at positions 128 t + r, the body's result at (r, j) is the
  common-neighbour aggregation at (128 t + r, j).
-/
import proofs.«426739_j39281770889759_1_alg».proof.Proof.KPay
import proofs.«426739_j39281770889759_1_alg».proof.Proof.Spec

noncomputable section

open scoped BigOperators

namespace Cert.KernelIdeal.Hand

open Cert.KernelIdeal Cert.KernelIdeal.Gen
open Idealize.ShloMosaic Idealize.ShloMosaic.ValueIdx

/-- THE BLOCK'S VALUE from the rows: block row r of each operand is the adjacency row the table names at 128 t + r. -/
theorem pay_value (A B : Vec Ideal S128x8192 .f32) (X : Vec Ideal S8192x256 .bf16)
    (adj : (⟨2, ![8192, 8192]⟩ : Shape).Idx → EReal) (t0 t1 : (⟨1, ![8192]⟩ : Shape).Idx → BitVec 32)
    (t : Nat) (ht : t < 64)
    (hA : ∀ (r : Fin 128) (k : Fin 8192),
      A (ix2 r k) = adj (ix2 (Cert.Agg.row (t0 (ix1 (⟨128 * t + r.val, by have := r.isLt; omega⟩ : Fin 8192)))) k))
    (hB : ∀ (r : Fin 128) (k : Fin 8192),
      B (ix2 r k) = adj (ix2 (Cert.Agg.row (t1 (ix1 (⟨128 * t + r.val, by have := r.isLt; omega⟩ : Fin 8192)))) k))
    (y : S128x256.Idx) :
    Gen.k0_pay1 (F := Ideal) A B X y
      = Cert.Agg.xcn X adj t0 t1 (ix2 (⟨128 * t + (y 0).val, by have := idx2_lt0 y; omega⟩ : Fin 8192) (y 1)) := by
  obtain ⟨r, j, rfl⟩ : ∃ (r : Fin 128) (j : Fin 256), y = ix2 r j := ⟨y 0, y 1, eq_ix2 y⟩
  rw [pay_apply]
  unfold Cert.Agg.xcn
  refine Finset.sum_congr rfl fun k _ => ?_
  rw [hA, hB]

end Cert.KernelIdeal.Hand

end
-- ==== Proof.KVal.lean ====
/-
  The value of the result's block at a grid point, at the ideal values: the common-neighbour aggregation of the features
  over the adjacency rows the two tables name at positions 128 t + r.
-/
import proofs.«426739_j39281770889759_1_alg».proof.Proof.KOblig
import proofs.«426739_j39281770889759_1_alg».proof.Proof.KScratch
import proofs.«426739_j39281770889759_1_alg».proof.Proof.KRowFacts
import proofs.«426739_j39281770889759_1_alg».proof.Proof.KValue
import proofs.«426739_j39281770889759_1_alg».proof.Proof.KReads

noncomputable section

namespace Cert.KernelIdeal.Hand

open Cert.KernelIdeal Cert.KernelIdeal.Gen
open Idealize.ShloMosaic Idealize.ShloMosaic.ValueIdx Idealize.ShloMosaic.TcCoe
open Idealize.SL.Sem

/-- What the body's run leaves in the result's block at grid point t, read through the block's buffer: the body's
    arithmetic on the gathered rows of the two tables and the features. -/
theorem witness_read {F : FTy → Type} [FloatOps F] (c : Dev nD) (t : Fin grid0.N)
    (M3 : Memref sig .tc .vmem S8192x256 .bf16) (h3 : M3.IsWhole) (M5 : Memref sig .tc .vmem S128x256 .f32) (h5 : M5.IsWhole)
    (f1 : Bf (F := F) c (Memref.whole main_v1)) (f2 : Bf (F := F) c (Memref.whole main_v3)) (f3 : Bf (F := F) c M3)
    (fA : Bf (F := F) c (Memref.whole main_arg1)) (hT1 : ∀ j, (f1 j).toNat < 8192) (hT2 : ∀ j, (f2 j).toNat < 8192) :
    M5.view.read (Elt F) (kernelRun c (grid0.coords t) M3 h3 M5 h5 f1 f2 f3 fA hT1 hT2).1
      = k0_pay1 (rowsOf fA f1 t.val) (rowsOf fA f2 t.val) (M3.view.read (Elt F) f3) :=
  witness_read_of c t M3 h3 M5 h5 f1 f2 f3 fA hT1 hT2 (dma_rows c t f1 fA hT1) (dma1_rows c t f2 fA hT2)

variable (m : (ℓ : Loc nD τ sig) → Buf (Elt Ideal) ℓ) (a : (pcfg0 (F := Ideal)).Adm)

/-- The body's arithmetic on the gathered rows and the staged features, at the ideal values: the aggregation. -/
theorem pay_at (c : Dev nD) (t : Fin (cfg0 a).N) (y : S128x256.Idx) :
    k0_pay1 (F := Ideal) (rowsOf (V m c main_arg1) (a.1 0) t.val) (rowsOf (V m c main_arg1) (a.1 1) t.val) (stg m a c) y
      = Cert.Agg.xcn (V m c main_v18) (V m c main_arg1) (a.1 0) (a.1 1)
          (ix2 (⟨128 * t.val + (y 0).val, by have h1 : t.val < 64 := t.isLt; have := idx2_lt0 y; omega⟩ : Fin 8192) (y 1)) := by
  have ht : t.val < 64 := t.isLt
  have hx : stg m a c = V m c main_v18 := funext fun z => blk0_read a (t0 a) (V m c main_v18) z
  rw [pay_value (rowsOf (V m c main_arg1) (a.1 0) t.val) (rowsOf (V m c main_arg1) (a.1 1) t.val) (stg m a c)
    (V m c main_arg1) (a.1 0) (a.1 1) t.val ht
    (fun r k => rowsOf_row _ _ t r k) (fun r k => rowsOf_row _ _ t r k) y, hx]

/-- The block in slot 0 of the result's window, at the ideal values: the aggregation at (128 t + r, j). -/
theorem runAt_value0 (hA : InRange a) (c : Dev nD) (t : Fin (cfg0 a).N) (y : S128x256.Idx) :
    (runAt m a hA c t 0).1 y
      = Cert.Agg.xcn (V m c main_v18) (V m c main_arg1) (a.1 0) (a.1 1)
          (ix2 (⟨128 * t.val + (y 0).val, by have h1 : t.val < 64 := t.isLt; have := idx2_lt0 y; omega⟩ : Fin 8192) (y 1)) :=
  (congrFun (witness_read (F := Ideal) c t (stage0_0 0) (hstage0_0 0) (stage0_1 0) (hstage0_1 0)
    (a.1 0) (a.1 1) (stg m a c) (V m c main_arg1) hA.1 hA.2) y).trans (pay_at m a c t y)

/-- The block in slot 1 of the result's window, at the ideal values: the aggregation at (128 t + r, j). -/
theorem runAt_value1 (hA : InRange a) (c : Dev nD) (t : Fin (cfg0 a).N) (y : S128x256.Idx) :
    (runAt m a hA c t 1).1 y
      = Cert.Agg.xcn (V m c main_v18) (V m c main_arg1) (a.1 0) (a.1 1)
          (ix2 (⟨128 * t.val + (y 0).val, by have h1 : t.val < 64 := t.isLt; have := idx2_lt0 y; omega⟩ : Fin 8192) (y 1)) :=
  (congrFun (witness_read (F := Ideal) c t (stage0_0 0) (hstage0_0 0) (stage0_1 1) (hstage0_1 1)
    (a.1 0) (a.1 1) (stg m a c) (V m c main_arg1) hA.1 hA.2) y).trans (pay_at m a c t y)

/-- THE BLOCK'S VALUE: entry (r, j) of the result's block at point t is the aggregation at (128 t + r, j). -/
theorem outBlk_value (hA : InRange a) (c : Dev nD) (t : Fin (cfg0 a).N) (y : S128x256.Idx) :
    outBlkOf m a hA c t y
      = Cert.Agg.xcn (V m c main_v18) (V m c main_arg1) (a.1 0) (a.1 1)
          (ix2 (⟨128 * t.val + (y 0).val, by have h1 : t.val < 64 := t.isLt; have := idx2_lt0 y; omega⟩ : Fin 8192) (y 1)) := by
  by_cases h : ((cfg0 a).slots t 1).val = 0
  · have e : outBlkOf m a hA c t = (runAt m a hA c t 0).1 := if_pos h
    exact (congrFun e y).trans (runAt_value0 m a hA c t y)
  · have e : outBlkOf m a hA c t = (runAt m a hA c t 1).1 := if_neg h
    exact (congrFun e y).trans (runAt_value1 m a hA c t y)

end Cert.KernelIdeal.Hand

end
-- ==== Proof.WRows.lean ====
/-
  Rows of a two-dimensional buffer seen as vectors: a row's view (a one-row rectangle of the buffer's view with the unit
  axis dropped), where its indices sit, what a write through it leaves and what a read through it gives, and the
  contents after a list of rows has been written one after the other.
-/
import Idealize.ShloMosaic.Signature.Memref
import Idealize.ShloMosaic.Lib.ValueIdx

namespace Cert.Kernel.Hand

open Idealize.ShloMosaic Idealize.ShloMosaic.ValueIdx

variable {sig : RefSig} {κ : Kind} {sp : Space} {e : EltTy} {R C : Nat}

/-- An index `k` of a vector of `C` elements, matched with the one-row shape, is `(0, k)`. -/
theorem reshapeEquiv_ix1_1c (h : (⟨1, ![C]⟩ : Shape).numel = (⟨2, ![1, C]⟩ : Shape).numel) (k : Fin C) :
    Shape.reshapeEquiv h (ix1 k) = ix2 (⟨0, Nat.one_pos⟩ : Fin 1) k :=
  Shape.reshapeEquiv_eq_of_rowMajor h (by
    rw [Shape.rowMajor_val_two, Shape.rowMajor_val_one]
    show 0 * C + k.val = k.val
    rw [Nat.zero_mul, Nat.zero_add])

/-- The one-row rectangle at offsets `off` places `(0, k)` at row `off 0`, column `off 1 + k`: with `off = (r, 0)`, at `(r, k)`. -/
theorem unit_row_emb (off : Fin 2 → Nat) (inb : ∀ a, off a + (![1, C] : Fin 2 → Nat) a ≤ (⟨2, ![R, C]⟩ : Shape).size a)
    (r : Fin R) (h0 : off 0 = r.val) (h1 : off 1 = 0) (k : Fin C) :
    (Rect.unit (s := ⟨2, ![R, C]⟩) off ![1, C] inb).emb (ix2 (⟨0, Nat.one_pos⟩ : Fin 1) k) = ix2 r k := by
  funext a
  refine Fin.ext ?_
  rw [Rect.emb_apply]
  match a with
  | ⟨0, _⟩ => show off 0 + 1 * 0 = r.val; rw [h0, Nat.mul_zero, Nat.add_zero]
  | ⟨1, _⟩ => show off 1 + 1 * k.val = k.val; rw [h1, Nat.one_mul, Nat.zero_add]

variable (v : View sig κ sp ⟨2, ![R, C]⟩ e)

/-- WHERE A ROW'S INDICES SIT: through the row view at offsets `off = (r, 0)` — the one-row rectangle of `v`, its unit
    axis dropped — index `k` is `v`'s index `(r, k)`. Any in-bounds and element-count evidence. -/
theorem row_emb (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (k : Fin C) :
    ((v.slice (Rect.unit off ![1, C] inb)).reshape ⟨1, ![C]⟩ hn).emb (ix1 k) = v.emb (ix2 r k) := by
  show v.emb ((Rect.unit off ![1, C] inb).emb (Shape.reshapeEquiv hn (ix1 k))) = _
  rw [show Shape.reshapeEquiv hn (ix1 k) = ix2 (⟨0, Nat.one_pos⟩ : Fin 1) k from reshapeEquiv_ix1_1c hn k,
    unit_row_emb off inb r h0 h1 k]

variable (Val : EltTy → Type)

/-- A READ THROUGH A ROW VIEW: element `k` is the buffer's at `v`'s index `(r, k)`. -/
theorem row_read (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (f : v.ty.Contents Val) (k : Fin C) :
    ((v.slice (Rect.unit off ![1, C] inb)).reshape ⟨1, ![C]⟩ hn).read Val f (ix1 k) = v.read Val f (ix2 r k) := by
  rw [View.read_apply, View.read_apply, row_emb v off inb hn r h0 h1 k]

/-- A WRITE THROUGH A ROW VIEW, read at `v`'s index `(r', k)`: the payload's element `k` on the row written, the old
    contents on every other row. -/
theorem row_write (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (f : v.ty.Contents Val) (p : (⟨1, ![C]⟩ : Shape).Idx → Val e)
    (r' : Fin R) (k : Fin C) :
    ((v.slice (Rect.unit off ![1, C] inb)).reshape ⟨1, ![C]⟩ hn).write Val f p Finset.univ (v.emb (ix2 r' k))
      = if r' = r then cast (congrArg Val v.elt_eq.symm) (p (ix1 k)) else f (v.emb (ix2 r' k)) := by
  by_cases hr : r' = r
  · subst hr
    rw [if_pos rfl, ← row_emb v off inb hn r' h0 h1 k]
    exact View.write_emb_of_mem (v := (v.slice (Rect.unit off ![1, C] inb)).reshape ⟨1, ![C]⟩ hn) f p (Finset.mem_univ _)
  · rw [if_neg hr]
    refine View.write_of_not_mem (v := (v.slice (Rect.unit off ![1, C] inb)).reshape ⟨1, ![C]⟩ hn) f p Finset.univ fun hmem => hr ?_
    obtain ⟨x, -, hx⟩ := Finset.mem_map.mp hmem
    obtain ⟨k', rfl⟩ : ∃ k' : Fin C, x = ix1 k' := ⟨x 0, eq_ix1 x⟩
    rw [row_emb v off inb hn r h0 h1 k'] at hx
    exact (congrFun (v.emb.injective hx) 0).symm

/-! ## Rows written one after the other -/

section Fold

variable {A P X : Type} (W : Fin R → A → P → A) (val : A → Fin R → Fin C → X) (pv : P → Fin C → X)

/-- The contents after the rows of `L` are written in order, from `f`: each entry a row and its payload. -/
def rowsWritten (L : List (Fin R × P)) (f : A) : A := L.foldl (fun acc rp => W rp.1 acc rp.2) f

@[simp] theorem rowsWritten_nil (f : A) : rowsWritten W [] f = f := rfl
@[simp] theorem rowsWritten_cons (x : Fin R × P) (L : List (Fin R × P)) (f : A) :
    rowsWritten W (x :: L) f = rowsWritten W L (W x.1 f x.2) := rfl

variable (hW : ∀ r f p r' k, val (W r f p) r' k = if r' = r then pv p k else val f r' k)
include hW

/-- A row no entry of the list names keeps its contents. -/
theorem rowsWritten_of_not_mem : ∀ (L : List (Fin R × P)) (f : A) (r' : Fin R) (k : Fin C),
    r' ∉ L.map Prod.fst → val (rowsWritten W L f) r' k = val f r' k
  | [], _, _, _, _ => rfl
  | x :: L, f, r', k, h => by
    have hne : ¬ r' = x.1 := fun he => h (by rw [List.map_cons, he]; exact List.mem_cons_self)
    rw [rowsWritten_cons, rowsWritten_of_not_mem L _ r' k fun hm => h (List.mem_cons_of_mem _ hm), hW, if_neg hne]

/-- A row the list names once holds its payload. -/
theorem rowsWritten_of_mem : ∀ (L : List (Fin R × P)) (f : A), (L.map Prod.fst).Nodup → ∀ (r : Fin R) (p : P) (k : Fin C),
    (r, p) ∈ L → val (rowsWritten W L f) r k = pv p k
  | x :: L, f, hnd, r, p, k, h => by
    rw [rowsWritten_cons]
    rw [List.map_cons, List.nodup_cons] at hnd
    rcases List.mem_cons.mp h with rfl | h
    · rw [rowsWritten_of_not_mem W val pv hW L _ _ k hnd.1, hW, if_pos rfl]
    · exact rowsWritten_of_mem L _ hnd.2 r p k h

end Fold

/-! ## The instance: whole rows of `v` written through their row views -/

/-- Row `r` of `v` is inside it. -/
theorem inb_row (r : Fin R) : ∀ a, (![r.val, 0] : Fin 2 → Nat) a + (![1, C] : Fin 2 → Nat) a ≤ (⟨2, ![R, C]⟩ : Shape).size a :=
  Fin.forall_fin_two.mpr ⟨r.isLt, Nat.le_of_eq (Nat.zero_add C)⟩

/-- A row has as many elements as the vector. -/
theorem numel_row (off : Fin 2 → Nat) (inb : ∀ a, off a + (![1, C] : Fin 2 → Nat) a ≤ (⟨2, ![R, C]⟩ : Shape).size a) :
    (⟨1, ![C]⟩ : Shape).numel = (Rect.unit (s := ⟨2, ![R, C]⟩) off ![1, C] inb).shape.numel := by
  show (⟨1, ![C]⟩ : Shape).numel = (⟨2, ![1, C]⟩ : Shape).numel
  simp [Shape.numel, Fin.prod_univ_succ]

/-- Row `r` of `v` as a vector's view. -/
abbrev rowV (r : Fin R) : View sig κ sp ⟨1, ![C]⟩ e :=
  (v.slice (Rect.unit ![r.val, 0] ![1, C] (inb_row r))).reshape ⟨1, ![C]⟩ (numel_row _ _)

/-- The buffer's contents after the rows of `L` are written whole through their row views, in order. -/
abbrev rowsWrittenV (L : List (Fin R × ((⟨1, ![C]⟩ : Shape).Idx → Val e))) (f : v.ty.Contents Val) : v.ty.Contents Val :=
  rowsWritten (fun r acc p => (rowV v r).write Val acc p Finset.univ) L f

/-- A row no entry names keeps its contents; -/
theorem rowsWrittenV_of_not_mem (L : List (Fin R × ((⟨1, ![C]⟩ : Shape).Idx → Val e))) (f : v.ty.Contents Val) (r' : Fin R) (k : Fin C)
    (h : r' ∉ L.map Prod.fst) : rowsWrittenV v Val L f (v.emb (ix2 r' k)) = f (v.emb (ix2 r' k)) :=
  rowsWritten_of_not_mem (fun r acc p => (rowV v r).write Val acc p Finset.univ) (fun g r k => g (v.emb (ix2 r k)))
    (fun p k => cast (congrArg Val v.elt_eq.symm) (p (ix1 k)))
    (fun r g p r' k => row_write v Val ![r.val, 0] (inb_row r) (numel_row _ _) r rfl rfl g p r' k) L f r' k h

/-- a row named once holds its payload. -/
theorem rowsWrittenV_of_mem (L : List (Fin R × ((⟨1, ![C]⟩ : Shape).Idx → Val e))) (f : v.ty.Contents Val) (hnd : (L.map Prod.fst).Nodup)
    (r : Fin R) (p : (⟨1, ![C]⟩ : Shape).Idx → Val e) (k : Fin C) (h : (r, p) ∈ L) :
    rowsWrittenV v Val L f (v.emb (ix2 r k)) = cast (congrArg Val v.elt_eq.symm) (p (ix1 k)) :=
  rowsWritten_of_mem (fun r acc p => (rowV v r).write Val acc p Finset.univ) (fun g r k => g (v.emb (ix2 r k)))
    (fun p k => cast (congrArg Val v.elt_eq.symm) (p (ix1 k)))
    (fun r g p r' k => row_write v Val ![r.val, 0] (inb_row r) (numel_row _ _) r rfl rfl g p r' k) L f hnd r p k h

end Cert.Kernel.Hand
-- ==== Proof.WJoin.lean ====
/-
  The rows of a two-dimensional buffer as element sets: the rows are pairwise disjoint and together are the whole
  view, so the buffer's points-to is the separating conjunction of its rows' points-tos; and a row written whole
  holds, on the row, its payload.
-/
import proofs.«426739_j39281770889759_1_alg».proof.Proof.WRows
import Idealize.ShloMosaic.Rules.PointsTo
import Idealize.ShloMosaic.Lib.Pipeline.Kit

noncomputable section

namespace Cert.Kernel.Hand

open Idealize.ShloMosaic Idealize.ShloMosaic.ValueIdx
open Idealize.SL Idealize.SL.RA Idealize.SL.BI
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U] {Lvl : Type}

local notation "𝕄" => MT nD τ sig Ix Val Name U Lvl

variable {c : Thread nD τ} {sp : Space} {e : EltTy} {R C : Nat} (v : View sig c.2.kind sp ⟨2, ![R, C]⟩ e)

/-- The elements of the row view at offsets `(r, 0)`: `v`'s elements `(r, k)`. -/
theorem mem_row_set (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (i : v.ty.Idx) :
    i ∈ ((v.slice (Rect.unit off ![1, C] inb)).reshape ⟨1, ![C]⟩ hn).set ↔ ∃ k : Fin C, v.emb (ix2 r k) = i := by
  unfold View.set
  rw [Finset.mem_map]
  constructor
  · rintro ⟨x, -, rfl⟩
    obtain ⟨k, rfl⟩ : ∃ k : Fin C, x = ix1 k := ⟨x 0, eq_ix1 x⟩
    exact ⟨k, (row_emb v off inb hn r h0 h1 k).symm⟩
  · rintro ⟨k, rfl⟩
    exact ⟨ix1 k, Finset.mem_univ _, row_emb v off inb hn r h0 h1 k⟩

/-- Row `r`'s elements, among the buffer's. -/
abbrev rowSet (r : Fin R) : Finset (Idx (v.loc c)) := (rowV v r).set

/-- They are `v`'s elements `(r, k)`. -/
theorem mem_rowSet (r : Fin R) (i : Idx (v.loc c)) : i ∈ rowSet v r ↔ ∃ k : Fin C, v.emb (ix2 r k) = i :=
  mem_row_set v ![r.val, 0] (inb_row r) (numel_row _ _) r rfl rfl i

/-- Two different rows share no element. -/
theorem rows_disjoint {r r' : Fin R} (h : r ≠ r') : Disjoint (rowSet v r) (rowSet v r') :=
  Finset.disjoint_left.mpr fun i hi hi' => by
    obtain ⟨k, rfl⟩ := (mem_rowSet v r i).mp hi
    obtain ⟨k', hk'⟩ := (mem_rowSet v r' _).mp hi'
    exact h (congrFun (v.emb.injective hk') 0).symm

/-- The view's elements, among the buffer's. -/
abbrev viewSet : Finset (Idx (v.loc c)) := v.set

/-- The rows together are the whole view. -/
theorem rows_cover : (Finset.univ : Finset (Fin R)).biUnion (rowSet v) = viewSet v := by
  ext i
  rw [Finset.mem_biUnion]
  constructor
  · rintro ⟨r, -, hi⟩
    obtain ⟨k, rfl⟩ := (mem_rowSet v r i).mp hi
    exact Finset.mem_map.mpr ⟨_, Finset.mem_univ _, rfl⟩
  · intro hi
    obtain ⟨x, -, rfl⟩ := Finset.mem_map.mp hi
    obtain ⟨r, k, rfl⟩ : ∃ (r : Fin R) (k : Fin C), x = ix2 r k := ⟨x 0, x 1, eq_ix2 x⟩
    exact ⟨r, Finset.mem_univ _, (mem_rowSet v r _).mpr ⟨k, rfl⟩⟩

variable (q : PosShare TreeShare)

/-- THE JOIN: the rows' points-tos, at one contents, are the view's. -/
theorem rows_join (G : Buf Val (v.loc c)) :
    (bigSep (Finset.univ : Finset (Fin R)) fun r => (v.loc c ↦[rowSet v r]{q} G : sProp 𝕄)) = (v.loc c ↦[viewSet v]{q} G) :=
  (pointsTo_biUnion (ℓ := v.loc c) (q := q) (f := G) (Finset.univ : Finset (Fin R)) (rowSet v)
      fun r _ r' _ h => rows_disjoint v h).symm.trans
    (congrArg (fun S : Finset (Idx (v.loc c)) => (v.loc c ↦[S]{q} G : sProp 𝕄)) (rows_cover v))

/-- The same with the rows listed in order: for a literal number of rows the left side unfolds to the chain
    `row 0 ∗ row 1 ∗ … ∗ row (R - 1)`. -/
theorem rows_joinL (G : Buf Val (v.loc c)) :
    (bigSepL (List.finRange R) fun r => (v.loc c ↦[rowSet v r]{q} G : sProp 𝕄)) = (v.loc c ↦[viewSet v]{q} G) :=
  (bigSep_univ_eq_bigSepL (List.finRange R) (List.toFinset_finRange R).symm (List.nodup_finRange R) _).symm.trans (rows_join v q G)

/-- For a view that is its whole buffer, the rows in order are the buffer's points-to. -/
theorem rows_joinL_univ (hv : viewSet v = Finset.univ) (G : Buf Val (v.loc c)) :
    (bigSepL (List.finRange R) fun r => (v.loc c ↦[rowSet v r]{q} G : sProp 𝕄)) = (v.loc c ↦{q} G) :=
  (rows_joinL v q G).trans (congrArg (fun S : Finset (Idx (v.loc c)) => (v.loc c ↦[S]{q} G : sProp 𝕄)) hv)

/-- A ROW WRITTEN WHOLE holds its payload on the row: the piece a landed row copy delivers, at any contents `G` that has
    the payload on that row. -/
theorem piece_congr (off : Fin 2 → Nat) (inb : ∀ a, off a + (![1, C] : Fin 2 → Nat) a ≤ (⟨2, ![R, C]⟩ : Shape).size a)
    (hn : (⟨1, ![C]⟩ : Shape).numel = (Rect.unit (s := ⟨2, ![R, C]⟩) off ![1, C] inb).shape.numel)
    (r : Fin R) (h0 : off 0 = r.val) (h1 : off 1 = 0) (f G : Buf Val (v.loc c)) (p : (⟨1, ![C]⟩ : Shape).Idx → Val e)
    (hp : ∀ k : Fin C, cast (congrArg Val v.elt_eq.symm) (p (ix1 k)) = G (v.emb (ix2 r k))) :
    (v.loc c ↦[((v.slice (Rect.unit off ![1, C] inb)).reshape ⟨1, ![C]⟩ hn).set]{q}
        (((v.slice (Rect.unit off ![1, C] inb)).reshape ⟨1, ![C]⟩ hn).write Val f p Finset.univ) : sProp 𝕄)
      = (v.loc c ↦[((v.slice (Rect.unit off ![1, C] inb)).reshape ⟨1, ![C]⟩ hn).set]{q} G) :=
  pointsTo_congr fun i hi => by
    obtain ⟨k, rfl⟩ := (mem_row_set v off inb hn r h0 h1 i).mp hi
    rw [row_write v Val off inb hn r h0 h1 f p r k, if_pos rfl]
    exact hp k

/-! ## The pieces as a run leaves them: every row written over a base of its own, one row still inside the rest -/

/-- Taking row `r` out of the rows of `T` leaves the rows of `T` without `r`. -/
theorem biUnion_sdiff_row (T : Finset (Fin R)) (r : Fin R) :
    T.biUnion (rowSet v) \ rowSet v r = (T.erase r).biUnion (rowSet v) := by
  ext i
  simp only [Finset.mem_sdiff, Finset.mem_biUnion, Finset.mem_erase]
  constructor
  · rintro ⟨⟨t, ht, hi⟩, hni⟩
    exact ⟨t, ⟨fun h => hni (h ▸ hi), ht⟩, hi⟩
  · rintro ⟨t, ⟨hne, ht⟩, hi⟩
    exact ⟨⟨t, ht, hi⟩, fun hi' => Finset.disjoint_left.mp (rows_disjoint v hne) hi hi'⟩

/-- Taking the rows of a list out one after the other. -/
theorem foldl_sdiff_rows : ∀ (L : List (Fin R)) (T : Finset (Fin R)),
    L.foldl (fun A r => A \ rowSet v r) (T.biUnion (rowSet v)) = (T \ L.toFinset).biUnion (rowSet v)
  | [], T => by rw [List.foldl_nil, List.toFinset_nil, Finset.sdiff_empty]
  | r :: L, T => by
    rw [List.foldl_cons, biUnion_sdiff_row, foldl_sdiff_rows L (T.erase r), List.toFinset_cons]
    congr 1
    ext t
    simp only [Finset.mem_sdiff, Finset.mem_erase, Finset.mem_insert, not_or]
    constructor
    · rintro ⟨⟨h1, h2⟩, h3⟩; exact ⟨h2, h1, h3⟩
    · rintro ⟨h2, h1, h3⟩; exact ⟨⟨h1, h2⟩, h3⟩

/-- What is left of a whole buffer when every row but `z` has been taken out is row `z`. -/
theorem rest_eq_row (hv : viewSet v = Finset.univ) (L : List (Fin R)) (z : Fin R) (hnd : (z :: L).Nodup) (hall : ∀ r, r ∈ z :: L) :
    L.foldl (fun A r => A \ rowSet v r) (Finset.univ : Finset (Idx (v.loc c))) = rowSet v z := by
  rw [← hv, ← rows_cover v, foldl_sdiff_rows v L Finset.univ]
  have hz : (Finset.univ : Finset (Fin R)) \ L.toFinset = {z} := by
    ext t
    simp only [Finset.mem_sdiff, Finset.mem_univ, true_and, List.mem_toFinset, Finset.mem_singleton]
    constructor
    · intro ht
      rcases List.mem_cons.mp (hall t) with h | h
      · exact h
      · exact absurd h ht
    · rintro rfl; exact (List.nodup_cons.mp hnd).1
  rw [hz, Finset.singleton_biUnion]

/-- THE JOIN OF THE PIECES: every row of `L` held apart, written whole over a base of its own, and the one remaining row
    `z` written inside what is left of the buffer, are the whole buffer at any contents `G` that has each row's payload on
    that row. -/
theorem join_allL (hv : viewSet v = Finset.univ) (L : List (Fin R)) (z : Fin R) (hnd : (z :: L).Nodup) (hall : ∀ r, r ∈ z :: L)
    (b : Fin R → Buf Val (v.loc c)) (G : Buf Val (v.loc c)) (P : Fin R → (⟨1, ![C]⟩ : Shape).Idx → Val e)
    (hG : ∀ (r : Fin R) (k : Fin C), cast (congrArg Val v.elt_eq.symm) (P r (ix1 k)) = G (v.emb (ix2 r k))) :
    (BI.sep (v.loc c ↦[L.foldl (fun A r => A \ rowSet v r) Finset.univ]{q} ((rowV v z).write Val (b z) (P z) Finset.univ))
        (bigSepL L fun r => (v.loc c ↦[rowSet v r]{q} ((rowV v r).write Val (b r) (P r) Finset.univ))) : sProp 𝕄)
      = (v.loc c ↦{q} G) := by
  have hpiece : ∀ r : Fin R, (v.loc c ↦[rowSet v r]{q} ((rowV v r).write Val (b r) (P r) Finset.univ) : sProp 𝕄) = (v.loc c ↦[rowSet v r]{q} G) :=
    fun r => piece_congr v q ![r.val, 0] (inb_row r) (numel_row _ _) r rfl rfl (b r) G (P r) (hG r)
  rw [rest_eq_row v hv L z hnd hall, show (fun r => (v.loc c ↦[rowSet v r]{q} ((rowV v r).write Val (b r) (P r) Finset.univ) : sProp 𝕄))
      = fun r => (v.loc c ↦[rowSet v r]{q} G) from funext hpiece, hpiece z, ← bigSepL_cons z L (fun r => (v.loc c ↦[rowSet v r]{q} G : sProp 𝕄)),
    ← bigSep_eq_bigSepL (z :: L) hnd,
    show (z :: L).toFinset = (Finset.univ : Finset (Fin R)) from Finset.eq_univ_iff_forall.mpr fun r => List.mem_toFinset.mpr (hall r),
    rows_join v q G, hv]

set_option maxHeartbeats 0 in
set_option maxRecDepth 100000 in
/-- The same for a buffer of 128 rows of 8192 elements, every base its own argument: the rest, holding row 127, then the
    rows 0 … 126 in order. -/
theorem join_all {c : Thread nD τ} {sp : Space} {e : EltTy} (v : View sig c.2.kind sp ⟨2, ![128, 8192]⟩ e) (hv : viewSet v = Finset.univ)
    (q : PosShare TreeShare) {b0 b1 b2 b3 b4 b5 b6 b7 b8 b9 b10 b11 b12 b13 b14 b15 b16 b17 b18 b19 b20 b21 b22 b23 b24 b25 b26 b27 b28 b29 b30 b31 b32 b33 b34 b35 b36 b37 b38 b39 b40 b41 b42 b43 b44 b45 b46 b47 b48 b49 b50 b51 b52 b53 b54 b55 b56 b57 b58 b59 b60 b61 b62 b63 b64 b65 b66 b67 b68 b69 b70 b71 b72 b73 b74 b75 b76 b77 b78 b79 b80 b81 b82 b83 b84 b85 b86 b87 b88 b89 b90 b91 b92 b93 b94 b95 b96 b97 b98 b99 b100 b101 b102 b103 b104 b105 b106 b107 b108 b109 b110 b111 b112 b113 b114 b115 b116 b117 b118 b119 b120 b121 b122 b123 b124 b125 b126 b127 : Buf Val (v.loc c)}
    (P : Fin 128 → (⟨1, ![8192]⟩ : Shape).Idx → Val e) (G : Buf Val (v.loc c))
    (hG : ∀ (r : Fin 128) (k : Fin 8192), cast (congrArg Val v.elt_eq.symm) (P r (ix1 k)) = G (v.emb (ix2 r k))) :
    (iprop((v.loc c ↦[((((((((((((((((((((((((((((((((((((((((((((((((((((((((((((((((((((((((((((((((((((((((((((((((((((((((((((((((((((((((((((((((Finset.univ : Finset (Idx (v.loc c))) \ (rowV v (0 : Fin 128)).set) \ (rowV v (1 : Fin 128)).set) \ (rowV v (2 : Fin 128)).set) \ (rowV v (3 : Fin 128)).set) \ (rowV v (4 : Fin 128)).set) \ (rowV v (5 : Fin 128)).set) \ (rowV v (6 : Fin 128)).set) \ (rowV v (7 : Fin 128)).set) \ (rowV v (8 : Fin 128)).set) \ (rowV v (9 : Fin 128)).set) \ (rowV v (10 : Fin 128)).set) \ (rowV v (11 : Fin 128)).set) \ (rowV v (12 : Fin 128)).set) \ (rowV v (13 : Fin 128)).set) \ (rowV v (14 : Fin 128)).set) \ (rowV v (15 : Fin 128)).set) \ (rowV v (16 : Fin 128)).set) \ (rowV v (17 : Fin 128)).set) \ (rowV v (18 : Fin 128)).set) \ (rowV v (19 : Fin 128)).set) \ (rowV v (20 : Fin 128)).set) \ (rowV v (21 : Fin 128)).set) \ (rowV v (22 : Fin 128)).set) \ (rowV v (23 : Fin 128)).set) \ (rowV v (24 : Fin 128)).set) \ (rowV v (25 : Fin 128)).set) \ (rowV v (26 : Fin 128)).set) \ (rowV v (27 : Fin 128)).set) \ (rowV v (28 : Fin 128)).set) \ (rowV v (29 : Fin 128)).set) \ (rowV v (30 : Fin 128)).set) \ (rowV v (31 : Fin 128)).set) \ (rowV v (32 : Fin 128)).set) \ (rowV v (33 : Fin 128)).set) \ (rowV v (34 : Fin 128)).set) \ (rowV v (35 : Fin 128)).set) \ (rowV v (36 : Fin 128)).set) \ (rowV v (37 : Fin 128)).set) \ (rowV v (38 : Fin 128)).set) \ (rowV v (39 : Fin 128)).set) \ (rowV v (40 : Fin 128)).set) \ (rowV v (41 : Fin 128)).set) \ (rowV v (42 : Fin 128)).set) \ (rowV v (43 : Fin 128)).set) \ (rowV v (44 : Fin 128)).set) \ (rowV v (45 : Fin 128)).set) \ (rowV v (46 : Fin 128)).set) \ (rowV v (47 : Fin 128)).set) \ (rowV v (48 : Fin 128)).set) \ (rowV v (49 : Fin 128)).set) \ (rowV v (50 : Fin 128)).set) \ (rowV v (51 : Fin 128)).set) \ (rowV v (52 : Fin 128)).set) \ (rowV v (53 : Fin 128)).set) \ (rowV v (54 : Fin 128)).set) \ (rowV v (55 : Fin 128)).set) \ (rowV v (56 : Fin 128)).set) \ (rowV v (57 : Fin 128)).set) \ (rowV v (58 : Fin 128)).set) \ (rowV v (59 : Fin 128)).set) \ (rowV v (60 : Fin 128)).set) \ (rowV v (61 : Fin 128)).set) \ (rowV v (62 : Fin 128)).set) \ (rowV v (63 : Fin 128)).set) \ (rowV v (64 : Fin 128)).set) \ (rowV v (65 : Fin 128)).set) \ (rowV v (66 : Fin 128)).set) \ (rowV v (67 : Fin 128)).set) \ (rowV v (68 : Fin 128)).set) \ (rowV v (69 : Fin 128)).set) \ (rowV v (70 : Fin 128)).set) \ (rowV v (71 : Fin 128)).set) \ (rowV v (72 : Fin 128)).set) \ (rowV v (73 : Fin 128)).set) \ (rowV v (74 : Fin 128)).set) \ (rowV v (75 : Fin 128)).set) \ (rowV v (76 : Fin 128)).set) \ (rowV v (77 : Fin 128)).set) \ (rowV v (78 : Fin 128)).set) \ (rowV v (79 : Fin 128)).set) \ (rowV v (80 : Fin 128)).set) \ (rowV v (81 : Fin 128)).set) \ (rowV v (82 : Fin 128)).set) \ (rowV v (83 : Fin 128)).set) \ (rowV v (84 : Fin 128)).set) \ (rowV v (85 : Fin 128)).set) \ (rowV v (86 : Fin 128)).set) \ (rowV v (87 : Fin 128)).set) \ (rowV v (88 : Fin 128)).set) \ (rowV v (89 : Fin 128)).set) \ (rowV v (90 : Fin 128)).set) \ (rowV v (91 : Fin 128)).set) \ (rowV v (92 : Fin 128)).set) \ (rowV v (93 : Fin 128)).set) \ (rowV v (94 : Fin 128)).set) \ (rowV v (95 : Fin 128)).set) \ (rowV v (96 : Fin 128)).set) \ (rowV v (97 : Fin 128)).set) \ (rowV v (98 : Fin 128)).set) \ (rowV v (99 : Fin 128)).set) \ (rowV v (100 : Fin 128)).set) \ (rowV v (101 : Fin 128)).set) \ (rowV v (102 : Fin 128)).set) \ (rowV v (103 : Fin 128)).set) \ (rowV v (104 : Fin 128)).set) \ (rowV v (105 : Fin 128)).set) \ (rowV v (106 : Fin 128)).set) \ (rowV v (107 : Fin 128)).set) \ (rowV v (108 : Fin 128)).set) \ (rowV v (109 : Fin 128)).set) \ (rowV v (110 : Fin 128)).set) \ (rowV v (111 : Fin 128)).set) \ (rowV v (112 : Fin 128)).set) \ (rowV v (113 : Fin 128)).set) \ (rowV v (114 : Fin 128)).set) \ (rowV v (115 : Fin 128)).set) \ (rowV v (116 : Fin 128)).set) \ (rowV v (117 : Fin 128)).set) \ (rowV v (118 : Fin 128)).set) \ (rowV v (119 : Fin 128)).set) \ (rowV v (120 : Fin 128)).set) \ (rowV v (121 : Fin 128)).set) \ (rowV v (122 : Fin 128)).set) \ (rowV v (123 : Fin 128)).set) \ (rowV v (124 : Fin 128)).set) \ (rowV v (125 : Fin 128)).set) \ (rowV v (126 : Fin 128)).set)]{q} ((rowV v (127 : Fin 128)).write Val b127 (P 127) Finset.univ))
        ∗ (v.loc c ↦[(rowV v (0 : Fin 128)).set]{q} ((rowV v (0 : Fin 128)).write Val b0 (P 0) Finset.univ))
        ∗ (v.loc c ↦[(rowV v (1 : Fin 128)).set]{q} ((rowV v (1 : Fin 128)).write Val b1 (P 1) Finset.univ))
        ∗ (v.loc c ↦[(rowV v (2 : Fin 128)).set]{q} ((rowV v (2 : Fin 128)).write Val b2 (P 2) Finset.univ))
        ∗ (v.loc c ↦[(rowV v (3 : Fin 128)).set]{q} ((rowV v (3 : Fin 128)).write Val b3 (P 3) Finset.univ))
        ∗ (v.loc c ↦[(rowV v (4 : Fin 128)).set]{q} ((rowV v (4 : Fin 128)).write Val b4 (P 4) Finset.univ))
        ∗ (v.loc c ↦[(rowV v (5 : Fin 128)).set]{q} ((rowV v (5 : Fin 128)).write Val b5 (P 5) Finset.univ))
        ∗ (v.loc c ↦[(rowV v (6 : Fin 128)).set]{q} ((rowV v (6 : Fin 128)).write Val b6 (P 6) Finset.univ))
        ∗ (v.loc c ↦[(rowV v (7 : Fin 128)).set]{q} ((rowV v (7 : Fin 128)).write Val b7 (P 7) Finset.univ))
        ∗ (v.loc c ↦[(rowV v (8 : Fin 128)).set]{q} ((rowV v (8 : Fin 128)).write Val b8 (P 8) Finset.univ))
        ∗ (v.loc c ↦[(rowV v (9 : Fin 128)).set]{q} ((rowV v (9 : Fin 128)).write Val b9 (P 9) Finset.univ))
        ∗ (v.loc c ↦[(rowV v (10 : Fin 128)).set]{q} ((rowV v (10 : Fin 128)).write Val b10 (P 10) Finset.univ))
        ∗ (v.loc c ↦[(rowV v (11 : Fin 128)).set]{q} ((rowV v (11 : Fin 128)).write Val b11 (P 11) Finset.univ))
        ∗ (v.loc c ↦[(rowV v (12 : Fin 128)).set]{q} ((rowV v (12 : Fin 128)).write Val b12 (P 12) Finset.univ))
        ∗ (v.loc c ↦[(rowV v (13 : Fin 128)).set]{q} ((rowV v (13 : Fin 128)).write Val b13 (P 13) Finset.univ))
        ∗ (v.loc c ↦[(rowV v (14 : Fin 128)).set]{q} ((rowV v (14 : Fin 128)).write Val b14 (P 14) Finset.univ))
        ∗ (v.loc c ↦[(rowV v (15 : Fin 128)).set]{q} ((rowV v (15 : Fin 128)).write Val b15 (P 15) Finset.univ))
        ∗ (v.loc c ↦[(rowV v (16 : Fin 128)).set]{q} ((rowV v (16 : Fin 128)).write Val b16 (P 16) Finset.univ))
        ∗ (v.loc c ↦[(rowV v (17 : Fin 128)).set]{q} ((rowV v (17 : Fin 128)).write Val b17 (P 17) Finset.univ))
        ∗ (v.loc c ↦[(rowV v (18 : Fin 128)).set]{q} ((rowV v (18 : Fin 128)).write Val b18 (P 18) Finset.univ))
        ∗ (v.loc c ↦[(rowV v (19 : Fin 128)).set]{q} ((rowV v (19 : Fin 128)).write Val b19 (P 19) Finset.univ))
        ∗ (v.loc c ↦[(rowV v (20 : Fin 128)).set]{q} ((rowV v (20 : Fin 128)).write Val b20 (P 20) Finset.univ))
        ∗ (v.loc c ↦[(rowV v (21 : Fin 128)).set]{q} ((rowV v (21 : Fin 128)).write Val b21 (P 21) Finset.univ))
        ∗ (v.loc c ↦[(rowV v (22 : Fin 128)).set]{q} ((rowV v (22 : Fin 128)).write Val b22 (P 22) Finset.univ))
        ∗ (v.loc c ↦[(rowV v (23 : Fin 128)).set]{q} ((rowV v (23 : Fin 128)).write Val b23 (P 23) Finset.univ))
        ∗ (v.loc c ↦[(rowV v (24 : Fin 128)).set]{q} ((rowV v (24 : Fin 128)).write Val b24 (P 24) Finset.univ))
        ∗ (v.loc c ↦[(rowV v (25 : Fin 128)).set]{q} ((rowV v (25 : Fin 128)).write Val b25 (P 25) Finset.univ))
        ∗ (v.loc c ↦[(rowV v (26 : Fin 128)).set]{q} ((rowV v (26 : Fin 128)).write Val b26 (P 26) Finset.univ))
        ∗ (v.loc c ↦[(rowV v (27 : Fin 128)).set]{q} ((rowV v (27 : Fin 128)).write Val b27 (P 27) Finset.univ))
        ∗ (v.loc c ↦[(rowV v (28 : Fin 128)).set]{q} ((rowV v (28 : Fin 128)).write Val b28 (P 28) Finset.univ))
        ∗ (v.loc c ↦[(rowV v (29 : Fin 128)).set]{q} ((rowV v (29 : Fin 128)).write Val b29 (P 29) Finset.univ))
        ∗ (v.loc c ↦[(rowV v (30 : Fin 128)).set]{q} ((rowV v (30 : Fin 128)).write Val b30 (P 30) Finset.univ))
        ∗ (v.loc c ↦[(rowV v (31 : Fin 128)).set]{q} ((rowV v (31 : Fin 128)).write Val b31 (P 31) Finset.univ))
        ∗ (v.loc c ↦[(rowV v (32 : Fin 128)).set]{q} ((rowV v (32 : Fin 128)).write Val b32 (P 32) Finset.univ))
        ∗ (v.loc c ↦[(rowV v (33 : Fin 128)).set]{q} ((rowV v (33 : Fin 128)).write Val b33 (P 33) Finset.univ))
        ∗ (v.loc c ↦[(rowV v (34 : Fin 128)).set]{q} ((rowV v (34 : Fin 128)).write Val b34 (P 34) Finset.univ))
        ∗ (v.loc c ↦[(rowV v (35 : Fin 128)).set]{q} ((rowV v (35 : Fin 128)).write Val b35 (P 35) Finset.univ))
        ∗ (v.loc c ↦[(rowV v (36 : Fin 128)).set]{q} ((rowV v (36 : Fin 128)).write Val b36 (P 36) Finset.univ))
        ∗ (v.loc c ↦[(rowV v (37 : Fin 128)).set]{q} ((rowV v (37 : Fin 128)).write Val b37 (P 37) Finset.univ))
        ∗ (v.loc c ↦[(rowV v (38 : Fin 128)).set]{q} ((rowV v (38 : Fin 128)).write Val b38 (P 38) Finset.univ))
        ∗ (v.loc c ↦[(rowV v (39 : Fin 128)).set]{q} ((rowV v (39 : Fin 128)).write Val b39 (P 39) Finset.univ))
        ∗ (v.loc c ↦[(rowV v (40 : Fin 128)).set]{q} ((rowV v (40 : Fin 128)).write Val b40 (P 40) Finset.univ))
        ∗ (v.loc c ↦[(rowV v (41 : Fin 128)).set]{q} ((rowV v (41 : Fin 128)).write Val b41 (P 41) Finset.univ))
        ∗ (v.loc c ↦[(rowV v (42 : Fin 128)).set]{q} ((rowV v (42 : Fin 128)).write Val b42 (P 42) Finset.univ))
        ∗ (v.loc c ↦[(rowV v (43 : Fin 128)).set]{q} ((rowV v (43 : Fin 128)).write Val b43 (P 43) Finset.univ))
        ∗ (v.loc c ↦[(rowV v (44 : Fin 128)).set]{q} ((rowV v (44 : Fin 128)).write Val b44 (P 44) Finset.univ))
        ∗ (v.loc c ↦[(rowV v (45 : Fin 128)).set]{q} ((rowV v (45 : Fin 128)).write Val b45 (P 45) Finset.univ))
        ∗ (v.loc c ↦[(rowV v (46 : Fin 128)).set]{q} ((rowV v (46 : Fin 128)).write Val b46 (P 46) Finset.univ))
        ∗ (v.loc c ↦[(rowV v (47 : Fin 128)).set]{q} ((rowV v (47 : Fin 128)).write Val b47 (P 47) Finset.univ))
        ∗ (v.loc c ↦[(rowV v (48 : Fin 128)).set]{q} ((rowV v (48 : Fin 128)).write Val b48 (P 48) Finset.univ))
        ∗ (v.loc c ↦[(rowV v (49 : Fin 128)).set]{q} ((rowV v (49 : Fin 128)).write Val b49 (P 49) Finset.univ))
        ∗ (v.loc c ↦[(rowV v (50 : Fin 128)).set]{q} ((rowV v (50 : Fin 128)).write Val b50 (P 50) Finset.univ))
        ∗ (v.loc c ↦[(rowV v (51 : Fin 128)).set]{q} ((rowV v (51 : Fin 128)).write Val b51 (P 51) Finset.univ))
        ∗ (v.loc c ↦[(rowV v (52 : Fin 128)).set]{q} ((rowV v (52 : Fin 128)).write Val b52 (P 52) Finset.univ))
        ∗ (v.loc c ↦[(rowV v (53 : Fin 128)).set]{q} ((rowV v (53 : Fin 128)).write Val b53 (P 53) Finset.univ))
        ∗ (v.loc c ↦[(rowV v (54 : Fin 128)).set]{q} ((rowV v (54 : Fin 128)).write Val b54 (P 54) Finset.univ))
        ∗ (v.loc c ↦[(rowV v (55 : Fin 128)).set]{q} ((rowV v (55 : Fin 128)).write Val b55 (P 55) Finset.univ))
        ∗ (v.loc c ↦[(rowV v (56 : Fin 128)).set]{q} ((rowV v (56 : Fin 128)).write Val b56 (P 56) Finset.univ))
        ∗ (v.loc c ↦[(rowV v (57 : Fin 128)).set]{q} ((rowV v (57 : Fin 128)).write Val b57 (P 57) Finset.univ))
        ∗ (v.loc c ↦[(rowV v (58 : Fin 128)).set]{q} ((rowV v (58 : Fin 128)).write Val b58 (P 58) Finset.univ))
        ∗ (v.loc c ↦[(rowV v (59 : Fin 128)).set]{q} ((rowV v (59 : Fin 128)).write Val b59 (P 59) Finset.univ))
        ∗ (v.loc c ↦[(rowV v (60 : Fin 128)).set]{q} ((rowV v (60 : Fin 128)).write Val b60 (P 60) Finset.univ))
        ∗ (v.loc c ↦[(rowV v (61 : Fin 128)).set]{q} ((rowV v (61 : Fin 128)).write Val b61 (P 61) Finset.univ))
        ∗ (v.loc c ↦[(rowV v (62 : Fin 128)).set]{q} ((rowV v (62 : Fin 128)).write Val b62 (P 62) Finset.univ))
        ∗ (v.loc c ↦[(rowV v (63 : Fin 128)).set]{q} ((rowV v (63 : Fin 128)).write Val b63 (P 63) Finset.univ))
        ∗ (v.loc c ↦[(rowV v (64 : Fin 128)).set]{q} ((rowV v (64 : Fin 128)).write Val b64 (P 64) Finset.univ))
        ∗ (v.loc c ↦[(rowV v (65 : Fin 128)).set]{q} ((rowV v (65 : Fin 128)).write Val b65 (P 65) Finset.univ))
        ∗ (v.loc c ↦[(rowV v (66 : Fin 128)).set]{q} ((rowV v (66 : Fin 128)).write Val b66 (P 66) Finset.univ))
        ∗ (v.loc c ↦[(rowV v (67 : Fin 128)).set]{q} ((rowV v (67 : Fin 128)).write Val b67 (P 67) Finset.univ))
        ∗ (v.loc c ↦[(rowV v (68 : Fin 128)).set]{q} ((rowV v (68 : Fin 128)).write Val b68 (P 68) Finset.univ))
        ∗ (v.loc c ↦[(rowV v (69 : Fin 128)).set]{q} ((rowV v (69 : Fin 128)).write Val b69 (P 69) Finset.univ))
        ∗ (v.loc c ↦[(rowV v (70 : Fin 128)).set]{q} ((rowV v (70 : Fin 128)).write Val b70 (P 70) Finset.univ))
        ∗ (v.loc c ↦[(rowV v (71 : Fin 128)).set]{q} ((rowV v (71 : Fin 128)).write Val b71 (P 71) Finset.univ))
        ∗ (v.loc c ↦[(rowV v (72 : Fin 128)).set]{q} ((rowV v (72 : Fin 128)).write Val b72 (P 72) Finset.univ))
        ∗ (v.loc c ↦[(rowV v (73 : Fin 128)).set]{q} ((rowV v (73 : Fin 128)).write Val b73 (P 73) Finset.univ))
        ∗ (v.loc c ↦[(rowV v (74 : Fin 128)).set]{q} ((rowV v (74 : Fin 128)).write Val b74 (P 74) Finset.univ))
        ∗ (v.loc c ↦[(rowV v (75 : Fin 128)).set]{q} ((rowV v (75 : Fin 128)).write Val b75 (P 75) Finset.univ))
        ∗ (v.loc c ↦[(rowV v (76 : Fin 128)).set]{q} ((rowV v (76 : Fin 128)).write Val b76 (P 76) Finset.univ))
        ∗ (v.loc c ↦[(rowV v (77 : Fin 128)).set]{q} ((rowV v (77 : Fin 128)).write Val b77 (P 77) Finset.univ))
        ∗ (v.loc c ↦[(rowV v (78 : Fin 128)).set]{q} ((rowV v (78 : Fin 128)).write Val b78 (P 78) Finset.univ))
        ∗ (v.loc c ↦[(rowV v (79 : Fin 128)).set]{q} ((rowV v (79 : Fin 128)).write Val b79 (P 79) Finset.univ))
        ∗ (v.loc c ↦[(rowV v (80 : Fin 128)).set]{q} ((rowV v (80 : Fin 128)).write Val b80 (P 80) Finset.univ))
        ∗ (v.loc c ↦[(rowV v (81 : Fin 128)).set]{q} ((rowV v (81 : Fin 128)).write Val b81 (P 81) Finset.univ))
        ∗ (v.loc c ↦[(rowV v (82 : Fin 128)).set]{q} ((rowV v (82 : Fin 128)).write Val b82 (P 82) Finset.univ))
        ∗ (v.loc c ↦[(rowV v (83 : Fin 128)).set]{q} ((rowV v (83 : Fin 128)).write Val b83 (P 83) Finset.univ))
        ∗ (v.loc c ↦[(rowV v (84 : Fin 128)).set]{q} ((rowV v (84 : Fin 128)).write Val b84 (P 84) Finset.univ))
        ∗ (v.loc c ↦[(rowV v (85 : Fin 128)).set]{q} ((rowV v (85 : Fin 128)).write Val b85 (P 85) Finset.univ))
        ∗ (v.loc c ↦[(rowV v (86 : Fin 128)).set]{q} ((rowV v (86 : Fin 128)).write Val b86 (P 86) Finset.univ))
        ∗ (v.loc c ↦[(rowV v (87 : Fin 128)).set]{q} ((rowV v (87 : Fin 128)).write Val b87 (P 87) Finset.univ))
        ∗ (v.loc c ↦[(rowV v (88 : Fin 128)).set]{q} ((rowV v (88 : Fin 128)).write Val b88 (P 88) Finset.univ))
        ∗ (v.loc c ↦[(rowV v (89 : Fin 128)).set]{q} ((rowV v (89 : Fin 128)).write Val b89 (P 89) Finset.univ))
        ∗ (v.loc c ↦[(rowV v (90 : Fin 128)).set]{q} ((rowV v (90 : Fin 128)).write Val b90 (P 90) Finset.univ))
        ∗ (v.loc c ↦[(rowV v (91 : Fin 128)).set]{q} ((rowV v (91 : Fin 128)).write Val b91 (P 91) Finset.univ))
        ∗ (v.loc c ↦[(rowV v (92 : Fin 128)).set]{q} ((rowV v (92 : Fin 128)).write Val b92 (P 92) Finset.univ))
        ∗ (v.loc c ↦[(rowV v (93 : Fin 128)).set]{q} ((rowV v (93 : Fin 128)).write Val b93 (P 93) Finset.univ))
        ∗ (v.loc c ↦[(rowV v (94 : Fin 128)).set]{q} ((rowV v (94 : Fin 128)).write Val b94 (P 94) Finset.univ))
        ∗ (v.loc c ↦[(rowV v (95 : Fin 128)).set]{q} ((rowV v (95 : Fin 128)).write Val b95 (P 95) Finset.univ))
        ∗ (v.loc c ↦[(rowV v (96 : Fin 128)).set]{q} ((rowV v (96 : Fin 128)).write Val b96 (P 96) Finset.univ))
        ∗ (v.loc c ↦[(rowV v (97 : Fin 128)).set]{q} ((rowV v (97 : Fin 128)).write Val b97 (P 97) Finset.univ))
        ∗ (v.loc c ↦[(rowV v (98 : Fin 128)).set]{q} ((rowV v (98 : Fin 128)).write Val b98 (P 98) Finset.univ))
        ∗ (v.loc c ↦[(rowV v (99 : Fin 128)).set]{q} ((rowV v (99 : Fin 128)).write Val b99 (P 99) Finset.univ))
        ∗ (v.loc c ↦[(rowV v (100 : Fin 128)).set]{q} ((rowV v (100 : Fin 128)).write Val b100 (P 100) Finset.univ))
        ∗ (v.loc c ↦[(rowV v (101 : Fin 128)).set]{q} ((rowV v (101 : Fin 128)).write Val b101 (P 101) Finset.univ))
        ∗ (v.loc c ↦[(rowV v (102 : Fin 128)).set]{q} ((rowV v (102 : Fin 128)).write Val b102 (P 102) Finset.univ))
        ∗ (v.loc c ↦[(rowV v (103 : Fin 128)).set]{q} ((rowV v (103 : Fin 128)).write Val b103 (P 103) Finset.univ))
        ∗ (v.loc c ↦[(rowV v (104 : Fin 128)).set]{q} ((rowV v (104 : Fin 128)).write Val b104 (P 104) Finset.univ))
        ∗ (v.loc c ↦[(rowV v (105 : Fin 128)).set]{q} ((rowV v (105 : Fin 128)).write Val b105 (P 105) Finset.univ))
        ∗ (v.loc c ↦[(rowV v (106 : Fin 128)).set]{q} ((rowV v (106 : Fin 128)).write Val b106 (P 106) Finset.univ))
        ∗ (v.loc c ↦[(rowV v (107 : Fin 128)).set]{q} ((rowV v (107 : Fin 128)).write Val b107 (P 107) Finset.univ))
        ∗ (v.loc c ↦[(rowV v (108 : Fin 128)).set]{q} ((rowV v (108 : Fin 128)).write Val b108 (P 108) Finset.univ))
        ∗ (v.loc c ↦[(rowV v (109 : Fin 128)).set]{q} ((rowV v (109 : Fin 128)).write Val b109 (P 109) Finset.univ))
        ∗ (v.loc c ↦[(rowV v (110 : Fin 128)).set]{q} ((rowV v (110 : Fin 128)).write Val b110 (P 110) Finset.univ))
        ∗ (v.loc c ↦[(rowV v (111 : Fin 128)).set]{q} ((rowV v (111 : Fin 128)).write Val b111 (P 111) Finset.univ))
        ∗ (v.loc c ↦[(rowV v (112 : Fin 128)).set]{q} ((rowV v (112 : Fin 128)).write Val b112 (P 112) Finset.univ))
        ∗ (v.loc c ↦[(rowV v (113 : Fin 128)).set]{q} ((rowV v (113 : Fin 128)).write Val b113 (P 113) Finset.univ))
        ∗ (v.loc c ↦[(rowV v (114 : Fin 128)).set]{q} ((rowV v (114 : Fin 128)).write Val b114 (P 114) Finset.univ))
        ∗ (v.loc c ↦[(rowV v (115 : Fin 128)).set]{q} ((rowV v (115 : Fin 128)).write Val b115 (P 115) Finset.univ))
        ∗ (v.loc c ↦[(rowV v (116 : Fin 128)).set]{q} ((rowV v (116 : Fin 128)).write Val b116 (P 116) Finset.univ))
        ∗ (v.loc c ↦[(rowV v (117 : Fin 128)).set]{q} ((rowV v (117 : Fin 128)).write Val b117 (P 117) Finset.univ))
        ∗ (v.loc c ↦[(rowV v (118 : Fin 128)).set]{q} ((rowV v (118 : Fin 128)).write Val b118 (P 118) Finset.univ))
        ∗ (v.loc c ↦[(rowV v (119 : Fin 128)).set]{q} ((rowV v (119 : Fin 128)).write Val b119 (P 119) Finset.univ))
        ∗ (v.loc c ↦[(rowV v (120 : Fin 128)).set]{q} ((rowV v (120 : Fin 128)).write Val b120 (P 120) Finset.univ))
        ∗ (v.loc c ↦[(rowV v (121 : Fin 128)).set]{q} ((rowV v (121 : Fin 128)).write Val b121 (P 121) Finset.univ))
        ∗ (v.loc c ↦[(rowV v (122 : Fin 128)).set]{q} ((rowV v (122 : Fin 128)).write Val b122 (P 122) Finset.univ))
        ∗ (v.loc c ↦[(rowV v (123 : Fin 128)).set]{q} ((rowV v (123 : Fin 128)).write Val b123 (P 123) Finset.univ))
        ∗ (v.loc c ↦[(rowV v (124 : Fin 128)).set]{q} ((rowV v (124 : Fin 128)).write Val b124 (P 124) Finset.univ))
        ∗ (v.loc c ↦[(rowV v (125 : Fin 128)).set]{q} ((rowV v (125 : Fin 128)).write Val b125 (P 125) Finset.univ))
        ∗ (v.loc c ↦[(rowV v (126 : Fin 128)).set]{q} ((rowV v (126 : Fin 128)).write Val b126 (P 126) Finset.univ))) : sProp 𝕄)
      ⊢ (v.loc c ↦{q} G) :=
  Entails.of_eq (join_allL v q hv [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126] 127 (by decide) (by decide) ![b0, b1, b2, b3, b4, b5, b6, b7, b8, b9, b10, b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, b60, b61, b62, b63, b64, b65, b66, b67, b68, b69, b70, b71, b72, b73, b74, b75, b76, b77, b78, b79, b80, b81, b82, b83, b84, b85, b86, b87, b88, b89, b90, b91, b92, b93, b94, b95, b96, b97, b98, b99, b100, b101, b102, b103, b104, b105, b106, b107, b108, b109, b110, b111, b112, b113, b114, b115, b116, b117, b118, b119, b120, b121, b122, b123, b124, b125, b126, b127] G P hG)

end Cert.Kernel.Hand

end
-- ==== Proof.WBody.lean ====
/-
  The kernel body of the aggregation region, run once at symbolic operands.
  At grid point i the body reads, for each of the 128 edges r of its block, the two endpoint words of the prefetched
  tables at 128 i + r, starts the copy of the adjacency row each word names into row r of one of two scratch
  buffers — every copy on a semaphore cell of its own, 256 copies in flight, all reading the one adjacency array,
  which is therefore held as one read share per cell beside a remainder —, waits for all of them, loads both
  scratch buffers and the staged block of x whole, and stores the product of the two row blocks contracted against x
  into the staged output block. A row word is in range whenever the table's words are (hT1, hT2): that is the side
  condition each copy assumes. After the waits each scratch buffer is held row by row, every row at the row
  copied into it; the rows are joined into the whole buffer at the contents "row r is the r-th copied row" before the
  loads. What the body leaves in the output block is the witness of the subtype; the scratch buffers end at something, every cell back at zero, every read share returned.
-/
import proofs.«426739_j39281770889759_1_alg».proof.Proof.Gen.Kernel.Skeleton
import Idealize.ShloMosaic.Lib.Tactic
import Idealize.ShloMosaic.Lib.Pipeline.Kit
import proofs.«426739_j39281770889759_1_alg».proof.Proof.WJoin

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

open Lean Elab Term in
/-- `sepChain% lo hi "pre" "post"`: the separating conjunction of `pre k post` for `lo ≤ k < hi`. -/
elab "sepChain%" lo:num hi:num pre:str post:str : term <= ty => do
  let items := (List.range (hi.getNat - lo.getNat)).map fun j => s!"{pre.getString}{lo.getNat + j}{post.getString}"
  let s := "iprop(" ++ " ∗ ".intercalate items ++ ")"
  match Parser.runParserCategory (← getEnv) `term s with
  | .ok stx => elabTerm stx (some ty)
  | .error e => throwError e

open Lean Elab Tactic in
/-- Introduce a chain of hypotheses named `pre k` for `lo ≤ k < hi` out of hypothesis `H`. -/
elab "icasesChain" H:ident lo:num hi:num pre:str : tactic => do
  let items := (List.range (hi.getNat - lo.getNat)).map fun j => s!"{pre.getString}{lo.getNat + j}"
  let s := s!"icases {H.getId} with ⟨" ++ ", ".intercalate items ++ "⟩"
  match Parser.runParserCategory (← getEnv) `tactic s with
  | .ok stx => evalTactic stx
  | .error e => throwError e

open Lean Elab Tactic in
/-- Split the goal's first conjunct off with the hypotheses `pre k`, `lo ≤ k < hi`. -/
elab "isplitlChain" lo:num hi:num pre:str : tactic => do
  let items := (List.range (hi.getNat - lo.getNat)).map fun j => s!"{pre.getString}{lo.getNat + j}"
  let s := "isplitl [" ++ " ".intercalate items ++ "]"
  match Parser.runParserCategory (← getEnv) `tactic s with
  | .ok stx => evalTactic stx
  | .error e => throwError e

open Lean Elab Tactic in
/-- Close a chain `P lo ∗ … ∗ P (hi-1)` conjunct by conjunct from the hypotheses `pre k`. -/
elab "iexactChain" lo:num hi:num pre:str : tactic => do
  let n := hi.getNat - lo.getNat
  for j in [0:n] do
    let nm := s!"{pre.getString}{lo.getNat + j}"
    let s := if j + 1 < n then s!"(isplitl [{nm}]; (focus iexact {nm}))" else s!"iexact {nm}"
    match Parser.runParserCategory (← getEnv) `tactic s with
    | .ok stx => evalTactic stx
    | .error e => throwError e

open Lean Elab Term in
/-- The family `![pre 2 post, pre 4 post, …, pre 256 post]` of 128 terms. -/
elab "famEven%" pre:str post:str : term <= ty => do
  let items := (List.range 128).map fun r => s!"{pre.getString}{2 * r + 2}{post.getString}"
  let s := "![" ++ ", ".intercalate items ++ "]"
  match Parser.runParserCategory (← getEnv) `term s with
  | .ok stx => elabTerm stx (some ty)
  | .error e => throwError e

open Lean Elab Tactic in
/-- Join the 128 landed rows of one scratch buffer (hypotheses `H`, `H_2` … `H_128`) into the whole buffer held at
    "row r is the r-th copied row", the copied rows the named values `pre (2r+2) post`; the new hypothesis is `out`. -/
elab "ihaveJoin" out:str H:str buf:str pre:str post:str : tactic => do
  let q := "\""
  let fam := "(famEven% " ++ q ++ pre.getString ++ q ++ " " ++ q ++ post.getString ++ q ++ " : Fin 128 → (⟨1, ![8192]⟩ : Shape).Idx → Elt F .f32)"
  let names := " ".intercalate ((List.range 127).map fun j => s!"{H.getString}_{j + 2}")
  let s := "ihave " ++ out.getString ++ " := (join_all (c := (c : Thread nD τ)) (Memref.whole " ++ buf.getString ++
    ").view (View.set_whole _) fullShare " ++ fam ++ " (fun x => " ++ fam ++ " (x 0) (ix1 (x 1))) (fun _ _ => rfl)) $$ [" ++
    H.getString ++ " " ++ names ++ "]"
  match Parser.runParserCategory (← getEnv) `tactic s with
  | .ok stx => evalTactic stx
  | .error e => throwError e

/-- A word below 8192 names a row inside the [8192, 8192] array. -/
theorem chk_of_lt (v : BitVec 32) (h : v.toNat < 8192) :
    ∀ a : Fin 2, (![v.toNat, 0] : Fin 2 → Nat) a + S1x8192.size a ≤ S8192x8192.size a := by
  intro a; fin_cases a
  · show v.toNat + 1 ≤ 8192; omega
  · show 0 + 8192 ≤ 8192; omega

open Lean Elab Tactic Meta in
/-- Close a row-in-range side condition from the bound on the table whose contents the word was read from. -/
elab "chkDisch" h1:ident h2:ident f1:ident : tactic => do
  let g ← instantiateMVars (← getMainTarget)
  let some d1 := (← getLCtx).findFromUserName? f1.getId | throwError "chkDisch: no such table"
  if g.containsFVar d1.fvarId then evalTactic (← `(tactic| exact chk_of_lt _ ($h1 _)))
  else evalTactic (← `(tactic| exact chk_of_lt _ ($h2 _)))

abbrev semsAll (c : Dev nD) : sProp 𝕄 :=
  sepChain% 3 259 "semVal ((c : Thread nD τ), SemLoc.dma (" " : DmaSem sig)) 0"

abbrev toksAll (c : Dev nD) (fA : Bf (F := F) c (Memref.whole main_arg1)) : sProp 𝕄 :=
  sepChain% 3 259 "((Memref.whole main_arg1).view.loc (c : Thread nD τ) ↦{Transfers.shareTokN fullShare " "} fA)"

set_option maxHeartbeats 0 in
set_option maxRecDepth 100000 in
set_option sl_exec.dmaWindow true in
set_option sl_exec.rejoinHeartbeats 50 in
noncomputable def kernelRun (c : Dev nD) (i : grid0.Coords)
    (M3 : Memref sig .tc .vmem S8192x256 .bf16) (h3 : M3.IsWhole) (M5 : Memref sig .tc .vmem S128x256 .f32) (h5 : M5.IsWhole)
    (f1 : Bf (F := F) c (Memref.whole main_v1)) (f2 : Bf (F := F) c (Memref.whole main_v3)) (f3 : Bf (F := F) c M3)
    (fA : Bf (F := F) c (Memref.whole main_arg1))
    (hT1 : ∀ j, (f1 j).toNat < 8192) (hT2 : ∀ j, (f2 j).toNat < 8192) :
    { W : Bf (F := F) c M5 //
      ∀ (f5 : Bf (F := F) c M5) (f6 : Bf (F := F) c (Memref.whole cc0_scratch0)) (f7 : Bf (F := F) c (Memref.whole cc0_scratch1))
        (W0 : Waits sig Unit) (Q : PUnit → sProp 𝕄),
        iprop(pt c (Memref.whole main_v1) f1 ∗ pt c (Memref.whole main_v3) f2 ∗ pt c M3 f3 ∗ pt c M5 f5
          ∗ pt c (Memref.whole cc0_scratch0) f6 ∗ pt c (Memref.whole cc0_scratch1) f7
          ∗ ((Memref.whole main_arg1).view.loc (c : Thread nD τ) ↦{Transfers.shareDrop fullShare 259} fA)
          ∗ toksAll c fA ∗ semsAll c ∗ owes (c : Thread nD τ) 0 W0
          ∗ (iprop(pt c (Memref.whole main_v1) f1 ∗ pt c (Memref.whole main_v3) f2 ∗ pt c M3 f3 ∗ pt c M5 W
                ∗ (∃ f, pt c (Memref.whole cc0_scratch0) f) ∗ (∃ f, pt c (Memref.whole cc0_scratch1) f)
                ∗ ((Memref.whole main_arg1).view.loc (c : Thread nD τ) ↦{Transfers.shareDrop fullShare 259} fA)
                ∗ toksAll c fA ∗ semsAll c ∗ ∃ W, owes (c : Thread nD τ) 0 W) -∗ Q ⟨⟩))
        ⊢ wp frame (wpE (defs₀ (F := F)) Variants.none c none) Set.univ
            (cc0__gnn_agg_kernel i (Memref.whole main_v1) (Memref.isWhole_whole _) (Memref.whole main_v3) (Memref.isWhole_whole _)
              M3 h3 (Memref.whole main_arg1) (Memref.isWhole_whole _) M5 h5
              (Memref.whole cc0_scratch0) (Memref.isWhole_whole _) (Memref.whole cc0_scratch1) (Memref.isWhole_whole _) cc0_scratch2 cc0_scratch3) Q } := by
  refine ⟨?_, fun f5 f6 f7 W0 Q => ?run⟩
  case run =>
    unfold toksAll semsAll
    iintro ⟨H1, H2, H3, H5, H6, H7, HAr, HT, HS, HO, Hk⟩
    icasesChain HT 3 259 "HT"
    icasesChain HS 3 259 "HS"
    sl_exec_parts! (disch := chkDisch hT1 hT2 f1)
    ihaveJoin "H6w" "H6" "cc0_scratch0" "kernelRun.sl.dma" " c i f1 fA hT1"
    · (isplitl [H6]; focus iexact H6)
      iexactChain 2 129 "H6_"
    ihaveJoin "H7w" "H7" "cc0_scratch1" "kernelRun.sl.dma" "_1 c i f2 fA hT2"
    · (isplitl [H7]; focus iexact H7)
      iexactChain 2 129 "H7_"
    sl_exec!
    sl_step
    iapply Hk
    isplitl [H1]; · iexact H1
    isplitl [H2]; · iexact H2
    isplitl [H3]; · iexact H3
    isplitl [H5]; · iexact H5
    isplitl [H6w]; · iexists _; iexact H6w
    isplitl [H7w]; · iexists _; iexact H7w
    isplitl [HAr]; · iexact HAr
    isplitlChain 3 259 "HT"
    · iexactChain 3 259 "HT"
    isplitlChain 3 259 "HS"
    · iexactChain 3 259 "HS"
    iexists _; iexact HO

end Cert.Kernel.Hand

end
-- ==== Proof.WData.lean ====
/-
  The kernel region of the kernel program, its data: the kernel's own semaphores, the valuation the
  region is entered at, the pipeline's proof data and the statement of the body obligation.

  @main is 23 host operations, the kernel region, then nine stretches of host operations. The region's two
  prefetched tables hold what the host operations before it computed; the adjacency matrix stays in HBM and is
  read by the body's own transfers, so its buffer is handed to the region invariant and given back at the exit.
-/
import proofs.«426739_j39281770889759_1_alg».proof.Proof.WBody
import proofs.«426739_j39281770889759_1_alg».proof.Proof.Gen.Kernel.Launch
import Idealize.ShloMosaic.Lib.Pipeline.Kit
import Idealize.ShloMosaic.Lib.Pipeline.Regions
import Idealize.ShloMosaic.Lib.Pipeline.RegionsLoop
import Idealize.ShloMosaic.Lib.Pipeline.FrameSuffix

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The kernel's own semaphores: the 256 DMA semaphores of its two scratch arrays, the pool's 3 … 258
    (the first array is 3 … 130, the second 131 … 258). -/
abbrev osem : Fin 256 → SemLoc sig := fun k => .dma ⟨3 + k.val, by have := k.isLt; show 3 + k.val < 259; omega⟩

/-- They are scoped, distinct, and none is a staging semaphore. -/
theorem ownSemFacts : Pipeline.OwnSemFacts spec0 osem := by decide

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the 23 operations before it have run. -/
abbrev Vv (c : Dev nD) : Valuation τ sig (Elt F) := StableHlo.after hostOps0 (V₀ m c)
abbrev V (c : Dev nD) (b : Ref sig .tc) : Buf (Elt F) ((c : Thread nD τ).loc b) := Vv m c b

/-- The two tables as the host operations computed them. -/
abbrev tbl (c : Dev nD) : pre0.Contents (Elt F) := fun k => V m c (pre0.ref k)

/-! ## The pipeline's proof data, at admissible contents `a` of the tables -/

variable (a : (pcfg0 (F := F)).Adm)

/-- The adjacency matrix's buffer, whole, as the host operations left it (no operation writes it). -/
abbrev ptAdj (c : Dev nD) : sProp 𝕄 := ((c : Thread nD τ).loc main_arg1) ↦{fullShare} V m c main_arg1

/-- The first grid point. -/
theorem N_a : (cfg0 a).N = 64 := N_0
abbrev t0 : Fin (cfg0 a).N := ⟨0, by rw [N_a]; decide⟩

/-- The features' block (the whole bf16 array) as the fetch at the first point stages it. -/
abbrev stg (c : Dev nD) : ((cfg0 a).win 0).block.Idx → Elt F ((cfg0 a).win 0).elt :=
  (((cfg0 a).win 0).blk (t0 a)).view.read (Elt F) (V m c main_v18)

-- What the body stores into the result's block at each point: a parameter of the proof data.
variable (outBlk : (c : Dev nD) → Fin (cfg0 a).N → ((cfg0 a).win 1).block.Idx → Elt F ((cfg0 a).win 1).elt)

/-- The invariant between points, the same at every point: the two tables held whole at `a`'s contents, the two
    scratch buffers at some contents, the adjacency matrix whole at its entry contents, the 256 counters at zero. -/
def Φc (c : Dev nD) : sProp 𝕄 :=
  iprop(Pipeline.prefHeld pre0 c (fun _ => fullShare) a.1
    ∗ Pipeline.scopedRest (Ix := Unit) (Name := ℕ) (U := UU nD τ) (Lvl := ℕ) (Val := Elt F) spec0 c
    ∗ ptAdj m c
    ∗ Pipeline.ownSems0 (Ix := Unit) (Name := ℕ) (U := UU nD τ) (Lvl := ℕ) (Val := Elt F) (τ := τ) osem c)

/-- The proof data on core `c`: the arrays at their entry contents; after the body the features' buffer as fetched
    and the result's block at `outBlk`; the invariant; nothing owed; the full share. -/
def dats (_ : Fin 1) (c : Dev nD) : Dat τ (Elt F) Unit ℕ (UU nD τ) ℕ (cfg0 a) c where
  A w := V m c (Pipeline.arrRef spec0 w)
  after w t := match w with
    | ⟨0, _⟩ => stg m a c
    | ⟨1, _⟩ => outBlk c t
  Φ _ := Φc m a c
  q _ := fullShare
  owed _ := 0

abbrev 𝒱₀ : Variants := Variants.none

/-- The body obligation of the region, as the launch takes it. -/
abbrev BodyStmt (c : Dev nD) : Prop := BodyObligation (dats m a outBlk 0 c) (defs₀ (F := F)) 𝒱₀ () Set.univ

end Cert.Kernel.Hand

end
-- ==== Proof.WLaunch.lean ====
/-
  The launch of @main around the kernel region, for the kernel program: @main as a list of segments —
  the stretch of host operations before the region, the region, the nine stretches after it — run by the library's
  theorem for such lists, from the region's body obligation and the fact that the entry valuation has the tables
  at the contents the pipeline is pinned at.
-/
import proofs.«426739_j39281770889759_1_alg».proof.Proof.WData
import Idealize.ShloMosaic.Lib.Pipeline.Kit
import Idealize.ShloMosaic.Lib.Pipeline.Regions
import Idealize.ShloMosaic.Lib.Pipeline.RegionsLoop
import Idealize.ShloMosaic.Lib.Pipeline.FrameSuffix

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (a : (pcfg0 (F := F)).Adm)
variable (outBlk : (c : Dev nD) → Fin (cfg0 a).N → ((cfg0 a).win 1).block.Idx → Elt F ((cfg0 a).win 1).elt)

/-! ## The launch, by the library: @main as segments -/

/-- No core owes another anything: no level is assigned. -/
abbrev L : GSem nD τ sig → Finset Unit := fun _ => ∅
abbrev lv : GSem nD τ sig → Unit → ℕ := fun _ _ => 0

/-- The pipeline library's algebra is the left component of the certificate's. -/
abbrev EP : Emb (UR sig nD τ) (MT nD τ sig Unit (Elt F) ℕ (UU nD τ) ℕ) := embL

/-- The tables' admissible contents, the same for the one pipeline. -/
abbrev adm : (p : Fin 1) → (pcfgs (F := F) p).Adm := fun _ => a

/-- What rides beside the buffers through the host operations: the core's `owes`. -/
abbrev R (c : Dev nD) : sProp 𝕄 := iprop(∃ W, owes (c : Thread nD τ) (0 : CellTallies nD τ sig Unit) W)

/-- The core's buffers when the region is left: the result's array at what the pipeline library computes, every
    other buffer as at the entry. -/
abbrev Vp (c : Dev nD) : Valuation τ sig (Elt F) :=
  Pipeline.withArrays spec0 c (Vv m c) fun w => (dats m a outBlk 0 c).arrAt w (cfg0 a).N

/-- The unscoped buffers that are no window's array, no table and not the adjacency matrix: they bypass the region. -/
abbrev bypass : Finset (Ref sig .tc) :=
  (((Finset.univ.filter fun b : Ref sig .tc => ¬ b.isScoped) \ Finset.univ.image (Pipeline.arrRef spec0)) \ Finset.univ.image pre0.ref) \ {main_arg1}

abbrev Zc (c : Dev nD) : sProp 𝕄 := bigSep bypass fun b => ((c : Thread nD τ).loc b) ↦{fullShare} V m c b

/-- The unscoped buffers that are no window's array, at the entry valuation: the two tables held whole (at `a`'s
    contents, which the valuation has), the adjacency matrix, and the buffers that bypass the region. -/
theorem unscopedRest_eq (c : Dev nD) (ha : tbl m c = a.1) :
    (Pipeline.unscopedRest (Ix := Unit) (Name := ℕ) (U := UU nD τ) (Lvl := ℕ) spec0 c (V m c) : sProp 𝕄)
      = iprop(Pipeline.prefHeld pre0 c (fun _ => fullShare) a.1 ∗ ptAdj m c ∗ Zc m c) := by
  rw [Pipeline.unscopedRest_split (preFacts0) c (V m c), show (fun k => V m c (pre0.ref k)) = a.1 from ha]
  unfold Pipeline.unscopedRestP
  rw [BI.bigSep_sdiff_split (show ({main_arg1} : Finset (Ref sig .tc)) ⊆ _ from by decide), BI.bigSep_singleton]
  rfl

theorem fresh_of_forall {ops : List (HloOp τ sig (Elt F))} (h : ops.Forall fun op => op.fresh = ∅) : ∀ op ∈ ops, op.fresh = ∅ :=
  List.forall_iff_forall_mem.mp h

/-- THE HOST SEGMENT of a stretch `ops` from the valuation `W`: the operations over the unscoped buffers. -/
abbrev hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UU nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hf W R

set_option backward.isDefEq.respectTransparency.types false in
/-- THE REGION: entered from what the first stretch left — the two windows' arrays into the pipeline, the tables held at
    `a`'s contents (which the entry valuation has, `ha`), the adjacency matrix and the 256 counters into the invariant,
    every other unscoped buffer bypassing —, left with the result's array at its final contents. -/
def reg0 (hbody : ∀ c, BodyStmt m a outBlk c) (ha : ∀ c, tbl m c = a.1) :
    Pipeline.RegionSeg (pcfgs (F := F)) (adm a) (dats m a outBlk) () defs₀ 𝒱₀ L lv 0 where
  win := (launch0 (F := F)).win.to₀
  block_pos := (launch0 (F := F)).block_pos
  stage_whole := (launch0 (F := F)).stage_whole
  K := Fin 256
  osem := osem
  ho := ownSemFacts
  hbody c := (hbody c).loose
  hwaits := Pipeline.hwaits_of_owed_zero _ _ _ _ L lv 0 fun _ _ => rfl
  pre c := iprop(StableHlo.held (c : Thread nD τ) (Pipeline.ucRefs τ sig) (Vv m c) ∗ R c)
  post c := iprop(StableHlo.held (c : Thread nD τ) (Pipeline.ucRefs τ sig) (Vp m a outBlk c) ∗ R c)
  X c := iprop(ptAdj m c ∗ Pipeline.ownSems0 (Ix := Unit) (Name := ℕ) (U := UU nD τ) (Lvl := ℕ) (Val := Elt F) (τ := τ) osem c)
  Y c := iprop(Pipeline.prefHeld pre0 c (fun _ => fullShare) a.1 ∗ ptAdj m c)
  Z c := Zc m c
  hentry c := by
    rw [show StableHlo.held (c : Thread nD τ) (Pipeline.ucRefs τ sig) (Vv m c) = unscopedBufs c (V m c) from (Pipeline.unscopedBufs_held c _).symm]
    have hsplit := (Pipeline.arrays_of_unscopedBufs (p := 0) (pcfgs (F := F)) (adm a) (dats m a outBlk) (launch0 (F := F)).win (launch0 (F := F)).arr_whole c
      ((dats m a outBlk 0 c).share_full fun _ => rfl) (V m c) fun _ => rfl).trans (sep_mono .rfl (Entails.of_eq (unscopedRest_eq m a c (ha c))))
    iintro ⟨⟨Hub, HO⟩, Hos, -⟩
    ihave H := hsplit $$ Hub
    icases H with ⟨Ha, Hpf, Hadj, Hz⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hadj Hos]
    · isplitl [Hadj]; · iexact Hadj
      iexact Hos
    iexact Hz
  hin c := by
    rw [show (dats m a outBlk 0 c).Φ 0 = Φc m a c from rfl]; unfold Φc
    iintro ⟨⟨Hadj, Hos⟩, Hpf, Hr⟩
    isplitl [Hpf]; · iexact Hpf
    isplitl [Hr]; · iexact Hr
    isplitl [Hadj] <;> iassumption
  hout c := by
    rw [show (dats m a outBlk 0 c).Φ (Fin.last (cfg0 a).N) = Φc m a c from rfl]; unfold Φc
    iintro ⟨Hpf, Hr, Hadj, Hos⟩
    isplitl [Hpf Hadj]
    · isplitl [Hpf] <;> iassumption
    isplitl [Hos] <;> iassumption
  hexit c := by
    have hjoin := (sep_mono .rfl (Entails.of_eq (unscopedRest_eq m a c (ha c)).symm)).trans
      (Pipeline.unscopedBufs_of_arrays (p := 0) (pcfgs (F := F)) (adm a) (Ix := Unit) (Name := ℕ) (U := UU nD τ) (Lvl := ℕ) (launch0 (F := F)).win (launch0 (F := F)).arr_whole c
        (dats m a outBlk) ((dats m a outBlk 0 c).share_full fun _ => rfl) (V m c) (fun b => Vp m a outBlk c b) ((dats m a outBlk 0 c).arrAt · (cfg0 a).N)
        (fun w => (Pipeline.withArrays_arr spec0 (launch0 (F := F)).win.arr_inj c (Vv m c) (fun w => (dats m a outBlk 0 c).arrAt w (cfg0 a).N) w).symm)
        (fun b hb => Pipeline.withArrays_of_ne spec0 c (Vv m c) (fun w => (dats m a outBlk 0 c).arrAt w (cfg0 a).N) b fun w h => hb (Finset.mem_image.mpr ⟨w, Finset.mem_univ _, h⟩)))
    rw [show StableHlo.held (c : Thread nD τ) (Pipeline.ucRefs τ sig) (Vp m a outBlk c) = unscopedBufs c (fun b => Vp m a outBlk c b) from (Pipeline.unscopedBufs_held c _).symm]
    iintro ⟨Ha, HO, ⟨Hpf, Hadj⟩, Hz⟩
    imodintro
    isplitr [HO]
    · iapply hjoin
      isplitl [Ha]; · iexact Ha
      isplitl [Hpf]; · iexact Hpf
      isplitl [Hadj] <;> iassumption
    · unfold Pipeline.Dat.owesAt Pipeline.owesWithin
      icases HO with ⟨%W, -, HO⟩; iexists W; iexact HO

/-! ## The host operations after the region, and the run -/

/-- The core's buffers after each stretch of host operations that follows the region. -/
abbrev W1 (c : Dev nD) : Valuation τ sig (Elt F) := StableHlo.after hostOps1 (Vp m a outBlk c)
abbrev W2 (c : Dev nD) : Valuation τ sig (Elt F) := StableHlo.after hostOps1_1 (W1 m a outBlk c)
abbrev W3 (c : Dev nD) : Valuation τ sig (Elt F) := StableHlo.after hostOps1_2 (W2 m a outBlk c)
abbrev W4 (c : Dev nD) : Valuation τ sig (Elt F) := StableHlo.after hostOps1_3 (W3 m a outBlk c)
abbrev W5 (c : Dev nD) : Valuation τ sig (Elt F) := StableHlo.after hostOps1_4 (W4 m a outBlk c)
abbrev W6 (c : Dev nD) : Valuation τ sig (Elt F) := StableHlo.after hostOps1_5 (W5 m a outBlk c)
abbrev W7 (c : Dev nD) : Valuation τ sig (Elt F) := StableHlo.after hostOps1_6 (W6 m a outBlk c)
abbrev W8 (c : Dev nD) : Valuation τ sig (Elt F) := StableHlo.after hostOps1_7 (W7 m a outBlk c)
/-- The core's buffers when @main returns. -/
abbrev Vfin (c : Dev nD) : Valuation τ sig (Elt F) := StableHlo.after hostOps1_8 (W8 m a outBlk c)

/-- No stretch allocates a buffer. -/
theorem fresh0 : ∀ op ∈ (hostOps0 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h
theorem fresh1_1 : ∀ op ∈ (hostOps1_1 (F := F)), op.fresh = ∅ := by
  intro _ h; (repeat (cases h with | head => rfl | tail _ h => ?_)); exact nomatch h
theorem fresh1_2 : ∀ op ∈ (hostOps1_2 (F := F)), op.fresh = ∅ := by
  intro _ h; (repeat (cases h with | head => rfl | tail _ h => ?_)); exact nomatch h
theorem fresh1_3 : ∀ op ∈ (hostOps1_3 (F := F)), op.fresh = ∅ := by
  intro _ h; (repeat (cases h with | head => rfl | tail _ h => ?_)); exact nomatch h
theorem fresh1_4 : ∀ op ∈ (hostOps1_4 (F := F)), op.fresh = ∅ := by
  intro _ h; (repeat (cases h with | head => rfl | tail _ h => ?_)); exact nomatch h
theorem fresh1_5 : ∀ op ∈ (hostOps1_5 (F := F)), op.fresh = ∅ := by
  intro _ h; (repeat (cases h with | head => rfl | tail _ h => ?_)); exact nomatch h
theorem fresh1_6 : ∀ op ∈ (hostOps1_6 (F := F)), op.fresh = ∅ := by
  intro _ h; (repeat (cases h with | head => rfl | tail _ h => ?_)); exact nomatch h
theorem fresh1_7 : ∀ op ∈ (hostOps1_7 (F := F)), op.fresh = ∅ := by
  intro _ h; (repeat (cases h with | head => rfl | tail _ h => ?_)); exact nomatch h
theorem fresh1_8 : ∀ op ∈ (hostOps1_8 (F := F)), op.fresh = ∅ := by
  intro _ h; (repeat (cases h with | head => rfl | tail _ h => ?_)); exact nomatch h

/-- @main as the list of its segments: the stretch before the region, the region, the nine stretches after it. -/
abbrev segs (hbody : ∀ c, BodyStmt m a outBlk c) (ha : ∀ c, tbl m c = a.1) :
    List (Pipeline.Seg (pcfgs (F := F)) (adm a) (dats m a outBlk) () defs₀ 𝒱₀ L lv) :=
  [ .host (hostSeg hostOps0 hostOps0_sub fresh0 (V₀ m)),
    .region (reg0 m a outBlk hbody ha),
    .host (hostSeg hostOps1 hostOps1_sub fresh1 (Vp m a outBlk)),
    .host (hostSeg hostOps1_1 hostOps1_1_sub fresh1_1 (W1 m a outBlk)),
    .host (hostSeg hostOps1_2 hostOps1_2_sub fresh1_2 (W2 m a outBlk)),
    .host (hostSeg hostOps1_3 hostOps1_3_sub fresh1_3 (W3 m a outBlk)),
    .host (hostSeg hostOps1_4 hostOps1_4_sub fresh1_4 (W4 m a outBlk)),
    .host (hostSeg hostOps1_5 hostOps1_5_sub fresh1_5 (W5 m a outBlk)),
    .host (hostSeg hostOps1_6 hostOps1_6_sub fresh1_6 (W6 m a outBlk)),
    .host (hostSeg hostOps1_7 hostOps1_7_sub fresh1_7 (W7 m a outBlk)),
    .host (hostSeg hostOps1_8 hostOps1_8_sub fresh1_8 (W8 m a outBlk)) ]

/-- The launch element: the pipeline library's at the staging cells and the pipeline's transfers; no counter yet. -/
def u₀ : UU nD τ := (initOf (Pipeline.cells (Pipeline.pin (pcfgs (F := F)) (adm a)) (cellOf_inj (adm a))) (Pipeline.launchToks (Pipeline.pin (pcfgs (F := F)) (adm a)) (cellOf_inj (adm a))), 1)

variable (ρ : Dev nD → PrngReg)

/-- The physical post: every unscoped buffer of every core at what @main's operations and the region leave there. -/
def QC : PUnit × MemSt nD τ sig (Elt F) → Prop := fun r =>
  ∀ c : Dev nD, ∀ b ∈ Pipeline.ucRefs τ sig, r.2.mem ((c : Thread nD τ).1, b) = Vfin m a outBlk c b

set_option backward.isDefEq.respectTransparency.types false in
/-- At the compiled mesh, from any memory with zero counters: every weakly fair execution of @main on the TensorCores
    terminates, and every final state has every unscoped buffer at `Vfin`. -/
theorem run_main (hbody : ∀ c, BodyStmt m a outBlk c) (ha : ∀ c, tbl m c = a.1) :
    θ_run defs (onTc (τ := τ) (main (F := F))) ⟨m, fun _ => 0, ρ⟩ (QC m a outBlk) :=
  Pipeline.θ_run_regions_kit (pcfgs (F := F)) (adm a) (dats m a outBlk) () (cellOf_inj (adm a)) EP defs₀ 𝒱₀ L lv m ρ main (segs m a outBlk hbody ha)
    (fun c Q => by
      rw [main_chain c, Pipeline.Seg.run_eq_chain]
      exact .rfl)
    (by simp only [Pipeline.Seg.pipes_host, Pipeline.Seg.pipes_region, Pipeline.Seg.pipes_nil]; decide) (O₀ := 0) (hL := fun _ _ => rfl) (G := fun _ => iprop(emp)) (u₀ := u₀ a)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vfin m a outBlk c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vfin m a outBlk c b)
    (hfin := fun c s' => by
      unfold StableHlo.held
      iintro ⟨Hh, HSI⟩
      ihave Hr := (pointsTo_read_all (Pipeline.ucRefs τ sig) (fun b => ((c : Thread nD τ).1, b)) (fun b => Vfin m a outBlk c b) s') $$ [Hh HSI]
      · isplitl [Hh] <;> iassumption
      icases Hr with ⟨%hr, HSI⟩
      imodintro
      isplitr; · ipureintro; exact hr
      iexact HSI)
    (hQ := fun _ h => h)

/-- info: 'Cert.Kernel.Hand.run_main' depends on axioms: [propext, Classical.choice, Quot.sound] -/
#guard_msgs in #print axioms run_main

end Cert.Kernel.Hand

end
-- ==== Proof.WOpen.lean ====
/-
  The features' window of the kernel region: its one fetch, and what its staging buffer holds when the body runs.
-/
import proofs.«426739_j39281770889759_1_alg».proof.Proof.WData

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (a : (pcfg0 (F := F)).Adm)
variable (outBlk : (c : Dev nD) → Fin (cfg0 a).N → ((cfg0 a).win 1).block.Idx → Elt F ((cfg0 a).win 1).elt)

/-- The features' block index is the same at every point: the whole array is one block. -/
theorem index0 (t t' : Fin (cfg0 a).N) : ((cfg0 a).win 0).index t = ((cfg0 a).win 0).index t' := rfl

/-- The features are fetched at the first point only. -/
theorem fetch0 (t : Fin (cfg0 a).N) : ((cfg0 a).win 0).fetch t = decide (t.val = 0) := by
  have key : ∀ (q : Prop) [Decidable q], ¬ q → (!false && (decide (t.val = 0) || decide q)) = decide (t.val = 0) := by
    intro q _ hq; simp only [Bool.not_false, Bool.true_and, decide_eq_false hq, Bool.or_false]
  unfold Pipeline.Window.fetch
  rw [show ((cfg0 a).win 0).isOut = false from rfl]
  refine key _ ?_
  rintro ⟨_, hne⟩
  exact hne (index0 a _ _)

/-- They are an input: never written back. -/
theorem flush0 (t : Fin (cfg0 a).N) : ((cfg0 a).win 0).flush t = false := by
  unfold Pipeline.Window.flush
  rw [show ((cfg0 a).win 0).isOut = false from rfl, Bool.false_and]

/-- The features' staging buffer holds the array's block whenever the body runs: fetched at the first point, kept since. -/
theorem before_in (c : Dev nD) (t : Fin (cfg0 a).N) (d : ((cfg0 a).win 0).block.Idx → Elt F ((cfg0 a).win 0).elt) :
    (dats m a outBlk 0 c).before 0 t d = stg m a c := by
  by_cases ht : t.val = 0
  · obtain rfl : t = t0 a := Fin.ext ht
    unfold Dat.before; rw [if_pos (by rw [fetch0]; exact decide_eq_true rfl)]; rfl
  · rw [Dat.before_of_pos _ 0 t ht (by rw [fetch0]; exact decide_eq_false ht) d, flush0, if_neg Bool.false_ne_true]
    rfl

end Cert.Kernel.Hand

end
-- ==== Proof.WOblig.lean ====
/-
  The body obligation of the kernel region from the body's run: the region invariant and the windows' staging
  buffers taken apart into what the run takes, the run applied, and its post put back together.
-/
import proofs.«426739_j39281770889759_1_alg».proof.Proof.WData
import proofs.«426739_j39281770889759_1_alg».proof.Proof.WOpen

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The 256 counters, one by one -/

set_option maxRecDepth 100000 in
/-- The kernel's 256 counters at zero, as a conjunction over their indices, are the chain of them in order. -/
theorem sems_eq (c : Dev nD) :
    (bigSep Finset.univ fun k : Fin 256 =>
        semVal ((c : Thread nD τ), (SemLoc.dma ⟨3 + k.val, by have := k.isLt; show 3 + k.val < 259; omega⟩ : SemLoc sig)) 0 : sProp 𝕄)
      = semsAll (F := F) c := by
  rw [bigSep_univ_eq_bigSepL (List.finRange 256) (List.toFinset_finRange 256).symm (List.nodup_finRange 256)]
  rfl

/-! ## The adjacency array's read shares -/

set_option maxRecDepth 100000 in
/-- The adjacency array held whole is what remains after 259 read shares are split off, the first three of them, and
    the 256 the kernel's transfers take. -/
theorem adj_split (c : Dev nD) (fA : Bf (F := F) c (Memref.whole main_arg1)) :
    ((Memref.whole main_arg1).view.loc (c : Thread nD τ) ↦{fullShare} fA : sProp 𝕄)
      ⊣⊢ iprop(((Memref.whole main_arg1).view.loc (c : Thread nD τ) ↦{Transfers.shareDrop fullShare 259} fA)
          ∗ ((Memref.whole main_arg1).view.loc (c : Thread nD τ) ↦{Transfers.shareTokN fullShare 0} fA)
          ∗ ((Memref.whole main_arg1).view.loc (c : Thread nD τ) ↦{Transfers.shareTokN fullShare 1} fA)
          ∗ ((Memref.whole main_arg1).view.loc (c : Thread nD τ) ↦{Transfers.shareTokN fullShare 2} fA)
          ∗ toksAll c fA) := by
  have h : (_ : sProp 𝕄) ⊣⊢ _ :=
    Transfers.pointsTo_toks_range (ℓ := (Memref.whole main_arg1).view.loc (c : Thread nD τ)) (S := Finset.univ) (f := fA) fullShare 259
  rw [bigSep_eq_bigSepL_of_eq (List.range 259) (List.toFinset_range 259).symm List.nodup_range] at h
  exact h

/-! ## The two tables -/

/-- The two prefetched tables held whole are the two index vectors' buffers held whole. -/
theorem pref_eq (c : Dev nD) (V : pre0.Contents (Elt F)) :
    (Pipeline.prefHeld pre0 c (fun _ => fullShare) V : sProp 𝕄)
      = iprop(pt c (Memref.whole main_v1) (V 0) ∗ pt c (Memref.whole main_v3) (V 1)) := by
  unfold Pipeline.prefHeld
  rw [bigSep_W0]
  rfl

/-! ## The result block, and the obligation -/

variable (m : (ℓ : Loc nD τ sig) → Buf (Elt F) ℓ) (a : (pcfg0 (F := F)).Adm)

/-- Both tables' words name rows of the adjacency array. -/
abbrev InRange : Prop :=
  (∀ j, ((a.1 0 : IVec S8192 32) j).toNat < 8192) ∧ (∀ j, ((a.1 1 : IVec S8192 32) j).toNat < 8192)

/-- The body's run at grid point t on core c, the result's block staged in slot k. -/
abbrev runAt (hA : InRange a) (c : Dev nD) (t : Fin (cfg0 a).N) (k : Fin 2) :=
  kernelRun (F := F) c ((cfg0 a).grid.coords t) (stage0_0 0) (hstage0_0 0) (stage0_1 k) (hstage0_1 k)
    (a.1 0) (a.1 1) (stg m a c) (V m c main_arg1) hA.1 hA.2

/-- What the body leaves in the result's block at each point: the run's witness, at the slot the point uses. -/
def outBlkOf (hA : InRange a) : (c : Dev nD) → Fin (cfg0 a).N → ((cfg0 a).win 1).block.Idx → Elt F ((cfg0 a).win 1).elt :=
  fun c t => if ((cfg0 a).slots t 1).val = 0 then (runAt m a hA c t 0).1 else (runAt m a hA c t 1).1

/-- The body's program at a point and slots: the kernel function on the tables, the staging buffers and its own operands. -/
theorem body_eq (t : Fin (cfg0 a).N) (s : (w : Fin (cfg0 a).W) → Fin ((cfg0 a).win w).nbuf) :
    defs₀ (F := F) .tc (cfg0 a).body ((cfg0 a).bodyArgs t s)
      = cc0__gnn_agg_kernel (grid0.coords t) (Memref.whole main_v1) (Memref.isWhole_whole _) (Memref.whole main_v3) (Memref.isWhole_whole _)
          (spec0_0.stage (s 0)) (hstage0_0 ((s 0).cast nbuf0_0)) (Memref.whole main_arg1) (Memref.isWhole_whole _)
          (spec0_1.stage (s 1)) (hstage0_1 ((s 1).cast nbuf0_1))
          (Memref.whole cc0_scratch0) (Memref.isWhole_whole _) (Memref.whole cc0_scratch1) (Memref.isWhole_whole _) cc0_scratch2 cc0_scratch3 := rfl

/-- The staging buffers by slot: the features' one buffer, the result's two. -/
theorem stage0_0_zero (h : 0 < 1) : stage0_0 ⟨0, h⟩ = Memref.whole cc0_stg0_0 := rfl
theorem stage0_1_zero (h : 0 < 2) : stage0_1 ⟨0, h⟩ = Memref.whole cc0_stg1_0 := rfl
theorem stage0_1_one (h : 1 < 2) : stage0_1 ⟨1, h⟩ = Memref.whole cc0_stg1_1 := rfl

/-- The kernel's 256 counters at zero are the chain of them. -/
theorem ownSems0_eq (c : Dev nD) :
    (Pipeline.ownSems0 (Ix := Unit) (Name := ℕ) (U := UU nD τ) (Lvl := ℕ) (Val := Elt F) (τ := τ) osem c : sProp 𝕄) = semsAll c := by
  unfold Pipeline.ownSems0; exact sems_eq c

/-- THE BODY OBLIGATION at every point: the invariant opened into the two tables, the two scratch buffers, the adjacency
    array's remainder and read shares and the 256 counters; the run at the slot the point uses; its post closed back. -/
theorem body_obligation (hA : InRange a) (c : Dev nD) : BodyStmt m a (outBlkOf m a hA) c := fun t => by
  rw [bigSep_W0, bigSep_W0, body_eq]
  simp only [before_in]
  rw [show (dats m a (outBlkOf m a hA) 0 c).Φ t.castSucc = Φc m a c from rfl, show (dats m a (outBlkOf m a hA) 0 c).Φ t.succ = Φc m a c from rfl,
    show (dats m a (outBlkOf m a hA) 0 c).owesAt () t.succ = (dats m a (outBlkOf m a hA) 0 c).owesAt () t.castSucc from rfl]
  generalize hs0 : (cfg0 a).slots t 0 = s0
  generalize hs1 : (cfg0 a).slots t 1 = s1
  obtain ⟨v0, hv0⟩ := s0
  obtain ⟨v1, hv1⟩ := s1
  have hv0' : v0 < 1 := hv0
  have hv1' : v1 < 2 := hv1
  obtain rfl : v0 = 0 := by omega
  have hv : v1 = 0 ∨ v1 = 1 := by omega
  rcases hv with rfl | rfl
  · dsimp only [stage0_0_zero, stage0_1_zero]
    simp only [owns_whole_eq]
    unfold Φc
    rw [pref_eq, scopedRest0_eq, ownSems0_eq]
    unfold Pipeline.Dat.owesAt Pipeline.owesWithin
    iintro ⟨⟨⟨Hv1, Hv3⟩, ⟨⟨%f6, H6⟩, ⟨%f7, H7⟩⟩, Hadj, Hsm⟩, ⟨%W0, %hW0, Howes⟩, ⟨%d0, %f0, %hf0, H0⟩, ⟨%d1, %f1, -, H1⟩⟩
    have hf0' : f0 = stg m a c := hf0.trans (before_in m a (outBlkOf m a hA) c t d0)
    subst hf0'
    have hsp := (adj_split c (V m c main_arg1)).1
    ihave Hsp := hsp $$ Hadj
    icases Hsp with ⟨Hd, Ht0, Ht1, Ht2, Htk⟩
    iapply ((runAt m a hA c t 0).2 f1 f6 f7 W0 _)
    isplitl [Hv1]; · iexact Hv1
    isplitl [Hv3]; · iexact Hv3
    isplitl [H0]; · iexact H0
    isplitl [H1]; · iexact H1
    isplitl [H6]; · iexact H6
    isplitl [H7]; · iexact H7
    isplitl [Hd]; · iexact Hd
    isplitl [Htk]; · iexact Htk
    isplitl [Hsm]; · iexact Hsm
    isplitl [Howes]; · iexact Howes
    iintro ⟨Hv1, Hv3, H0, H1, H6, H7, Hd, Htk, Hsm, ⟨%W, Howes⟩⟩
    isplitl [Hv1 Hv3 H6 H7 Hd Htk Hsm Ht0 Ht1 Ht2]
    · isplitl [Hv1 Hv3]
      · isplitl [Hv1]; · iexact Hv1
        iexact Hv3
      isplitl [H6 H7]
      · isplitl [H6]; · iexact H6
        iexact H7
      isplitl [Hd Htk Ht0 Ht1 Ht2]
      · iapply (adj_split c (V m c main_arg1)).2
        isplitl [Hd]; · iexact Hd
        isplitl [Ht0]; · iexact Ht0
        isplitl [Ht1]; · iexact Ht1
        isplitl [Ht2]; · iexact Ht2
        iexact Htk
      iexact Hsm
    isplitl [Howes]
    · iexists W; isplitr; · ipureintro; exact fun _ _ => Or.inl trivial
      iexact Howes
    isplitl [H0]
    · iexists _; isplitr; swap; (· iexact H0); ipureintro; dsimp only [dats]
    iexists _; isplitr; swap; (· iexact H1); ipureintro
    show (runAt m a hA c t 0).1 = outBlkOf m a hA c t
    unfold outBlkOf
    exact (if_pos (show ((cfg0 a).slots t 1).val = 0 by rw [hs1])).symm
  · dsimp only [stage0_0_zero, stage0_1_one]
    simp only [owns_whole_eq]
    unfold Φc
    rw [pref_eq, scopedRest0_eq, ownSems0_eq]
    unfold Pipeline.Dat.owesAt Pipeline.owesWithin
    iintro ⟨⟨⟨Hv1, Hv3⟩, ⟨⟨%f6, H6⟩, ⟨%f7, H7⟩⟩, Hadj, Hsm⟩, ⟨%W0, %hW0, Howes⟩, ⟨%d0, %f0, %hf0, H0⟩, ⟨%d1, %f1, -, H1⟩⟩
    have hf0' : f0 = stg m a c := hf0.trans (before_in m a (outBlkOf m a hA) c t d0)
    subst hf0'
    have hsp := (adj_split c (V m c main_arg1)).1
    ihave Hsp := hsp $$ Hadj
    icases Hsp with ⟨Hd, Ht0, Ht1, Ht2, Htk⟩
    iapply ((runAt m a hA c t 1).2 f1 f6 f7 W0 _)
    isplitl [Hv1]; · iexact Hv1
    isplitl [Hv3]; · iexact Hv3
    isplitl [H0]; · iexact H0
    isplitl [H1]; · iexact H1
    isplitl [H6]; · iexact H6
    isplitl [H7]; · iexact H7
    isplitl [Hd]; · iexact Hd
    isplitl [Htk]; · iexact Htk
    isplitl [Hsm]; · iexact Hsm
    isplitl [Howes]; · iexact Howes
    iintro ⟨Hv1, Hv3, H0, H1, H6, H7, Hd, Htk, Hsm, ⟨%W, Howes⟩⟩
    isplitl [Hv1 Hv3 H6 H7 Hd Htk Hsm Ht0 Ht1 Ht2]
    · isplitl [Hv1 Hv3]
      · isplitl [Hv1]; · iexact Hv1
        iexact Hv3
      isplitl [H6 H7]
      · isplitl [H6]; · iexact H6
        iexact H7
      isplitl [Hd Htk Ht0 Ht1 Ht2]
      · iapply (adj_split c (V m c main_arg1)).2
        isplitl [Hd]; · iexact Hd
        isplitl [Ht0]; · iexact Ht0
        isplitl [Ht1]; · iexact Ht1
        isplitl [Ht2]; · iexact Ht2
        iexact Htk
      iexact Hsm
    isplitl [Howes]
    · iexists W; isplitr; · ipureintro; exact fun _ _ => Or.inl trivial
      iexact Howes
    isplitl [H0]
    · iexists _; isplitr; swap; (· iexact H0); ipureintro; dsimp only [dats]
    iexists _; isplitr; swap; (· iexact H1); ipureintro
    show (runAt m a hA c t 1).1 = outBlkOf m a hA c t
    unfold outBlkOf
    exact (if_neg (show ¬ ((cfg0 a).slots t 1).val = 0 by rw [hs1]; exact Nat.one_ne_zero)).symm

end Cert.Kernel.Hand

end
-- ==== Proof.WFrame.lean ====
/-
  The frame conjunct of the kernel program: after @main's run every argument array holds what it held at
  launch — no host operation writes an argument, and the region's two arrays are not arguments.
-/
import proofs.«426739_j39281770889759_1_alg».proof.Proof.WLaunch

noncomputable section

namespace Cert.Kernel.Hand

open Cert.Kernel Cert.Kernel.Gen

open Idealize.ShloMosaic
open Idealize.ShloMosaic.TcCoe
open Idealize.ShloMosaic.StableHlo
open Idealize.SL Idealize.SL.Sem
open Idealize.ShloMosaic.Pipeline (Dat Cfg Window BodyObligation cellOf)

variable {F : FTy → Type} [FloatOps F]

variable (m : (ℓ : Loc nD τ sig) → Buf (Elt F) ℓ) (a : (pcfg0 (F := F)).Adm)
variable (outBlk : (c : Dev nD) → Fin (cfg0 a).N → ((cfg0 a).win 1).block.Idx → Elt F ((cfg0 a).win 1).elt)

/-- An unscoped TensorCore reference is among the buffers the thread state holds. -/
theorem mem_uc (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by rw [h]; exact Bool.false_ne_true⟩

/-- The run's post read at one unscoped reference. -/
theorem QC_read {r : PUnit × MemSt nD τ sig (Elt F)} (h : QC m a outBlk r) (c : Dev nD) (b : Ref sig .tc)
    (hb : (Proc.devRef .tc b : DevRef τ sig).isScoped = false) :
    r.2.mem ((c.tc : Thread nD τ).loc b) = Vfin m a outBlk c (Proc.devRef .tc b) :=
  h c _ (mem_uc b hb)

set_option hygiene false in
/-- An argument is written by no host operation and is no array of the region: it holds its launch contents at the end. -/
macro "vfin_arg" b:ident : tactic =>
  `(tactic| (dsimp only [Vfin, W8, W7, W6, W5, W4, W3, W2, W1, hostOps1_8, hostOps1_7, hostOps1_6, hostOps1_5, hostOps1_4, hostOps1_3, hostOps1_2, hostOps1_1, hostOps1]
             after_results
             rw [show Vp m a outBlk c (Proc.devRef .tc $b) = Vv m c (Proc.devRef .tc $b) from
               Pipeline.withArrays_of_ne spec0 c (Vv m c) (fun w => (dats m a outBlk 0 c).arrAt w (cfg0 a).N) $b (by decide)]
             dsimp only [Vv, hostOps0]
             after_results))

theorem Vfin_main_arg0 (c : Dev nD) : Vfin m a outBlk c (Proc.devRef .tc main_arg0) = m ((c : Thread nD τ).loc main_arg0) := by
  vfin_arg main_arg0
theorem Vfin_main_arg1 (c : Dev nD) : Vfin m a outBlk c (Proc.devRef .tc main_arg1) = m ((c : Thread nD τ).loc main_arg1) := by
  vfin_arg main_arg1
theorem Vfin_main_arg2 (c : Dev nD) : Vfin m a outBlk c (Proc.devRef .tc main_arg2) = m ((c : Thread nD τ).loc main_arg2) := by
  vfin_arg main_arg2
theorem Vfin_main_arg3 (c : Dev nD) : Vfin m a outBlk c (Proc.devRef .tc main_arg3) = m ((c : Thread nD τ).loc main_arg3) := by
  vfin_arg main_arg3
theorem Vfin_main_arg4 (c : Dev nD) : Vfin m a outBlk c (Proc.devRef .tc main_arg4) = m ((c : Thread nD τ).loc main_arg4) := by
  vfin_arg main_arg4
theorem Vfin_main_arg5 (c : Dev nD) : Vfin m a outBlk c (Proc.devRef .tc main_arg5) = m ((c : Thread nD τ).loc main_arg5) := by
  vfin_arg main_arg5
theorem Vfin_main_arg6 (c : Dev nD) : Vfin m a outBlk c (Proc.devRef .tc main_arg6) = m ((c : Thread nD τ).loc main_arg6) := by
  vfin_arg main_arg6
theorem Vfin_main_arg7 (c : Dev nD) : Vfin m a outBlk c (Proc.devRef .tc main_arg7) = m ((c : Thread nD τ).loc main_arg7) := by
  vfin_arg main_arg7
theorem Vfin_main_arg8 (c : Dev nD) : Vfin m a outBlk c (Proc.devRef .tc main_arg8) = m ((c : Thread nD τ).loc main_arg8) := by
  vfin_arg main_arg8
theorem Vfin_main_arg9 (c : Dev nD) : Vfin m a outBlk c (Proc.devRef .tc main_arg9) = m ((c : Thread nD τ).loc main_arg9) := by
  vfin_arg main_arg9
theorem Vfin_main_arg10 (c : Dev nD) : Vfin m a outBlk c (Proc.devRef .tc main_arg10) = m ((c : Thread nD τ).loc main_arg10) := by
  vfin_arg main_arg10
theorem Vfin_main_arg11 (c : Dev nD) : Vfin m a outBlk c (Proc.devRef .tc main_arg11) = m ((c : Thread nD τ).loc main_arg11) := by
  vfin_arg main_arg11
theorem Vfin_main_arg12 (c : Dev nD) : Vfin m a outBlk c (Proc.devRef .tc main_arg12) = m ((c : Thread nD τ).loc main_arg12) := by
  vfin_arg main_arg12
theorem Vfin_main_arg13 (c : Dev nD) : Vfin m a outBlk c (Proc.devRef .tc main_arg13) = m ((c : Thread nD τ).loc main_arg13) := by
  vfin_arg main_arg13
theorem Vfin_main_arg14 (c : Dev nD) : Vfin m a outBlk c (Proc.devRef .tc main_arg14) = m ((c : Thread nD τ).loc main_arg14) := by
  vfin_arg main_arg14
theorem Vfin_main_arg15 (c : Dev nD) : Vfin m a outBlk c (Proc.devRef .tc main_arg15) = m ((c : Thread nD τ).loc main_arg15) := by
  vfin_arg main_arg15
theorem Vfin_main_arg16 (c : Dev nD) : Vfin m a outBlk c (Proc.devRef .tc main_arg16) = m ((c : Thread nD τ).loc main_arg16) := by
  vfin_arg main_arg16

/-- At the compiled mesh, from any memory with zero counters: every weakly fair execution of @main terminates, and every
    argument array ends as launched. -/
theorem frame_of (ρ : Dev nD → PrngReg) (hbody : ∀ c, BodyStmt m a outBlk c) (ha : ∀ c, tbl m c = a.1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(QC_read m a outBlk h c main_arg0 rfl).trans (Vfin_main_arg0 m a outBlk c),
      (QC_read m a outBlk h c main_arg1 rfl).trans (Vfin_main_arg1 m a outBlk c),
      (QC_read m a outBlk h c main_arg2 rfl).trans (Vfin_main_arg2 m a outBlk c),
      (QC_read m a outBlk h c main_arg3 rfl).trans (Vfin_main_arg3 m a outBlk c),
      (QC_read m a outBlk h c main_arg4 rfl).trans (Vfin_main_arg4 m a outBlk c),
      (QC_read m a outBlk h c main_arg5 rfl).trans (Vfin_main_arg5 m a outBlk c),
      (QC_read m a outBlk h c main_arg6 rfl).trans (Vfin_main_arg6 m a outBlk c),
      (QC_read m a outBlk h c main_arg7 rfl).trans (Vfin_main_arg7 m a outBlk c),
      (QC_read m a outBlk h c main_arg8 rfl).trans (Vfin_main_arg8 m a outBlk c),
      (QC_read m a outBlk h c main_arg9 rfl).trans (Vfin_main_arg9 m a outBlk c),
      (QC_read m a outBlk h c main_arg10 rfl).trans (Vfin_main_arg10 m a outBlk c),
      (QC_read m a outBlk h c main_arg11 rfl).trans (Vfin_main_arg11 m a outBlk c),
      (QC_read m a outBlk h c main_arg12 rfl).trans (Vfin_main_arg12 m a outBlk c),
      (QC_read m a outBlk h c main_arg13 rfl).trans (Vfin_main_arg13 m a outBlk c),
      (QC_read m a outBlk h c main_arg14 rfl).trans (Vfin_main_arg14 m a outBlk c),
      (QC_read m a outBlk h c main_arg15 rfl).trans (Vfin_main_arg15 m a outBlk c),
      (QC_read m a outBlk h c main_arg16 rfl).trans (Vfin_main_arg16 m a outBlk c)⟩)
    (run_main m a outBlk ρ hbody ha)

end Cert.Kernel.Hand

end
-- ==== Proof.WEntry.lean ====
/-
  The buffers' contents when the kernel region is entered: the launch contents carried through the host operations
  that precede the region. Each argument array is as launched; the two index vectors are the two rows of the index
  table; the narrowed features are the features rounded to bf16; the two gathered arrays are gathers of the features'
  rows at the index vectors, each index first moved into range (an index below zero has the extent added).
-/
import proofs.«426739_j39281770889759_1_alg».proof.Proof.Gen.Kernel.Launch
import Idealize.ShloMosaic.Lib.StableHlo.Run
import Idealize.ShloMosaic.Lib.StableHlo.Predicate
import Idealize.ShloMosaic.Lib.ValueIdx
import proofs.«426739_j39281770889759_1_alg».proof.Proof.PreTar

noncomputable section

namespace Cert.Kernel.Entry

open Idealize.ShloMosaic Idealize.ShloMosaic.TcCoe
open Idealize.SL.Sem
open Cert.Kernel Cert.Kernel.Gen
open Idealize.ShloMosaic.StableHlo

variable {F : FTy → Type} [FloatOps F]
variable (m : (ℓ : Loc nD τ sig) → Buf (Elt F) ℓ)

/-- Core c's buffers when the region is entered: the launch contents after the host operations before the region. -/
abbrev V0 (c : Dev nD) : Valuation τ sig (Elt F) := StableHlo.after (hostOps0 (F := F)) (fun b => m (c, b))

/-! ## The arguments: as launched -/

theorem V0_main_arg0 (c : Dev nD) : V0 m c (Proc.devRef .tc main_arg0) = m ((c : Thread nD τ).loc main_arg0) := by
  dsimp only [V0, hostOps0]; after_results
theorem V0_main_arg1 (c : Dev nD) : V0 m c (Proc.devRef .tc main_arg1) = m ((c : Thread nD τ).loc main_arg1) := by
  dsimp only [V0, hostOps0]; after_results
theorem V0_main_arg2 (c : Dev nD) : V0 m c (Proc.devRef .tc main_arg2) = m ((c : Thread nD τ).loc main_arg2) := by
  dsimp only [V0, hostOps0]; after_results
theorem V0_main_arg3 (c : Dev nD) : V0 m c (Proc.devRef .tc main_arg3) = m ((c : Thread nD τ).loc main_arg3) := by
  dsimp only [V0, hostOps0]; after_results
theorem V0_main_arg4 (c : Dev nD) : V0 m c (Proc.devRef .tc main_arg4) = m ((c : Thread nD τ).loc main_arg4) := by
  dsimp only [V0, hostOps0]; after_results
theorem V0_main_arg5 (c : Dev nD) : V0 m c (Proc.devRef .tc main_arg5) = m ((c : Thread nD τ).loc main_arg5) := by
  dsimp only [V0, hostOps0]; after_results
theorem V0_main_arg6 (c : Dev nD) : V0 m c (Proc.devRef .tc main_arg6) = m ((c : Thread nD τ).loc main_arg6) := by
  dsimp only [V0, hostOps0]; after_results
theorem V0_main_arg7 (c : Dev nD) : V0 m c (Proc.devRef .tc main_arg7) = m ((c : Thread nD τ).loc main_arg7) := by
  dsimp only [V0, hostOps0]; after_results
theorem V0_main_arg8 (c : Dev nD) : V0 m c (Proc.devRef .tc main_arg8) = m ((c : Thread nD τ).loc main_arg8) := by
  dsimp only [V0, hostOps0]; after_results
theorem V0_main_arg9 (c : Dev nD) : V0 m c (Proc.devRef .tc main_arg9) = m ((c : Thread nD τ).loc main_arg9) := by
  dsimp only [V0, hostOps0]; after_results
theorem V0_main_arg10 (c : Dev nD) : V0 m c (Proc.devRef .tc main_arg10) = m ((c : Thread nD τ).loc main_arg10) := by
  dsimp only [V0, hostOps0]; after_results
theorem V0_main_arg11 (c : Dev nD) : V0 m c (Proc.devRef .tc main_arg11) = m ((c : Thread nD τ).loc main_arg11) := by
  dsimp only [V0, hostOps0]; after_results
theorem V0_main_arg12 (c : Dev nD) : V0 m c (Proc.devRef .tc main_arg12) = m ((c : Thread nD τ).loc main_arg12) := by
  dsimp only [V0, hostOps0]; after_results
theorem V0_main_arg13 (c : Dev nD) : V0 m c (Proc.devRef .tc main_arg13) = m ((c : Thread nD τ).loc main_arg13) := by
  dsimp only [V0, hostOps0]; after_results
theorem V0_main_arg14 (c : Dev nD) : V0 m c (Proc.devRef .tc main_arg14) = m ((c : Thread nD τ).loc main_arg14) := by
  dsimp only [V0, hostOps0]; after_results
theorem V0_main_arg15 (c : Dev nD) : V0 m c (Proc.devRef .tc main_arg15) = m ((c : Thread nD τ).loc main_arg15) := by
  dsimp only [V0, hostOps0]; after_results
theorem V0_main_arg16 (c : Dev nD) : V0 m c (Proc.devRef .tc main_arg16) = m ((c : Thread nD τ).loc main_arg16) := by
  dsimp only [V0, hostOps0]; after_results

/-! ## The two rows of the index table -/

/-- Row 0 of the index table as a vector of 8192 words. -/
abbrev row0 (c : Dev nD) : IVec S8192 32 :=
  shapeCast S8192 (extractStridedSlice S1x8192 ![0, 0] (m ((c : Thread nD τ).loc main_arg2)) slices_S2x8192_S1x8192_0_0) shapeCasts_S1x8192_S8192
/-- Row 1 of the index table as a vector of 8192 words. -/
abbrev row1 (c : Dev nD) : IVec S8192 32 :=
  shapeCast S8192 (extractStridedSlice S1x8192 ![1, 0] (m ((c : Thread nD τ).loc main_arg2)) slices_S2x8192_S1x8192_1_0) shapeCasts_S1x8192_S8192

theorem V0_main_v1 (c : Dev nD) : (V0 m c (Proc.devRef .tc main_v1) : IVec S8192 32) = row0 m c := by
  dsimp only [V0, hostOps0]; after_results; rfl
theorem V0_main_v3 (c : Dev nD) : (V0 m c (Proc.devRef .tc main_v3) : IVec S8192 32) = row1 m c := by
  dsimp only [V0, hostOps0]; after_results; rfl

/-! ## The features rounded to bf16 -/

theorem V0_main_v18 (c : Dev nD) :
    (V0 m c (Proc.devRef .tc main_v18) : FVec F S8192x256 .bf16) = truncf .bf16 (m ((c : Thread nD τ).loc main_arg0)) bitsLt_bf16_f32 := by
  dsimp only [V0, hostOps0]; after_results

/-! ## The two gathers -/

/-- An index vector moved into range the host's way: a word below zero (signed) has 8192 added. -/
abbrev norm (t : IVec S8192 32) : IVec S8192 32 :=
  select (cmpi .slt t (broadcastInDim S8192 ![] bcast_S_S8192 (constantI S_ 32 0#32)))
    (addi t (broadcastInDim S8192 ![] bcast_S_S8192 (constantI S_ 32 8192#32))) t

/-- A vector of words all below 8192 is already in range. -/
theorem norm_eq_self (t : IVec S8192 32) (h : ∀ k, (t k).toNat < 8192) : norm t = t := by
  funext k
  show Scalar.select (IntOp.cmpi .slt (t k) 0#32) _ (t k) = t k
  have hk := h k
  have : ¬ IntOp.cmpi .slt (t k) 0#32 = 1#1 := by
    rw [StableHlo.Predicate.slt_iff_toNat (by omega) (by decide)]
    show ¬ (t k).toNat < 0
    omega
  rw [ValueIdx.eq_zero_of_ne_one this, ValueIdx.select_zero]

theorem V0_main_v10 (c : Dev nD) :
    (V0 m c (Proc.devRef .tc main_v10) : FVec F S8192x256 .f32)
      = Host.gather gather_S8192x256_S8192x1_S8192x256_1_0_n_n_0_1_1256 (m ((c : Thread nD τ).loc main_arg0))
          (broadcastInDim S8192x1 ![0] bcast_S8192_S8192x1_0 (norm (row0 m c))) := by
  dsimp only [V0, hostOps0]; after_results
  refine congrArg (Host.gather _ _) (congrArg (broadcastInDim _ _ _) (congrArg norm ?_))
  rfl
set_option maxHeartbeats 1600000 in
theorem V0_main_v17 (c : Dev nD) :
    (V0 m c (Proc.devRef .tc main_v17) : FVec F S8192x256 .f32)
      = Host.gather gather_S8192x256_S8192x1_S8192x256_1_0_n_n_0_1_1256 (m ((c : Thread nD τ).loc main_arg0))
          (broadcastInDim S8192x1 ![0] bcast_S8192_S8192x1_0 (norm (row1 m c))) := by
  dsimp only [V0, hostOps0]; after_results
  refine congrArg (Host.gather _ _) (congrArg (broadcastInDim _ _ _) (congrArg norm ?_))
  rfl

/-! ## In range: the rows' words below 8192 when the table's are -/

section InRange
variable (c : Dev nD) (h : ∀ i, ((m ((c : Thread nD τ).loc main_arg2) : IVec S2x8192 32) i).toNat < 8192)
include h

theorem row0_lt (k : S8192.Idx) : (row0 m c k).toNat < 8192 := Cert.PreTar.row0_lt _ h _ _ k
theorem row1_lt (k : S8192.Idx) : (row1 m c k).toNat < 8192 := Cert.PreTar.row1_lt _ h _ _ k

theorem V0_main_v1_lt (k : S8192.Idx) : ((V0 m c (Proc.devRef .tc main_v1) : IVec S8192 32) k).toNat < 8192 := by
  rw [V0_main_v1]; exact row0_lt m c h k
theorem V0_main_v3_lt (k : S8192.Idx) : ((V0 m c (Proc.devRef .tc main_v3) : IVec S8192 32) k).toNat < 8192 := by
  rw [V0_main_v3]; exact row1_lt m c h k

/-- With the table in range the gathers read at the rows themselves. -/
theorem V0_main_v10_of_lt :
    (V0 m c (Proc.devRef .tc main_v10) : FVec F S8192x256 .f32)
      = Host.gather gather_S8192x256_S8192x1_S8192x256_1_0_n_n_0_1_1256 (m ((c : Thread nD τ).loc main_arg0))
          (broadcastInDim S8192x1 ![0] bcast_S8192_S8192x1_0 (row0 m c)) := by
  rw [V0_main_v10, norm_eq_self _ (row0_lt m c h)]
theorem V0_main_v17_of_lt :
    (V0 m c (Proc.devRef .tc main_v17) : FVec F S8192x256 .f32)
      = Host.gather gather_S8192x256_S8192x1_S8192x256_1_0_n_n_0_1_1256 (m ((c : Thread nD τ).loc main_arg0))
          (broadcastInDim S8192x1 ![0] bcast_S8192_S8192x1_0 (row1 m c)) := by
  rw [V0_main_v17, norm_eq_self _ (row1_lt m c h)]

end InRange

/-- Row 0 at position j is the table's entry (0, j); row 1 at j its entry (1, j). -/
theorem row0_apply (c : Dev nD) (j : S8192.Idx) :
    row0 m c j = (m ((c : Thread nD τ).loc main_arg2) : IVec S2x8192 32) (ValueIdx.ix2 (⟨0, by decide⟩ : Fin 2) (j 0)) :=
  Cert.PreTar.row0_apply _ _ _ j
theorem row1_apply (c : Dev nD) (j : S8192.Idx) :
    row1 m c j = (m ((c : Thread nD τ).loc main_arg2) : IVec S2x8192 32) (ValueIdx.ix2 (⟨1, by decide⟩ : Fin 2) (j 0)) :=
  Cert.PreTar.row1_apply _ _ _ j

end Cert.Kernel.Entry

end
-- ==== Proof.WGlue.lean ====
/-
  The glue between the precondition and the launch. The tables the region holds are the two rows of the index table as
  the operations before the region leave them; under the precondition every word of them is below 8192; so the body's
  obligation holds at the blocks its runs leave, and @main runs and leaves its seventeen arguments unchanged.
-/
import proofs.«426739_j39281770889759_1_alg».proof.Proof.WData
import proofs.«426739_j39281770889759_1_alg».proof.Proof.WLaunch
import proofs.«426739_j39281770889759_1_alg».proof.Proof.WOblig
import proofs.«426739_j39281770889759_1_alg».proof.Proof.WFrame
import proofs.«426739_j39281770889759_1_alg».proof.Proof.WEntry
import proofs.«426739_j39281770889759_1_alg».proof.Proof.PreTar
import proofs.«426739_j39281770889759_1_alg».proof.Proof.Gen.Pre_finite_inputs

noncomputable section

namespace Cert.Kernel.Hand

open Cert.Kernel Cert.Kernel.Gen

open Idealize.ShloMosaic
open Idealize.ShloMosaic.TcCoe
open Idealize.SL Idealize.SL.Sem

variable {F : FTy → Type} [FloatOps F]

variable (m : (ℓ : Loc nD τ sig) → Buf (Elt F) ℓ)

/-- The two tables the region holds: the two rows of the index table as the operations before the region left them. -/
abbrev admOf : (pcfg0 (F := F)).Adm := ⟨tbl m 0, trivial⟩

/-- There is one core: its tables are those. -/
theorem tbl_admOf (c : Dev nD) : tbl m c = (admOf m).1 := by
  obtain rfl : c = 0 := Subsingleton.elim _ _
  rfl

/-- The precondition at m's seventeen arrays, on every core. -/
abbrev PreAt : Prop :=
  ∀ c : Dev nD,
    (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) = (fun _ => 1#1)

/-- Under the precondition every entry of the index table is below 8192 as a word. -/
theorem table_lt (hpre : PreAt m) (c : Dev nD) :
    ∀ i : S2x8192.Idx, (((m ((c.tc : Thread nD τ).loc main_arg2)) : IVec S2x8192 32) i).toNat < 8192 :=
  Cert.PreTar.tar_lt _ _ _ _ _ _ _ _ _ _ _ _ _ _ _ _ _ (hpre c)

/-- Under the precondition both tables' words name rows of the adjacency array. -/
theorem inRange_admOf (hpre : PreAt m) : InRange (admOf m) :=
  ⟨fun j => Cert.Kernel.Entry.V0_main_v1_lt m 0 (table_lt m hpre 0) j,
    fun j => Cert.Kernel.Entry.V0_main_v3_lt m 0 (table_lt m hpre 0) j⟩

/-- THE FRAME: under the precondition, from any memory with zero counters, every weakly fair execution of @main terminates
    and every argument array ends as launched. -/
theorem frame_K (ρ : Dev nD → PrngReg) (hpre : PreAt m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m (admOf m) (outBlkOf m (admOf m) (inRange_admOf m hpre)) ρ
    (fun c => body_obligation m (admOf m) (inRange_admOf m hpre) c) (tbl_admOf m)

end Cert.Kernel.Hand

end
-- ==== Proof.lean ====
/-
  The claim: the kernel program and the reference compute the same 8192 scores.

  THE COMPUTATION. x is an [8192, 256] array of features, adj an [8192, 8192] array, tar a [2, 8192] table of 32-bit words
  naming, for each of 8192 edges e, two rows t0 e = tar[0, e] and t1 e = tar[1, e] of adj. Both programs form

      xcn[e, j] = Σ_k (adj[t0 e, k] · adj[t1 e, k]) · x[k, j],

  the entrywise product of the two named rows contracted against x; gather the rows x[t0 e, ·] and x[t1 e, ·]; and apply the
  same dense layers to the three arrays: two 2-layer perceptrons with relu, 1 · (the first) + (the second), two dense relu
  layers, and a [256, 1] output layer with its bias, reshaped to a vector of 8192 numbers.

  The reference gathers the two families of rows of adj as whole [8192, 8192] arrays, multiplies them entry by entry and
  contracts the product against x in one matrix product. The kernel runs over 64 grid points; point i handles the 128 edges
  e = 128 i + r. For each of them it copies row t0 e and row t1 e of adj, which stays in the large memory, into row r of two
  scratch blocks [128, 8192] by transfers of its own, waits for all 256, multiplies the two blocks entry by entry, narrows the
  product to bf16 and contracts it against x held in bf16, accumulating in f32, into rows 128 i … 128 i + 127 of the result.
  The dense layers then run as host operations, operation for operation as in the reference.

  WHY THE TWO AGREE OVER THE EXTENDED REALS. With exact arithmetic a change of float format is the identity, so element (r, j) of
  the kernel's block at point i is Σ_k (adj[t0 e, k] · adj[t1 e, k]) · x[k, j] at e = 128 i + r: the same sum, index by
  index, as the reference's contraction. The 64 blocks tile the [8192, 256] result, so the two aggregations are one array; the
  two row gathers of x are the same operations on the same arguments in both programs; and the dense layers are one function
  applied to equal arguments.

  THE RANGE OF THE TABLE. The precondition says that every float input is finite and that every word of tar lies in [0, 8192) as
  a signed integer, hence is below 8192 as a word. The range is used twice. In the kernel a copied row is the rectangle
  [t, t + 1) × [0, 8192) of adj, inside adj because t < 8192: every transfer is in bounds. In the reference a start index has
  8192 added when it is negative and is then clamped into [0, 8191] by the gather; neither changes a word in range, so the
  gathered row is the row the word names.

  THE FIVE CONJUNCTS.
  (1) The kernel program over machine floats runs and leaves its seventeen arguments unchanged: the host
      operations before the region write no argument; the region is entered with the two tables held and the adjacency array
      lent whole to the body, whose transfers at each point read it and whose 256 counters are back at zero when the point
      ends; the host operations after the region write no argument.
  (2) The same for the kernel program over the extended reals: the argument does not look at the float values.
  (3) The reference, a straight line of host operations, runs and leaves its arguments unchanged.
  (4) Reading the kernel program over the extended reals rewrote none of its operations: there is nothing to preserve.
  (5) Over the extended reals, from memories that agree on the seventeen arguments, both programs end with the dense layers
      applied to xcn and to the two row gathers: the kernel program's result from the final contents of the region's result
      array (each block the block of xcn) and the host operations after the region, the reference's from its run read at
      the contraction and at the two gathers of rows of adj.
-/
import proofs.«426739_j39281770889759_1_alg».proof.Defs
import proofs.«426739_j39281770889759_1_alg».proof.Proof.KAlg
import proofs.«426739_j39281770889759_1_alg».proof.Proof.KOblig
import proofs.«426739_j39281770889759_1_alg».proof.Proof.KVal
import proofs.«426739_j39281770889759_1_alg».proof.Proof.WGlue
import Idealize.ShloMosaic.PureOps.BitExact

noncomputable section

namespace Cert.Proof

open Idealize.ShloMosaic Idealize.SL.Sem

/-- Everything claimed. The word-level frame is the launch at machine floats; the region's side of the algebraic
    conjunct is the body's obligation at the blocks its runs leave, each block's element (r, j) being the aggregation
    at row 128 t + r, column j. -/
theorem claim : Cert.Claim :=
  Cert.Proof.Alg.claim_of
    (fun m ρ h => Cert.Kernel.Hand.frame_K (F := Bits) m ρ h)
    (fun m hpre => Cert.Proof.Alg.regionSide_of m
      (Cert.KernelIdeal.Hand.outBlkOf m (Cert.Proof.Alg.adm m) (Cert.Proof.Alg.inRange_adm m hpre))
      (Cert.KernelIdeal.Hand.body_obligation m (Cert.Proof.Alg.adm m) (Cert.Proof.Alg.inRange_adm m hpre))
      (fun c t y => Cert.KernelIdeal.Hand.outBlk_value m (Cert.Proof.Alg.adm m) (Cert.Proof.Alg.inRange_adm m hpre) c t y))

end Cert.Proof

end
